-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v256)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v256) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v283) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S20000 : Shape := ⟨1, ![20000]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x256 : Shape := ⟨2, ![256, 256]⟩
abbrev S256x10 : Shape := ⟨2, ![256, 10]⟩
abbrev S10 : Shape := ⟨1, ![10]⟩
abbrev S_ : Shape := ⟨0, ![]⟩
abbrev S1x320000 : Shape := ⟨2, ![1, 320000]⟩
abbrev S320000 : Shape := ⟨1, ![320000]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  reducesTo_S320000_S_d0 : S320000.ReducesTo [0] S_

variable [Facts]

def fn_part5 {F : FTy → Type} [FloatOps F] (main_arg1 : IVec S2x320000 32) (main_v83 : IVec S_ 1) (main_v85 : IVec S320000 32) : IVec S_ 1 :=
  let main_c_32 : IVec S_ 32 := constantI S_ 32 4294947296#32
  let main_v86 : IVec S320000 32 := broadcastInDim S320000 ![] bcast_S_S320000 main_c_32
  let main_v87 : IVec S320000 1 := cmpi .sge main_v85 main_v86
  let main_v88 : IVec S1x320000 32 := (extractStridedSlice S1x320000 ![0, 0] · slices_S2x320000_S1x320000_0_0) main_arg1
  let main_v89 : IVec S320000 32 := shapeCast S320000 main_v88 shapeCasts_S1x320000_S320000
  let main_c_33 : IVec S_ 32 := constantI S_ 32 20000#32
  let main_v90 : IVec S320000 32 := broadcastInDim S320000 ![] bcast_S_S320000 main_c_33
  let main_v91 : IVec S320000 1 := cmpi .slt main_v89 main_v90
  let main_v92 : IVec S320000 1 := andi main_v87 main_v91
  let main_c_34 : IVec S_ 1 := constantI S_ 1 1#1
  let main_v93 : IVec S_ 1 := (fun x v => Host.reduce IntOp.andi x v reducesTo_S320000_S_d0 h_S_) main_v92 main_c_34
  let main_v94 : IVec S_ 1 := andi main_v83 main_v93
  main_v94

def fn_part4 {F : FTy → Type} [FloatOps F] (main_arg1 : IVec S2x320000 32) (main_arg16 : FVec F S256 .f32) (main_arg17 : FVec F S256x10 .f32) (main_arg18 : FVec F S10 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x10 .f32 := Host.absf main_arg17
  let main_cst_28 : FVec F S_ .f32 := constant S_ .f32 0x7F800000#32
  let main_v75 : FVec F S256x10 .f32 := broadcastInDim S256x10 ![] bcast_S_S256x10 main_cst_28
  let main_v76 : IVec S256x10 1 := cmpf .olt main_v74 main_v75
  let main_c_29 : IVec S_ 1 := constantI S_ 1 1#1
  let main_v77 : IVec S_ 1 := (fun x v => Host.reduce IntOp.andi x v reducesTo_S256x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : IVec S1x320000 32 := (extractStridedSlice S1x320000 ![0, 0] · slices_S2x320000_S1x320000_0_0) main_arg1
  let main_v85 : IVec S320000 32 := shapeCast S320000 main_v84 shapeCasts_S1x320000_S320000
  fn_part5 (F := F) main_arg1 main_v83 main_v85

def fn_part3 {F : FTy → Type} [FloatOps F] (main_arg1 : IVec S2x320000 32) (main_arg13 : FVec F S256x256 .f32) (main_arg14 : FVec F S256 .f32) (main_arg15 : FVec F S256 .f32) (main_arg16 : FVec F S256 .f32) (main_arg17 : FVec F S256x10 .f32) (main_arg18 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg16 main_arg17 main_arg18 main_v63 main_v67

def fn_part2 {F : FTy → Type} [FloatOps F] (main_arg1 : IVec S2x320000 32) (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S256x10 .f32) (main_arg18 : FVec F S10 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg1 main_arg13 main_arg14 main_arg15 main_arg16 main_arg17 main_arg18 main_v48 main_v49 main_v50

def fn_part1 {F : FTy → Type} [FloatOps F] (main_arg1 : IVec S2x320000 32) (main_arg6 : FVec F S4x256 .f32) (main_arg7 : FVec F S4x256 .f32) (main_arg8 : FVec F S4x256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S256x10 .f32) (main_arg18 : FVec F S10 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg6
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256 .f32 := Host.absf main_arg7
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256 .f32 := Host.absf main_arg8
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_v33

def fn {F : FTy → Type} [FloatOps F] (main_arg0 : FVec F S20000x128 .f32) (main_arg1 : IVec S2x320000 32) (main_arg2 : IVec S20000 32) (main_arg3 : FVec F S128x256 .f32) (main_arg4 : FVec F S256 .f32) (main_arg5 : FVec F S4x256x256 .f32) (main_arg6 : FVec F S4x256 .f32) (main_arg7 : FVec F S4x256 .f32) (main_arg8 : FVec F S4x256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S256x10 .f32) (main_arg18 : FVec F S10 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4x256x256 .f32 := Host.absf main_arg5
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg1 main_arg6 main_arg7 main_arg8 main_arg9 main_arg10 main_arg11 main_arg12 main_arg13 main_arg14 main_arg15 main_arg16 main_arg17 main_arg18 main_v13 main_v16
-- ==== Kernel.lean ====
abbrev S20000x128 : Shape := ⟨2, ![20000, 128]⟩
abbrev S2x320000 : Shape := ⟨2, ![2, 320000]⟩
abbrev S20000 : Shape := ⟨1, ![20000]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x256 : Shape := ⟨2, ![256, 256]⟩
abbrev S256x10 : Shape := ⟨2, ![256, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S20000x1 : Shape := ⟨2, ![20000, 1]⟩
abbrev S1x256 : Shape := ⟨2, ![1, 256]⟩
abbrev S20000x256 : Shape := ⟨2, ![20000, 256]⟩
abbrev S2000x128 : Shape := ⟨2, ![2000, 128]⟩
abbrev S2000x256 : Shape := ⟨2, ![2000, 256]⟩
abbrev S1x256x256 : Shape := ⟨3, ![1, 256, 256]⟩
abbrev S1 : Shape := ⟨1, ![1]⟩
abbrev S1x1 : Shape := ⟨2, ![1, 1]⟩
abbrev S320000x256 : Shape := ⟨2, ![320000, 256]⟩
abbrev S128 : Shape := ⟨1, ![128]⟩
abbrev S128x1 : Shape := ⟨2, ![128, 1]⟩
abbrev S1x10 : Shape := ⟨2, ![1, 10]⟩
abbrev S128x10 : Shape := ⟨2, ![128, 10]⟩

abbrev nBuf : Space → Nat
  | .hbm => 540
  | .vmem => 42
  | .smem => 0
  | _ => 0

abbrev hbmTy0_0 (i : Nat) : BufTy := match i % 128 with
  | 0 => ⟨S20000x128, .f32⟩
  | 1 => ⟨S2x320000, .i32⟩
  | 2 => ⟨S20000, .i32⟩
  | 3 => ⟨S128x256, .f32⟩
  | 4 => ⟨S256, .f32⟩
  | 5 => ⟨S4x256x256, .f32⟩
  | 6 => ⟨S4x256, .f32⟩
  | 7 => ⟨S4x256, .f32⟩
  | 8 => ⟨S4x256, .f32⟩
  | 9 => ⟨S256x256, .f32⟩
  | 10 => ⟨S256, .f32⟩
  | 11 => ⟨S256, .f32⟩
  | 12 => ⟨S256, .f32⟩
  | 13 => ⟨S256x256, .f32⟩
  | 14 => ⟨S256, .f32⟩
  | 15 => ⟨S256, .f32⟩
  | 16 => ⟨S256, .f32⟩
  | 17 => ⟨S256x10, .f32⟩
  | 18 => ⟨S10, .f32⟩
  | 19 => ⟨S1x320000, .i32⟩
  | 20 => ⟨S320000, .i32⟩
  | 21 => ⟨S1x320000, .i32⟩
  | 22 => ⟨S320000, .i32⟩
  | 23 => ⟨S_, .f32⟩
  | 24 => ⟨S320000, .f32⟩
  | 25 => ⟨S_, .f32⟩
  | 26 => ⟨S20000, .f32⟩
  | 27 => ⟨S320000x1, .i32⟩
  | 28 => ⟨S20000, .f32⟩
  | 29 => ⟨S_, .f32⟩
  | 30 => ⟨S20000, .f32⟩
  | 31 => ⟨S20000, .f32⟩
  | 32 => ⟨S20000, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000, .f32⟩
  | 51 => ⟨S320000, .f32⟩
  | 52 => ⟨S320000x1, .f32⟩
  | 53 => ⟨S20000, .f32⟩
  | 54 => ⟨S20000x1, .f32⟩
  | 55 => ⟨S1x256, .f32⟩
  | 56 => ⟨S20000x256, .f32⟩
  | 57 => ⟨S_, .f32⟩
  | 58 => ⟨S256, .f32⟩
  | 59 => ⟨S1x256x256, .f32⟩
  | 60 => ⟨S256x256, .f32⟩
  | 61 => ⟨S1x256, .f32⟩
  | 62 => ⟨S20000x256, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S1, .i32⟩
  | 72 => ⟨S_, .i32⟩
  | 73 => ⟨S320000x1, .i32⟩
  | 74 => ⟨S320000x1, .i1⟩
  | 75 => ⟨S1x1, .i32⟩
  | 76 => ⟨S320000x1, .i32⟩
  | 77 => ⟨S320000x1, .i1⟩
  | 78 => ⟨S320000x1, .i1⟩
  | 79 => ⟨S_, .i1⟩
  | 80 => ⟨S320000, .i1⟩
  | 81 => ⟨S320000x256, .f32⟩
  | 82 => ⟨S320000x256, .i1⟩
  | 83 => ⟨S_, .f32⟩
  | 84 => ⟨S320000x256, .f32⟩
  | 85 => ⟨S320000x256, .f32⟩
  | 86 => ⟨S320000x256, .f32⟩
  | 87 => ⟨S320000x256, .f32⟩
  | 88 => ⟨S_, .f32⟩
  | 89 => ⟨S20000x256, .f32⟩
  | 90 => ⟨S320000x1, .i32⟩
  | 91 => ⟨S20000x256, .f32⟩
  | 92 => ⟨S20000x256, .f32⟩
  | 93 => ⟨S20000x256, .f32⟩
  | 94 => ⟨S20000x256, .f32⟩
  | 95 => ⟨S1x256, .f32⟩
  | 96 => ⟨S256, .f32⟩
  | 97 => ⟨S1x256, .f32⟩
  | 98 => ⟨S20000x256, .f32⟩
  | 99 => ⟨S20000x256, .f32⟩
  | 100 => ⟨S1x256, .f32⟩
  | 101 => ⟨S256, .f32⟩
  | 102 => ⟨S1x256, .f32⟩
  | 103 => ⟨S256, .f32⟩
  | 104 => ⟨S_, .f32⟩
  | 105 => ⟨S256, .f32⟩
  | 106 => ⟨S_, .f32⟩
  | 107 => ⟨S256, .f32⟩
  | 108 => ⟨S256, .f32⟩
  | 109 => ⟨S_, .i32⟩
  | 110 => ⟨S_, .f32⟩
  | 111 => ⟨S256, .f32⟩
  | 112 => ⟨S1x256, .f32⟩
  | 113 => ⟨S_, .f32⟩
  | 114 => ⟨S1x256, .f32⟩
  | 115 => ⟨S1x256, .f32⟩
  | 116 => ⟨S20000x256, .f32⟩
  | 117 => ⟨S20000x256, .f32⟩
  | 118 => ⟨S20000x256, .f32⟩
  | 119 => ⟨S_, .f32⟩
  | 120 => ⟨S_, .f32⟩
  | 121 => ⟨S_, .f32⟩
  | 122 => ⟨S_, .f32⟩
  | 123 => ⟨S256, .f32⟩
  | 124 => ⟨S256, .f32⟩
  | 125 => ⟨S256, .f32⟩
  | 126 => ⟨S_, .f32⟩
  | 127 => ⟨S_, .i1⟩
  | _ => ⟨S20000x128, .f32⟩

abbrev hbmTy0_1 (i : Nat) : BufTy := match i % 128 with
  | 0 => ⟨S_, .f32⟩
  | 1 => ⟨S_, .f32⟩
  | 2 => ⟨S256, .f32⟩
  | 3 => ⟨S256, .f32⟩
  | 4 => ⟨S1x256, .f32⟩
  | 5 => ⟨S20000x256, .f32⟩
  | 6 => ⟨S20000x256, .f32⟩
  | 7 => ⟨S1x256, .f32⟩
  | 8 => ⟨S20000x256, .f32⟩
  | 9 => ⟨S20000x256, .f32⟩
  | 10 => ⟨S_, .f32⟩
  | 11 => ⟨S256, .f32⟩
  | 12 => ⟨S256, .f32⟩
  | 13 => ⟨S256, .f32⟩
  | 14 => ⟨S1x256, .f32⟩
  | 15 => ⟨S20000x256, .f32⟩
  | 16 => ⟨S20000x256, .f32⟩
  | 17 => ⟨S1x256, .f32⟩
  | 18 => ⟨S20000x256, .f32⟩
  | 19 => ⟨S20000x256, .f32⟩
  | 20 => ⟨S_, .f32⟩
  | 21 => ⟨S20000x256, .f32⟩
  | 22 => ⟨S20000x256, .f32⟩
  | 23 => ⟨S1x256x256, .f32⟩
  | 24 => ⟨S256x256, .f32⟩
  | 25 => ⟨S1x256, .f32⟩
  | 26 => ⟨S20000x256, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S1, .i32⟩
  | 36 => ⟨S_, .i32⟩
  | 37 => ⟨S320000x1, .i32⟩
  | 38 => ⟨S320000x1, .i1⟩
  | 39 => ⟨S1x1, .i32⟩
  | 40 => ⟨S320000x1, .i32⟩
  | 41 => ⟨S320000x1, .i1⟩
  | 42 => ⟨S320000x1, .i1⟩
  | 43 => ⟨S_, .i1⟩
  | 44 => ⟨S320000, .i1⟩
  | 45 => ⟨S320000x256, .f32⟩
  | 46 => ⟨S320000x256, .i1⟩
  | 47 => ⟨S_, .f32⟩
  | 48 => ⟨S320000x256, .f32⟩
  | 49 => ⟨S320000x256, .f32⟩
  | 50 => ⟨S320000x256, .f32⟩
  | 51 => ⟨S320000x256, .f32⟩
  | 52 => ⟨S_, .f32⟩
  | 53 => ⟨S20000x256, .f32⟩
  | 54 => ⟨S320000x1, .i32⟩
  | 55 => ⟨S20000x256, .f32⟩
  | 56 => ⟨S20000x256, .f32⟩
  | 57 => ⟨S20000x256, .f32⟩
  | 58 => ⟨S20000x256, .f32⟩
  | 59 => ⟨S1x256, .f32⟩
  | 60 => ⟨S256, .f32⟩
  | 61 => ⟨S1x256, .f32⟩
  | 62 => ⟨S20000x256, .f32⟩
  | 63 => ⟨S20000x256, .f32⟩
  | 64 => ⟨S1x256, .f32⟩
  | 65 => ⟨S256, .f32⟩
  | 66 => ⟨S1x256, .f32⟩
  | 67 => ⟨S256, .f32⟩
  | 68 => ⟨S_, .f32⟩
  | 69 => ⟨S256, .f32⟩
  | 70 => ⟨S_, .f32⟩
  | 71 => ⟨S256, .f32⟩
  | 72 => ⟨S256, .f32⟩
  | 73 => ⟨S_, .i32⟩
  | 74 => ⟨S_, .f32⟩
  | 75 => ⟨S256, .f32⟩
  | 76 => ⟨S1x256, .f32⟩
  | 77 => ⟨S_, .f32⟩
  | 78 => ⟨S1x256, .f32⟩
  | 79 => ⟨S1x256, .f32⟩
  | 80 => ⟨S20000x256, .f32⟩
  | 81 => ⟨S20000x256, .f32⟩
  | 82 => ⟨S20000x256, .f32⟩
  | 83 => ⟨S_, .f32⟩
  | 84 => ⟨S_, .f32⟩
  | 85 => ⟨S_, .f32⟩
  | 86 => ⟨S_, .f32⟩
  | 87 => ⟨S256, .f32⟩
  | 88 => ⟨S256, .f32⟩
  | 89 => ⟨S256, .f32⟩
  | 90 => ⟨S_, .f32⟩
  | 91 => ⟨S_, .i1⟩
  | 92 => ⟨S_, .f32⟩
  | 93 => ⟨S_, .f32⟩
  | 94 => ⟨S256, .f32⟩
  | 95 => ⟨S256, .f32⟩
  | 96 => ⟨S1x256, .f32⟩
  | 97 => ⟨S20000x256, .f32⟩
  | 98 => ⟨S20000x256, .f32⟩
  | 99 => ⟨S1x256, .f32⟩
  | 100 => ⟨S20000x256, .f32⟩
  | 101 => ⟨S20000x256, .f32⟩
  | 102 => ⟨S_, .f32⟩
  | 103 => ⟨S256, .f32⟩
  | 104 => ⟨S256, .f32⟩
  | 105 => ⟨S256, .f32⟩
  | 106 => ⟨S1x256, .f32⟩
  | 107 => ⟨S20000x256, .f32⟩
  | 108 => ⟨S20000x256, .f32⟩
  | 109 => ⟨S1x256, .f32⟩
  | 110 => ⟨S20000x256, .f32⟩
  | 111 => ⟨S20000x256, .f32⟩
  | 112 => ⟨S_, .f32⟩
  | 113 => ⟨S20000x256, .f32⟩
  | 114 => ⟨S20000x256, .f32⟩
  | 115 => ⟨S1x256x256, .f32⟩
  | 116 => ⟨S256x256, .f32⟩
  | 117 => ⟨S1x256, .f32⟩
  | 118 => ⟨S20000x256, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S1, .i32⟩
  | _ => ⟨S20000x128, .f32⟩

abbrev hbmTy0_2 (i : Nat) : BufTy := match i % 128 with
  | 0 => ⟨S_, .i32⟩
  | 1 => ⟨S320000x1, .i32⟩
  | 2 => ⟨S320000x1, .i1⟩
  | 3 => ⟨S1x1, .i32⟩
  | 4 => ⟨S320000x1, .i32⟩
  | 5 => ⟨S320000x1, .i1⟩
  | 6 => ⟨S320000x1, .i1⟩
  | 7 => ⟨S_, .i1⟩
  | 8 => ⟨S320000, .i1⟩
  | 9 => ⟨S320000x256, .f32⟩
  | 10 => ⟨S320000x256, .i1⟩
  | 11 => ⟨S_, .f32⟩
  | 12 => ⟨S320000x256, .f32⟩
  | 13 => ⟨S320000x256, .f32⟩
  | 14 => ⟨S320000x256, .f32⟩
  | 15 => ⟨S320000x256, .f32⟩
  | 16 => ⟨S_, .f32⟩
  | 17 => ⟨S20000x256, .f32⟩
  | 18 => ⟨S320000x1, .i32⟩
  | 19 => ⟨S20000x256, .f32⟩
  | 20 => ⟨S20000x256, .f32⟩
  | 21 => ⟨S20000x256, .f32⟩
  | 22 => ⟨S20000x256, .f32⟩
  | 23 => ⟨S1x256, .f32⟩
  | 24 => ⟨S256, .f32⟩
  | 25 => ⟨S1x256, .f32⟩
  | 26 => ⟨S20000x256, .f32⟩
  | 27 => ⟨S20000x256, .f32⟩
  | 28 => ⟨S1x256, .f32⟩
  | 29 => ⟨S256, .f32⟩
  | 30 => ⟨S1x256, .f32⟩
  | 31 => ⟨S256, .f32⟩
  | 32 => ⟨S_, .f32⟩
  | 33 => ⟨S256, .f32⟩
  | 34 => ⟨S_, .f32⟩
  | 35 => ⟨S256, .f32⟩
  | 36 => ⟨S256, .f32⟩
  | 37 => ⟨S_, .i32⟩
  | 38 => ⟨S_, .f32⟩
  | 39 => ⟨S256, .f32⟩
  | 40 => ⟨S1x256, .f32⟩
  | 41 => ⟨S_, .f32⟩
  | 42 => ⟨S1x256, .f32⟩
  | 43 => ⟨S1x256, .f32⟩
  | 44 => ⟨S20000x256, .f32⟩
  | 45 => ⟨S20000x256, .f32⟩
  | 46 => ⟨S20000x256, .f32⟩
  | 47 => ⟨S_, .f32⟩
  | 48 => ⟨S_, .f32⟩
  | 49 => ⟨S_, .f32⟩
  | 50 => ⟨S_, .f32⟩
  | 51 => ⟨S256, .f32⟩
  | 52 => ⟨S256, .f32⟩
  | 53 => ⟨S256, .f32⟩
  | 54 => ⟨S_, .f32⟩
  | 55 => ⟨S_, .i1⟩
  | 56 => ⟨S_, .f32⟩
  | 57 => ⟨S_, .f32⟩
  | 58 => ⟨S256, .f32⟩
  | 59 => ⟨S256, .f32⟩
  | 60 => ⟨S1x256, .f32⟩
  | 61 => ⟨S20000x256, .f32⟩
  | 62 => ⟨S20000x256, .f32⟩
  | 63 => ⟨S1x256, .f32⟩
  | 64 => ⟨S20000x256, .f32⟩
  | 65 => ⟨S20000x256, .f32⟩
  | 66 => ⟨S_, .f32⟩
  | 67 => ⟨S256, .f32⟩
  | 68 => ⟨S256, .f32⟩
  | 69 => ⟨S256, .f32⟩
  | 70 => ⟨S1x256, .f32⟩
  | 71 => ⟨S20000x256, .f32⟩
  | 72 => ⟨S20000x256, .f32⟩
  | 73 => ⟨S1x256, .f32⟩
  | 74 => ⟨S20000x256, .f32⟩
  | 75 => ⟨S20000x256, .f32⟩
  | 76 => ⟨S_, .f32⟩
  | 77 => ⟨S20000x256, .f32⟩
  | 78 => ⟨S20000x256, .f32⟩
  | 79 => ⟨S1x256x256, .f32⟩
  | 80 => ⟨S256x256, .f32⟩
  | 81 => ⟨S1x256, .f32⟩
  | 82 => ⟨S20000x256, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S1, .i32⟩
  | 92 => ⟨S_, .i32⟩
  | 93 => ⟨S320000x1, .i32⟩
  | 94 => ⟨S320000x1, .i1⟩
  | 95 => ⟨S1x1, .i32⟩
  | 96 => ⟨S320000x1, .i32⟩
  | 97 => ⟨S320000x1, .i1⟩
  | 98 => ⟨S320000x1, .i1⟩
  | 99 => ⟨S_, .i1⟩
  | 100 => ⟨S320000, .i1⟩
  | 101 => ⟨S320000x256, .f32⟩
  | 102 => ⟨S320000x256, .i1⟩
  | 103 => ⟨S_, .f32⟩
  | 104 => ⟨S320000x256, .f32⟩
  | 105 => ⟨S320000x256, .f32⟩
  | 106 => ⟨S320000x256, .f32⟩
  | 107 => ⟨S320000x256, .f32⟩
  | 108 => ⟨S_, .f32⟩
  | 109 => ⟨S20000x256, .f32⟩
  | 110 => ⟨S320000x1, .i32⟩
  | 111 => ⟨S20000x256, .f32⟩
  | 112 => ⟨S20000x256, .f32⟩
  | 113 => ⟨S20000x256, .f32⟩
  | 114 => ⟨S20000x256, .f32⟩
  | 115 => ⟨S1x256, .f32⟩
  | 116 => ⟨S256, .f32⟩
  | 117 => ⟨S1x256, .f32⟩
  | 118 => ⟨S20000x256, .f32⟩
  | 119 => ⟨S20000x256, .f32⟩
  | 120 => ⟨S1x256, .f32⟩
  | 121 => ⟨S256, .f32⟩
  | 122 => ⟨S1x256, .f32⟩
  | 123 => ⟨S256, .f32⟩
  | 124 => ⟨S_, .f32⟩
  | 125 => ⟨S256, .f32⟩
  | 126 => ⟨S_, .f32⟩
  | 127 => ⟨S256, .f32⟩
  | _ => ⟨S20000x128, .f32⟩

abbrev hbmTy0_3 (i : Nat) : BufTy := match i % 128 with
  | 0 => ⟨S256, .f32⟩
  | 1 => ⟨S_, .i32⟩
  | 2 => ⟨S_, .f32⟩
  | 3 => ⟨S256, .f32⟩
  | 4 => ⟨S1x256, .f32⟩
  | 5 => ⟨S_, .f32⟩
  | 6 => ⟨S1x256, .f32⟩
  | 7 => ⟨S1x256, .f32⟩
  | 8 => ⟨S20000x256, .f32⟩
  | 9 => ⟨S20000x256, .f32⟩
  | 10 => ⟨S20000x256, .f32⟩
  | 11 => ⟨S_, .f32⟩
  | 12 => ⟨S_, .f32⟩
  | 13 => ⟨S_, .f32⟩
  | 14 => ⟨S_, .f32⟩
  | 15 => ⟨S256, .f32⟩
  | 16 => ⟨S256, .f32⟩
  | 17 => ⟨S256, .f32⟩
  | 18 => ⟨S_, .f32⟩
  | 19 => ⟨S_, .i1⟩
  | 20 => ⟨S_, .f32⟩
  | 21 => ⟨S_, .f32⟩
  | 22 => ⟨S256, .f32⟩
  | 23 => ⟨S256, .f32⟩
  | 24 => ⟨S1x256, .f32⟩
  | 25 => ⟨S20000x256, .f32⟩
  | 26 => ⟨S20000x256, .f32⟩
  | 27 => ⟨S1x256, .f32⟩
  | 28 => ⟨S20000x256, .f32⟩
  | 29 => ⟨S20000x256, .f32⟩
  | 30 => ⟨S_, .f32⟩
  | 31 => ⟨S256, .f32⟩
  | 32 => ⟨S256, .f32⟩
  | 33 => ⟨S256, .f32⟩
  | 34 => ⟨S1x256, .f32⟩
  | 35 => ⟨S20000x256, .f32⟩
  | 36 => ⟨S20000x256, .f32⟩
  | 37 => ⟨S1x256, .f32⟩
  | 38 => ⟨S20000x256, .f32⟩
  | 39 => ⟨S20000x256, .f32⟩
  | 40 => ⟨S_, .f32⟩
  | 41 => ⟨S20000x256, .f32⟩
  | 42 => ⟨S20000x256, .f32⟩
  | 43 => ⟨S_, .f32⟩
  | 44 => ⟨S128x256, .f32⟩
  | 45 => ⟨S20000x1, .i32⟩
  | 46 => ⟨S128x256, .f32⟩
  | 47 => ⟨S_, .f32⟩
  | 48 => ⟨S20000, .f32⟩
  | 49 => ⟨S_, .f32⟩
  | 50 => ⟨S128, .f32⟩
  | 51 => ⟨S20000x1, .i32⟩
  | 52 => ⟨S128, .f32⟩
  | 53 => ⟨S_, .f32⟩
  | 54 => ⟨S128, .f32⟩
  | 55 => ⟨S128, .f32⟩
  | 56 => ⟨S128x1, .f32⟩
  | 57 => ⟨S128x256, .f32⟩
  | 58 => ⟨S128x256, .f32⟩
  | 59 => ⟨S1x256, .f32⟩
  | 60 => ⟨S128x256, .f32⟩
  | 61 => ⟨S_, .f32⟩
  | 62 => ⟨S256, .f32⟩
  | 63 => ⟨S_, .f32⟩
  | 64 => ⟨S256, .f32⟩
  | 65 => ⟨S256, .f32⟩
  | 66 => ⟨S_, .i32⟩
  | 67 => ⟨S_, .f32⟩
  | 68 => ⟨S256, .f32⟩
  | 69 => ⟨S1x256, .f32⟩
  | 70 => ⟨S_, .f32⟩
  | 71 => ⟨S1x256, .f32⟩
  | 72 => ⟨S1x256, .f32⟩
  | 73 => ⟨S128x256, .f32⟩
  | 74 => ⟨S128x256, .f32⟩
  | 75 => ⟨S128x256, .f32⟩
  | 76 => ⟨S_, .f32⟩
  | 77 => ⟨S_, .f32⟩
  | 78 => ⟨S_, .f32⟩
  | 79 => ⟨S_, .f32⟩
  | 80 => ⟨S256, .f32⟩
  | 81 => ⟨S256, .f32⟩
  | 82 => ⟨S256, .f32⟩
  | 83 => ⟨S_, .f32⟩
  | 84 => ⟨S_, .i1⟩
  | 85 => ⟨S_, .f32⟩
  | 86 => ⟨S_, .f32⟩
  | 87 => ⟨S256, .f32⟩
  | 88 => ⟨S256, .f32⟩
  | 89 => ⟨S1x256, .f32⟩
  | 90 => ⟨S128x256, .f32⟩
  | 91 => ⟨S128x256, .f32⟩
  | 92 => ⟨S1x256, .f32⟩
  | 93 => ⟨S128x256, .f32⟩
  | 94 => ⟨S128x256, .f32⟩
  | 95 => ⟨S_, .f32⟩
  | 96 => ⟨S256, .f32⟩
  | 97 => ⟨S256, .f32⟩
  | 98 => ⟨S256, .f32⟩
  | 99 => ⟨S1x256, .f32⟩
  | 100 => ⟨S128x256, .f32⟩
  | 101 => ⟨S128x256, .f32⟩
  | 102 => ⟨S1x256, .f32⟩
  | 103 => ⟨S128x256, .f32⟩
  | 104 => ⟨S128x256, .f32⟩
  | 105 => ⟨S_, .f32⟩
  | 106 => ⟨S128x256, .f32⟩
  | 107 => ⟨S128x256, .f32⟩
  | 108 => ⟨S1x256, .f32⟩
  | 109 => ⟨S128x256, .f32⟩
  | 110 => ⟨S_, .f32⟩
  | 111 => ⟨S256, .f32⟩
  | 112 => ⟨S_, .f32⟩
  | 113 => ⟨S256, .f32⟩
  | 114 => ⟨S256, .f32⟩
  | 115 => ⟨S_, .i32⟩
  | 116 => ⟨S_, .f32⟩
  | 117 => ⟨S256, .f32⟩
  | 118 => ⟨S1x256, .f32⟩
  | 119 => ⟨S_, .f32⟩
  | 120 => ⟨S1x256, .f32⟩
  | 121 => ⟨S1x256, .f32⟩
  | 122 => ⟨S128x256, .f32⟩
  | 123 => ⟨S128x256, .f32⟩
  | 124 => ⟨S128x256, .f32⟩
  | 125 => ⟨S_, .f32⟩
  | 126 => ⟨S_, .f32⟩
  | 127 => ⟨S_, .f32⟩
  | _ => ⟨S20000x128, .f32⟩

abbrev hbmTy0_4 (i : Nat) : BufTy := match i % 128 with
  | 0 => ⟨S_, .f32⟩
  | 1 => ⟨S256, .f32⟩
  | 2 => ⟨S256, .f32⟩
  | 3 => ⟨S256, .f32⟩
  | 4 => ⟨S_, .f32⟩
  | 5 => ⟨S_, .i1⟩
  | 6 => ⟨S_, .f32⟩
  | 7 => ⟨S_, .f32⟩
  | 8 => ⟨S256, .f32⟩
  | 9 => ⟨S256, .f32⟩
  | 10 => ⟨S1x256, .f32⟩
  | 11 => ⟨S128x256, .f32⟩
  | 12 => ⟨S128x256, .f32⟩
  | 13 => ⟨S1x256, .f32⟩
  | 14 => ⟨S128x256, .f32⟩
  | 15 => ⟨S128x256, .f32⟩
  | 16 => ⟨S_, .f32⟩
  | 17 => ⟨S256, .f32⟩
  | 18 => ⟨S256, .f32⟩
  | 19 => ⟨S256, .f32⟩
  | 20 => ⟨S1x256, .f32⟩
  | 21 => ⟨S128x256, .f32⟩
  | 22 => ⟨S128x256, .f32⟩
  | 23 => ⟨S1x256, .f32⟩
  | 24 => ⟨S128x256, .f32⟩
  | 25 => ⟨S128x256, .f32⟩
  | 26 => ⟨S1x10, .f32⟩
  | 27 => ⟨S128x10, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S128x256, .f32⟩
  | .local _ .vmem, ⟨31, _⟩ => ⟨S256x256, .f32⟩
  | .local _ .vmem, ⟨32, _⟩ => ⟨S1x256, .f32⟩
  | .local _ .vmem, ⟨33, _⟩ => ⟨S128x256, .f32⟩
  | .local _ .vmem, ⟨34, _⟩ => ⟨S128x256, .f32⟩
  | .local _ .vmem, ⟨35, _⟩ => ⟨S256x256, .f32⟩
  | .local _ .vmem, ⟨36, _⟩ => ⟨S1x256, .f32⟩
  | .local _ .vmem, ⟨37, _⟩ => ⟨S128x256, .f32⟩
  | .local _ .vmem, ⟨38, _⟩ => ⟨S128x256, .f32⟩
  | .local _ .vmem, ⟨39, _⟩ => ⟨S256x10, .f32⟩
  | .local _ .vmem, ⟨40, _⟩ => ⟨S1x10, .f32⟩
  | .local _ .vmem, ⟨41, _⟩ => ⟨S128x10, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_call0_c : Ref sig .tc := ⟨.hbm, 63, rfl⟩
abbrev main_call0_v0 : Ref sig .tc := ⟨.hbm, 64, rfl⟩
abbrev main_call0_v1 : Ref sig .tc := ⟨.hbm, 65, rfl⟩
abbrev main_call0_c_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_c_1 : Ref sig .tc := ⟨.hbm, 71, rfl⟩
abbrev main_call0_c_2 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_c_3 : Ref sig .tc := ⟨.hbm, 79, rfl⟩
abbrev main_call0_v12 : Ref sig .tc := ⟨.hbm, 80, rfl⟩
abbrev main_call0_v13 : Ref sig .tc := ⟨.hbm, 81, rfl⟩
abbrev main_call0_v14 : Ref sig .tc := ⟨.hbm, 82, rfl⟩
abbrev main_call0_cst : Ref sig .tc := ⟨.hbm, 83, rfl⟩
abbrev main_call0_v15 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_6 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_7 : Ref sig .tc := ⟨.hbm, 104, rfl⟩
abbrev main_v54 : Ref sig .tc := ⟨.hbm, 105, rfl⟩
abbrev main_cst_8 : Ref sig .tc := ⟨.hbm, 106, rfl⟩
abbrev main_v55 : Ref sig .tc := ⟨.hbm, 107, rfl⟩
abbrev main_v56 : Ref sig .tc := ⟨.hbm, 108, rfl⟩
abbrev main_c_9 : Ref sig .tc := ⟨.hbm, 109, rfl⟩
abbrev main_call1_cst : Ref sig .tc := ⟨.hbm, 110, rfl⟩
abbrev main_call1_v0 : Ref sig .tc := ⟨.hbm, 111, rfl⟩
abbrev main_call1_v1 : Ref sig .tc := ⟨.hbm, 112, rfl⟩
abbrev main_call1_cst_0 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_call1_v5 : Ref sig .tc := ⟨.hbm, 117, rfl⟩
abbrev main_call1_v6 : Ref sig .tc := ⟨.hbm, 118, rfl⟩
abbrev main_call1_v7 : Ref sig .tc := ⟨.hbm, 119, rfl⟩
abbrev main_call1_cst_1 : Ref sig .tc := ⟨.hbm, 120, rfl⟩
abbrev main_call1_v8 : Ref sig .tc := ⟨.hbm, 121, rfl⟩
abbrev main_call1_cst_2 : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_call1_cst_3 : Ref sig .tc := ⟨.hbm, 126, rfl⟩
abbrev main_call1_v12 : Ref sig .tc := ⟨.hbm, 127, rfl⟩
abbrev main_call1_cst_4 : Ref sig .tc := ⟨.hbm, 128, rfl⟩
abbrev main_call1_call0_v0 : Ref sig .tc := ⟨.hbm, 129, rfl⟩
abbrev main_call1_call0_v1 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_cst_10 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_call2_cst : Ref sig .tc := ⟨.hbm, 148, rfl⟩
abbrev main_call2_v0 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_call3_c : Ref sig .tc := ⟨.hbm, 155, rfl⟩
abbrev main_call3_v0 : Ref sig .tc := ⟨.hbm, 156, rfl⟩
abbrev main_call3_v1 : Ref sig .tc := ⟨.hbm, 157, rfl⟩
abbrev main_call3_c_0 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_v5 : Ref sig .tc := ⟨.hbm, 162, rfl⟩
abbrev main_call3_c_1 : Ref sig .tc := ⟨.hbm, 163, rfl⟩
abbrev main_call3_c_2 : Ref sig .tc := ⟨.hbm, 164, rfl⟩
abbrev main_call3_v6 : Ref sig .tc := ⟨.hbm, 165, rfl⟩
abbrev main_call3_v7 : Ref sig .tc := ⟨.hbm, 166, rfl⟩
abbrev main_call3_v8 : Ref sig .tc := ⟨.hbm, 167, rfl⟩
abbrev main_call3_v9 : Ref sig .tc := ⟨.hbm, 168, rfl⟩
abbrev main_call3_v10 : Ref sig .tc := ⟨.hbm, 169, rfl⟩
abbrev main_call3_v11 : Ref sig .tc := ⟨.hbm, 170, rfl⟩
abbrev main_call3_c_3 : Ref sig .tc := ⟨.hbm, 171, rfl⟩
abbrev main_call3_v12 : Ref sig .tc := ⟨.hbm, 172, rfl⟩
abbrev main_call3_v13 : Ref sig .tc := ⟨.hbm, 173, rfl⟩
abbrev main_call3_v14 : Ref sig .tc := ⟨.hbm, 174, rfl⟩
abbrev main_call3_cst : Ref sig .tc := ⟨.hbm, 175, rfl⟩
abbrev main_call3_v15 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_cst_11 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_cst_12 : Ref sig .tc := ⟨.hbm, 196, rfl⟩
abbrev main_v96 : Ref sig .tc := ⟨.hbm, 197, rfl⟩
abbrev main_cst_13 : Ref sig .tc := ⟨.hbm, 198, rfl⟩
abbrev main_v97 : Ref sig .tc := ⟨.hbm, 199, rfl⟩
abbrev main_v98 : Ref sig .tc := ⟨.hbm, 200, rfl⟩
abbrev main_c_14 : Ref sig .tc := ⟨.hbm, 201, rfl⟩
abbrev main_call4_cst : Ref sig .tc := ⟨.hbm, 202, rfl⟩
abbrev main_call4_v0 : Ref sig .tc := ⟨.hbm, 203, rfl⟩
abbrev main_call4_v1 : Ref sig .tc := ⟨.hbm, 204, rfl⟩
abbrev main_call4_cst_0 : Ref sig .tc := ⟨.hbm, 205, rfl⟩
abbrev main_call4_v2 : Ref sig .tc := ⟨.hbm, 206, rfl⟩
abbrev main_call4_v3 : Ref sig .tc := ⟨.hbm, 207, rfl⟩
abbrev main_call4_v4 : Ref sig .tc := ⟨.hbm, 208, rfl⟩
abbrev main_call4_v5 : Ref sig .tc := ⟨.hbm, 209, rfl⟩
abbrev main_call4_v6 : Ref sig .tc := ⟨.hbm, 210, rfl⟩
abbrev main_call4_v7 : Ref sig .tc := ⟨.hbm, 211, rfl⟩
abbrev main_call4_cst_1 : Ref sig .tc := ⟨.hbm, 212, rfl⟩
abbrev main_call4_v8 : Ref sig .tc := ⟨.hbm, 213, rfl⟩
abbrev main_call4_cst_2 : Ref sig .tc := ⟨.hbm, 214, rfl⟩
abbrev main_call4_v9 : Ref sig .tc := ⟨.hbm, 215, rfl⟩
abbrev main_call4_v10 : Ref sig .tc := ⟨.hbm, 216, rfl⟩
abbrev main_call4_v11 : Ref sig .tc := ⟨.hbm, 217, rfl⟩
abbrev main_call4_cst_3 : Ref sig .tc := ⟨.hbm, 218, rfl⟩
abbrev main_call4_v12 : Ref sig .tc := ⟨.hbm, 219, rfl⟩
abbrev main_call4_cst_4 : Ref sig .tc := ⟨.hbm, 220, rfl⟩
abbrev main_call4_call0_v0 : Ref sig .tc := ⟨.hbm, 221, rfl⟩
abbrev main_call4_call0_v1 : Ref sig .tc := ⟨.hbm, 222, rfl⟩
abbrev main_v99 : Ref sig .tc := ⟨.hbm, 223, rfl⟩
abbrev main_v100 : Ref sig .tc := ⟨.hbm, 224, rfl⟩
abbrev main_v101 : Ref sig .tc := ⟨.hbm, 225, rfl⟩
abbrev main_v102 : Ref sig .tc := ⟨.hbm, 226, rfl⟩
abbrev main_v103 : Ref sig .tc := ⟨.hbm, 227, rfl⟩
abbrev main_v104 : Ref sig .tc := ⟨.hbm, 228, rfl⟩
abbrev main_v105 : Ref sig .tc := ⟨.hbm, 229, rfl⟩
abbrev main_cst_15 : Ref sig .tc := ⟨.hbm, 230, rfl⟩
abbrev main_v106 : Ref sig .tc := ⟨.hbm, 231, rfl⟩
abbrev main_v107 : Ref sig .tc := ⟨.hbm, 232, rfl⟩
abbrev main_v108 : Ref sig .tc := ⟨.hbm, 233, rfl⟩
abbrev main_v109 : Ref sig .tc := ⟨.hbm, 234, rfl⟩
abbrev main_v110 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_v114 : Ref sig .tc := ⟨.hbm, 239, rfl⟩
abbrev main_call5_cst : Ref sig .tc := ⟨.hbm, 240, rfl⟩
abbrev main_call5_v0 : Ref sig .tc := ⟨.hbm, 241, rfl⟩
abbrev main_v115 : Ref sig .tc := ⟨.hbm, 242, rfl⟩
abbrev main_v116 : Ref sig .tc := ⟨.hbm, 243, rfl⟩
abbrev main_v117 : Ref sig .tc := ⟨.hbm, 244, rfl⟩
abbrev main_v118 : Ref sig .tc := ⟨.hbm, 245, rfl⟩
abbrev main_v119 : Ref sig .tc := ⟨.hbm, 246, rfl⟩
abbrev main_call6_c : Ref sig .tc := ⟨.hbm, 247, rfl⟩
abbrev main_call6_v0 : Ref sig .tc := ⟨.hbm, 248, rfl⟩
abbrev main_call6_v1 : Ref sig .tc := ⟨.hbm, 249, rfl⟩
abbrev main_call6_c_0 : Ref sig .tc := ⟨.hbm, 250, rfl⟩
abbrev main_call6_v2 : Ref sig .tc := ⟨.hbm, 251, rfl⟩
abbrev main_call6_v3 : Ref sig .tc := ⟨.hbm, 252, rfl⟩
abbrev main_call6_v4 : Ref sig .tc := ⟨.hbm, 253, rfl⟩
abbrev main_call6_v5 : Ref sig .tc := ⟨.hbm, 254, rfl⟩
abbrev main_call6_c_1 : Ref sig .tc := ⟨.hbm, 255, rfl⟩
abbrev main_call6_c_2 : Ref sig .tc := ⟨.hbm, 256, rfl⟩
abbrev main_call6_v6 : Ref sig .tc := ⟨.hbm, 257, rfl⟩
abbrev main_call6_v7 : Ref sig .tc := ⟨.hbm, 258, rfl⟩
abbrev main_call6_v8 : Ref sig .tc := ⟨.hbm, 259, rfl⟩
abbrev main_call6_v9 : Ref sig .tc := ⟨.hbm, 260, rfl⟩
abbrev main_call6_v10 : Ref sig .tc := ⟨.hbm, 261, rfl⟩
abbrev main_call6_v11 : Ref sig .tc := ⟨.hbm, 262, rfl⟩
abbrev main_call6_c_3 : Ref sig .tc := ⟨.hbm, 263, rfl⟩
abbrev main_call6_v12 : Ref sig .tc := ⟨.hbm, 264, rfl⟩
abbrev main_call6_v13 : Ref sig .tc := ⟨.hbm, 265, rfl⟩
abbrev main_call6_v14 : Ref sig .tc := ⟨.hbm, 266, rfl⟩
abbrev main_call6_cst : Ref sig .tc := ⟨.hbm, 267, rfl⟩
abbrev main_call6_v15 : Ref sig .tc := ⟨.hbm, 268, rfl⟩
abbrev main_v120 : Ref sig .tc := ⟨.hbm, 269, rfl⟩
abbrev main_v121 : Ref sig .tc := ⟨.hbm, 270, rfl⟩
abbrev main_v122 : Ref sig .tc := ⟨.hbm, 271, rfl⟩
abbrev main_cst_16 : Ref sig .tc := ⟨.hbm, 272, rfl⟩
abbrev main_v123 : Ref sig .tc := ⟨.hbm, 273, rfl⟩
abbrev main_v124 : Ref sig .tc := ⟨.hbm, 274, rfl⟩
abbrev main_v125 : Ref sig .tc := ⟨.hbm, 275, rfl⟩
abbrev main_v126 : Ref sig .tc := ⟨.hbm, 276, rfl⟩
abbrev main_v127 : Ref sig .tc := ⟨.hbm, 277, rfl⟩
abbrev main_v128 : Ref sig .tc := ⟨.hbm, 278, rfl⟩
abbrev main_v129 : Ref sig .tc := ⟨.hbm, 279, rfl⟩
abbrev main_v130 : Ref sig .tc := ⟨.hbm, 280, rfl⟩
abbrev main_v131 : Ref sig .tc := ⟨.hbm, 281, rfl⟩
abbrev main_v132 : Ref sig .tc := ⟨.hbm, 282, rfl⟩
abbrev main_v133 : Ref sig .tc := ⟨.hbm, 283, rfl⟩
abbrev main_v134 : Ref sig .tc := ⟨.hbm, 284, rfl⟩
abbrev main_v135 : Ref sig .tc := ⟨.hbm, 285, rfl⟩
abbrev main_v136 : Ref sig .tc := ⟨.hbm, 286, rfl⟩
abbrev main_v137 : Ref sig .tc := ⟨.hbm, 287, rfl⟩
abbrev main_cst_17 : Ref sig .tc := ⟨.hbm, 288, rfl⟩
abbrev main_v138 : Ref sig .tc := ⟨.hbm, 289, rfl⟩
abbrev main_cst_18 : Ref sig .tc := ⟨.hbm, 290, rfl⟩
abbrev main_v139 : Ref sig .tc := ⟨.hbm, 291, rfl⟩
abbrev main_v140 : Ref sig .tc := ⟨.hbm, 292, rfl⟩
abbrev main_c_19 : Ref sig .tc := ⟨.hbm, 293, rfl⟩
abbrev main_call7_cst : Ref sig .tc := ⟨.hbm, 294, rfl⟩
abbrev main_call7_v0 : Ref sig .tc := ⟨.hbm, 295, rfl⟩
abbrev main_call7_v1 : Ref sig .tc := ⟨.hbm, 296, rfl⟩
abbrev main_call7_cst_0 : Ref sig .tc := ⟨.hbm, 297, rfl⟩
abbrev main_call7_v2 : Ref sig .tc := ⟨.hbm, 298, rfl⟩
abbrev main_call7_v3 : Ref sig .tc := ⟨.hbm, 299, rfl⟩
abbrev main_call7_v4 : Ref sig .tc := ⟨.hbm, 300, rfl⟩
abbrev main_call7_v5 : Ref sig .tc := ⟨.hbm, 301, rfl⟩
abbrev main_call7_v6 : Ref sig .tc := ⟨.hbm, 302, rfl⟩
abbrev main_call7_v7 : Ref sig .tc := ⟨.hbm, 303, rfl⟩
abbrev main_call7_cst_1 : Ref sig .tc := ⟨.hbm, 304, rfl⟩
abbrev main_call7_v8 : Ref sig .tc := ⟨.hbm, 305, rfl⟩
abbrev main_call7_cst_2 : Ref sig .tc := ⟨.hbm, 306, rfl⟩
abbrev main_call7_v9 : Ref sig .tc := ⟨.hbm, 307, rfl⟩
abbrev main_call7_v10 : Ref sig .tc := ⟨.hbm, 308, rfl⟩
abbrev main_call7_v11 : Ref sig .tc := ⟨.hbm, 309, rfl⟩
abbrev main_call7_cst_3 : Ref sig .tc := ⟨.hbm, 310, rfl⟩
abbrev main_call7_v12 : Ref sig .tc := ⟨.hbm, 311, rfl⟩
abbrev main_call7_cst_4 : Ref sig .tc := ⟨.hbm, 312, rfl⟩
abbrev main_call7_call0_v0 : Ref sig .tc := ⟨.hbm, 313, rfl⟩
abbrev main_call7_call0_v1 : Ref sig .tc := ⟨.hbm, 314, rfl⟩
abbrev main_v141 : Ref sig .tc := ⟨.hbm, 315, rfl⟩
abbrev main_v142 : Ref sig .tc := ⟨.hbm, 316, rfl⟩
abbrev main_v143 : Ref sig .tc := ⟨.hbm, 317, rfl⟩
abbrev main_v144 : Ref sig .tc := ⟨.hbm, 318, rfl⟩
abbrev main_v145 : Ref sig .tc := ⟨.hbm, 319, rfl⟩
abbrev main_v146 : Ref sig .tc := ⟨.hbm, 320, rfl⟩
abbrev main_v147 : Ref sig .tc := ⟨.hbm, 321, rfl⟩
abbrev main_cst_20 : Ref sig .tc := ⟨.hbm, 322, rfl⟩
abbrev main_v148 : Ref sig .tc := ⟨.hbm, 323, rfl⟩
abbrev main_v149 : Ref sig .tc := ⟨.hbm, 324, rfl⟩
abbrev main_v150 : Ref sig .tc := ⟨.hbm, 325, rfl⟩
abbrev main_v151 : Ref sig .tc := ⟨.hbm, 326, rfl⟩
abbrev main_v152 : Ref sig .tc := ⟨.hbm, 327, rfl⟩
abbrev main_v153 : Ref sig .tc := ⟨.hbm, 328, rfl⟩
abbrev main_v154 : Ref sig .tc := ⟨.hbm, 329, rfl⟩
abbrev main_v155 : Ref sig .tc := ⟨.hbm, 330, rfl⟩
abbrev main_v156 : Ref sig .tc := ⟨.hbm, 331, rfl⟩
abbrev main_call8_cst : Ref sig .tc := ⟨.hbm, 332, rfl⟩
abbrev main_call8_v0 : Ref sig .tc := ⟨.hbm, 333, rfl⟩
abbrev main_v157 : Ref sig .tc := ⟨.hbm, 334, rfl⟩
abbrev main_v158 : Ref sig .tc := ⟨.hbm, 335, rfl⟩
abbrev main_v159 : Ref sig .tc := ⟨.hbm, 336, rfl⟩
abbrev main_v160 : Ref sig .tc := ⟨.hbm, 337, rfl⟩
abbrev main_v161 : Ref sig .tc := ⟨.hbm, 338, rfl⟩
abbrev main_call9_c : Ref sig .tc := ⟨.hbm, 339, rfl⟩
abbrev main_call9_v0 : Ref sig .tc := ⟨.hbm, 340, rfl⟩
abbrev main_call9_v1 : Ref sig .tc := ⟨.hbm, 341, rfl⟩
abbrev main_call9_c_0 : Ref sig .tc := ⟨.hbm, 342, rfl⟩
abbrev main_call9_v2 : Ref sig .tc := ⟨.hbm, 343, rfl⟩
abbrev main_call9_v3 : Ref sig .tc := ⟨.hbm, 344, rfl⟩
abbrev main_call9_v4 : Ref sig .tc := ⟨.hbm, 345, rfl⟩
abbrev main_call9_v5 : Ref sig .tc := ⟨.hbm, 346, rfl⟩
abbrev main_call9_c_1 : Ref sig .tc := ⟨.hbm, 347, rfl⟩
abbrev main_call9_c_2 : Ref sig .tc := ⟨.hbm, 348, rfl⟩
abbrev main_call9_v6 : Ref sig .tc := ⟨.hbm, 349, rfl⟩
abbrev main_call9_v7 : Ref sig .tc := ⟨.hbm, 350, rfl⟩
abbrev main_call9_v8 : Ref sig .tc := ⟨.hbm, 351, rfl⟩
abbrev main_call9_v9 : Ref sig .tc := ⟨.hbm, 352, rfl⟩
abbrev main_call9_v10 : Ref sig .tc := ⟨.hbm, 353, rfl⟩
abbrev main_call9_v11 : Ref sig .tc := ⟨.hbm, 354, rfl⟩
abbrev main_call9_c_3 : Ref sig .tc := ⟨.hbm, 355, rfl⟩
abbrev main_call9_v12 : Ref sig .tc := ⟨.hbm, 356, rfl⟩
abbrev main_call9_v13 : Ref sig .tc := ⟨.hbm, 357, rfl⟩
abbrev main_call9_v14 : Ref sig .tc := ⟨.hbm, 358, rfl⟩
abbrev main_call9_cst : Ref sig .tc := ⟨.hbm, 359, rfl⟩
abbrev main_call9_v15 : Ref sig .tc := ⟨.hbm, 360, rfl⟩
abbrev main_v162 : Ref sig .tc := ⟨.hbm, 361, rfl⟩
abbrev main_v163 : Ref sig .tc := ⟨.hbm, 362, rfl⟩
abbrev main_v164 : Ref sig .tc := ⟨.hbm, 363, rfl⟩
abbrev main_cst_21 : Ref sig .tc := ⟨.hbm, 364, rfl⟩
abbrev main_v165 : Ref sig .tc := ⟨.hbm, 365, rfl⟩
abbrev main_v166 : Ref sig .tc := ⟨.hbm, 366, rfl⟩
abbrev main_v167 : Ref sig .tc := ⟨.hbm, 367, rfl⟩
abbrev main_v168 : Ref sig .tc := ⟨.hbm, 368, rfl⟩
abbrev main_v169 : Ref sig .tc := ⟨.hbm, 369, rfl⟩
abbrev main_v170 : Ref sig .tc := ⟨.hbm, 370, rfl⟩
abbrev main_v171 : Ref sig .tc := ⟨.hbm, 371, rfl⟩
abbrev main_v172 : Ref sig .tc := ⟨.hbm, 372, rfl⟩
abbrev main_v173 : Ref sig .tc := ⟨.hbm, 373, rfl⟩
abbrev main_v174 : Ref sig .tc := ⟨.hbm, 374, rfl⟩
abbrev main_v175 : Ref sig .tc := ⟨.hbm, 375, rfl⟩
abbrev main_v176 : Ref sig .tc := ⟨.hbm, 376, rfl⟩
abbrev main_v177 : Ref sig .tc := ⟨.hbm, 377, rfl⟩
abbrev main_v178 : Ref sig .tc := ⟨.hbm, 378, rfl⟩
abbrev main_v179 : Ref sig .tc := ⟨.hbm, 379, rfl⟩
abbrev main_cst_22 : Ref sig .tc := ⟨.hbm, 380, rfl⟩
abbrev main_v180 : Ref sig .tc := ⟨.hbm, 381, rfl⟩
abbrev main_cst_23 : Ref sig .tc := ⟨.hbm, 382, rfl⟩
abbrev main_v181 : Ref sig .tc := ⟨.hbm, 383, rfl⟩
abbrev main_v182 : Ref sig .tc := ⟨.hbm, 384, rfl⟩
abbrev main_c_24 : Ref sig .tc := ⟨.hbm, 385, rfl⟩
abbrev main_call10_cst : Ref sig .tc := ⟨.hbm, 386, rfl⟩
abbrev main_call10_v0 : Ref sig .tc := ⟨.hbm, 387, rfl⟩
abbrev main_call10_v1 : Ref sig .tc := ⟨.hbm, 388, rfl⟩
abbrev main_call10_cst_0 : Ref sig .tc := ⟨.hbm, 389, rfl⟩
abbrev main_call10_v2 : Ref sig .tc := ⟨.hbm, 390, rfl⟩
abbrev main_call10_v3 : Ref sig .tc := ⟨.hbm, 391, rfl⟩
abbrev main_call10_v4 : Ref sig .tc := ⟨.hbm, 392, rfl⟩
abbrev main_call10_v5 : Ref sig .tc := ⟨.hbm, 393, rfl⟩
abbrev main_call10_v6 : Ref sig .tc := ⟨.hbm, 394, rfl⟩
abbrev main_call10_v7 : Ref sig .tc := ⟨.hbm, 395, rfl⟩
abbrev main_call10_cst_1 : Ref sig .tc := ⟨.hbm, 396, rfl⟩
abbrev main_call10_v8 : Ref sig .tc := ⟨.hbm, 397, rfl⟩
abbrev main_call10_cst_2 : Ref sig .tc := ⟨.hbm, 398, rfl⟩
abbrev main_call10_v9 : Ref sig .tc := ⟨.hbm, 399, rfl⟩
abbrev main_call10_v10 : Ref sig .tc := ⟨.hbm, 400, rfl⟩
abbrev main_call10_v11 : Ref sig .tc := ⟨.hbm, 401, rfl⟩
abbrev main_call10_cst_3 : Ref sig .tc := ⟨.hbm, 402, rfl⟩
abbrev main_call10_v12 : Ref sig .tc := ⟨.hbm, 403, rfl⟩
abbrev main_call10_cst_4 : Ref sig .tc := ⟨.hbm, 404, rfl⟩
abbrev main_call10_call0_v0 : Ref sig .tc := ⟨.hbm, 405, rfl⟩
abbrev main_call10_call0_v1 : Ref sig .tc := ⟨.hbm, 406, rfl⟩
abbrev main_v183 : Ref sig .tc := ⟨.hbm, 407, rfl⟩
abbrev main_v184 : Ref sig .tc := ⟨.hbm, 408, rfl⟩
abbrev main_v185 : Ref sig .tc := ⟨.hbm, 409, rfl⟩
abbrev main_v186 : Ref sig .tc := ⟨.hbm, 410, rfl⟩
abbrev main_v187 : Ref sig .tc := ⟨.hbm, 411, rfl⟩
abbrev main_v188 : Ref sig .tc := ⟨.hbm, 412, rfl⟩
abbrev main_v189 : Ref sig .tc := ⟨.hbm, 413, rfl⟩
abbrev main_cst_25 : Ref sig .tc := ⟨.hbm, 414, rfl⟩
abbrev main_v190 : Ref sig .tc := ⟨.hbm, 415, rfl⟩
abbrev main_v191 : Ref sig .tc := ⟨.hbm, 416, rfl⟩
abbrev main_v192 : Ref sig .tc := ⟨.hbm, 417, rfl⟩
abbrev main_v193 : Ref sig .tc := ⟨.hbm, 418, rfl⟩
abbrev main_v194 : Ref sig .tc := ⟨.hbm, 419, rfl⟩
abbrev main_v195 : Ref sig .tc := ⟨.hbm, 420, rfl⟩
abbrev main_v196 : Ref sig .tc := ⟨.hbm, 421, rfl⟩
abbrev main_v197 : Ref sig .tc := ⟨.hbm, 422, rfl⟩
abbrev main_v198 : Ref sig .tc := ⟨.hbm, 423, rfl⟩
abbrev main_call11_cst : Ref sig .tc := ⟨.hbm, 424, rfl⟩
abbrev main_call11_v0 : Ref sig .tc := ⟨.hbm, 425, rfl⟩
abbrev main_v199 : Ref sig .tc := ⟨.hbm, 426, rfl⟩
abbrev main_cst_26 : Ref sig .tc := ⟨.hbm, 427, rfl⟩
abbrev main_v200 : Ref sig .tc := ⟨.hbm, 428, rfl⟩
abbrev main_v201 : Ref sig .tc := ⟨.hbm, 429, rfl⟩
abbrev main_v202 : Ref sig .tc := ⟨.hbm, 430, rfl⟩
abbrev main_cst_27 : Ref sig .tc := ⟨.hbm, 431, rfl⟩
abbrev main_v203 : Ref sig .tc := ⟨.hbm, 432, rfl⟩
abbrev main_cst_28 : Ref sig .tc := ⟨.hbm, 433, rfl⟩
abbrev main_v204 : Ref sig .tc := ⟨.hbm, 434, rfl⟩
abbrev main_v205 : Ref sig .tc := ⟨.hbm, 435, rfl⟩
abbrev main_v206 : Ref sig .tc := ⟨.hbm, 436, rfl⟩
abbrev main_cst_29 : Ref sig .tc := ⟨.hbm, 437, rfl⟩
abbrev main_v207 : Ref sig .tc := ⟨.hbm, 438, rfl⟩
abbrev main_v208 : Ref sig .tc := ⟨.hbm, 439, rfl⟩
abbrev main_v209 : Ref sig .tc := ⟨.hbm, 440, rfl⟩
abbrev main_v210 : Ref sig .tc := ⟨.hbm, 441, rfl⟩
abbrev main_v211 : Ref sig .tc := ⟨.hbm, 442, rfl⟩
abbrev main_v212 : Ref sig .tc := ⟨.hbm, 443, rfl⟩
abbrev main_v213 : Ref sig .tc := ⟨.hbm, 444, rfl⟩
abbrev main_cst_30 : Ref sig .tc := ⟨.hbm, 445, rfl⟩
abbrev main_v214 : Ref sig .tc := ⟨.hbm, 446, rfl⟩
abbrev main_cst_31 : Ref sig .tc := ⟨.hbm, 447, rfl⟩
abbrev main_v215 : Ref sig .tc := ⟨.hbm, 448, rfl⟩
abbrev main_v216 : Ref sig .tc := ⟨.hbm, 449, rfl⟩
abbrev main_c_32 : Ref sig .tc := ⟨.hbm, 450, rfl⟩
abbrev main_call12_cst : Ref sig .tc := ⟨.hbm, 451, rfl⟩
abbrev main_call12_v0 : Ref sig .tc := ⟨.hbm, 452, rfl⟩
abbrev main_call12_v1 : Ref sig .tc := ⟨.hbm, 453, rfl⟩
abbrev main_call12_cst_0 : Ref sig .tc := ⟨.hbm, 454, rfl⟩
abbrev main_call12_v2 : Ref sig .tc := ⟨.hbm, 455, rfl⟩
abbrev main_call12_v3 : Ref sig .tc := ⟨.hbm, 456, rfl⟩
abbrev main_call12_v4 : Ref sig .tc := ⟨.hbm, 457, rfl⟩
abbrev main_call12_v5 : Ref sig .tc := ⟨.hbm, 458, rfl⟩
abbrev main_call12_v6 : Ref sig .tc := ⟨.hbm, 459, rfl⟩
abbrev main_call12_v7 : Ref sig .tc := ⟨.hbm, 460, rfl⟩
abbrev main_call12_cst_1 : Ref sig .tc := ⟨.hbm, 461, rfl⟩
abbrev main_call12_v8 : Ref sig .tc := ⟨.hbm, 462, rfl⟩
abbrev main_call12_cst_2 : Ref sig .tc := ⟨.hbm, 463, rfl⟩
abbrev main_call12_v9 : Ref sig .tc := ⟨.hbm, 464, rfl⟩
abbrev main_call12_v10 : Ref sig .tc := ⟨.hbm, 465, rfl⟩
abbrev main_call12_v11 : Ref sig .tc := ⟨.hbm, 466, rfl⟩
abbrev main_call12_cst_3 : Ref sig .tc := ⟨.hbm, 467, rfl⟩
abbrev main_call12_v12 : Ref sig .tc := ⟨.hbm, 468, rfl⟩
abbrev main_call12_cst_4 : Ref sig .tc := ⟨.hbm, 469, rfl⟩
abbrev main_call12_call0_v0 : Ref sig .tc := ⟨.hbm, 470, rfl⟩
abbrev main_call12_call0_v1 : Ref sig .tc := ⟨.hbm, 471, rfl⟩
abbrev main_v217 : Ref sig .tc := ⟨.hbm, 472, rfl⟩
abbrev main_v218 : Ref sig .tc := ⟨.hbm, 473, rfl⟩
abbrev main_v219 : Ref sig .tc := ⟨.hbm, 474, rfl⟩
abbrev main_v220 : Ref sig .tc := ⟨.hbm, 475, rfl⟩
abbrev main_v221 : Ref sig .tc := ⟨.hbm, 476, rfl⟩
abbrev main_v222 : Ref sig .tc := ⟨.hbm, 477, rfl⟩
abbrev main_v223 : Ref sig .tc := ⟨.hbm, 478, rfl⟩
abbrev main_cst_33 : Ref sig .tc := ⟨.hbm, 479, rfl⟩
abbrev main_v224 : Ref sig .tc := ⟨.hbm, 480, rfl⟩
abbrev main_v225 : Ref sig .tc := ⟨.hbm, 481, rfl⟩
abbrev main_v226 : Ref sig .tc := ⟨.hbm, 482, rfl⟩
abbrev main_v227 : Ref sig .tc := ⟨.hbm, 483, rfl⟩
abbrev main_v228 : Ref sig .tc := ⟨.hbm, 484, rfl⟩
abbrev main_v229 : Ref sig .tc := ⟨.hbm, 485, rfl⟩
abbrev main_v230 : Ref sig .tc := ⟨.hbm, 486, rfl⟩
abbrev main_v231 : Ref sig .tc := ⟨.hbm, 487, rfl⟩
abbrev main_v232 : Ref sig .tc := ⟨.hbm, 488, rfl⟩
abbrev main_call13_cst : Ref sig .tc := ⟨.hbm, 489, rfl⟩
abbrev main_call13_v0 : Ref sig .tc := ⟨.hbm, 490, rfl⟩
abbrev main_v233 : Ref sig .tc := ⟨.hbm, 491, rfl⟩
abbrev main_v234 : Ref sig .tc := ⟨.hbm, 492, rfl⟩
abbrev main_v235 : Ref sig .tc := ⟨.hbm, 493, rfl⟩
abbrev main_cst_34 : Ref sig .tc := ⟨.hbm, 494, rfl⟩
abbrev main_v236 : Ref sig .tc := ⟨.hbm, 495, rfl⟩
abbrev main_cst_35 : Ref sig .tc := ⟨.hbm, 496, rfl⟩
abbrev main_v237 : Ref sig .tc := ⟨.hbm, 497, rfl⟩
abbrev main_v238 : Ref sig .tc := ⟨.hbm, 498, rfl⟩
abbrev main_c_36 : Ref sig .tc := ⟨.hbm, 499, rfl⟩
abbrev main_call14_cst : Ref sig .tc := ⟨.hbm, 500, rfl⟩
abbrev main_call14_v0 : Ref sig .tc := ⟨.hbm, 501, rfl⟩
abbrev main_call14_v1 : Ref sig .tc := ⟨.hbm, 502, rfl⟩
abbrev main_call14_cst_0 : Ref sig .tc := ⟨.hbm, 503, rfl⟩
abbrev main_call14_v2 : Ref sig .tc := ⟨.hbm, 504, rfl⟩
abbrev main_call14_v3 : Ref sig .tc := ⟨.hbm, 505, rfl⟩
abbrev main_call14_v4 : Ref sig .tc := ⟨.hbm, 506, rfl⟩
abbrev main_call14_v5 : Ref sig .tc := ⟨.hbm, 507, rfl⟩
abbrev main_call14_v6 : Ref sig .tc := ⟨.hbm, 508, rfl⟩
abbrev main_call14_v7 : Ref sig .tc := ⟨.hbm, 509, rfl⟩
abbrev main_call14_cst_1 : Ref sig .tc := ⟨.hbm, 510, rfl⟩
abbrev main_call14_v8 : Ref sig .tc := ⟨.hbm, 511, rfl⟩
abbrev main_call14_cst_2 : Ref sig .tc := ⟨.hbm, 512, rfl⟩
abbrev main_call14_v9 : Ref sig .tc := ⟨.hbm, 513, rfl⟩
abbrev main_call14_v10 : Ref sig .tc := ⟨.hbm, 514, rfl⟩
abbrev main_call14_v11 : Ref sig .tc := ⟨.hbm, 515, rfl⟩
abbrev main_call14_cst_3 : Ref sig .tc := ⟨.hbm, 516, rfl⟩
abbrev main_call14_v12 : Ref sig .tc := ⟨.hbm, 517, rfl⟩
abbrev main_call14_cst_4 : Ref sig .tc := ⟨.hbm, 518, rfl⟩
abbrev main_call14_call0_v0 : Ref sig .tc := ⟨.hbm, 519, rfl⟩
abbrev main_call14_call0_v1 : Ref sig .tc := ⟨.hbm, 520, rfl⟩
abbrev main_v239 : Ref sig .tc := ⟨.hbm, 521, rfl⟩
abbrev main_v240 : Ref sig .tc := ⟨.hbm, 522, rfl⟩
abbrev main_v241 : Ref sig .tc := ⟨.hbm, 523, rfl⟩
abbrev main_v242 : Ref sig .tc := ⟨.hbm, 524, rfl⟩
abbrev main_v243 : Ref sig .tc := ⟨.hbm, 525, rfl⟩
abbrev main_v244 : Ref sig .tc := ⟨.hbm, 526, rfl⟩
abbrev main_v245 : Ref sig .tc := ⟨.hbm, 527, rfl⟩
abbrev main_cst_37 : Ref sig .tc := ⟨.hbm, 528, rfl⟩
abbrev main_v246 : Ref sig .tc := ⟨.hbm, 529, rfl⟩
abbrev main_v247 : Ref sig .tc := ⟨.hbm, 530, rfl⟩
abbrev main_v248 : Ref sig .tc := ⟨.hbm, 531, rfl⟩
abbrev main_v249 : Ref sig .tc := ⟨.hbm, 532, rfl⟩
abbrev main_v250 : Ref sig .tc := ⟨.hbm, 533, rfl⟩
abbrev main_v251 : Ref sig .tc := ⟨.hbm, 534, rfl⟩
abbrev main_v252 : Ref sig .tc := ⟨.hbm, 535, rfl⟩
abbrev main_v253 : Ref sig .tc := ⟨.hbm, 536, rfl⟩
abbrev main_v254 : Ref sig .tc := ⟨.hbm, 537, rfl⟩
abbrev main_v255 : Ref sig .tc := ⟨.hbm, 538, rfl⟩
abbrev main_v256 : Ref sig .tc := ⟨.hbm, 539, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc6_stg0_0 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc7_stg0_0 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg3_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem1_0 : DmaSem sig := 31
abbrev cc5_sem2_0 : DmaSem sig := 32
abbrev cc5_sem3_0 : DmaSem sig := 33
abbrev cc6_sem0_0 : DmaSem sig := 34
abbrev cc6_sem1_0 : DmaSem sig := 35
abbrev cc6_sem2_0 : DmaSem sig := 36
abbrev cc6_sem3_0 : DmaSem sig := 37
abbrev cc7_sem0_0 : DmaSem sig := 38
abbrev cc7_sem1_0 : DmaSem sig := 39
abbrev cc7_sem2_0 : DmaSem sig := 40
abbrev cc7_sem3_0 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S128x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S128x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S128x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S256x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x10 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S20000_S20000x1_0 : S20000.BroadcastsInDim S20000x1 (![0] : Fin 1 → Fin S20000x1.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S256 : S_.BroadcastsInDim S256 (![] : Fin 0 → Fin S256.rank)
  slices_S4x256x256_S1x256x256_0_0_0 : S4x256x256.Slices ![0, 0, 0] S1x256x256
  shapeCasts_S1x256x256_S256x256 : S1x256x256.ShapeCasts S256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S256_d0 : S20000x256.ReducesTo [0] S256
  bcast_S_S1x256 : S_.BroadcastsInDim S1x256 (![] : Fin 0 → Fin S1x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  shapeCasts_S128x256_S128x256 : S128x256.ShapeCasts S128x256
  broadcasts_S1x256_S128x256 : S1x256.Broadcasts S128x256
  reducesTo_S128x256_S256_d0 : S128x256.ReducesTo [0] S256
  bcast_S1x256_S128x256_0_1 : S1x256.BroadcastsInDim S128x256 (![0, 1] : Fin 2 → Fin S128x256.rank)
  shapeCasts_S10_S1x10 : S10.ShapeCasts S1x10
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S128x256_S20000x1_S20000x256_1_0_0_1_wf : ScatterDims.WF S128x256 S20000x1 S20000x256 [1] [0] [0] 1
  scatter_S128_S20000x1_S20000_n_0_0_1_wf : ScatterDims.WF S128 S20000x1 S20000 [] [0] [0] 1
  dot_S128x256_S256x256_S128x256_1_0_0_1_n_n_wf : DotDims.WF S128x256 S256x256 S128x256 [1] [0] [0] [1] [] []
  dot_S128x256_S256x10_S128x10_1_0_0_1_n_n_wf : DotDims.WF S128x256 S256x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .f32 = 32 ∨ (Rect.block (s := S20000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S20000x256.size a
  hwx1_3 : ∀ i : grid1.Coords, EltTy.bits .f32 = 32 ∨ (Rect.block (s := S20000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S20000x256.size a
  hwx2_3 : ∀ i : grid2.Coords, EltTy.bits .f32 = 32 ∨ (Rect.block (s := S20000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S20000x256.size a
  hwx3_3 : ∀ i : grid3.Coords, EltTy.bits .f32 = 32 ∨ (Rect.block (s := S20000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S20000x256.size a
  hwx4_3 : ∀ i : grid4.Coords, EltTy.bits .f32 = 32 ∨ (Rect.block (s := S20000x256) S2000x256.size (cc4_transform_3 i) (hinb4_3 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S128x256.size a ≤ S128x256.size a
  hwx5_0 : ∀ i : grid5.Coords, EltTy.bits .f32 = 32 ∨ (Rect.block (s := S128x256) S128x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S128x256.size a ≤ S128x256.size a
  hwx5_3 : ∀ i : grid5.Coords, EltTy.bits .f32 = 32 ∨ (Rect.block (s := S128x256) S128x256.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S128x256.size a ≤ S128x256.size a
  hwx6_0 : ∀ i : grid6.Coords, EltTy.bits .f32 = 32 ∨ (Rect.block (s := S128x256) S128x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S128x256.size a ≤ S128x256.size a
  hwx6_3 : ∀ i : grid6.Coords, EltTy.bits .f32 = 32 ∨ (Rect.block (s := S128x256) S128x256.size (cc6_transform_3 i) (hinb6_3 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S128x256.size a ≤ S128x256.size a
  hwx7_0 : ∀ i : grid7.Coords, EltTy.bits .f32 = 32 ∨ (Rect.block (s := S128x256) S128x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x10.size a ≤ S256x10.size a
  hwx7_1 : ∀ i : grid7.Coords, EltTy.bits .f32 = 32 ∨ (Rect.block (s := S256x10) S256x10.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x10.size a ≤ S1x10.size a
  hwx7_2 : ∀ i : grid7.Coords, EltTy.bits .f32 = 32 ∨ (Rect.block (s := S1x10) S1x10.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S128x10.size a ≤ S128x10.size a
  hwx7_3 : ∀ i : grid7.Coords, EltTy.bits .f32 = 32 ∨ (Rect.block (s := S128x10) S128x10.size (cc7_transform_3 i) (hinb7_3 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S128x256_S20000x1_S20000x256_1_0_0_1 : ScatterDims S128x256 S20000x1 S20000x256 where
  updateWindowDims := [1]
  insertedWindowDims := [0]
  scatterDimsToOperandDims := [0]
  indexVectorDim := 1
  wf := scatter_S128x256_S20000x1_S20000x256_1_0_0_1_wf
def scatter_S128_S20000x1_S20000_n_0_0_1 : ScatterDims S128 S20000x1 S20000 where
  updateWindowDims := []
  insertedWindowDims := [0]
  scatterDimsToOperandDims := [0]
  indexVectorDim := 1
  wf := scatter_S128_S20000x1_S20000_n_0_0_1_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v73) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v115) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v117) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v118) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v119) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v157) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v159) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v160) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v161) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v211) S128x256.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v212) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v213) S128x256.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v233) S128x256.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg13) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v234) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v235) S128x256.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v254) S128x256.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg17) S256x10.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v255) S1x10.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v256) S128x10.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S20000 : Shape := ⟨1, ![20000]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x256 : Shape := ⟨2, ![256, 256]⟩
abbrev S256x10 : Shape := ⟨2, ![256, 10]⟩
abbrev S10 : Shape := ⟨1, ![10]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S20000x1 : Shape := ⟨2, ![20000, 1]⟩
abbrev S20000x256 : Shape := ⟨2, ![20000, 256]⟩
abbrev S1x256 : Shape := ⟨2, ![1, 256]⟩
abbrev S1x256x256 : Shape := ⟨3, ![1, 256, 256]⟩
abbrev S320000x256 : Shape := ⟨2, ![320000, 256]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 486
  | .vmem => 0
  | .smem => 0
  | _ => 0

abbrev hbmTy0_0 (i : Nat) : BufTy := match i % 128 with
  | 0 => ⟨S20000x128, .f32⟩
  | 1 => ⟨S2x320000, .i32⟩
  | 2 => ⟨S20000, .i32⟩
  | 3 => ⟨S128x256, .f32⟩
  | 4 => ⟨S256, .f32⟩
  | 5 => ⟨S4x256x256, .f32⟩
  | 6 => ⟨S4x256, .f32⟩
  | 7 => ⟨S4x256, .f32⟩
  | 8 => ⟨S4x256, .f32⟩
  | 9 => ⟨S256x256, .f32⟩
  | 10 => ⟨S256, .f32⟩
  | 11 => ⟨S256, .f32⟩
  | 12 => ⟨S256, .f32⟩
  | 13 => ⟨S256x256, .f32⟩
  | 14 => ⟨S256, .f32⟩
  | 15 => ⟨S256, .f32⟩
  | 16 => ⟨S256, .f32⟩
  | 17 => ⟨S256x10, .f32⟩
  | 18 => ⟨S10, .f32⟩
  | 19 => ⟨S1x320000, .i32⟩
  | 20 => ⟨S320000, .i32⟩
  | 21 => ⟨S1x320000, .i32⟩
  | 22 => ⟨S320000, .i32⟩
  | 23 => ⟨S_, .f32⟩
  | 24 => ⟨S320000, .f32⟩
  | 25 => ⟨S_, .f32⟩
  | 26 => ⟨S20000, .f32⟩
  | 27 => ⟨S320000x1, .i32⟩
  | 28 => ⟨S20000, .f32⟩
  | 29 => ⟨S_, .f32⟩
  | 30 => ⟨S20000, .f32⟩
  | 31 => ⟨S20000, .f32⟩
  | 32 => ⟨S20000, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000, .f32⟩
  | 51 => ⟨S320000, .f32⟩
  | 52 => ⟨S320000x1, .f32⟩
  | 53 => ⟨S20000, .f32⟩
  | 54 => ⟨S20000x1, .f32⟩
  | 55 => ⟨S20000x256, .f32⟩
  | 56 => ⟨S1x256, .f32⟩
  | 57 => ⟨S20000x256, .f32⟩
  | 58 => ⟨S20000x256, .f32⟩
  | 59 => ⟨S1x256x256, .f32⟩
  | 60 => ⟨S256x256, .f32⟩
  | 61 => ⟨S20000x256, .f32⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S320000x256, .f32⟩
  | 71 => ⟨S320000x256, .f32⟩
  | 72 => ⟨S320000x256, .f32⟩
  | 73 => ⟨S_, .f32⟩
  | 74 => ⟨S20000x256, .f32⟩
  | 75 => ⟨S320000x1, .i32⟩
  | 76 => ⟨S20000x256, .f32⟩
  | 77 => ⟨S20000x256, .f32⟩
  | 78 => ⟨S20000x256, .f32⟩
  | 79 => ⟨S20000x256, .f32⟩
  | 80 => ⟨S1x256, .f32⟩
  | 81 => ⟨S256, .f32⟩
  | 82 => ⟨S1x256, .f32⟩
  | 83 => ⟨S20000x256, .f32⟩
  | 84 => ⟨S20000x256, .f32⟩
  | 85 => ⟨S1x256, .f32⟩
  | 86 => ⟨S256, .f32⟩
  | 87 => ⟨S1x256, .f32⟩
  | 88 => ⟨S256, .f32⟩
  | 89 => ⟨S_, .f32⟩
  | 90 => ⟨S256, .f32⟩
  | 91 => ⟨S_, .f32⟩
  | 92 => ⟨S256, .f32⟩
  | 93 => ⟨S256, .f32⟩
  | 94 => ⟨S_, .i32⟩
  | 95 => ⟨S_, .f32⟩
  | 96 => ⟨S256, .f32⟩
  | 97 => ⟨S1x256, .f32⟩
  | 98 => ⟨S_, .f32⟩
  | 99 => ⟨S1x256, .f32⟩
  | 100 => ⟨S1x256, .f32⟩
  | 101 => ⟨S20000x256, .f32⟩
  | 102 => ⟨S20000x256, .f32⟩
  | 103 => ⟨S20000x256, .f32⟩
  | 104 => ⟨S_, .f32⟩
  | 105 => ⟨S_, .f32⟩
  | 106 => ⟨S_, .f32⟩
  | 107 => ⟨S_, .f32⟩
  | 108 => ⟨S256, .f32⟩
  | 109 => ⟨S256, .f32⟩
  | 110 => ⟨S256, .f32⟩
  | 111 => ⟨S_, .f32⟩
  | 112 => ⟨S_, .i1⟩
  | 113 => ⟨S_, .f32⟩
  | 114 => ⟨S_, .f32⟩
  | 115 => ⟨S256, .f32⟩
  | 116 => ⟨S256, .f32⟩
  | 117 => ⟨S1x256, .f32⟩
  | 118 => ⟨S20000x256, .f32⟩
  | 119 => ⟨S20000x256, .f32⟩
  | 120 => ⟨S1x256, .f32⟩
  | 121 => ⟨S20000x256, .f32⟩
  | 122 => ⟨S20000x256, .f32⟩
  | 123 => ⟨S_, .f32⟩
  | 124 => ⟨S256, .f32⟩
  | 125 => ⟨S256, .f32⟩
  | 126 => ⟨S256, .f32⟩
  | 127 => ⟨S1x256, .f32⟩
  | _ => ⟨S20000x128, .f32⟩

abbrev hbmTy0_1 (i : Nat) : BufTy := match i % 128 with
  | 0 => ⟨S20000x256, .f32⟩
  | 1 => ⟨S20000x256, .f32⟩
  | 2 => ⟨S1x256, .f32⟩
  | 3 => ⟨S20000x256, .f32⟩
  | 4 => ⟨S20000x256, .f32⟩
  | 5 => ⟨S_, .f32⟩
  | 6 => ⟨S20000x256, .f32⟩
  | 7 => ⟨S20000x256, .f32⟩
  | 8 => ⟨S1x256x256, .f32⟩
  | 9 => ⟨S256x256, .f32⟩
  | 10 => ⟨S20000x256, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S320000x256, .f32⟩
  | 20 => ⟨S320000x256, .f32⟩
  | 21 => ⟨S320000x256, .f32⟩
  | 22 => ⟨S_, .f32⟩
  | 23 => ⟨S20000x256, .f32⟩
  | 24 => ⟨S320000x1, .i32⟩
  | 25 => ⟨S20000x256, .f32⟩
  | 26 => ⟨S20000x256, .f32⟩
  | 27 => ⟨S20000x256, .f32⟩
  | 28 => ⟨S20000x256, .f32⟩
  | 29 => ⟨S1x256, .f32⟩
  | 30 => ⟨S256, .f32⟩
  | 31 => ⟨S1x256, .f32⟩
  | 32 => ⟨S20000x256, .f32⟩
  | 33 => ⟨S20000x256, .f32⟩
  | 34 => ⟨S1x256, .f32⟩
  | 35 => ⟨S256, .f32⟩
  | 36 => ⟨S1x256, .f32⟩
  | 37 => ⟨S256, .f32⟩
  | 38 => ⟨S_, .f32⟩
  | 39 => ⟨S256, .f32⟩
  | 40 => ⟨S_, .f32⟩
  | 41 => ⟨S256, .f32⟩
  | 42 => ⟨S256, .f32⟩
  | 43 => ⟨S_, .i32⟩
  | 44 => ⟨S_, .f32⟩
  | 45 => ⟨S256, .f32⟩
  | 46 => ⟨S1x256, .f32⟩
  | 47 => ⟨S_, .f32⟩
  | 48 => ⟨S1x256, .f32⟩
  | 49 => ⟨S1x256, .f32⟩
  | 50 => ⟨S20000x256, .f32⟩
  | 51 => ⟨S20000x256, .f32⟩
  | 52 => ⟨S20000x256, .f32⟩
  | 53 => ⟨S_, .f32⟩
  | 54 => ⟨S_, .f32⟩
  | 55 => ⟨S_, .f32⟩
  | 56 => ⟨S_, .f32⟩
  | 57 => ⟨S256, .f32⟩
  | 58 => ⟨S256, .f32⟩
  | 59 => ⟨S256, .f32⟩
  | 60 => ⟨S_, .f32⟩
  | 61 => ⟨S_, .i1⟩
  | 62 => ⟨S_, .f32⟩
  | 63 => ⟨S_, .f32⟩
  | 64 => ⟨S256, .f32⟩
  | 65 => ⟨S256, .f32⟩
  | 66 => ⟨S1x256, .f32⟩
  | 67 => ⟨S20000x256, .f32⟩
  | 68 => ⟨S20000x256, .f32⟩
  | 69 => ⟨S1x256, .f32⟩
  | 70 => ⟨S20000x256, .f32⟩
  | 71 => ⟨S20000x256, .f32⟩
  | 72 => ⟨S_, .f32⟩
  | 73 => ⟨S256, .f32⟩
  | 74 => ⟨S256, .f32⟩
  | 75 => ⟨S256, .f32⟩
  | 76 => ⟨S1x256, .f32⟩
  | 77 => ⟨S20000x256, .f32⟩
  | 78 => ⟨S20000x256, .f32⟩
  | 79 => ⟨S1x256, .f32⟩
  | 80 => ⟨S20000x256, .f32⟩
  | 81 => ⟨S20000x256, .f32⟩
  | 82 => ⟨S_, .f32⟩
  | 83 => ⟨S20000x256, .f32⟩
  | 84 => ⟨S20000x256, .f32⟩
  | 85 => ⟨S1x256x256, .f32⟩
  | 86 => ⟨S256x256, .f32⟩
  | 87 => ⟨S20000x256, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S320000x256, .f32⟩
  | 97 => ⟨S320000x256, .f32⟩
  | 98 => ⟨S320000x256, .f32⟩
  | 99 => ⟨S_, .f32⟩
  | 100 => ⟨S20000x256, .f32⟩
  | 101 => ⟨S320000x1, .i32⟩
  | 102 => ⟨S20000x256, .f32⟩
  | 103 => ⟨S20000x256, .f32⟩
  | 104 => ⟨S20000x256, .f32⟩
  | 105 => ⟨S20000x256, .f32⟩
  | 106 => ⟨S1x256, .f32⟩
  | 107 => ⟨S256, .f32⟩
  | 108 => ⟨S1x256, .f32⟩
  | 109 => ⟨S20000x256, .f32⟩
  | 110 => ⟨S20000x256, .f32⟩
  | 111 => ⟨S1x256, .f32⟩
  | 112 => ⟨S256, .f32⟩
  | 113 => ⟨S1x256, .f32⟩
  | 114 => ⟨S256, .f32⟩
  | 115 => ⟨S_, .f32⟩
  | 116 => ⟨S256, .f32⟩
  | 117 => ⟨S_, .f32⟩
  | 118 => ⟨S256, .f32⟩
  | 119 => ⟨S256, .f32⟩
  | 120 => ⟨S_, .i32⟩
  | 121 => ⟨S_, .f32⟩
  | 122 => ⟨S256, .f32⟩
  | 123 => ⟨S1x256, .f32⟩
  | 124 => ⟨S_, .f32⟩
  | 125 => ⟨S1x256, .f32⟩
  | 126 => ⟨S1x256, .f32⟩
  | 127 => ⟨S20000x256, .f32⟩
  | _ => ⟨S20000x128, .f32⟩

abbrev hbmTy0_2 (i : Nat) : BufTy := match i % 128 with
  | 0 => ⟨S20000x256, .f32⟩
  | 1 => ⟨S20000x256, .f32⟩
  | 2 => ⟨S_, .f32⟩
  | 3 => ⟨S_, .f32⟩
  | 4 => ⟨S_, .f32⟩
  | 5 => ⟨S_, .f32⟩
  | 6 => ⟨S256, .f32⟩
  | 7 => ⟨S256, .f32⟩
  | 8 => ⟨S256, .f32⟩
  | 9 => ⟨S_, .f32⟩
  | 10 => ⟨S_, .i1⟩
  | 11 => ⟨S_, .f32⟩
  | 12 => ⟨S_, .f32⟩
  | 13 => ⟨S256, .f32⟩
  | 14 => ⟨S256, .f32⟩
  | 15 => ⟨S1x256, .f32⟩
  | 16 => ⟨S20000x256, .f32⟩
  | 17 => ⟨S20000x256, .f32⟩
  | 18 => ⟨S1x256, .f32⟩
  | 19 => ⟨S20000x256, .f32⟩
  | 20 => ⟨S20000x256, .f32⟩
  | 21 => ⟨S_, .f32⟩
  | 22 => ⟨S256, .f32⟩
  | 23 => ⟨S256, .f32⟩
  | 24 => ⟨S256, .f32⟩
  | 25 => ⟨S1x256, .f32⟩
  | 26 => ⟨S20000x256, .f32⟩
  | 27 => ⟨S20000x256, .f32⟩
  | 28 => ⟨S1x256, .f32⟩
  | 29 => ⟨S20000x256, .f32⟩
  | 30 => ⟨S20000x256, .f32⟩
  | 31 => ⟨S_, .f32⟩
  | 32 => ⟨S20000x256, .f32⟩
  | 33 => ⟨S20000x256, .f32⟩
  | 34 => ⟨S1x256x256, .f32⟩
  | 35 => ⟨S256x256, .f32⟩
  | 36 => ⟨S20000x256, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000x256, .f32⟩
  | 46 => ⟨S320000x256, .f32⟩
  | 47 => ⟨S320000x256, .f32⟩
  | 48 => ⟨S_, .f32⟩
  | 49 => ⟨S20000x256, .f32⟩
  | 50 => ⟨S320000x1, .i32⟩
  | 51 => ⟨S20000x256, .f32⟩
  | 52 => ⟨S20000x256, .f32⟩
  | 53 => ⟨S20000x256, .f32⟩
  | 54 => ⟨S20000x256, .f32⟩
  | 55 => ⟨S1x256, .f32⟩
  | 56 => ⟨S256, .f32⟩
  | 57 => ⟨S1x256, .f32⟩
  | 58 => ⟨S20000x256, .f32⟩
  | 59 => ⟨S20000x256, .f32⟩
  | 60 => ⟨S1x256, .f32⟩
  | 61 => ⟨S256, .f32⟩
  | 62 => ⟨S1x256, .f32⟩
  | 63 => ⟨S256, .f32⟩
  | 64 => ⟨S_, .f32⟩
  | 65 => ⟨S256, .f32⟩
  | 66 => ⟨S_, .f32⟩
  | 67 => ⟨S256, .f32⟩
  | 68 => ⟨S256, .f32⟩
  | 69 => ⟨S_, .i32⟩
  | 70 => ⟨S_, .f32⟩
  | 71 => ⟨S256, .f32⟩
  | 72 => ⟨S1x256, .f32⟩
  | 73 => ⟨S_, .f32⟩
  | 74 => ⟨S1x256, .f32⟩
  | 75 => ⟨S1x256, .f32⟩
  | 76 => ⟨S20000x256, .f32⟩
  | 77 => ⟨S20000x256, .f32⟩
  | 78 => ⟨S20000x256, .f32⟩
  | 79 => ⟨S_, .f32⟩
  | 80 => ⟨S_, .f32⟩
  | 81 => ⟨S_, .f32⟩
  | 82 => ⟨S_, .f32⟩
  | 83 => ⟨S256, .f32⟩
  | 84 => ⟨S256, .f32⟩
  | 85 => ⟨S256, .f32⟩
  | 86 => ⟨S_, .f32⟩
  | 87 => ⟨S_, .i1⟩
  | 88 => ⟨S_, .f32⟩
  | 89 => ⟨S_, .f32⟩
  | 90 => ⟨S256, .f32⟩
  | 91 => ⟨S256, .f32⟩
  | 92 => ⟨S1x256, .f32⟩
  | 93 => ⟨S20000x256, .f32⟩
  | 94 => ⟨S20000x256, .f32⟩
  | 95 => ⟨S1x256, .f32⟩
  | 96 => ⟨S20000x256, .f32⟩
  | 97 => ⟨S20000x256, .f32⟩
  | 98 => ⟨S_, .f32⟩
  | 99 => ⟨S256, .f32⟩
  | 100 => ⟨S256, .f32⟩
  | 101 => ⟨S256, .f32⟩
  | 102 => ⟨S1x256, .f32⟩
  | 103 => ⟨S20000x256, .f32⟩
  | 104 => ⟨S20000x256, .f32⟩
  | 105 => ⟨S1x256, .f32⟩
  | 106 => ⟨S20000x256, .f32⟩
  | 107 => ⟨S20000x256, .f32⟩
  | 108 => ⟨S_, .f32⟩
  | 109 => ⟨S20000x256, .f32⟩
  | 110 => ⟨S20000x256, .f32⟩
  | 111 => ⟨S_, .f32⟩
  | 112 => ⟨S128x256, .f32⟩
  | 113 => ⟨S20000x1, .i32⟩
  | 114 => ⟨S128x256, .f32⟩
  | 115 => ⟨S_, .f32⟩
  | 116 => ⟨S20000, .f32⟩
  | 117 => ⟨S_, .f32⟩
  | 118 => ⟨S128, .f32⟩
  | 119 => ⟨S20000x1, .i32⟩
  | 120 => ⟨S128, .f32⟩
  | 121 => ⟨S_, .f32⟩
  | 122 => ⟨S128, .f32⟩
  | 123 => ⟨S128, .f32⟩
  | 124 => ⟨S128x1, .f32⟩
  | 125 => ⟨S128x256, .f32⟩
  | 126 => ⟨S128x256, .f32⟩
  | 127 => ⟨S128x256, .f32⟩
  | _ => ⟨S20000x128, .f32⟩

abbrev hbmTy0_3 (i : Nat) : BufTy := match i % 128 with
  | 0 => ⟨S1x256, .f32⟩
  | 1 => ⟨S128x256, .f32⟩
  | 2 => ⟨S128x256, .f32⟩
  | 3 => ⟨S_, .f32⟩
  | 4 => ⟨S256, .f32⟩
  | 5 => ⟨S_, .f32⟩
  | 6 => ⟨S256, .f32⟩
  | 7 => ⟨S256, .f32⟩
  | 8 => ⟨S_, .i32⟩
  | 9 => ⟨S_, .f32⟩
  | 10 => ⟨S256, .f32⟩
  | 11 => ⟨S1x256, .f32⟩
  | 12 => ⟨S_, .f32⟩
  | 13 => ⟨S1x256, .f32⟩
  | 14 => ⟨S1x256, .f32⟩
  | 15 => ⟨S128x256, .f32⟩
  | 16 => ⟨S128x256, .f32⟩
  | 17 => ⟨S128x256, .f32⟩
  | 18 => ⟨S_, .f32⟩
  | 19 => ⟨S_, .f32⟩
  | 20 => ⟨S_, .f32⟩
  | 21 => ⟨S_, .f32⟩
  | 22 => ⟨S256, .f32⟩
  | 23 => ⟨S256, .f32⟩
  | 24 => ⟨S256, .f32⟩
  | 25 => ⟨S_, .f32⟩
  | 26 => ⟨S_, .i1⟩
  | 27 => ⟨S_, .f32⟩
  | 28 => ⟨S_, .f32⟩
  | 29 => ⟨S256, .f32⟩
  | 30 => ⟨S256, .f32⟩
  | 31 => ⟨S1x256, .f32⟩
  | 32 => ⟨S128x256, .f32⟩
  | 33 => ⟨S128x256, .f32⟩
  | 34 => ⟨S1x256, .f32⟩
  | 35 => ⟨S128x256, .f32⟩
  | 36 => ⟨S128x256, .f32⟩
  | 37 => ⟨S_, .f32⟩
  | 38 => ⟨S256, .f32⟩
  | 39 => ⟨S256, .f32⟩
  | 40 => ⟨S256, .f32⟩
  | 41 => ⟨S1x256, .f32⟩
  | 42 => ⟨S128x256, .f32⟩
  | 43 => ⟨S128x256, .f32⟩
  | 44 => ⟨S1x256, .f32⟩
  | 45 => ⟨S128x256, .f32⟩
  | 46 => ⟨S128x256, .f32⟩
  | 47 => ⟨S_, .f32⟩
  | 48 => ⟨S128x256, .f32⟩
  | 49 => ⟨S128x256, .f32⟩
  | 50 => ⟨S128x256, .f32⟩
  | 51 => ⟨S1x256, .f32⟩
  | 52 => ⟨S128x256, .f32⟩
  | 53 => ⟨S128x256, .f32⟩
  | 54 => ⟨S_, .f32⟩
  | 55 => ⟨S256, .f32⟩
  | 56 => ⟨S_, .f32⟩
  | 57 => ⟨S256, .f32⟩
  | 58 => ⟨S256, .f32⟩
  | 59 => ⟨S_, .i32⟩
  | 60 => ⟨S_, .f32⟩
  | 61 => ⟨S256, .f32⟩
  | 62 => ⟨S1x256, .f32⟩
  | 63 => ⟨S_, .f32⟩
  | 64 => ⟨S1x256, .f32⟩
  | 65 => ⟨S1x256, .f32⟩
  | 66 => ⟨S128x256, .f32⟩
  | 67 => ⟨S128x256, .f32⟩
  | 68 => ⟨S128x256, .f32⟩
  | 69 => ⟨S_, .f32⟩
  | 70 => ⟨S_, .f32⟩
  | 71 => ⟨S_, .f32⟩
  | 72 => ⟨S_, .f32⟩
  | 73 => ⟨S256, .f32⟩
  | 74 => ⟨S256, .f32⟩
  | 75 => ⟨S256, .f32⟩
  | 76 => ⟨S_, .f32⟩
  | 77 => ⟨S_, .i1⟩
  | 78 => ⟨S_, .f32⟩
  | 79 => ⟨S_, .f32⟩
  | 80 => ⟨S256, .f32⟩
  | 81 => ⟨S256, .f32⟩
  | 82 => ⟨S1x256, .f32⟩
  | 83 => ⟨S128x256, .f32⟩
  | 84 => ⟨S128x256, .f32⟩
  | 85 => ⟨S1x256, .f32⟩
  | 86 => ⟨S128x256, .f32⟩
  | 87 => ⟨S128x256, .f32⟩
  | 88 => ⟨S_, .f32⟩
  | 89 => ⟨S256, .f32⟩
  | 90 => ⟨S256, .f32⟩
  | 91 => ⟨S256, .f32⟩
  | 92 => ⟨S1x256, .f32⟩
  | 93 => ⟨S128x256, .f32⟩
  | 94 => ⟨S128x256, .f32⟩
  | 95 => ⟨S1x256, .f32⟩
  | 96 => ⟨S128x256, .f32⟩
  | 97 => ⟨S128x256, .f32⟩
  | 98 => ⟨S128x10, .f32⟩
  | 99 => ⟨S1x10, .f32⟩
  | 100 => ⟨S128x10, .f32⟩
  | 101 => ⟨S128x10, .f32⟩
  | _ => ⟨S20000x128, .f32⟩

abbrev hbmTy (i : Nat) : BufTy := match i / 128 with
  | 0 => hbmTy0_0 i
  | 1 => hbmTy0_1 i
  | 2 => hbmTy0_2 i
  | 3 => hbmTy0_3 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_5 : Ref sig .tc := ⟨.hbm, 62, rfl⟩
abbrev main_v36 : Ref sig .tc := ⟨.hbm, 63, rfl⟩
abbrev main_v37 : Ref sig .tc := ⟨.hbm, 64, rfl⟩
abbrev main_c_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_c_10 : Ref sig .tc := ⟨.hbm, 94, rfl⟩
abbrev main_call0_cst : Ref sig .tc := ⟨.hbm, 95, rfl⟩
abbrev main_call0_v0 : Ref sig .tc := ⟨.hbm, 96, rfl⟩
abbrev main_call0_v1 : Ref sig .tc := ⟨.hbm, 97, rfl⟩
abbrev main_call0_cst_0 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_v7 : Ref sig .tc := ⟨.hbm, 104, rfl⟩
abbrev main_call0_cst_1 : Ref sig .tc := ⟨.hbm, 105, rfl⟩
abbrev main_call0_v8 : Ref sig .tc := ⟨.hbm, 106, rfl⟩
abbrev main_call0_cst_2 : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_call0_cst_3 : Ref sig .tc := ⟨.hbm, 111, rfl⟩
abbrev main_call0_v12 : Ref sig .tc := ⟨.hbm, 112, rfl⟩
abbrev main_call0_cst_4 : Ref sig .tc := ⟨.hbm, 113, rfl⟩
abbrev main_call0_call0_v0 : Ref sig .tc := ⟨.hbm, 114, rfl⟩
abbrev main_call0_call0_v1 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_11 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_call1_cst : Ref sig .tc := ⟨.hbm, 133, rfl⟩
abbrev main_call1_v0 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_c_12 : Ref sig .tc := ⟨.hbm, 139, rfl⟩
abbrev main_v83 : Ref sig .tc := ⟨.hbm, 140, rfl⟩
abbrev main_v84 : Ref sig .tc := ⟨.hbm, 141, rfl⟩
abbrev main_c_13 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_14 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_15 : Ref sig .tc := ⟨.hbm, 166, rfl⟩
abbrev main_v107 : Ref sig .tc := ⟨.hbm, 167, rfl⟩
abbrev main_cst_16 : Ref sig .tc := ⟨.hbm, 168, rfl⟩
abbrev main_v108 : Ref sig .tc := ⟨.hbm, 169, rfl⟩
abbrev main_v109 : Ref sig .tc := ⟨.hbm, 170, rfl⟩
abbrev main_c_17 : Ref sig .tc := ⟨.hbm, 171, rfl⟩
abbrev main_call2_cst : Ref sig .tc := ⟨.hbm, 172, rfl⟩
abbrev main_call2_v0 : Ref sig .tc := ⟨.hbm, 173, rfl⟩
abbrev main_call2_v1 : Ref sig .tc := ⟨.hbm, 174, rfl⟩
abbrev main_call2_cst_0 : Ref sig .tc := ⟨.hbm, 175, rfl⟩
abbrev main_call2_v2 : Ref sig .tc := ⟨.hbm, 176, rfl⟩
abbrev main_call2_v3 : Ref sig .tc := ⟨.hbm, 177, rfl⟩
abbrev main_call2_v4 : Ref sig .tc := ⟨.hbm, 178, rfl⟩
abbrev main_call2_v5 : Ref sig .tc := ⟨.hbm, 179, rfl⟩
abbrev main_call2_v6 : Ref sig .tc := ⟨.hbm, 180, rfl⟩
abbrev main_call2_v7 : Ref sig .tc := ⟨.hbm, 181, rfl⟩
abbrev main_call2_cst_1 : Ref sig .tc := ⟨.hbm, 182, rfl⟩
abbrev main_call2_v8 : Ref sig .tc := ⟨.hbm, 183, rfl⟩
abbrev main_call2_cst_2 : Ref sig .tc := ⟨.hbm, 184, rfl⟩
abbrev main_call2_v9 : Ref sig .tc := ⟨.hbm, 185, rfl⟩
abbrev main_call2_v10 : Ref sig .tc := ⟨.hbm, 186, rfl⟩
abbrev main_call2_v11 : Ref sig .tc := ⟨.hbm, 187, rfl⟩
abbrev main_call2_cst_3 : Ref sig .tc := ⟨.hbm, 188, rfl⟩
abbrev main_call2_v12 : Ref sig .tc := ⟨.hbm, 189, rfl⟩
abbrev main_call2_cst_4 : Ref sig .tc := ⟨.hbm, 190, rfl⟩
abbrev main_call2_call0_v0 : Ref sig .tc := ⟨.hbm, 191, rfl⟩
abbrev main_call2_call0_v1 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_cst_18 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_call3_cst : Ref sig .tc := ⟨.hbm, 210, rfl⟩
abbrev main_call3_v0 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_c_19 : Ref sig .tc := ⟨.hbm, 216, rfl⟩
abbrev main_v130 : Ref sig .tc := ⟨.hbm, 217, rfl⟩
abbrev main_v131 : Ref sig .tc := ⟨.hbm, 218, rfl⟩
abbrev main_c_20 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_21 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_cst_22 : Ref sig .tc := ⟨.hbm, 243, rfl⟩
abbrev main_v154 : Ref sig .tc := ⟨.hbm, 244, rfl⟩
abbrev main_cst_23 : Ref sig .tc := ⟨.hbm, 245, rfl⟩
abbrev main_v155 : Ref sig .tc := ⟨.hbm, 246, rfl⟩
abbrev main_v156 : Ref sig .tc := ⟨.hbm, 247, rfl⟩
abbrev main_c_24 : Ref sig .tc := ⟨.hbm, 248, rfl⟩
abbrev main_call4_cst : Ref sig .tc := ⟨.hbm, 249, rfl⟩
abbrev main_call4_v0 : Ref sig .tc := ⟨.hbm, 250, rfl⟩
abbrev main_call4_v1 : Ref sig .tc := ⟨.hbm, 251, rfl⟩
abbrev main_call4_cst_0 : Ref sig .tc := ⟨.hbm, 252, rfl⟩
abbrev main_call4_v2 : Ref sig .tc := ⟨.hbm, 253, rfl⟩
abbrev main_call4_v3 : Ref sig .tc := ⟨.hbm, 254, rfl⟩
abbrev main_call4_v4 : Ref sig .tc := ⟨.hbm, 255, rfl⟩
abbrev main_call4_v5 : Ref sig .tc := ⟨.hbm, 256, rfl⟩
abbrev main_call4_v6 : Ref sig .tc := ⟨.hbm, 257, rfl⟩
abbrev main_call4_v7 : Ref sig .tc := ⟨.hbm, 258, rfl⟩
abbrev main_call4_cst_1 : Ref sig .tc := ⟨.hbm, 259, rfl⟩
abbrev main_call4_v8 : Ref sig .tc := ⟨.hbm, 260, rfl⟩
abbrev main_call4_cst_2 : Ref sig .tc := ⟨.hbm, 261, rfl⟩
abbrev main_call4_v9 : Ref sig .tc := ⟨.hbm, 262, rfl⟩
abbrev main_call4_v10 : Ref sig .tc := ⟨.hbm, 263, rfl⟩
abbrev main_call4_v11 : Ref sig .tc := ⟨.hbm, 264, rfl⟩
abbrev main_call4_cst_3 : Ref sig .tc := ⟨.hbm, 265, rfl⟩
abbrev main_call4_v12 : Ref sig .tc := ⟨.hbm, 266, rfl⟩
abbrev main_call4_cst_4 : Ref sig .tc := ⟨.hbm, 267, rfl⟩
abbrev main_call4_call0_v0 : Ref sig .tc := ⟨.hbm, 268, rfl⟩
abbrev main_call4_call0_v1 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_cst_25 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_v171 : Ref sig .tc := ⟨.hbm, 285, rfl⟩
abbrev main_v172 : Ref sig .tc := ⟨.hbm, 286, rfl⟩
abbrev main_call5_cst : Ref sig .tc := ⟨.hbm, 287, rfl⟩
abbrev main_call5_v0 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_c_26 : Ref sig .tc := ⟨.hbm, 293, rfl⟩
abbrev main_v177 : Ref sig .tc := ⟨.hbm, 294, rfl⟩
abbrev main_v178 : Ref sig .tc := ⟨.hbm, 295, rfl⟩
abbrev main_c_27 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_v185 : Ref sig .tc := ⟨.hbm, 303, rfl⟩
abbrev main_cst_28 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_v196 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_v200 : Ref sig .tc := ⟨.hbm, 319, rfl⟩
abbrev main_cst_29 : Ref sig .tc := ⟨.hbm, 320, rfl⟩
abbrev main_v201 : Ref sig .tc := ⟨.hbm, 321, rfl⟩
abbrev main_cst_30 : Ref sig .tc := ⟨.hbm, 322, rfl⟩
abbrev main_v202 : Ref sig .tc := ⟨.hbm, 323, rfl⟩
abbrev main_v203 : Ref sig .tc := ⟨.hbm, 324, rfl⟩
abbrev main_c_31 : Ref sig .tc := ⟨.hbm, 325, rfl⟩
abbrev main_call6_cst : Ref sig .tc := ⟨.hbm, 326, rfl⟩
abbrev main_call6_v0 : Ref sig .tc := ⟨.hbm, 327, rfl⟩
abbrev main_call6_v1 : Ref sig .tc := ⟨.hbm, 328, rfl⟩
abbrev main_call6_cst_0 : Ref sig .tc := ⟨.hbm, 329, rfl⟩
abbrev main_call6_v2 : Ref sig .tc := ⟨.hbm, 330, rfl⟩
abbrev main_call6_v3 : Ref sig .tc := ⟨.hbm, 331, rfl⟩
abbrev main_call6_v4 : Ref sig .tc := ⟨.hbm, 332, rfl⟩
abbrev main_call6_v5 : Ref sig .tc := ⟨.hbm, 333, rfl⟩
abbrev main_call6_v6 : Ref sig .tc := ⟨.hbm, 334, rfl⟩
abbrev main_call6_v7 : Ref sig .tc := ⟨.hbm, 335, rfl⟩
abbrev main_call6_cst_1 : Ref sig .tc := ⟨.hbm, 336, rfl⟩
abbrev main_call6_v8 : Ref sig .tc := ⟨.hbm, 337, rfl⟩
abbrev main_call6_cst_2 : Ref sig .tc := ⟨.hbm, 338, rfl⟩
abbrev main_call6_v9 : Ref sig .tc := ⟨.hbm, 339, rfl⟩
abbrev main_call6_v10 : Ref sig .tc := ⟨.hbm, 340, rfl⟩
abbrev main_call6_v11 : Ref sig .tc := ⟨.hbm, 341, rfl⟩
abbrev main_call6_cst_3 : Ref sig .tc := ⟨.hbm, 342, rfl⟩
abbrev main_call6_v12 : Ref sig .tc := ⟨.hbm, 343, rfl⟩
abbrev main_call6_cst_4 : Ref sig .tc := ⟨.hbm, 344, rfl⟩
abbrev main_call6_call0_v0 : Ref sig .tc := ⟨.hbm, 345, rfl⟩
abbrev main_call6_call0_v1 : Ref sig .tc := ⟨.hbm, 346, rfl⟩
abbrev main_v204 : Ref sig .tc := ⟨.hbm, 347, rfl⟩
abbrev main_v205 : Ref sig .tc := ⟨.hbm, 348, rfl⟩
abbrev main_v206 : Ref sig .tc := ⟨.hbm, 349, rfl⟩
abbrev main_v207 : Ref sig .tc := ⟨.hbm, 350, rfl⟩
abbrev main_v208 : Ref sig .tc := ⟨.hbm, 351, rfl⟩
abbrev main_v209 : Ref sig .tc := ⟨.hbm, 352, rfl⟩
abbrev main_v210 : Ref sig .tc := ⟨.hbm, 353, rfl⟩
abbrev main_cst_32 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_v215 : Ref sig .tc := ⟨.hbm, 359, rfl⟩
abbrev main_v216 : Ref sig .tc := ⟨.hbm, 360, rfl⟩
abbrev main_v217 : Ref sig .tc := ⟨.hbm, 361, rfl⟩
abbrev main_v218 : Ref sig .tc := ⟨.hbm, 362, rfl⟩
abbrev main_v219 : Ref sig .tc := ⟨.hbm, 363, rfl⟩
abbrev main_call7_cst : Ref sig .tc := ⟨.hbm, 364, rfl⟩
abbrev main_call7_v0 : Ref sig .tc := ⟨.hbm, 365, rfl⟩
abbrev main_v220 : Ref sig .tc := ⟨.hbm, 366, rfl⟩
abbrev main_cst_33 : Ref sig .tc := ⟨.hbm, 367, rfl⟩
abbrev main_v221 : Ref sig .tc := ⟨.hbm, 368, rfl⟩
abbrev main_v222 : Ref sig .tc := ⟨.hbm, 369, rfl⟩
abbrev main_v223 : Ref sig .tc := ⟨.hbm, 370, rfl⟩
abbrev main_cst_34 : Ref sig .tc := ⟨.hbm, 371, rfl⟩
abbrev main_v224 : Ref sig .tc := ⟨.hbm, 372, rfl⟩
abbrev main_cst_35 : Ref sig .tc := ⟨.hbm, 373, rfl⟩
abbrev main_v225 : Ref sig .tc := ⟨.hbm, 374, rfl⟩
abbrev main_v226 : Ref sig .tc := ⟨.hbm, 375, rfl⟩
abbrev main_v227 : Ref sig .tc := ⟨.hbm, 376, rfl⟩
abbrev main_cst_36 : Ref sig .tc := ⟨.hbm, 377, rfl⟩
abbrev main_v228 : Ref sig .tc := ⟨.hbm, 378, rfl⟩
abbrev main_v229 : Ref sig .tc := ⟨.hbm, 379, rfl⟩
abbrev main_v230 : Ref sig .tc := ⟨.hbm, 380, rfl⟩
abbrev main_v231 : Ref sig .tc := ⟨.hbm, 381, rfl⟩
abbrev main_v232 : Ref sig .tc := ⟨.hbm, 382, rfl⟩
abbrev main_v233 : Ref sig .tc := ⟨.hbm, 383, rfl⟩
abbrev main_v234 : Ref sig .tc := ⟨.hbm, 384, rfl⟩
abbrev main_v235 : Ref sig .tc := ⟨.hbm, 385, rfl⟩
abbrev main_v236 : Ref sig .tc := ⟨.hbm, 386, rfl⟩
abbrev main_cst_37 : Ref sig .tc := ⟨.hbm, 387, rfl⟩
abbrev main_v237 : Ref sig .tc := ⟨.hbm, 388, rfl⟩
abbrev main_cst_38 : Ref sig .tc := ⟨.hbm, 389, rfl⟩
abbrev main_v238 : Ref sig .tc := ⟨.hbm, 390, rfl⟩
abbrev main_v239 : Ref sig .tc := ⟨.hbm, 391, rfl⟩
abbrev main_c_39 : Ref sig .tc := ⟨.hbm, 392, rfl⟩
abbrev main_call8_cst : Ref sig .tc := ⟨.hbm, 393, rfl⟩
abbrev main_call8_v0 : Ref sig .tc := ⟨.hbm, 394, rfl⟩
abbrev main_call8_v1 : Ref sig .tc := ⟨.hbm, 395, rfl⟩
abbrev main_call8_cst_0 : Ref sig .tc := ⟨.hbm, 396, rfl⟩
abbrev main_call8_v2 : Ref sig .tc := ⟨.hbm, 397, rfl⟩
abbrev main_call8_v3 : Ref sig .tc := ⟨.hbm, 398, rfl⟩
abbrev main_call8_v4 : Ref sig .tc := ⟨.hbm, 399, rfl⟩
abbrev main_call8_v5 : Ref sig .tc := ⟨.hbm, 400, rfl⟩
abbrev main_call8_v6 : Ref sig .tc := ⟨.hbm, 401, rfl⟩
abbrev main_call8_v7 : Ref sig .tc := ⟨.hbm, 402, rfl⟩
abbrev main_call8_cst_1 : Ref sig .tc := ⟨.hbm, 403, rfl⟩
abbrev main_call8_v8 : Ref sig .tc := ⟨.hbm, 404, rfl⟩
abbrev main_call8_cst_2 : Ref sig .tc := ⟨.hbm, 405, rfl⟩
abbrev main_call8_v9 : Ref sig .tc := ⟨.hbm, 406, rfl⟩
abbrev main_call8_v10 : Ref sig .tc := ⟨.hbm, 407, rfl⟩
abbrev main_call8_v11 : Ref sig .tc := ⟨.hbm, 408, rfl⟩
abbrev main_call8_cst_3 : Ref sig .tc := ⟨.hbm, 409, rfl⟩
abbrev main_call8_v12 : Ref sig .tc := ⟨.hbm, 410, rfl⟩
abbrev main_call8_cst_4 : Ref sig .tc := ⟨.hbm, 411, rfl⟩
abbrev main_call8_call0_v0 : Ref sig .tc := ⟨.hbm, 412, rfl⟩
abbrev main_call8_call0_v1 : Ref sig .tc := ⟨.hbm, 413, rfl⟩
abbrev main_v240 : Ref sig .tc := ⟨.hbm, 414, rfl⟩
abbrev main_v241 : Ref sig .tc := ⟨.hbm, 415, rfl⟩
abbrev main_v242 : Ref sig .tc := ⟨.hbm, 416, rfl⟩
abbrev main_v243 : Ref sig .tc := ⟨.hbm, 417, rfl⟩
abbrev main_v244 : Ref sig .tc := ⟨.hbm, 418, rfl⟩
abbrev main_v245 : Ref sig .tc := ⟨.hbm, 419, rfl⟩
abbrev main_v246 : Ref sig .tc := ⟨.hbm, 420, rfl⟩
abbrev main_cst_40 : Ref sig .tc := ⟨.hbm, 421, rfl⟩
abbrev main_v247 : Ref sig .tc := ⟨.hbm, 422, rfl⟩
abbrev main_v248 : Ref sig .tc := ⟨.hbm, 423, rfl⟩
abbrev main_v249 : Ref sig .tc := ⟨.hbm, 424, rfl⟩
abbrev main_v250 : Ref sig .tc := ⟨.hbm, 425, rfl⟩
abbrev main_v251 : Ref sig .tc := ⟨.hbm, 426, rfl⟩
abbrev main_v252 : Ref sig .tc := ⟨.hbm, 427, rfl⟩
abbrev main_v253 : Ref sig .tc := ⟨.hbm, 428, rfl⟩
abbrev main_v254 : Ref sig .tc := ⟨.hbm, 429, rfl⟩
abbrev main_v255 : Ref sig .tc := ⟨.hbm, 430, rfl⟩
abbrev main_call9_cst : Ref sig .tc := ⟨.hbm, 431, rfl⟩
abbrev main_call9_v0 : Ref sig .tc := ⟨.hbm, 432, rfl⟩
abbrev main_v256 : Ref sig .tc := ⟨.hbm, 433, rfl⟩
abbrev main_v257 : Ref sig .tc := ⟨.hbm, 434, rfl⟩
abbrev main_v258 : Ref sig .tc := ⟨.hbm, 435, rfl⟩
abbrev main_v259 : Ref sig .tc := ⟨.hbm, 436, rfl⟩
abbrev main_v260 : Ref sig .tc := ⟨.hbm, 437, rfl⟩
abbrev main_cst_41 : Ref sig .tc := ⟨.hbm, 438, rfl⟩
abbrev main_v261 : Ref sig .tc := ⟨.hbm, 439, rfl⟩
abbrev main_cst_42 : Ref sig .tc := ⟨.hbm, 440, rfl⟩
abbrev main_v262 : Ref sig .tc := ⟨.hbm, 441, rfl⟩
abbrev main_v263 : Ref sig .tc := ⟨.hbm, 442, rfl⟩
abbrev main_c_43 : Ref sig .tc := ⟨.hbm, 443, rfl⟩
abbrev main_call10_cst : Ref sig .tc := ⟨.hbm, 444, rfl⟩
abbrev main_call10_v0 : Ref sig .tc := ⟨.hbm, 445, rfl⟩
abbrev main_call10_v1 : Ref sig .tc := ⟨.hbm, 446, rfl⟩
abbrev main_call10_cst_0 : Ref sig .tc := ⟨.hbm, 447, rfl⟩
abbrev main_call10_v2 : Ref sig .tc := ⟨.hbm, 448, rfl⟩
abbrev main_call10_v3 : Ref sig .tc := ⟨.hbm, 449, rfl⟩
abbrev main_call10_v4 : Ref sig .tc := ⟨.hbm, 450, rfl⟩
abbrev main_call10_v5 : Ref sig .tc := ⟨.hbm, 451, rfl⟩
abbrev main_call10_v6 : Ref sig .tc := ⟨.hbm, 452, rfl⟩
abbrev main_call10_v7 : Ref sig .tc := ⟨.hbm, 453, rfl⟩
abbrev main_call10_cst_1 : Ref sig .tc := ⟨.hbm, 454, rfl⟩
abbrev main_call10_v8 : Ref sig .tc := ⟨.hbm, 455, rfl⟩
abbrev main_call10_cst_2 : Ref sig .tc := ⟨.hbm, 456, rfl⟩
abbrev main_call10_v9 : Ref sig .tc := ⟨.hbm, 457, rfl⟩
abbrev main_call10_v10 : Ref sig .tc := ⟨.hbm, 458, rfl⟩
abbrev main_call10_v11 : Ref sig .tc := ⟨.hbm, 459, rfl⟩
abbrev main_call10_cst_3 : Ref sig .tc := ⟨.hbm, 460, rfl⟩
abbrev main_call10_v12 : Ref sig .tc := ⟨.hbm, 461, rfl⟩
abbrev main_call10_cst_4 : Ref sig .tc := ⟨.hbm, 462, rfl⟩
abbrev main_call10_call0_v0 : Ref sig .tc := ⟨.hbm, 463, rfl⟩
abbrev main_call10_call0_v1 : Ref sig .tc := ⟨.hbm, 464, rfl⟩
abbrev main_v264 : Ref sig .tc := ⟨.hbm, 465, rfl⟩
abbrev main_v265 : Ref sig .tc := ⟨.hbm, 466, rfl⟩
abbrev main_v266 : Ref sig .tc := ⟨.hbm, 467, rfl⟩
abbrev main_v267 : Ref sig .tc := ⟨.hbm, 468, rfl⟩
abbrev main_v268 : Ref sig .tc := ⟨.hbm, 469, rfl⟩
abbrev main_v269 : Ref sig .tc := ⟨.hbm, 470, rfl⟩
abbrev main_v270 : Ref sig .tc := ⟨.hbm, 471, rfl⟩
abbrev main_cst_44 : Ref sig .tc := ⟨.hbm, 472, rfl⟩
abbrev main_v271 : Ref sig .tc := ⟨.hbm, 473, rfl⟩
abbrev main_v272 : Ref sig .tc := ⟨.hbm, 474, rfl⟩
abbrev main_v273 : Ref sig .tc := ⟨.hbm, 475, rfl⟩
abbrev main_v274 : Ref sig .tc := ⟨.hbm, 476, rfl⟩
abbrev main_v275 : Ref sig .tc := ⟨.hbm, 477, rfl⟩
abbrev main_v276 : Ref sig .tc := ⟨.hbm, 478, rfl⟩
abbrev main_v277 : Ref sig .tc := ⟨.hbm, 479, rfl⟩
abbrev main_v278 : Ref sig .tc := ⟨.hbm, 480, rfl⟩
abbrev main_v279 : Ref sig .tc := ⟨.hbm, 481, rfl⟩
abbrev main_v280 : Ref sig .tc := ⟨.hbm, 482, rfl⟩
abbrev main_v281 : Ref sig .tc := ⟨.hbm, 483, rfl⟩
abbrev main_v282 : Ref sig .tc := ⟨.hbm, 484, rfl⟩
abbrev main_v283 : Ref sig .tc := ⟨.hbm, 485, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S20000_S20000x1_0 : S20000.BroadcastsInDim S20000x1 (![0] : Fin 1 → Fin S20000x1.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S4x256x256_S1x256x256_0_0_0 : S4x256x256.Slices ![0, 0, 0] S1x256x256
  shapeCasts_S1x256x256_S256x256 : S1x256x256.ShapeCasts S256x256
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  slices_S4x256_S1x256_0_0 : S4x256.Slices ![0, 0] S1x256
  shapeCasts_S1x256_S256 : S1x256.ShapeCasts S256
  reducesTo_S20000x256_S256_d0 : S20000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S1x256_S128x256_0_1 : S1x256.BroadcastsInDim S128x256 (![0, 1] : Fin 2 → Fin S128x256.rank)
  reducesTo_S128x256_S256_d0 : S128x256.ReducesTo [0] S256
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  dot_S20000x128_S128x256_S20000x256_1_0_0_1_n_n_wf : DotDims.WF S20000x128 S128x256 S20000x256 [1] [0] [0] [1] [] []
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S128x256_S20000x1_S20000x256_1_0_0_1_wf : ScatterDims.WF S128x256 S20000x1 S20000x256 [1] [0] [0] 1
  scatter_S128_S20000x1_S20000_n_0_0_1_wf : ScatterDims.WF S128 S20000x1 S20000 [] [0] [0] 1
  dot_S128x256_S256x256_S128x256_1_0_0_1_n_n_wf : DotDims.WF S128x256 S256x256 S128x256 [1] [0] [0] [1] [] []
  dot_S128x256_S256x10_S128x10_1_0_0_1_n_n_wf : DotDims.WF S128x256 S256x10 S128x10 [1] [0] [0] [1] [] []

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S128x256_S20000x1_S20000x256_1_0_0_1 : ScatterDims S128x256 S20000x1 S20000x256 where
  updateWindowDims := [1]
  insertedWindowDims := [0]
  scatterDimsToOperandDims := [0]
  indexVectorDim := 1
  wf := scatter_S128x256_S20000x1_S20000x256_1_0_0_1_wf
def scatter_S128_S20000x1_S20000_n_0_0_1 : ScatterDims S128 S20000x1 S20000 where
  updateWindowDims := []
  insertedWindowDims := [0]
  scatterDimsToOperandDims := [0]
  indexVectorDim := 1
  wf := scatter_S128_S20000x1_S20000_n_0_0_1_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

class Facts : Prop extends Facts₀ where

variable [Facts]
-- ==== Proof.RefOps.lean ====
import proofs.«404594_j87462714015857_2_alg».proof.ReferenceIdeal
import proofs.«404594_j87462714015857_2_alg».proof.Proof.Gen.ReferenceIdeal
import Idealize.ShloMosaic.Lib.StableHlo.Run

noncomputable section

namespace Cert.ReferenceIdeal.Hand

open Idealize.ShloMosaic Idealize.SL.Sem Cert.ReferenceIdeal Cert.ReferenceIdeal.Facts₀

variable {F : FTy → Type} [FloatOps F]

/-- 43 operations. -/
abbrev rA : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_cst (constant S_ .f32 0x3F800000#32),
    StableHlo.unary main_cst main_v4 (broadcastInDim S320000 ![] bcast_S_S320000 : (⟨S_, .f32⟩ : BufTy).Contents (Elt F) → (⟨S320000, .f32⟩ : BufTy).Contents (Elt F)),
    StableHlo.nullary main_cst_0 (constant S_ .f32 0x00000000#32),
    StableHlo.unary main_cst_0 main_v5 (broadcastInDim S20000 ![] bcast_S_S20000 : (⟨S_, .f32⟩ : BufTy).Contents (Elt F) → (⟨S20000, .f32⟩ : BufTy).Contents (Elt F)),
    StableHlo.unary main_v3 main_v6 (broadcastInDim S320000x1 ![0] bcast_S320000_S320000x1_0 : (⟨S320000, .i32⟩ : BufTy).Contents (Elt F) → (⟨S320000x1, .i32⟩ : BufTy).Contents (Elt F)),
    StableHlo.ternary main_v5 main_v6 main_v4 main_v7 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_1 (constant S_ .f32 0x3F800000#32),
    StableHlo.unary main_cst_1 main_v8 (broadcastInDim S20000 ![] bcast_S_S20000 : (⟨S_, .f32⟩ : BufTy).Contents (Elt F) → (⟨S20000, .f32⟩ : BufTy).Contents (Elt F)),
    StableHlo.binary main_v7 main_v8 main_v9 (addf : (⟨S20000, .f32⟩ : BufTy).Contents (Elt F) → (⟨S20000, .f32⟩ : BufTy).Contents (Elt F) → (⟨S20000, .f32⟩ : BufTy).Contents (Elt F)),
    StableHlo.unary main_v9 main_v10 (Host.rsqrt : (⟨S20000, .f32⟩ : BufTy).Contents (Elt F) → (⟨S20000, .f32⟩ : BufTy).Contents (Elt F)),
    StableHlo.nullary main_c (constantI S_ 32 0#32),
    StableHlo.unary main_c main_v11 (broadcastInDim S320000 ![] bcast_S_S320000 : (⟨S_, .i32⟩ : BufTy).Contents (Elt F) → (⟨S320000, .i32⟩ : BufTy).Contents (Elt F)),
    StableHlo.binary main_v1 main_v11 main_v12 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 20000#32),
    StableHlo.unary main_c_2 main_v13 (broadcastInDim S320000 ![] bcast_S_S320000 : (⟨S_, .i32⟩ : BufTy).Contents (Elt F) → (⟨S320000, .i32⟩ : BufTy).Contents (Elt F)),
    StableHlo.binary main_v1 main_v13 main_v14 (addi : (⟨S320000, .i32⟩ : BufTy).Contents (Elt F) → (⟨S320000, .i32⟩ : BufTy).Contents (Elt F) → (⟨S320000, .i32⟩ : BufTy).Contents (Elt F)),
    StableHlo.ternary main_v12 main_v14 main_v1 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v15 main_v16 (broadcastInDim S320000x1 ![0] bcast_S320000_S320000x1_0 : (⟨S320000, .i32⟩ : BufTy).Contents (Elt F) → (⟨S320000x1, .i32⟩ : BufTy).Contents (Elt F)),
    StableHlo.binary main_v10 main_v16 main_v17 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    StableHlo.nullary main_c_3 (constantI S_ 32 0#32),
    StableHlo.unary main_c_3 main_v18 (broadcastInDim S320000 ![] bcast_S_S320000 : (⟨S_, .i32⟩ : BufTy).Contents (Elt F) → (⟨S320000, .i32⟩ : BufTy).Contents (Elt F)),
    StableHlo.binary main_v3 main_v18 main_v19 (cmpi .slt : (⟨S320000, .i32⟩ : BufTy).Contents (Elt F) → (⟨S320000, .i32⟩ : BufTy).Contents (Elt F) → (⟨S320000, .i1⟩ : BufTy).Contents (Elt F)),
    StableHlo.nullary main_c_4 (constantI S_ 32 20000#32),
    StableHlo.unary main_c_4 main_v20 (broadcastInDim S320000 ![] bcast_S_S320000 : (⟨S_, .i32⟩ : BufTy).Contents (Elt F) → (⟨S320000, .i32⟩ : BufTy).Contents (Elt F)),
    StableHlo.binary main_v3 main_v20 main_v21 (addi : (⟨S320000, .i32⟩ : BufTy).Contents (Elt F) → (⟨S320000, .i32⟩ : BufTy).Contents (Elt F) → (⟨S320000, .i32⟩ : BufTy).Contents (Elt F)),
    StableHlo.ternary main_v19 main_v21 main_v3 main_v22 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v22 main_v23 (broadcastInDim S320000x1 ![0] bcast_S320000_S320000x1_0 : (⟨S320000, .i32⟩ : BufTy).Contents (Elt F) → (⟨S320000x1, .i32⟩ : BufTy).Contents (Elt F)),
    StableHlo.binary main_v10 main_v23 main_v24 ((fun x i => Host.gather gather_S20000_S320000x1_S320000_n_0_n_n_0_1_1 x i) : (⟨S20000, .f32⟩ : BufTy).Contents (Elt F) → (⟨S320000x1, .i32⟩ : BufTy).Contents (Elt F) → (⟨S320000, .f32⟩ : BufTy).Contents (Elt F)),
    StableHlo.binary main_v17 main_v24 main_v25 (mulf : (⟨S320000, .f32⟩ : BufTy).Contents (Elt F) → (⟨S320000, .f32⟩ : BufTy).Contents (Elt F) → (⟨S320000, .f32⟩ : BufTy).Contents (Elt F)),
    StableHlo.unary main_v25 main_v26 (broadcastInDim S320000x1 ![0] bcast_S320000_S320000x1_0 : (⟨S320000, .f32⟩ : BufTy).Contents (Elt F) → (⟨S320000x1, .f32⟩ : BufTy).Contents (Elt F)),
    StableHlo.binary main_v10 main_v10 main_v27 (mulf : (⟨S20000, .f32⟩ : BufTy).Contents (Elt F) → (⟨S20000, .f32⟩ : BufTy).Contents (Elt F) → (⟨S20000, .f32⟩ : BufTy).Contents (Elt F)),
    StableHlo.unary main_v27 main_v28 (broadcastInDim S20000x1 ![0] bcast_S20000_S20000x1_0 : (⟨S20000, .f32⟩ : BufTy).Contents (Elt F) → (⟨S20000x1, .f32⟩ : BufTy).Contents (Elt F)),
    StableHlo.binary main_arg0 main_arg3 main_v29 ((fun l r => Host.dotGeneral dot_S20000x128_S128x256_S20000x256_1_0_0_1_n_n none l r) : (⟨S20000x128, .f32⟩ : BufTy).Contents (Elt F) → (⟨S128x256, .f32⟩ : BufTy).Contents (Elt F) → (⟨S20000x256, .f32⟩ : BufTy).Contents (Elt F)),
    StableHlo.unary main_arg4 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S20000x256 ![0, 1] bcast_S1x256_S20000x256_0_1 : (⟨S1x256, .f32⟩ : BufTy).Contents (Elt F) → (⟨S20000x256, .f32⟩ : BufTy).Contents (Elt F)),
    StableHlo.binary main_v29 main_v31 main_v32 (addf : (⟨S20000x256, .f32⟩ : BufTy).Contents (Elt F) → (⟨S20000x256, .f32⟩ : BufTy).Contents (Elt F) → (⟨S20000x256, .f32⟩ : BufTy).Contents (Elt F)),
    StableHlo.unary main_arg5 main_v33 ((extractStridedSlice S1x256x256 ![0, 0, 0] · slices_S4x256x256_S1x256x256_0_0_0) : (⟨S4x256x256, .f32⟩ : BufTy).Contents (Elt F) → (⟨S1x256x256, .f32⟩ : BufTy).Contents (Elt F)),
    StableHlo.reshape main_v33 main_v34 rfl shapeCasts_S1x256x256_S256x256,
    StableHlo.binary main_v32 main_v34 main_v35 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

theorem rA_sub : (rA : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.binary_bufs_sub ..⟩

/-- 77 operations. -/
abbrev rL1 : List (HloOp τ sig (Elt F)) :=
  [ StableHlo.nullary main_c_5 (constantI S_ 32 0#32),
    StableHlo.unary main_c_5 main_v36 (broadcastInDim S320000 ![] bcast_S_S320000 : (⟨S_, .i32⟩ : BufTy).Contents (Elt F) → (⟨S320000, .i32⟩ : BufTy).Contents (Elt F)),
    StableHlo.binary main_v1 main_v36 main_v37 (cmpi .slt : (⟨S320000, .i32⟩ : BufTy).Contents (Elt F) → (⟨S320000, .i32⟩ : BufTy).Contents (Elt F) → (⟨S320000, .i1⟩ : BufTy).Contents (Elt F)),
    StableHlo.nullary main_c_6 (constantI S_ 32 20000#32),
    StableHlo.unary main_c_6 main_v38 (broadcastInDim S320000 ![] bcast_S_S320000 : (⟨S_, .i32⟩ : BufTy).Contents (Elt F) → (⟨S320000, .i32⟩ : BufTy).Contents (Elt F)),
    StableHlo.binary main_v1 main_v38 main_v39 (addi : (⟨S320000, .i32⟩ : BufTy).Contents (Elt F) → (⟨S320000, .i32⟩ : BufTy).Contents (Elt F) → (⟨S320000, .i32⟩ : BufTy).Contents (Elt F)),
    StableHlo.ternary main_v37 main_v39 main_v1 main_v40 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v40 main_v41 (broadcastInDim S320000x1 ![0] bcast_S320000_S320000x1_0 : (⟨S320000, .i32⟩ : BufTy).Contents (Elt F) → (⟨S320000x1, .i32⟩ : BufTy).Contents (Elt F)),
    StableHlo.binary main_v35 main_v41 main_v42 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_v26 main_v43 (broadcastInDim S320000x256 ![0, 1] bcast_S320000x1_S320000x256_0_1 : (⟨S320000x1, .f32⟩ : BufTy).Contents (Elt F) → (⟨S320000x256, .f32⟩ : BufTy).Contents (Elt F)),
    StableHlo.binary main_v42 main_v43 main_v44 (mulf : (⟨S320000x256, .f32⟩ : BufTy).Contents (Elt F) → (⟨S320000x256, .f32⟩ : BufTy).Contents (Elt F) → (⟨S320000x256, .f32⟩ : BufTy).Contents (Elt F)),
    StableHlo.nullary main_cst_7 (constant S_ .f32 0x00000000#32),
    StableHlo.unary main_cst_7 main_v45 (broadcastInDim S20000x256 ![] bcast_S_S20000x256 : (⟨S_, .f32⟩ : BufTy).Contents (Elt F) → (⟨S20000x256, .f32⟩ : BufTy).Contents (Elt F)),
    StableHlo.unary main_v3 main_v46 (broadcastInDim S320000x1 ![0] bcast_S320000_S320000x1_0 : (⟨S320000, .i32⟩ : BufTy).Contents (Elt F) → (⟨S320000x1, .i32⟩ : BufTy).Contents (Elt F)),
    StableHlo.ternary main_v45 main_v46 main_v44 main_v47 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v28 main_v48 (broadcastInDim S20000x256 ![0, 1] bcast_S20000x1_S20000x256_0_1 : (⟨S20000x1, .f32⟩ : BufTy).Contents (Elt F) → (⟨S20000x256, .f32⟩ : BufTy).Contents (Elt F)),
    StableHlo.binary main_v35 main_v48 main_v49 (mulf : (⟨S20000x256, .f32⟩ : BufTy).Contents (Elt F) → (⟨S20000x256, .f32⟩ : BufTy).Contents (Elt F) → (⟨S20000x256, .f32⟩ : BufTy).Contents (Elt F)),
    StableHlo.binary main_v47 main_v49 main_v50 (addf : (⟨S20000x256, .f32⟩ : BufTy).Contents (Elt F) → (⟨S20000x256, .f32⟩ : BufTy).Contents (Elt F) → (⟨S20000x256, .f32⟩ : BufTy).Contents (Elt F)),
    StableHlo.unary main_arg6 main_v51 ((extractStridedSlice S1x256 ![0, 0] · slices_S4x256_S1x256_0_0) : (⟨S4x256, .f32⟩ : BufTy).Contents (Elt F) → (⟨S1x256, .f32⟩ : BufTy).Contents (Elt F)),
    StableHlo.reshape main_v51 main_v52 rfl shapeCasts_S1x256_S256,
    StableHlo.unary main_v52 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S20000x256 ![0, 1] bcast_S1x256_S20000x256_0_1 : (⟨S1x256, .f32⟩ : BufTy).Contents (Elt F) → (⟨S20000x256, .f32⟩ : BufTy).Contents (Elt F)),
    StableHlo.binary main_v50 main_v54 main_v55 (addf : (⟨S20000x256, .f32⟩ : BufTy).Contents (Elt F) → (⟨S20000x256, .f32⟩ : BufTy).Contents (Elt F) → (⟨S20000x256, .f32⟩ : BufTy).Contents (Elt F)),
    StableHlo.unary main_arg7 main_v56 ((extractStridedSlice S1x256 ![0, 0] · slices_S4x256_S1x256_0_0) : (⟨S4x256, .f32⟩ : BufTy).Contents (Elt F) → (⟨S1x256, .f32⟩ : BufTy).Contents (Elt F)),
    StableHlo.reshape main_v56 main_v57 rfl shapeCasts_S1x256_S256,
    StableHlo.unary main_arg8 main_v58 ((extractStridedSlice S1x256 ![0, 0] · slices_S4x256_S1x256_0_0) : (⟨S4x256, .f32⟩ : BufTy).Contents (Elt F) → (⟨S1x256, .f32⟩ : BufTy).Contents (Elt F)),
    StableHlo.reshape main_v58 main_v59 rfl shapeCasts_S1x256_S256,
    StableHlo.nullary main_cst_8 (constant S_ .f32 0x00000000#32),
    StableHlo.binary main_v55 main_cst_8 main_v60 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_9 (constant S_ .f32 0x469C4000#32),
    StableHlo.unary main_cst_9 main_v61 (broadcastInDim S256 ![] bcast_S_S256 : (⟨S_, .f32⟩ : BufTy).Contents (Elt F) → (⟨S256, .f32⟩ : BufTy).Contents (Elt F)),
    StableHlo.binary main_v60 main_v61 main_v62 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32),
    StableHlo.TRef.nullary main_call0.cst (constant S_ .f32 0x00000000#32),
    StableHlo.TRef.binary (.of main_v55) main_call0.cst main_call0.v0 (fun x v => Host.reduceAdd x v reducesTo_S20000x256_S256_d0 h_S_),
    StableHlo.TRef.unary main_call0.v0 main_call0.v1 (broadcastInDim S1x256 ![1] bcast_S256_S1x256_1),
    StableHlo.TRef.nullary main_call0.cst_0 (constant S_ .f32 0x469C4000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S20000x256 ![0, 1] bcast_S1x256_S20000x256_0_1),
    StableHlo.TRef.binary (.of main_v55) main_call0.v4 main_call0.v5 subf,
    StableHlo.TRef.binary main_call0.v5 main_call0.v5 main_call0.v6 mulf,
    StableHlo.TRef.unary (.of main_c_10) main_call0.v7 (sitofp .f32),
    StableHlo.TRef.nullary main_call0.cst_1 (constant S_ .f32 0x469C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S20000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v62 main_v64 (broadcastInDim S1x256 ![1] bcast_S256_S1x256_1 : (⟨S256, .f32⟩ : BufTy).Contents (Elt F) → (⟨S1x256, .f32⟩ : BufTy).Contents (Elt F)),
    StableHlo.unary main_v64 main_v65 (broadcastInDim S20000x256 ![0, 1] bcast_S1x256_S20000x256_0_1 : (⟨S1x256, .f32⟩ : BufTy).Contents (Elt F) → (⟨S20000x256, .f32⟩ : BufTy).Contents (Elt F)),
    StableHlo.binary main_v55 main_v65 main_v66 (subf : (⟨S20000x256, .f32⟩ : BufTy).Contents (Elt F) → (⟨S20000x256, .f32⟩ : BufTy).Contents (Elt F) → (⟨S20000x256, .f32⟩ : BufTy).Contents (Elt F)),
    StableHlo.unary main_v57 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S20000x256 ![0, 1] bcast_S1x256_S20000x256_0_1 : (⟨S1x256, .f32⟩ : BufTy).Contents (Elt F) → (⟨S20000x256, .f32⟩ : BufTy).Contents (Elt F)),
    StableHlo.binary main_v68 main_v66 main_v69 (mulf : (⟨S20000x256, .f32⟩ : BufTy).Contents (Elt F) → (⟨S20000x256, .f32⟩ : BufTy).Contents (Elt F) → (⟨S20000x256, .f32⟩ : BufTy).Contents (Elt F)),
    StableHlo.nullary main_cst_11 (constant S_ .f32 0x3727C5AC#32),
    StableHlo.unary main_cst_11 main_v70 (broadcastInDim S256 ![] bcast_S_S256 : (⟨S_, .f32⟩ : BufTy).Contents (Elt F) → (⟨S256, .f32⟩ : BufTy).Contents (Elt F)),
    StableHlo.binary main_v63 main_v70 main_v71 (addf : (⟨S256, .f32⟩ : BufTy).Contents (Elt F) → (⟨S256, .f32⟩ : BufTy).Contents (Elt F) → (⟨S256, .f32⟩ : BufTy).Contents (Elt F)),
    StableHlo.unary main_v71 main_v72 (Host.rsqrt : (⟨S256, .f32⟩ : BufTy).Contents (Elt F) → (⟨S256, .f32⟩ : BufTy).Contents (Elt F)),
    StableHlo.unary main_v72 main_v73 (broadcastInDim S1x256 ![1] bcast_S256_S1x256_1 : (⟨S256, .f32⟩ : BufTy).Contents (Elt F) → (⟨S1x256, .f32⟩ : BufTy).Contents (Elt F)),
    StableHlo.unary main_v73 main_v74 (broadcastInDim S20000x256 ![0, 1] bcast_S1x256_S20000x256_0_1 : (⟨S1x256, .f32⟩ : BufTy).Contents (Elt F) → (⟨S20000x256, .f32⟩ : BufTy).Contents (Elt F)),
    StableHlo.binary main_v69 main_v74 main_v75 (mulf : (⟨S20000x256, .f32⟩ : BufTy).Contents (Elt F) → (⟨S20000x256, .f32⟩ : BufTy).Contents (Elt F) → (⟨S20000x256, .f32⟩ : BufTy).Contents (Elt F)),
    StableHlo.unary main_v59 main_v76 (broadcastInDim S1x256 ![1] bcast_S256_S1x256_1 : (⟨S256, .f32⟩ : BufTy).Contents (Elt F) → (⟨S1x256, .f32⟩ : BufTy).Contents (Elt F)),
    StableHlo.unary main_v76 main_v77 (broadcastInDim S20000x256 ![0, 1] bcast_S1x256_S20000x256_0_1 : (⟨S1x256, .f32⟩ : BufTy).Contents (Elt F) → (⟨S20000x256, .f32⟩ : BufTy).Contents (Elt F)),
    StableHlo.binary main_v75 main_v77 main_v78 (addf : (⟨S20000x256, .f32⟩ : BufTy).Contents (Elt F) → (⟨S20000x256, .f32⟩ : BufTy).Contents (Elt F) → (⟨S20000x256, .f32⟩ : BufTy).Contents (Elt F)),
    StableHlo.TRef.nullary main_call1.cst (constant S_ .f32 0x00000000#32),
    StableHlo.TRef.unary main_call1.cst main_call1.v0 (broadcastInDim S20000x256 ![] bcast_S_S20000x256),
    StableHlo.TRef.binary (.of main_v78) main_call1.v0 main_call1.v1 maximumf,
    StableHlo.unary main_arg5 main_v80 ((extractStridedSlice S1x256x256 ![1, 0, 0] · slices_S4x256x256_S1x256x256_1_0_0) : (⟨S4x256x256, .f32⟩ : BufTy).Contents (Elt F) → (⟨S1x256x256, .f32⟩ : BufTy).Contents (Elt F)),
    StableHlo.reshape main_v80 main_v81 rfl shapeCasts_S1x256x256_S256x256,
    StableHlo.binary main_v79 main_v81 main_v82 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

theorem rL1_sub : (rL1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub ..⟩

/-- 77 operations. -/
abbrev rL2 : List (HloOp τ sig (Elt F)) :=
  [ StableHlo.nullary main_c_12 (constantI S_ 32 0#32),
    StableHlo.unary main_c_12 main_v83 (broadcastInDim S320000 ![] bcast_S_S320000 : (⟨S_, .i32⟩ : BufTy).Contents (Elt F) → (⟨S320000, .i32⟩ : BufTy).Contents (Elt F)),
    StableHlo.binary main_v1 main_v83 main_v84 (cmpi .slt : (⟨S320000, .i32⟩ : BufTy).Contents (Elt F) → (⟨S320000, .i32⟩ : BufTy).Contents (Elt F) → (⟨S320000, .i1⟩ : BufTy).Contents (Elt F)),
    StableHlo.nullary main_c_13 (constantI S_ 32 20000#32),
    StableHlo.unary main_c_13 main_v85 (broadcastInDim S320000 ![] bcast_S_S320000 : (⟨S_, .i32⟩ : BufTy).Contents (Elt F) → (⟨S320000, .i32⟩ : BufTy).Contents (Elt F)),
    StableHlo.binary main_v1 main_v85 main_v86 (addi : (⟨S320000, .i32⟩ : BufTy).Contents (Elt F) → (⟨S320000, .i32⟩ : BufTy).Contents (Elt F) → (⟨S320000, .i32⟩ : BufTy).Contents (Elt F)),
    StableHlo.ternary main_v84 main_v86 main_v1 main_v87 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v87 main_v88 (broadcastInDim S320000x1 ![0] bcast_S320000_S320000x1_0 : (⟨S320000, .i32⟩ : BufTy).Contents (Elt F) → (⟨S320000x1, .i32⟩ : BufTy).Contents (Elt F)),
    StableHlo.binary main_v82 main_v88 main_v89 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_v26 main_v90 (broadcastInDim S320000x256 ![0, 1] bcast_S320000x1_S320000x256_0_1 : (⟨S320000x1, .f32⟩ : BufTy).Contents (Elt F) → (⟨S320000x256, .f32⟩ : BufTy).Contents (Elt F)),
    StableHlo.binary main_v89 main_v90 main_v91 (mulf : (⟨S320000x256, .f32⟩ : BufTy).Contents (Elt F) → (⟨S320000x256, .f32⟩ : BufTy).Contents (Elt F) → (⟨S320000x256, .f32⟩ : BufTy).Contents (Elt F)),
    StableHlo.nullary main_cst_14 (constant S_ .f32 0x00000000#32),
    StableHlo.unary main_cst_14 main_v92 (broadcastInDim S20000x256 ![] bcast_S_S20000x256 : (⟨S_, .f32⟩ : BufTy).Contents (Elt F) → (⟨S20000x256, .f32⟩ : BufTy).Contents (Elt F)),
    StableHlo.unary main_v3 main_v93 (broadcastInDim S320000x1 ![0] bcast_S320000_S320000x1_0 : (⟨S320000, .i32⟩ : BufTy).Contents (Elt F) → (⟨S320000x1, .i32⟩ : BufTy).Contents (Elt F)),
    StableHlo.ternary main_v92 main_v93 main_v91 main_v94 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v28 main_v95 (broadcastInDim S20000x256 ![0, 1] bcast_S20000x1_S20000x256_0_1 : (⟨S20000x1, .f32⟩ : BufTy).Contents (Elt F) → (⟨S20000x256, .f32⟩ : BufTy).Contents (Elt F)),
    StableHlo.binary main_v82 main_v95 main_v96 (mulf : (⟨S20000x256, .f32⟩ : BufTy).Contents (Elt F) → (⟨S20000x256, .f32⟩ : BufTy).Contents (Elt F) → (⟨S20000x256, .f32⟩ : BufTy).Contents (Elt F)),
    StableHlo.binary main_v94 main_v96 main_v97 (addf : (⟨S20000x256, .f32⟩ : BufTy).Contents (Elt F) → (⟨S20000x256, .f32⟩ : BufTy).Contents (Elt F) → (⟨S20000x256, .f32⟩ : BufTy).Contents (Elt F)),
    StableHlo.unary main_arg6 main_v98 ((extractStridedSlice S1x256 ![1, 0] · slices_S4x256_S1x256_1_0) : (⟨S4x256, .f32⟩ : BufTy).Contents (Elt F) → (⟨S1x256, .f32⟩ : BufTy).Contents (Elt F)),
    StableHlo.reshape main_v98 main_v99 rfl shapeCasts_S1x256_S256,
    StableHlo.unary main_v99 main_v100 (broadcastInDim S1x256 ![1] bcast_S256_S1x256_1 : (⟨S256, .f32⟩ : BufTy).Contents (Elt F) → (⟨S1x256, .f32⟩ : BufTy).Contents (Elt F)),
    StableHlo.unary main_v100 main_v101 (broadcastInDim S20000x256 ![0, 1] bcast_S1x256_S20000x256_0_1 : (⟨S1x256, .f32⟩ : BufTy).Contents (Elt F) → (⟨S20000x256, .f32⟩ : BufTy).Contents (Elt F)),
    StableHlo.binary main_v97 main_v101 main_v102 (addf : (⟨S20000x256, .f32⟩ : BufTy).Contents (Elt F) → (⟨S20000x256, .f32⟩ : BufTy).Contents (Elt F) → (⟨S20000x256, .f32⟩ : BufTy).Contents (Elt F)),
    StableHlo.unary main_arg7 main_v103 ((extractStridedSlice S1x256 ![1, 0] · slices_S4x256_S1x256_1_0) : (⟨S4x256, .f32⟩ : BufTy).Contents (Elt F) → (⟨S1x256, .f32⟩ : BufTy).Contents (Elt F)),
    StableHlo.reshape main_v103 main_v104 rfl shapeCasts_S1x256_S256,
    StableHlo.unary main_arg8 main_v105 ((extractStridedSlice S1x256 ![1, 0] · slices_S4x256_S1x256_1_0) : (⟨S4x256, .f32⟩ : BufTy).Contents (Elt F) → (⟨S1x256, .f32⟩ : BufTy).Contents (Elt F)),
    StableHlo.reshape main_v105 main_v106 rfl shapeCasts_S1x256_S256,
    StableHlo.nullary main_cst_15 (constant S_ .f32 0x00000000#32),
    StableHlo.binary main_v102 main_cst_15 main_v107 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_16 (constant S_ .f32 0x469C4000#32),
    StableHlo.unary main_cst_16 main_v108 (broadcastInDim S256 ![] bcast_S_S256 : (⟨S_, .f32⟩ : BufTy).Contents (Elt F) → (⟨S256, .f32⟩ : BufTy).Contents (Elt F)),
    StableHlo.binary main_v107 main_v108 main_v109 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32),
    StableHlo.TRef.nullary main_call2.cst (constant S_ .f32 0x00000000#32),
    StableHlo.TRef.binary (.of main_v102) main_call2.cst main_call2.v0 (fun x v => Host.reduceAdd x v reducesTo_S20000x256_S256_d0 h_S_),
    StableHlo.TRef.unary main_call2.v0 main_call2.v1 (broadcastInDim S1x256 ![1] bcast_S256_S1x256_1),
    StableHlo.TRef.nullary main_call2.cst_0 (constant S_ .f32 0x469C4000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S20000x256 ![0, 1] bcast_S1x256_S20000x256_0_1),
    StableHlo.TRef.binary (.of main_v102) main_call2.v4 main_call2.v5 subf,
    StableHlo.TRef.binary main_call2.v5 main_call2.v5 main_call2.v6 mulf,
    StableHlo.TRef.unary (.of main_c_17) main_call2.v7 (sitofp .f32),
    StableHlo.TRef.nullary main_call2.cst_1 (constant S_ .f32 0x469C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S20000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v109 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S20000x256 ![0, 1] bcast_S1x256_S20000x256_0_1 : (⟨S1x256, .f32⟩ : BufTy).Contents (Elt F) → (⟨S20000x256, .f32⟩ : BufTy).Contents (Elt F)),
    StableHlo.binary main_v102 main_v112 main_v113 (subf : (⟨S20000x256, .f32⟩ : BufTy).Contents (Elt F) → (⟨S20000x256, .f32⟩ : BufTy).Contents (Elt F) → (⟨S20000x256, .f32⟩ : BufTy).Contents (Elt F)),
    StableHlo.unary main_v104 main_v114 (broadcastInDim S1x256 ![1] bcast_S256_S1x256_1 : (⟨S256, .f32⟩ : BufTy).Contents (Elt F) → (⟨S1x256, .f32⟩ : BufTy).Contents (Elt F)),
    StableHlo.unary main_v114 main_v115 (broadcastInDim S20000x256 ![0, 1] bcast_S1x256_S20000x256_0_1 : (⟨S1x256, .f32⟩ : BufTy).Contents (Elt F) → (⟨S20000x256, .f32⟩ : BufTy).Contents (Elt F)),
    StableHlo.binary main_v115 main_v113 main_v116 (mulf : (⟨S20000x256, .f32⟩ : BufTy).Contents (Elt F) → (⟨S20000x256, .f32⟩ : BufTy).Contents (Elt F) → (⟨S20000x256, .f32⟩ : BufTy).Contents (Elt F)),
    StableHlo.nullary main_cst_18 (constant S_ .f32 0x3727C5AC#32),
    StableHlo.unary main_cst_18 main_v117 (broadcastInDim S256 ![] bcast_S_S256 : (⟨S_, .f32⟩ : BufTy).Contents (Elt F) → (⟨S256, .f32⟩ : BufTy).Contents (Elt F)),
    StableHlo.binary main_v110 main_v117 main_v118 (addf : (⟨S256, .f32⟩ : BufTy).Contents (Elt F) → (⟨S256, .f32⟩ : BufTy).Contents (Elt F) → (⟨S256, .f32⟩ : BufTy).Contents (Elt F)),
    StableHlo.unary main_v118 main_v119 (Host.rsqrt : (⟨S256, .f32⟩ : BufTy).Contents (Elt F) → (⟨S256, .f32⟩ : BufTy).Contents (Elt F)),
    StableHlo.unary main_v119 main_v120 (broadcastInDim S1x256 ![1] bcast_S256_S1x256_1 : (⟨S256, .f32⟩ : BufTy).Contents (Elt F) → (⟨S1x256, .f32⟩ : BufTy).Contents (Elt F)),
    StableHlo.unary main_v120 main_v121 (broadcastInDim S20000x256 ![0, 1] bcast_S1x256_S20000x256_0_1 : (⟨S1x256, .f32⟩ : BufTy).Contents (Elt F) → (⟨S20000x256, .f32⟩ : BufTy).Contents (Elt F)),
    StableHlo.binary main_v116 main_v121 main_v122 (mulf : (⟨S20000x256, .f32⟩ : BufTy).Contents (Elt F) → (⟨S20000x256, .f32⟩ : BufTy).Contents (Elt F) → (⟨S20000x256, .f32⟩ : BufTy).Contents (Elt F)),
    StableHlo.unary main_v106 main_v123 (broadcastInDim S1x256 ![1] bcast_S256_S1x256_1 : (⟨S256, .f32⟩ : BufTy).Contents (Elt F) → (⟨S1x256, .f32⟩ : BufTy).Contents (Elt F)),
    StableHlo.unary main_v123 main_v124 (broadcastInDim S20000x256 ![0, 1] bcast_S1x256_S20000x256_0_1 : (⟨S1x256, .f32⟩ : BufTy).Contents (Elt F) → (⟨S20000x256, .f32⟩ : BufTy).Contents (Elt F)),
    StableHlo.binary main_v122 main_v124 main_v125 (addf : (⟨S20000x256, .f32⟩ : BufTy).Contents (Elt F) → (⟨S20000x256, .f32⟩ : BufTy).Contents (Elt F) → (⟨S20000x256, .f32⟩ : BufTy).Contents (Elt F)),
    StableHlo.TRef.nullary main_call3.cst (constant S_ .f32 0x00000000#32),
    StableHlo.TRef.unary main_call3.cst main_call3.v0 (broadcastInDim S20000x256 ![] bcast_S_S20000x256),
    StableHlo.TRef.binary (.of main_v125) main_call3.v0 main_call3.v1 maximumf,
    StableHlo.unary main_arg5 main_v127 ((extractStridedSlice S1x256x256 ![2, 0, 0] · slices_S4x256x256_S1x256x256_2_0_0) : (⟨S4x256x256, .f32⟩ : BufTy).Contents (Elt F) → (⟨S1x256x256, .f32⟩ : BufTy).Contents (Elt F)),
    StableHlo.reshape main_v127 main_v128 rfl shapeCasts_S1x256x256_S256x256,
    StableHlo.binary main_v126 main_v128 main_v129 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

theorem rL2_sub : (rL2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub ..⟩

/-- 77 operations. -/
abbrev rL3 : List (HloOp τ sig (Elt F)) :=
  [ StableHlo.nullary main_c_19 (constantI S_ 32 0#32),
    StableHlo.unary main_c_19 main_v130 (broadcastInDim S320000 ![] bcast_S_S320000 : (⟨S_, .i32⟩ : BufTy).Contents (Elt F) → (⟨S320000, .i32⟩ : BufTy).Contents (Elt F)),
    StableHlo.binary main_v1 main_v130 main_v131 (cmpi .slt : (⟨S320000, .i32⟩ : BufTy).Contents (Elt F) → (⟨S320000, .i32⟩ : BufTy).Contents (Elt F) → (⟨S320000, .i1⟩ : BufTy).Contents (Elt F)),
    StableHlo.nullary main_c_20 (constantI S_ 32 20000#32),
    StableHlo.unary main_c_20 main_v132 (broadcastInDim S320000 ![] bcast_S_S320000 : (⟨S_, .i32⟩ : BufTy).Contents (Elt F) → (⟨S320000, .i32⟩ : BufTy).Contents (Elt F)),
    StableHlo.binary main_v1 main_v132 main_v133 (addi : (⟨S320000, .i32⟩ : BufTy).Contents (Elt F) → (⟨S320000, .i32⟩ : BufTy).Contents (Elt F) → (⟨S320000, .i32⟩ : BufTy).Contents (Elt F)),
    StableHlo.ternary main_v131 main_v133 main_v1 main_v134 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v134 main_v135 (broadcastInDim S320000x1 ![0] bcast_S320000_S320000x1_0 : (⟨S320000, .i32⟩ : BufTy).Contents (Elt F) → (⟨S320000x1, .i32⟩ : BufTy).Contents (Elt F)),
    StableHlo.binary main_v129 main_v135 main_v136 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_v26 main_v137 (broadcastInDim S320000x256 ![0, 1] bcast_S320000x1_S320000x256_0_1 : (⟨S320000x1, .f32⟩ : BufTy).Contents (Elt F) → (⟨S320000x256, .f32⟩ : BufTy).Contents (Elt F)),
    StableHlo.binary main_v136 main_v137 main_v138 (mulf : (⟨S320000x256, .f32⟩ : BufTy).Contents (Elt F) → (⟨S320000x256, .f32⟩ : BufTy).Contents (Elt F) → (⟨S320000x256, .f32⟩ : BufTy).Contents (Elt F)),
    StableHlo.nullary main_cst_21 (constant S_ .f32 0x00000000#32),
    StableHlo.unary main_cst_21 main_v139 (broadcastInDim S20000x256 ![] bcast_S_S20000x256 : (⟨S_, .f32⟩ : BufTy).Contents (Elt F) → (⟨S20000x256, .f32⟩ : BufTy).Contents (Elt F)),
    StableHlo.unary main_v3 main_v140 (broadcastInDim S320000x1 ![0] bcast_S320000_S320000x1_0 : (⟨S320000, .i32⟩ : BufTy).Contents (Elt F) → (⟨S320000x1, .i32⟩ : BufTy).Contents (Elt F)),
    StableHlo.ternary main_v139 main_v140 main_v138 main_v141 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v28 main_v142 (broadcastInDim S20000x256 ![0, 1] bcast_S20000x1_S20000x256_0_1 : (⟨S20000x1, .f32⟩ : BufTy).Contents (Elt F) → (⟨S20000x256, .f32⟩ : BufTy).Contents (Elt F)),
    StableHlo.binary main_v129 main_v142 main_v143 (mulf : (⟨S20000x256, .f32⟩ : BufTy).Contents (Elt F) → (⟨S20000x256, .f32⟩ : BufTy).Contents (Elt F) → (⟨S20000x256, .f32⟩ : BufTy).Contents (Elt F)),
    StableHlo.binary main_v141 main_v143 main_v144 (addf : (⟨S20000x256, .f32⟩ : BufTy).Contents (Elt F) → (⟨S20000x256, .f32⟩ : BufTy).Contents (Elt F) → (⟨S20000x256, .f32⟩ : BufTy).Contents (Elt F)),
    StableHlo.unary main_arg6 main_v145 ((extractStridedSlice S1x256 ![2, 0] · slices_S4x256_S1x256_2_0) : (⟨S4x256, .f32⟩ : BufTy).Contents (Elt F) → (⟨S1x256, .f32⟩ : BufTy).Contents (Elt F)),
    StableHlo.reshape main_v145 main_v146 rfl shapeCasts_S1x256_S256,
    StableHlo.unary main_v146 main_v147 (broadcastInDim S1x256 ![1] bcast_S256_S1x256_1 : (⟨S256, .f32⟩ : BufTy).Contents (Elt F) → (⟨S1x256, .f32⟩ : BufTy).Contents (Elt F)),
    StableHlo.unary main_v147 main_v148 (broadcastInDim S20000x256 ![0, 1] bcast_S1x256_S20000x256_0_1 : (⟨S1x256, .f32⟩ : BufTy).Contents (Elt F) → (⟨S20000x256, .f32⟩ : BufTy).Contents (Elt F)),
    StableHlo.binary main_v144 main_v148 main_v149 (addf : (⟨S20000x256, .f32⟩ : BufTy).Contents (Elt F) → (⟨S20000x256, .f32⟩ : BufTy).Contents (Elt F) → (⟨S20000x256, .f32⟩ : BufTy).Contents (Elt F)),
    StableHlo.unary main_arg7 main_v150 ((extractStridedSlice S1x256 ![2, 0] · slices_S4x256_S1x256_2_0) : (⟨S4x256, .f32⟩ : BufTy).Contents (Elt F) → (⟨S1x256, .f32⟩ : BufTy).Contents (Elt F)),
    StableHlo.reshape main_v150 main_v151 rfl shapeCasts_S1x256_S256,
    StableHlo.unary main_arg8 main_v152 ((extractStridedSlice S1x256 ![2, 0] · slices_S4x256_S1x256_2_0) : (⟨S4x256, .f32⟩ : BufTy).Contents (Elt F) → (⟨S1x256, .f32⟩ : BufTy).Contents (Elt F)),
    StableHlo.reshape main_v152 main_v153 rfl shapeCasts_S1x256_S256,
    StableHlo.nullary main_cst_22 (constant S_ .f32 0x00000000#32),
    StableHlo.binary main_v149 main_cst_22 main_v154 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_23 (constant S_ .f32 0x469C4000#32),
    StableHlo.unary main_cst_23 main_v155 (broadcastInDim S256 ![] bcast_S_S256 : (⟨S_, .f32⟩ : BufTy).Contents (Elt F) → (⟨S256, .f32⟩ : BufTy).Contents (Elt F)),
    StableHlo.binary main_v154 main_v155 main_v156 (Host.divf : (⟨S256, .f32⟩ : BufTy).Contents (Elt F) → (⟨S256, .f32⟩ : BufTy).Contents (Elt F) → (⟨S256, .f32⟩ : BufTy).Contents (Elt F)),
    StableHlo.nullary main_c_24 (constantI S_ 32 0#32),
    StableHlo.TRef.nullary main_call4.cst (constant S_ .f32 0x00000000#32),
    StableHlo.TRef.binary (.of main_v149) main_call4.cst main_call4.v0 (fun x v => Host.reduceAdd x v reducesTo_S20000x256_S256_d0 h_S_),
    StableHlo.TRef.unary main_call4.v0 main_call4.v1 (broadcastInDim S1x256 ![1] bcast_S256_S1x256_1),
    StableHlo.TRef.nullary main_call4.cst_0 (constant S_ .f32 0x469C4000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S20000x256 ![0, 1] bcast_S1x256_S20000x256_0_1),
    StableHlo.TRef.binary (.of main_v149) main_call4.v4 main_call4.v5 subf,
    StableHlo.TRef.binary main_call4.v5 main_call4.v5 main_call4.v6 mulf,
    StableHlo.TRef.unary (.of main_c_24) main_call4.v7 (sitofp .f32),
    StableHlo.TRef.nullary main_call4.cst_1 (constant S_ .f32 0x469C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S20000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v156 main_v158 (broadcastInDim S1x256 ![1] bcast_S256_S1x256_1 : (⟨S256, .f32⟩ : BufTy).Contents (Elt F) → (⟨S1x256, .f32⟩ : BufTy).Contents (Elt F)),
    StableHlo.unary main_v158 main_v159 (broadcastInDim S20000x256 ![0, 1] bcast_S1x256_S20000x256_0_1 : (⟨S1x256, .f32⟩ : BufTy).Contents (Elt F) → (⟨S20000x256, .f32⟩ : BufTy).Contents (Elt F)),
    StableHlo.binary main_v149 main_v159 main_v160 (subf : (⟨S20000x256, .f32⟩ : BufTy).Contents (Elt F) → (⟨S20000x256, .f32⟩ : BufTy).Contents (Elt F) → (⟨S20000x256, .f32⟩ : BufTy).Contents (Elt F)),
    StableHlo.unary main_v151 main_v161 (broadcastInDim S1x256 ![1] bcast_S256_S1x256_1 : (⟨S256, .f32⟩ : BufTy).Contents (Elt F) → (⟨S1x256, .f32⟩ : BufTy).Contents (Elt F)),
    StableHlo.unary main_v161 main_v162 (broadcastInDim S20000x256 ![0, 1] bcast_S1x256_S20000x256_0_1 : (⟨S1x256, .f32⟩ : BufTy).Contents (Elt F) → (⟨S20000x256, .f32⟩ : BufTy).Contents (Elt F)),
    StableHlo.binary main_v162 main_v160 main_v163 (mulf : (⟨S20000x256, .f32⟩ : BufTy).Contents (Elt F) → (⟨S20000x256, .f32⟩ : BufTy).Contents (Elt F) → (⟨S20000x256, .f32⟩ : BufTy).Contents (Elt F)),
    StableHlo.nullary main_cst_25 (constant S_ .f32 0x3727C5AC#32),
    StableHlo.unary main_cst_25 main_v164 (broadcastInDim S256 ![] bcast_S_S256 : (⟨S_, .f32⟩ : BufTy).Contents (Elt F) → (⟨S256, .f32⟩ : BufTy).Contents (Elt F)),
    StableHlo.binary main_v157 main_v164 main_v165 (addf : (⟨S256, .f32⟩ : BufTy).Contents (Elt F) → (⟨S256, .f32⟩ : BufTy).Contents (Elt F) → (⟨S256, .f32⟩ : BufTy).Contents (Elt F)),
    StableHlo.unary main_v165 main_v166 (Host.rsqrt : (⟨S256, .f32⟩ : BufTy).Contents (Elt F) → (⟨S256, .f32⟩ : BufTy).Contents (Elt F)),
    StableHlo.unary main_v166 main_v167 (broadcastInDim S1x256 ![1] bcast_S256_S1x256_1 : (⟨S256, .f32⟩ : BufTy).Contents (Elt F) → (⟨S1x256, .f32⟩ : BufTy).Contents (Elt F)),
    StableHlo.unary main_v167 main_v168 (broadcastInDim S20000x256 ![0, 1] bcast_S1x256_S20000x256_0_1 : (⟨S1x256, .f32⟩ : BufTy).Contents (Elt F) → (⟨S20000x256, .f32⟩ : BufTy).Contents (Elt F)),
    StableHlo.binary main_v163 main_v168 main_v169 (mulf : (⟨S20000x256, .f32⟩ : BufTy).Contents (Elt F) → (⟨S20000x256, .f32⟩ : BufTy).Contents (Elt F) → (⟨S20000x256, .f32⟩ : BufTy).Contents (Elt F)),
    StableHlo.unary main_v153 main_v170 (broadcastInDim S1x256 ![1] bcast_S256_S1x256_1 : (⟨S256, .f32⟩ : BufTy).Contents (Elt F) → (⟨S1x256, .f32⟩ : BufTy).Contents (Elt F)),
    StableHlo.unary main_v170 main_v171 (broadcastInDim S20000x256 ![0, 1] bcast_S1x256_S20000x256_0_1 : (⟨S1x256, .f32⟩ : BufTy).Contents (Elt F) → (⟨S20000x256, .f32⟩ : BufTy).Contents (Elt F)),
    StableHlo.binary main_v169 main_v171 main_v172 (addf : (⟨S20000x256, .f32⟩ : BufTy).Contents (Elt F) → (⟨S20000x256, .f32⟩ : BufTy).Contents (Elt F) → (⟨S20000x256, .f32⟩ : BufTy).Contents (Elt F)),
    StableHlo.TRef.nullary main_call5.cst (constant S_ .f32 0x00000000#32),
    StableHlo.TRef.unary main_call5.cst main_call5.v0 (broadcastInDim S20000x256 ![] bcast_S_S20000x256),
    StableHlo.TRef.binary (.of main_v172) main_call5.v0 main_call5.v1 maximumf,
    StableHlo.unary main_arg5 main_v174 ((extractStridedSlice S1x256x256 ![3, 0, 0] · slices_S4x256x256_S1x256x256_3_0_0) : (⟨S4x256x256, .f32⟩ : BufTy).Contents (Elt F) → (⟨S1x256x256, .f32⟩ : BufTy).Contents (Elt F)),
    StableHlo.reshape main_v174 main_v175 rfl shapeCasts_S1x256x256_S256x256,
    StableHlo.binary main_v173 main_v175 main_v176 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

theorem rL3_sub : (rL3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.binary_bufs_sub ..⟩

/-- 94 operations. -/
abbrev rP : List (HloOp τ sig (Elt F)) :=
  [ StableHlo.nullary main_c_26 (constantI S_ 32 0#32),
    StableHlo.unary main_c_26 main_v177 (broadcastInDim S320000 ![] bcast_S_S320000 : (⟨S_, .i32⟩ : BufTy).Contents (Elt F) → (⟨S320000, .i32⟩ : BufTy).Contents (Elt F)),
    StableHlo.binary main_v1 main_v177 main_v178 (cmpi .slt : (⟨S320000, .i32⟩ : BufTy).Contents (Elt F) → (⟨S320000, .i32⟩ : BufTy).Contents (Elt F) → (⟨S320000, .i1⟩ : BufTy).Contents (Elt F)),
    StableHlo.nullary main_c_27 (constantI S_ 32 20000#32),
    StableHlo.unary main_c_27 main_v179 (broadcastInDim S320000 ![] bcast_S_S320000 : (⟨S_, .i32⟩ : BufTy).Contents (Elt F) → (⟨S320000, .i32⟩ : BufTy).Contents (Elt F)),
    StableHlo.binary main_v1 main_v179 main_v180 (addi : (⟨S320000, .i32⟩ : BufTy).Contents (Elt F) → (⟨S320000, .i32⟩ : BufTy).Contents (Elt F) → (⟨S320000, .i32⟩ : BufTy).Contents (Elt F)),
    StableHlo.ternary main_v178 main_v180 main_v1 main_v181 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v181 main_v182 (broadcastInDim S320000x1 ![0] bcast_S320000_S320000x1_0 : (⟨S320000, .i32⟩ : BufTy).Contents (Elt F) → (⟨S320000x1, .i32⟩ : BufTy).Contents (Elt F)),
    StableHlo.binary main_v176 main_v182 main_v183 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.unary main_v26 main_v184 (broadcastInDim S320000x256 ![0, 1] bcast_S320000x1_S320000x256_0_1 : (⟨S320000x1, .f32⟩ : BufTy).Contents (Elt F) → (⟨S320000x256, .f32⟩ : BufTy).Contents (Elt F)),
    StableHlo.binary main_v183 main_v184 main_v185 (mulf : (⟨S320000x256, .f32⟩ : BufTy).Contents (Elt F) → (⟨S320000x256, .f32⟩ : BufTy).Contents (Elt F) → (⟨S320000x256, .f32⟩ : BufTy).Contents (Elt F)),
    StableHlo.nullary main_cst_28 (constant S_ .f32 0x00000000#32),
    StableHlo.unary main_cst_28 main_v186 (broadcastInDim S20000x256 ![] bcast_S_S20000x256 : (⟨S_, .f32⟩ : BufTy).Contents (Elt F) → (⟨S20000x256, .f32⟩ : BufTy).Contents (Elt F)),
    StableHlo.unary main_v3 main_v187 (broadcastInDim S320000x1 ![0] bcast_S320000_S320000x1_0 : (⟨S320000, .i32⟩ : BufTy).Contents (Elt F) → (⟨S320000x1, .i32⟩ : BufTy).Contents (Elt F)),
    StableHlo.ternary main_v186 main_v187 main_v185 main_v188 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v28 main_v189 (broadcastInDim S20000x256 ![0, 1] bcast_S20000x1_S20000x256_0_1 : (⟨S20000x1, .f32⟩ : BufTy).Contents (Elt F) → (⟨S20000x256, .f32⟩ : BufTy).Contents (Elt F)),
    StableHlo.binary main_v176 main_v189 main_v190 (mulf : (⟨S20000x256, .f32⟩ : BufTy).Contents (Elt F) → (⟨S20000x256, .f32⟩ : BufTy).Contents (Elt F) → (⟨S20000x256, .f32⟩ : BufTy).Contents (Elt F)),
    StableHlo.binary main_v188 main_v190 main_v191 (addf : (⟨S20000x256, .f32⟩ : BufTy).Contents (Elt F) → (⟨S20000x256, .f32⟩ : BufTy).Contents (Elt F) → (⟨S20000x256, .f32⟩ : BufTy).Contents (Elt F)),
    StableHlo.unary main_arg6 main_v192 ((extractStridedSlice S1x256 ![3, 0] · slices_S4x256_S1x256_3_0) : (⟨S4x256, .f32⟩ : BufTy).Contents (Elt F) → (⟨S1x256, .f32⟩ : BufTy).Contents (Elt F)),
    StableHlo.reshape main_v192 main_v193 rfl shapeCasts_S1x256_S256,
    StableHlo.unary main_v193 main_v194 (broadcastInDim S1x256 ![1] bcast_S256_S1x256_1 : (⟨S256, .f32⟩ : BufTy).Contents (Elt F) → (⟨S1x256, .f32⟩ : BufTy).Contents (Elt F)),
    StableHlo.unary main_v194 main_v195 (broadcastInDim S20000x256 ![0, 1] bcast_S1x256_S20000x256_0_1 : (⟨S1x256, .f32⟩ : BufTy).Contents (Elt F) → (⟨S20000x256, .f32⟩ : BufTy).Contents (Elt F)),
    StableHlo.binary main_v191 main_v195 main_v196 (addf : (⟨S20000x256, .f32⟩ : BufTy).Contents (Elt F) → (⟨S20000x256, .f32⟩ : BufTy).Contents (Elt F) → (⟨S20000x256, .f32⟩ : BufTy).Contents (Elt F)),
    StableHlo.unary main_arg7 main_v197 ((extractStridedSlice S1x256 ![3, 0] · slices_S4x256_S1x256_3_0) : (⟨S4x256, .f32⟩ : BufTy).Contents (Elt F) → (⟨S1x256, .f32⟩ : BufTy).Contents (Elt F)),
    StableHlo.reshape main_v197 main_v198 rfl shapeCasts_S1x256_S256,
    StableHlo.unary main_arg8 main_v199 ((extractStridedSlice S1x256 ![3, 0] · slices_S4x256_S1x256_3_0) : (⟨S4x256, .f32⟩ : BufTy).Contents (Elt F) → (⟨S1x256, .f32⟩ : BufTy).Contents (Elt F)),
    StableHlo.reshape main_v199 main_v200 rfl shapeCasts_S1x256_S256,
    StableHlo.nullary main_cst_29 (constant S_ .f32 0x00000000#32),
    StableHlo.binary main_v196 main_cst_29 main_v201 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_30 (constant S_ .f32 0x469C4000#32),
    StableHlo.unary main_cst_30 main_v202 (broadcastInDim S256 ![] bcast_S_S256 : (⟨S_, .f32⟩ : BufTy).Contents (Elt F) → (⟨S256, .f32⟩ : BufTy).Contents (Elt F)),
    StableHlo.binary main_v201 main_v202 main_v203 (Host.divf : (⟨S256, .f32⟩ : BufTy).Contents (Elt F) → (⟨S256, .f32⟩ : BufTy).Contents (Elt F) → (⟨S256, .f32⟩ : BufTy).Contents (Elt F)),
    StableHlo.nullary main_c_31 (constantI S_ 32 0#32),
    StableHlo.TRef.nullary main_call6.cst (constant S_ .f32 0x00000000#32),
    StableHlo.TRef.binary (.of main_v196) main_call6.cst main_call6.v0 (fun x v => Host.reduceAdd x v reducesTo_S20000x256_S256_d0 h_S_),
    StableHlo.TRef.unary main_call6.v0 main_call6.v1 (broadcastInDim S1x256 ![1] bcast_S256_S1x256_1),
    StableHlo.TRef.nullary main_call6.cst_0 (constant S_ .f32 0x469C4000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S20000x256 ![0, 1] bcast_S1x256_S20000x256_0_1),
    StableHlo.TRef.binary (.of main_v196) main_call6.v4 main_call6.v5 subf,
    StableHlo.TRef.binary main_call6.v5 main_call6.v5 main_call6.v6 mulf,
    StableHlo.TRef.unary (.of main_c_31) main_call6.v7 (sitofp .f32),
    StableHlo.TRef.nullary main_call6.cst_1 (constant S_ .f32 0x469C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S20000x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b),
    StableHlo.unary main_v203 main_v205 (broadcastInDim S1x256 ![1] bcast_S256_S1x256_1 : (⟨S256, .f32⟩ : BufTy).Contents (Elt F) → (⟨S1x256, .f32⟩ : BufTy).Contents (Elt F)),
    StableHlo.unary main_v205 main_v206 (broadcastInDim S20000x256 ![0, 1] bcast_S1x256_S20000x256_0_1 : (⟨S1x256, .f32⟩ : BufTy).Contents (Elt F) → (⟨S20000x256, .f32⟩ : BufTy).Contents (Elt F)),
    StableHlo.binary main_v196 main_v206 main_v207 (subf : (⟨S20000x256, .f32⟩ : BufTy).Contents (Elt F) → (⟨S20000x256, .f32⟩ : BufTy).Contents (Elt F) → (⟨S20000x256, .f32⟩ : BufTy).Contents (Elt F)),
    StableHlo.unary main_v198 main_v208 (broadcastInDim S1x256 ![1] bcast_S256_S1x256_1 : (⟨S256, .f32⟩ : BufTy).Contents (Elt F) → (⟨S1x256, .f32⟩ : BufTy).Contents (Elt F)),
    StableHlo.unary main_v208 main_v209 (broadcastInDim S20000x256 ![0, 1] bcast_S1x256_S20000x256_0_1 : (⟨S1x256, .f32⟩ : BufTy).Contents (Elt F) → (⟨S20000x256, .f32⟩ : BufTy).Contents (Elt F)),
    StableHlo.binary main_v209 main_v207 main_v210 (mulf : (⟨S20000x256, .f32⟩ : BufTy).Contents (Elt F) → (⟨S20000x256, .f32⟩ : BufTy).Contents (Elt F) → (⟨S20000x256, .f32⟩ : BufTy).Contents (Elt F)),
    StableHlo.nullary main_cst_32 (constant S_ .f32 0x3727C5AC#32),
    StableHlo.unary main_cst_32 main_v211 (broadcastInDim S256 ![] bcast_S_S256 : (⟨S_, .f32⟩ : BufTy).Contents (Elt F) → (⟨S256, .f32⟩ : BufTy).Contents (Elt F)),
    StableHlo.binary main_v204 main_v211 main_v212 (addf : (⟨S256, .f32⟩ : BufTy).Contents (Elt F) → (⟨S256, .f32⟩ : BufTy).Contents (Elt F) → (⟨S256, .f32⟩ : BufTy).Contents (Elt F)),
    StableHlo.unary main_v212 main_v213 (Host.rsqrt : (⟨S256, .f32⟩ : BufTy).Contents (Elt F) → (⟨S256, .f32⟩ : BufTy).Contents (Elt F)),
    StableHlo.unary main_v213 main_v214 (broadcastInDim S1x256 ![1] bcast_S256_S1x256_1 : (⟨S256, .f32⟩ : BufTy).Contents (Elt F) → (⟨S1x256, .f32⟩ : BufTy).Contents (Elt F)),
    StableHlo.unary main_v214 main_v215 (broadcastInDim S20000x256 ![0, 1] bcast_S1x256_S20000x256_0_1 : (⟨S1x256, .f32⟩ : BufTy).Contents (Elt F) → (⟨S20000x256, .f32⟩ : BufTy).Contents (Elt F)),
    StableHlo.binary main_v210 main_v215 main_v216 (mulf : (⟨S20000x256, .f32⟩ : BufTy).Contents (Elt F) → (⟨S20000x256, .f32⟩ : BufTy).Contents (Elt F) → (⟨S20000x256, .f32⟩ : BufTy).Contents (Elt F)),
    StableHlo.unary main_v200 main_v217 (broadcastInDim S1x256 ![1] bcast_S256_S1x256_1 : (⟨S256, .f32⟩ : BufTy).Contents (Elt F) → (⟨S1x256, .f32⟩ : BufTy).Contents (Elt F)),
    StableHlo.unary main_v217 main_v218 (broadcastInDim S20000x256 ![0, 1] bcast_S1x256_S20000x256_0_1 : (⟨S1x256, .f32⟩ : BufTy).Contents (Elt F) → (⟨S20000x256, .f32⟩ : BufTy).Contents (Elt F)),
    StableHlo.binary main_v216 main_v218 main_v219 (addf : (⟨S20000x256, .f32⟩ : BufTy).Contents (Elt F) → (⟨S20000x256, .f32⟩ : BufTy).Contents (Elt F) → (⟨S20000x256, .f32⟩ : BufTy).Contents (Elt F)),
    StableHlo.TRef.nullary main_call7.cst (constant S_ .f32 0x00000000#32),
    StableHlo.TRef.unary main_call7.cst main_call7.v0 (broadcastInDim S20000x256 ![] bcast_S_S20000x256),
    StableHlo.TRef.binary (.of main_v219) main_call7.v0 main_call7.v1 maximumf,
    StableHlo.nullary main_cst_33 (constant S_ .f32 0x00000000#32),
    StableHlo.unary main_cst_33 main_v221 (broadcastInDim S128x256 ![] bcast_S_S128x256 : (⟨S_, .f32⟩ : BufTy).Contents (Elt F) → (⟨S128x256, .f32⟩ : BufTy).Contents (Elt F)),
    StableHlo.unary main_arg2 main_v222 (broadcastInDim S20000x1 ![0] bcast_S20000_S20000x1_0 : (⟨S20000, .i32⟩ : BufTy).Contents (Elt F) → (⟨S20000x1, .i32⟩ : BufTy).Contents (Elt F)),
    StableHlo.ternary main_v221 main_v222 main_v220 main_v223 ((fun x i u => Host.scatterAdd scatter_S128x256_S20000x1_S20000x256_1_0_0_1 x i u) : (⟨S128x256, .f32⟩ : BufTy).Contents (Elt F) → (⟨S20000x1, .i32⟩ : BufTy).Contents (Elt F) → (⟨S20000x256, .f32⟩ : BufTy).Contents (Elt F) → (⟨S128x256, .f32⟩ : BufTy).Contents (Elt F)),
    StableHlo.nullary main_cst_34 (constant S_ .f32 0x3F800000#32),
    StableHlo.unary main_cst_34 main_v224 (broadcastInDim S20000 ![] bcast_S_S20000 : (⟨S_, .f32⟩ : BufTy).Contents (Elt F) → (⟨S20000, .f32⟩ : BufTy).Contents (Elt F)),
    StableHlo.nullary main_cst_35 (constant S_ .f32 0x00000000#32),
    StableHlo.unary main_cst_35 main_v225 (broadcastInDim S128 ![] bcast_S_S128 : (⟨S_, .f32⟩ : BufTy).Contents (Elt F) → (⟨S128, .f32⟩ : BufTy).Contents (Elt F)),
    StableHlo.unary main_arg2 main_v226 (broadcastInDim S20000x1 ![0] bcast_S20000_S20000x1_0 : (⟨S20000, .i32⟩ : BufTy).Contents (Elt F) → (⟨S20000x1, .i32⟩ : BufTy).Contents (Elt F)),
    StableHlo.ternary main_v225 main_v226 main_v224 main_v227 ((fun x i u => Host.scatterAdd scatter_S128_S20000x1_S20000_n_0_0_1 x i u) : (⟨S128, .f32⟩ : BufTy).Contents (Elt F) → (⟨S20000x1, .i32⟩ : BufTy).Contents (Elt F) → (⟨S20000, .f32⟩ : BufTy).Contents (Elt F) → (⟨S128, .f32⟩ : BufTy).Contents (Elt F)),
    StableHlo.nullary main_cst_36 (constant S_ .f32 0x3F800000#32),
    StableHlo.unary main_cst_36 main_v228 (broadcastInDim S128 ![] bcast_S_S128 : (⟨S_, .f32⟩ : BufTy).Contents (Elt F) → (⟨S128, .f32⟩ : BufTy).Contents (Elt F)),
    StableHlo.binary main_v227 main_v228 main_v229 (maximumf : (⟨S128, .f32⟩ : BufTy).Contents (Elt F) → (⟨S128, .f32⟩ : BufTy).Contents (Elt F) → (⟨S128, .f32⟩ : BufTy).Contents (Elt F)),
    StableHlo.unary main_v229 main_v230 (broadcastInDim S128x1 ![0] bcast_S128_S128x1_0 : (⟨S128, .f32⟩ : BufTy).Contents (Elt F) → (⟨S128x1, .f32⟩ : BufTy).Contents (Elt F)),
    StableHlo.unary main_v230 main_v231 (broadcastInDim S128x256 ![0, 1] bcast_S128x1_S128x256_0_1 : (⟨S128x1, .f32⟩ : BufTy).Contents (Elt F) → (⟨S128x256, .f32⟩ : BufTy).Contents (Elt F)),
    StableHlo.binary main_v223 main_v231 main_v232 (Host.divf : (⟨S128x256, .f32⟩ : BufTy).Contents (Elt F) → (⟨S128x256, .f32⟩ : BufTy).Contents (Elt F) → (⟨S128x256, .f32⟩ : BufTy).Contents (Elt F)),
    StableHlo.binary main_v232 main_arg9 main_v233 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F)),
    StableHlo.unary main_arg10 main_v234 (broadcastInDim S1x256 ![1] bcast_S256_S1x256_1 : (⟨S256, .f32⟩ : BufTy).Contents (Elt F) → (⟨S1x256, .f32⟩ : BufTy).Contents (Elt F)),
    StableHlo.unary main_v234 main_v235 (broadcastInDim S128x256 ![0, 1] bcast_S1x256_S128x256_0_1 : (⟨S1x256, .f32⟩ : BufTy).Contents (Elt F) → (⟨S128x256, .f32⟩ : BufTy).Contents (Elt F)),
    StableHlo.binary main_v233 main_v235 main_v236 (addf : (⟨S128x256, .f32⟩ : BufTy).Contents (Elt F) → (⟨S128x256, .f32⟩ : BufTy).Contents (Elt F) → (⟨S128x256, .f32⟩ : BufTy).Contents (Elt F)) ]

theorem rP_sub : (rP : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- 51 operations. -/
abbrev rF1 : List (HloOp τ sig (Elt F)) :=
  [ StableHlo.nullary main_cst_37 (constant S_ .f32 0x00000000#32),
    StableHlo.binary main_v236 main_cst_37 main_v237 ((fun x v => Host.reduceAdd x v reducesTo_S128x256_S256_d0 h_S_) : (⟨S128x256, .f32⟩ : BufTy).Contents (Elt F) → (⟨S_, .f32⟩ : BufTy).Contents (Elt F) → (⟨S256, .f32⟩ : BufTy).Contents (Elt F)),
    StableHlo.nullary main_cst_38 (constant S_ .f32 0x43000000#32),
    StableHlo.unary main_cst_38 main_v238 (broadcastInDim S256 ![] bcast_S_S256 : (⟨S_, .f32⟩ : BufTy).Contents (Elt F) → (⟨S256, .f32⟩ : BufTy).Contents (Elt F)),
    StableHlo.binary main_v237 main_v238 main_v239 (Host.divf : (⟨S256, .f32⟩ : BufTy).Contents (Elt F) → (⟨S256, .f32⟩ : BufTy).Contents (Elt F) → (⟨S256, .f32⟩ : BufTy).Contents (Elt F)),
    StableHlo.nullary main_c_39 (constantI S_ 32 0#32),
    StableHlo.TRef.nullary main_call8.cst (constant S_ .f32 0x00000000#32),
    StableHlo.TRef.binary (.of main_v236) main_call8.cst main_call8.v0 (fun x v => Host.reduceAdd x v reducesTo_S128x256_S256_d0 h_S_),
    StableHlo.TRef.unary main_call8.v0 main_call8.v1 (broadcastInDim S1x256 ![1] bcast_S256_S1x256_1),
    StableHlo.TRef.nullary main_call8.cst_0 (constant S_ .f32 0x43000000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S128x256 ![0, 1] bcast_S1x256_S128x256_0_1),
    StableHlo.TRef.binary (.of main_v236) main_call8.v4 main_call8.v5 subf,
    StableHlo.TRef.binary main_call8.v5 main_call8.v5 main_call8.v6 mulf,
    StableHlo.TRef.unary (.of main_c_39) main_call8.v7 (sitofp .f32),
    StableHlo.TRef.nullary main_call8.cst_1 (constant S_ .f32 0x43000000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S128x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v239 main_v241 (broadcastInDim S1x256 ![1] bcast_S256_S1x256_1 : (⟨S256, .f32⟩ : BufTy).Contents (Elt F) → (⟨S1x256, .f32⟩ : BufTy).Contents (Elt F)),
    StableHlo.unary main_v241 main_v242 (broadcastInDim S128x256 ![0, 1] bcast_S1x256_S128x256_0_1 : (⟨S1x256, .f32⟩ : BufTy).Contents (Elt F) → (⟨S128x256, .f32⟩ : BufTy).Contents (Elt F)),
    StableHlo.binary main_v236 main_v242 main_v243 (subf : (⟨S128x256, .f32⟩ : BufTy).Contents (Elt F) → (⟨S128x256, .f32⟩ : BufTy).Contents (Elt F) → (⟨S128x256, .f32⟩ : BufTy).Contents (Elt F)),
    StableHlo.unary main_arg11 main_v244 (broadcastInDim S1x256 ![1] bcast_S256_S1x256_1 : (⟨S256, .f32⟩ : BufTy).Contents (Elt F) → (⟨S1x256, .f32⟩ : BufTy).Contents (Elt F)),
    StableHlo.unary main_v244 main_v245 (broadcastInDim S128x256 ![0, 1] bcast_S1x256_S128x256_0_1 : (⟨S1x256, .f32⟩ : BufTy).Contents (Elt F) → (⟨S128x256, .f32⟩ : BufTy).Contents (Elt F)),
    StableHlo.binary main_v245 main_v243 main_v246 (mulf : (⟨S128x256, .f32⟩ : BufTy).Contents (Elt F) → (⟨S128x256, .f32⟩ : BufTy).Contents (Elt F) → (⟨S128x256, .f32⟩ : BufTy).Contents (Elt F)),
    StableHlo.nullary main_cst_40 (constant S_ .f32 0x3727C5AC#32),
    StableHlo.unary main_cst_40 main_v247 (broadcastInDim S256 ![] bcast_S_S256 : (⟨S_, .f32⟩ : BufTy).Contents (Elt F) → (⟨S256, .f32⟩ : BufTy).Contents (Elt F)),
    StableHlo.binary main_v240 main_v247 main_v248 (addf : (⟨S256, .f32⟩ : BufTy).Contents (Elt F) → (⟨S256, .f32⟩ : BufTy).Contents (Elt F) → (⟨S256, .f32⟩ : BufTy).Contents (Elt F)),
    StableHlo.unary main_v248 main_v249 (Host.rsqrt : (⟨S256, .f32⟩ : BufTy).Contents (Elt F) → (⟨S256, .f32⟩ : BufTy).Contents (Elt F)),
    StableHlo.unary main_v249 main_v250 (broadcastInDim S1x256 ![1] bcast_S256_S1x256_1 : (⟨S256, .f32⟩ : BufTy).Contents (Elt F) → (⟨S1x256, .f32⟩ : BufTy).Contents (Elt F)),
    StableHlo.unary main_v250 main_v251 (broadcastInDim S128x256 ![0, 1] bcast_S1x256_S128x256_0_1 : (⟨S1x256, .f32⟩ : BufTy).Contents (Elt F) → (⟨S128x256, .f32⟩ : BufTy).Contents (Elt F)),
    StableHlo.binary main_v246 main_v251 main_v252 (mulf : (⟨S128x256, .f32⟩ : BufTy).Contents (Elt F) → (⟨S128x256, .f32⟩ : BufTy).Contents (Elt F) → (⟨S128x256, .f32⟩ : BufTy).Contents (Elt F)),
    StableHlo.unary main_arg12 main_v253 (broadcastInDim S1x256 ![1] bcast_S256_S1x256_1 : (⟨S256, .f32⟩ : BufTy).Contents (Elt F) → (⟨S1x256, .f32⟩ : BufTy).Contents (Elt F)),
    StableHlo.unary main_v253 main_v254 (broadcastInDim S128x256 ![0, 1] bcast_S1x256_S128x256_0_1 : (⟨S1x256, .f32⟩ : BufTy).Contents (Elt F) → (⟨S128x256, .f32⟩ : BufTy).Contents (Elt F)),
    StableHlo.binary main_v252 main_v254 main_v255 (addf : (⟨S128x256, .f32⟩ : BufTy).Contents (Elt F) → (⟨S128x256, .f32⟩ : BufTy).Contents (Elt F) → (⟨S128x256, .f32⟩ : BufTy).Contents (Elt F)),
    StableHlo.TRef.nullary main_call9.cst (constant S_ .f32 0x00000000#32),
    StableHlo.TRef.unary main_call9.cst main_call9.v0 (broadcastInDim S128x256 ![] bcast_S_S128x256),
    StableHlo.TRef.binary (.of main_v255) main_call9.v0 main_call9.v1 maximumf,
    StableHlo.binary main_v256 main_arg13 main_v257 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F)),
    StableHlo.unary main_arg14 main_v258 (broadcastInDim S1x256 ![1] bcast_S256_S1x256_1 : (⟨S256, .f32⟩ : BufTy).Contents (Elt F) → (⟨S1x256, .f32⟩ : BufTy).Contents (Elt F)),
    StableHlo.unary main_v258 main_v259 (broadcastInDim S128x256 ![0, 1] bcast_S1x256_S128x256_0_1 : (⟨S1x256, .f32⟩ : BufTy).Contents (Elt F) → (⟨S128x256, .f32⟩ : BufTy).Contents (Elt F)),
    StableHlo.binary main_v257 main_v259 main_v260 (addf : (⟨S128x256, .f32⟩ : BufTy).Contents (Elt F) → (⟨S128x256, .f32⟩ : BufTy).Contents (Elt F) → (⟨S128x256, .f32⟩ : BufTy).Contents (Elt F)) ]

theorem rF1_sub : (rF1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- 48 operations. -/
abbrev rF2 : List (HloOp τ sig (Elt F)) :=
  [ StableHlo.nullary main_cst_41 (constant S_ .f32 0x00000000#32),
    StableHlo.binary main_v260 main_cst_41 main_v261 ((fun x v => Host.reduceAdd x v reducesTo_S128x256_S256_d0 h_S_) : (⟨S128x256, .f32⟩ : BufTy).Contents (Elt F) → (⟨S_, .f32⟩ : BufTy).Contents (Elt F) → (⟨S256, .f32⟩ : BufTy).Contents (Elt F)),
    StableHlo.nullary main_cst_42 (constant S_ .f32 0x43000000#32),
    StableHlo.unary main_cst_42 main_v262 (broadcastInDim S256 ![] bcast_S_S256 : (⟨S_, .f32⟩ : BufTy).Contents (Elt F) → (⟨S256, .f32⟩ : BufTy).Contents (Elt F)),
    StableHlo.binary main_v261 main_v262 main_v263 (Host.divf : (⟨S256, .f32⟩ : BufTy).Contents (Elt F) → (⟨S256, .f32⟩ : BufTy).Contents (Elt F) → (⟨S256, .f32⟩ : BufTy).Contents (Elt F)),
    StableHlo.nullary main_c_43 (constantI S_ 32 0#32),
    StableHlo.TRef.nullary main_call10.cst (constant S_ .f32 0x00000000#32),
    StableHlo.TRef.binary (.of main_v260) main_call10.cst main_call10.v0 (fun x v => Host.reduceAdd x v reducesTo_S128x256_S256_d0 h_S_),
    StableHlo.TRef.unary main_call10.v0 main_call10.v1 (broadcastInDim S1x256 ![1] bcast_S256_S1x256_1),
    StableHlo.TRef.nullary main_call10.cst_0 (constant S_ .f32 0x43000000#32),
    StableHlo.TRef.unary main_call10.cst_0 main_call10.v2 (broadcastInDim S1x256 ![] bcast_S_S1x256),
    StableHlo.TRef.binary main_call10.v1 main_call10.v2 main_call10.v3 Host.divf,
    StableHlo.TRef.unary main_call10.v3 main_call10.v4 (broadcastInDim S128x256 ![0, 1] bcast_S1x256_S128x256_0_1),
    StableHlo.TRef.binary (.of main_v260) main_call10.v4 main_call10.v5 subf,
    StableHlo.TRef.binary main_call10.v5 main_call10.v5 main_call10.v6 mulf,
    StableHlo.TRef.unary (.of main_c_43) main_call10.v7 (sitofp .f32),
    StableHlo.TRef.nullary main_call10.cst_1 (constant S_ .f32 0x43000000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S128x256_S256_d0 h_S_),
    StableHlo.TRef.unary main_call10.v8 main_call10.v10 (broadcastInDim S256 ![] bcast_S_S256),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S256 ![] bcast_S_S256),
    StableHlo.TRef.ternary main_call10.v12 main_call10.v11 main_call10.call0.v1 main_call10.call0.v2 (fun p a b => select (broadcastInDim S256 ![] bcast_S_S256 p) a b),
    StableHlo.unary main_v263 main_v265 (broadcastInDim S1x256 ![1] bcast_S256_S1x256_1 : (⟨S256, .f32⟩ : BufTy).Contents (Elt F) → (⟨S1x256, .f32⟩ : BufTy).Contents (Elt F)),
    StableHlo.unary main_v265 main_v266 (broadcastInDim S128x256 ![0, 1] bcast_S1x256_S128x256_0_1 : (⟨S1x256, .f32⟩ : BufTy).Contents (Elt F) → (⟨S128x256, .f32⟩ : BufTy).Contents (Elt F)),
    StableHlo.binary main_v260 main_v266 main_v267 (subf : (⟨S128x256, .f32⟩ : BufTy).Contents (Elt F) → (⟨S128x256, .f32⟩ : BufTy).Contents (Elt F) → (⟨S128x256, .f32⟩ : BufTy).Contents (Elt F)),
    StableHlo.unary main_arg15 main_v268 (broadcastInDim S1x256 ![1] bcast_S256_S1x256_1 : (⟨S256, .f32⟩ : BufTy).Contents (Elt F) → (⟨S1x256, .f32⟩ : BufTy).Contents (Elt F)),
    StableHlo.unary main_v268 main_v269 (broadcastInDim S128x256 ![0, 1] bcast_S1x256_S128x256_0_1 : (⟨S1x256, .f32⟩ : BufTy).Contents (Elt F) → (⟨S128x256, .f32⟩ : BufTy).Contents (Elt F)),
    StableHlo.binary main_v269 main_v267 main_v270 (mulf : (⟨S128x256, .f32⟩ : BufTy).Contents (Elt F) → (⟨S128x256, .f32⟩ : BufTy).Contents (Elt F) → (⟨S128x256, .f32⟩ : BufTy).Contents (Elt F)),
    StableHlo.nullary main_cst_44 (constant S_ .f32 0x3727C5AC#32),
    StableHlo.unary main_cst_44 main_v271 (broadcastInDim S256 ![] bcast_S_S256 : (⟨S_, .f32⟩ : BufTy).Contents (Elt F) → (⟨S256, .f32⟩ : BufTy).Contents (Elt F)),
    StableHlo.binary main_v264 main_v271 main_v272 (addf : (⟨S256, .f32⟩ : BufTy).Contents (Elt F) → (⟨S256, .f32⟩ : BufTy).Contents (Elt F) → (⟨S256, .f32⟩ : BufTy).Contents (Elt F)),
    StableHlo.unary main_v272 main_v273 (Host.rsqrt : (⟨S256, .f32⟩ : BufTy).Contents (Elt F) → (⟨S256, .f32⟩ : BufTy).Contents (Elt F)),
    StableHlo.unary main_v273 main_v274 (broadcastInDim S1x256 ![1] bcast_S256_S1x256_1 : (⟨S256, .f32⟩ : BufTy).Contents (Elt F) → (⟨S1x256, .f32⟩ : BufTy).Contents (Elt F)),
    StableHlo.unary main_v274 main_v275 (broadcastInDim S128x256 ![0, 1] bcast_S1x256_S128x256_0_1 : (⟨S1x256, .f32⟩ : BufTy).Contents (Elt F) → (⟨S128x256, .f32⟩ : BufTy).Contents (Elt F)),
    StableHlo.binary main_v270 main_v275 main_v276 (mulf : (⟨S128x256, .f32⟩ : BufTy).Contents (Elt F) → (⟨S128x256, .f32⟩ : BufTy).Contents (Elt F) → (⟨S128x256, .f32⟩ : BufTy).Contents (Elt F)),
    StableHlo.unary main_arg16 main_v277 (broadcastInDim S1x256 ![1] bcast_S256_S1x256_1 : (⟨S256, .f32⟩ : BufTy).Contents (Elt F) → (⟨S1x256, .f32⟩ : BufTy).Contents (Elt F)),
    StableHlo.unary main_v277 main_v278 (broadcastInDim S128x256 ![0, 1] bcast_S1x256_S128x256_0_1 : (⟨S1x256, .f32⟩ : BufTy).Contents (Elt F) → (⟨S128x256, .f32⟩ : BufTy).Contents (Elt F)),
    StableHlo.binary main_v276 main_v278 main_v279 (addf : (⟨S128x256, .f32⟩ : BufTy).Contents (Elt F) → (⟨S128x256, .f32⟩ : BufTy).Contents (Elt F) → (⟨S128x256, .f32⟩ : BufTy).Contents (Elt F)),
    StableHlo.binary main_v279 main_arg17 main_v280 ((fun l r => Host.dotGeneral dot_S128x256_S256x10_S128x10_1_0_0_1_n_n none l r) : (⟨S128x256, .f32⟩ : BufTy).Contents (Elt F) → (⟨S256x10, .f32⟩ : BufTy).Contents (Elt F) → (⟨S128x10, .f32⟩ : BufTy).Contents (Elt F)),
    StableHlo.unary main_arg18 main_v281 (broadcastInDim S1x10 ![1] bcast_S10_S1x10_1 : (⟨S10, .f32⟩ : BufTy).Contents (Elt F) → (⟨S1x10, .f32⟩ : BufTy).Contents (Elt F)),
    StableHlo.unary main_v281 main_v282 (broadcastInDim S128x10 ![0, 1] bcast_S1x10_S128x10_0_1 : (⟨S1x10, .f32⟩ : BufTy).Contents (Elt F) → (⟨S128x10, .f32⟩ : BufTy).Contents (Elt F)),
    StableHlo.binary main_v280 main_v282 main_v283 (addf : (⟨S128x10, .f32⟩ : BufTy).Contents (Elt F) → (⟨S128x10, .f32⟩ : BufTy).Contents (Elt F) → (⟨S128x10, .f32⟩ : BufTy).Contents (Elt F)) ]

theorem rF2_sub : (rF2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- Operations 1 … 9 of `rL1`. -/
abbrev rL1a : List (HloOp τ sig (Elt F)) :=
  [ StableHlo.nullary main_c_5 (constantI S_ 32 0#32),
    StableHlo.unary main_c_5 main_v36 (broadcastInDim S320000 ![] bcast_S_S320000 : (⟨S_, .i32⟩ : BufTy).Contents (Elt F) → (⟨S320000, .i32⟩ : BufTy).Contents (Elt F)),
    StableHlo.binary main_v1 main_v36 main_v37 (cmpi .slt : (⟨S320000, .i32⟩ : BufTy).Contents (Elt F) → (⟨S320000, .i32⟩ : BufTy).Contents (Elt F) → (⟨S320000, .i1⟩ : BufTy).Contents (Elt F)),
    StableHlo.nullary main_c_6 (constantI S_ 32 20000#32),
    StableHlo.unary main_c_6 main_v38 (broadcastInDim S320000 ![] bcast_S_S320000 : (⟨S_, .i32⟩ : BufTy).Contents (Elt F) → (⟨S320000, .i32⟩ : BufTy).Contents (Elt F)),
    StableHlo.binary main_v1 main_v38 main_v39 (addi : (⟨S320000, .i32⟩ : BufTy).Contents (Elt F) → (⟨S320000, .i32⟩ : BufTy).Contents (Elt F) → (⟨S320000, .i32⟩ : BufTy).Contents (Elt F)),
    StableHlo.ternary main_v37 main_v39 main_v1 main_v40 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v40 main_v41 (broadcastInDim S320000x1 ![0] bcast_S320000_S320000x1_0 : (⟨S320000, .i32⟩ : BufTy).Contents (Elt F) → (⟨S320000x1, .i32⟩ : BufTy).Contents (Elt F)),
    StableHlo.binary main_v35 main_v41 main_v42 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)) ]

/-- Operations 10 … 33 of `rL1`. -/
abbrev rL1b : List (HloOp τ sig (Elt F)) :=
  [ StableHlo.unary main_v26 main_v43 (broadcastInDim S320000x256 ![0, 1] bcast_S320000x1_S320000x256_0_1 : (⟨S320000x1, .f32⟩ : BufTy).Contents (Elt F) → (⟨S320000x256, .f32⟩ : BufTy).Contents (Elt F)),
    StableHlo.binary main_v42 main_v43 main_v44 (mulf : (⟨S320000x256, .f32⟩ : BufTy).Contents (Elt F) → (⟨S320000x256, .f32⟩ : BufTy).Contents (Elt F) → (⟨S320000x256, .f32⟩ : BufTy).Contents (Elt F)),
    StableHlo.nullary main_cst_7 (constant S_ .f32 0x00000000#32),
    StableHlo.unary main_cst_7 main_v45 (broadcastInDim S20000x256 ![] bcast_S_S20000x256 : (⟨S_, .f32⟩ : BufTy).Contents (Elt F) → (⟨S20000x256, .f32⟩ : BufTy).Contents (Elt F)),
    StableHlo.unary main_v3 main_v46 (broadcastInDim S320000x1 ![0] bcast_S320000_S320000x1_0 : (⟨S320000, .i32⟩ : BufTy).Contents (Elt F) → (⟨S320000x1, .i32⟩ : BufTy).Contents (Elt F)),
    StableHlo.ternary main_v45 main_v46 main_v44 main_v47 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v28 main_v48 (broadcastInDim S20000x256 ![0, 1] bcast_S20000x1_S20000x256_0_1 : (⟨S20000x1, .f32⟩ : BufTy).Contents (Elt F) → (⟨S20000x256, .f32⟩ : BufTy).Contents (Elt F)),
    StableHlo.binary main_v35 main_v48 main_v49 (mulf : (⟨S20000x256, .f32⟩ : BufTy).Contents (Elt F) → (⟨S20000x256, .f32⟩ : BufTy).Contents (Elt F) → (⟨S20000x256, .f32⟩ : BufTy).Contents (Elt F)),
    StableHlo.binary main_v47 main_v49 main_v50 (addf : (⟨S20000x256, .f32⟩ : BufTy).Contents (Elt F) → (⟨S20000x256, .f32⟩ : BufTy).Contents (Elt F) → (⟨S20000x256, .f32⟩ : BufTy).Contents (Elt F)),
    StableHlo.unary main_arg6 main_v51 ((extractStridedSlice S1x256 ![0, 0] · slices_S4x256_S1x256_0_0) : (⟨S4x256, .f32⟩ : BufTy).Contents (Elt F) → (⟨S1x256, .f32⟩ : BufTy).Contents (Elt F)),
    StableHlo.reshape main_v51 main_v52 rfl shapeCasts_S1x256_S256,
    StableHlo.unary main_v52 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S20000x256 ![0, 1] bcast_S1x256_S20000x256_0_1 : (⟨S1x256, .f32⟩ : BufTy).Contents (Elt F) → (⟨S20000x256, .f32⟩ : BufTy).Contents (Elt F)),
    StableHlo.binary main_v50 main_v54 main_v55 (addf : (⟨S20000x256, .f32⟩ : BufTy).Contents (Elt F) → (⟨S20000x256, .f32⟩ : BufTy).Contents (Elt F) → (⟨S20000x256, .f32⟩ : BufTy).Contents (Elt F)),
    StableHlo.unary main_arg7 main_v56 ((extractStridedSlice S1x256 ![0, 0] · slices_S4x256_S1x256_0_0) : (⟨S4x256, .f32⟩ : BufTy).Contents (Elt F) → (⟨S1x256, .f32⟩ : BufTy).Contents (Elt F)),
    StableHlo.reshape main_v56 main_v57 rfl shapeCasts_S1x256_S256,
    StableHlo.unary main_arg8 main_v58 ((extractStridedSlice S1x256 ![0, 0] · slices_S4x256_S1x256_0_0) : (⟨S4x256, .f32⟩ : BufTy).Contents (Elt F) → (⟨S1x256, .f32⟩ : BufTy).Contents (Elt F)),
    StableHlo.reshape main_v58 main_v59 rfl shapeCasts_S1x256_S256,
    StableHlo.nullary main_cst_8 (constant S_ .f32 0x00000000#32),
    StableHlo.binary main_v55 main_cst_8 main_v60 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_9 (constant S_ .f32 0x469C4000#32),
    StableHlo.unary main_cst_9 main_v61 (broadcastInDim S256 ![] bcast_S_S256 : (⟨S_, .f32⟩ : BufTy).Contents (Elt F) → (⟨S256, .f32⟩ : BufTy).Contents (Elt F)),
    StableHlo.binary main_v60 main_v61 main_v62 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32) ]

/-- Operations 34 … 55 of `rL1`. -/
abbrev rL1c : List (HloOp τ sig (Elt F)) :=
  [ StableHlo.TRef.nullary main_call0.cst (constant S_ .f32 0x00000000#32),
    StableHlo.TRef.binary (.of main_v55) main_call0.cst main_call0.v0 (fun x v => Host.reduceAdd x v reducesTo_S20000x256_S256_d0 h_S_),
    StableHlo.TRef.unary main_call0.v0 main_call0.v1 (broadcastInDim S1x256 ![1] bcast_S256_S1x256_1),
    StableHlo.TRef.nullary main_call0.cst_0 (constant S_ .f32 0x469C4000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S20000x256 ![0, 1] bcast_S1x256_S20000x256_0_1),
    StableHlo.TRef.binary (.of main_v55) main_call0.v4 main_call0.v5 subf,
    StableHlo.TRef.binary main_call0.v5 main_call0.v5 main_call0.v6 mulf,
    StableHlo.TRef.unary (.of main_c_10) main_call0.v7 (sitofp .f32),
    StableHlo.TRef.nullary main_call0.cst_1 (constant S_ .f32 0x469C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S20000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b) ]

/-- Operations 56 … 71 of `rL1`. -/
abbrev rL1d : List (HloOp τ sig (Elt F)) :=
  [ StableHlo.unary main_v62 main_v64 (broadcastInDim S1x256 ![1] bcast_S256_S1x256_1 : (⟨S256, .f32⟩ : BufTy).Contents (Elt F) → (⟨S1x256, .f32⟩ : BufTy).Contents (Elt F)),
    StableHlo.unary main_v64 main_v65 (broadcastInDim S20000x256 ![0, 1] bcast_S1x256_S20000x256_0_1 : (⟨S1x256, .f32⟩ : BufTy).Contents (Elt F) → (⟨S20000x256, .f32⟩ : BufTy).Contents (Elt F)),
    StableHlo.binary main_v55 main_v65 main_v66 (subf : (⟨S20000x256, .f32⟩ : BufTy).Contents (Elt F) → (⟨S20000x256, .f32⟩ : BufTy).Contents (Elt F) → (⟨S20000x256, .f32⟩ : BufTy).Contents (Elt F)),
    StableHlo.unary main_v57 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S20000x256 ![0, 1] bcast_S1x256_S20000x256_0_1 : (⟨S1x256, .f32⟩ : BufTy).Contents (Elt F) → (⟨S20000x256, .f32⟩ : BufTy).Contents (Elt F)),
    StableHlo.binary main_v68 main_v66 main_v69 (mulf : (⟨S20000x256, .f32⟩ : BufTy).Contents (Elt F) → (⟨S20000x256, .f32⟩ : BufTy).Contents (Elt F) → (⟨S20000x256, .f32⟩ : BufTy).Contents (Elt F)),
    StableHlo.nullary main_cst_11 (constant S_ .f32 0x3727C5AC#32),
    StableHlo.unary main_cst_11 main_v70 (broadcastInDim S256 ![] bcast_S_S256 : (⟨S_, .f32⟩ : BufTy).Contents (Elt F) → (⟨S256, .f32⟩ : BufTy).Contents (Elt F)),
    StableHlo.binary main_v63 main_v70 main_v71 (addf : (⟨S256, .f32⟩ : BufTy).Contents (Elt F) → (⟨S256, .f32⟩ : BufTy).Contents (Elt F) → (⟨S256, .f32⟩ : BufTy).Contents (Elt F)),
    StableHlo.unary main_v71 main_v72 (Host.rsqrt : (⟨S256, .f32⟩ : BufTy).Contents (Elt F) → (⟨S256, .f32⟩ : BufTy).Contents (Elt F)),
    StableHlo.unary main_v72 main_v73 (broadcastInDim S1x256 ![1] bcast_S256_S1x256_1 : (⟨S256, .f32⟩ : BufTy).Contents (Elt F) → (⟨S1x256, .f32⟩ : BufTy).Contents (Elt F)),
    StableHlo.unary main_v73 main_v74 (broadcastInDim S20000x256 ![0, 1] bcast_S1x256_S20000x256_0_1 : (⟨S1x256, .f32⟩ : BufTy).Contents (Elt F) → (⟨S20000x256, .f32⟩ : BufTy).Contents (Elt F)),
    StableHlo.binary main_v69 main_v74 main_v75 (mulf : (⟨S20000x256, .f32⟩ : BufTy).Contents (Elt F) → (⟨S20000x256, .f32⟩ : BufTy).Contents (Elt F) → (⟨S20000x256, .f32⟩ : BufTy).Contents (Elt F)),
    StableHlo.unary main_v59 main_v76 (broadcastInDim S1x256 ![1] bcast_S256_S1x256_1 : (⟨S256, .f32⟩ : BufTy).Contents (Elt F) → (⟨S1x256, .f32⟩ : BufTy).Contents (Elt F)),
    StableHlo.unary main_v76 main_v77 (broadcastInDim S20000x256 ![0, 1] bcast_S1x256_S20000x256_0_1 : (⟨S1x256, .f32⟩ : BufTy).Contents (Elt F) → (⟨S20000x256, .f32⟩ : BufTy).Contents (Elt F)),
    StableHlo.binary main_v75 main_v77 main_v78 (addf : (⟨S20000x256, .f32⟩ : BufTy).Contents (Elt F) → (⟨S20000x256, .f32⟩ : BufTy).Contents (Elt F) → (⟨S20000x256, .f32⟩ : BufTy).Contents (Elt F)) ]

/-- Operations 72 … 74 of `rL1`. -/
abbrev rL1e : List (HloOp τ sig (Elt F)) :=
  [ StableHlo.TRef.nullary main_call1.cst (constant S_ .f32 0x00000000#32),
    StableHlo.TRef.unary main_call1.cst main_call1.v0 (broadcastInDim S20000x256 ![] bcast_S_S20000x256),
    StableHlo.TRef.binary (.of main_v78) main_call1.v0 main_call1.v1 maximumf ]

/-- Operations 75 … 77 of `rL1`. -/
abbrev rL1f : List (HloOp τ sig (Elt F)) :=
  [ StableHlo.unary main_arg5 main_v80 ((extractStridedSlice S1x256x256 ![1, 0, 0] · slices_S4x256x256_S1x256x256_1_0_0) : (⟨S4x256x256, .f32⟩ : BufTy).Contents (Elt F) → (⟨S1x256x256, .f32⟩ : BufTy).Contents (Elt F)),
    StableHlo.reshape main_v80 main_v81 rfl shapeCasts_S1x256x256_S256x256,
    StableHlo.binary main_v79 main_v81 main_v82 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

theorem rL1_split : (rL1 : List (HloOp τ sig (Elt F))) = rL1a ++ (rL1b ++ (rL1c ++ (rL1d ++ (rL1e ++ rL1f)))) := rfl

/-- Operations 1 … 9 of `rL2`. -/
abbrev rL2a : List (HloOp τ sig (Elt F)) :=
  [ StableHlo.nullary main_c_12 (constantI S_ 32 0#32),
    StableHlo.unary main_c_12 main_v83 (broadcastInDim S320000 ![] bcast_S_S320000 : (⟨S_, .i32⟩ : BufTy).Contents (Elt F) → (⟨S320000, .i32⟩ : BufTy).Contents (Elt F)),
    StableHlo.binary main_v1 main_v83 main_v84 (cmpi .slt : (⟨S320000, .i32⟩ : BufTy).Contents (Elt F) → (⟨S320000, .i32⟩ : BufTy).Contents (Elt F) → (⟨S320000, .i1⟩ : BufTy).Contents (Elt F)),
    StableHlo.nullary main_c_13 (constantI S_ 32 20000#32),
    StableHlo.unary main_c_13 main_v85 (broadcastInDim S320000 ![] bcast_S_S320000 : (⟨S_, .i32⟩ : BufTy).Contents (Elt F) → (⟨S320000, .i32⟩ : BufTy).Contents (Elt F)),
    StableHlo.binary main_v1 main_v85 main_v86 (addi : (⟨S320000, .i32⟩ : BufTy).Contents (Elt F) → (⟨S320000, .i32⟩ : BufTy).Contents (Elt F) → (⟨S320000, .i32⟩ : BufTy).Contents (Elt F)),
    StableHlo.ternary main_v84 main_v86 main_v1 main_v87 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v87 main_v88 (broadcastInDim S320000x1 ![0] bcast_S320000_S320000x1_0 : (⟨S320000, .i32⟩ : BufTy).Contents (Elt F) → (⟨S320000x1, .i32⟩ : BufTy).Contents (Elt F)),
    StableHlo.binary main_v82 main_v88 main_v89 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)) ]

/-- Operations 10 … 33 of `rL2`. -/
abbrev rL2b : List (HloOp τ sig (Elt F)) :=
  [ StableHlo.unary main_v26 main_v90 (broadcastInDim S320000x256 ![0, 1] bcast_S320000x1_S320000x256_0_1 : (⟨S320000x1, .f32⟩ : BufTy).Contents (Elt F) → (⟨S320000x256, .f32⟩ : BufTy).Contents (Elt F)),
    StableHlo.binary main_v89 main_v90 main_v91 (mulf : (⟨S320000x256, .f32⟩ : BufTy).Contents (Elt F) → (⟨S320000x256, .f32⟩ : BufTy).Contents (Elt F) → (⟨S320000x256, .f32⟩ : BufTy).Contents (Elt F)),
    StableHlo.nullary main_cst_14 (constant S_ .f32 0x00000000#32),
    StableHlo.unary main_cst_14 main_v92 (broadcastInDim S20000x256 ![] bcast_S_S20000x256 : (⟨S_, .f32⟩ : BufTy).Contents (Elt F) → (⟨S20000x256, .f32⟩ : BufTy).Contents (Elt F)),
    StableHlo.unary main_v3 main_v93 (broadcastInDim S320000x1 ![0] bcast_S320000_S320000x1_0 : (⟨S320000, .i32⟩ : BufTy).Contents (Elt F) → (⟨S320000x1, .i32⟩ : BufTy).Contents (Elt F)),
    StableHlo.ternary main_v92 main_v93 main_v91 main_v94 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v28 main_v95 (broadcastInDim S20000x256 ![0, 1] bcast_S20000x1_S20000x256_0_1 : (⟨S20000x1, .f32⟩ : BufTy).Contents (Elt F) → (⟨S20000x256, .f32⟩ : BufTy).Contents (Elt F)),
    StableHlo.binary main_v82 main_v95 main_v96 (mulf : (⟨S20000x256, .f32⟩ : BufTy).Contents (Elt F) → (⟨S20000x256, .f32⟩ : BufTy).Contents (Elt F) → (⟨S20000x256, .f32⟩ : BufTy).Contents (Elt F)),
    StableHlo.binary main_v94 main_v96 main_v97 (addf : (⟨S20000x256, .f32⟩ : BufTy).Contents (Elt F) → (⟨S20000x256, .f32⟩ : BufTy).Contents (Elt F) → (⟨S20000x256, .f32⟩ : BufTy).Contents (Elt F)),
    StableHlo.unary main_arg6 main_v98 ((extractStridedSlice S1x256 ![1, 0] · slices_S4x256_S1x256_1_0) : (⟨S4x256, .f32⟩ : BufTy).Contents (Elt F) → (⟨S1x256, .f32⟩ : BufTy).Contents (Elt F)),
    StableHlo.reshape main_v98 main_v99 rfl shapeCasts_S1x256_S256,
    StableHlo.unary main_v99 main_v100 (broadcastInDim S1x256 ![1] bcast_S256_S1x256_1 : (⟨S256, .f32⟩ : BufTy).Contents (Elt F) → (⟨S1x256, .f32⟩ : BufTy).Contents (Elt F)),
    StableHlo.unary main_v100 main_v101 (broadcastInDim S20000x256 ![0, 1] bcast_S1x256_S20000x256_0_1 : (⟨S1x256, .f32⟩ : BufTy).Contents (Elt F) → (⟨S20000x256, .f32⟩ : BufTy).Contents (Elt F)),
    StableHlo.binary main_v97 main_v101 main_v102 (addf : (⟨S20000x256, .f32⟩ : BufTy).Contents (Elt F) → (⟨S20000x256, .f32⟩ : BufTy).Contents (Elt F) → (⟨S20000x256, .f32⟩ : BufTy).Contents (Elt F)),
    StableHlo.unary main_arg7 main_v103 ((extractStridedSlice S1x256 ![1, 0] · slices_S4x256_S1x256_1_0) : (⟨S4x256, .f32⟩ : BufTy).Contents (Elt F) → (⟨S1x256, .f32⟩ : BufTy).Contents (Elt F)),
    StableHlo.reshape main_v103 main_v104 rfl shapeCasts_S1x256_S256,
    StableHlo.unary main_arg8 main_v105 ((extractStridedSlice S1x256 ![1, 0] · slices_S4x256_S1x256_1_0) : (⟨S4x256, .f32⟩ : BufTy).Contents (Elt F) → (⟨S1x256, .f32⟩ : BufTy).Contents (Elt F)),
    StableHlo.reshape main_v105 main_v106 rfl shapeCasts_S1x256_S256,
    StableHlo.nullary main_cst_15 (constant S_ .f32 0x00000000#32),
    StableHlo.binary main_v102 main_cst_15 main_v107 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_16 (constant S_ .f32 0x469C4000#32),
    StableHlo.unary main_cst_16 main_v108 (broadcastInDim S256 ![] bcast_S_S256 : (⟨S_, .f32⟩ : BufTy).Contents (Elt F) → (⟨S256, .f32⟩ : BufTy).Contents (Elt F)),
    StableHlo.binary main_v107 main_v108 main_v109 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32) ]

/-- Operations 34 … 55 of `rL2`. -/
abbrev rL2c : List (HloOp τ sig (Elt F)) :=
  [ StableHlo.TRef.nullary main_call2.cst (constant S_ .f32 0x00000000#32),
    StableHlo.TRef.binary (.of main_v102) main_call2.cst main_call2.v0 (fun x v => Host.reduceAdd x v reducesTo_S20000x256_S256_d0 h_S_),
    StableHlo.TRef.unary main_call2.v0 main_call2.v1 (broadcastInDim S1x256 ![1] bcast_S256_S1x256_1),
    StableHlo.TRef.nullary main_call2.cst_0 (constant S_ .f32 0x469C4000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S20000x256 ![0, 1] bcast_S1x256_S20000x256_0_1),
    StableHlo.TRef.binary (.of main_v102) main_call2.v4 main_call2.v5 subf,
    StableHlo.TRef.binary main_call2.v5 main_call2.v5 main_call2.v6 mulf,
    StableHlo.TRef.unary (.of main_c_17) main_call2.v7 (sitofp .f32),
    StableHlo.TRef.nullary main_call2.cst_1 (constant S_ .f32 0x469C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S20000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b) ]

/-- Operations 56 … 71 of `rL2`. -/
abbrev rL2d : List (HloOp τ sig (Elt F)) :=
  [ StableHlo.unary main_v109 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S20000x256 ![0, 1] bcast_S1x256_S20000x256_0_1 : (⟨S1x256, .f32⟩ : BufTy).Contents (Elt F) → (⟨S20000x256, .f32⟩ : BufTy).Contents (Elt F)),
    StableHlo.binary main_v102 main_v112 main_v113 (subf : (⟨S20000x256, .f32⟩ : BufTy).Contents (Elt F) → (⟨S20000x256, .f32⟩ : BufTy).Contents (Elt F) → (⟨S20000x256, .f32⟩ : BufTy).Contents (Elt F)),
    StableHlo.unary main_v104 main_v114 (broadcastInDim S1x256 ![1] bcast_S256_S1x256_1 : (⟨S256, .f32⟩ : BufTy).Contents (Elt F) → (⟨S1x256, .f32⟩ : BufTy).Contents (Elt F)),
    StableHlo.unary main_v114 main_v115 (broadcastInDim S20000x256 ![0, 1] bcast_S1x256_S20000x256_0_1 : (⟨S1x256, .f32⟩ : BufTy).Contents (Elt F) → (⟨S20000x256, .f32⟩ : BufTy).Contents (Elt F)),
    StableHlo.binary main_v115 main_v113 main_v116 (mulf : (⟨S20000x256, .f32⟩ : BufTy).Contents (Elt F) → (⟨S20000x256, .f32⟩ : BufTy).Contents (Elt F) → (⟨S20000x256, .f32⟩ : BufTy).Contents (Elt F)),
    StableHlo.nullary main_cst_18 (constant S_ .f32 0x3727C5AC#32),
    StableHlo.unary main_cst_18 main_v117 (broadcastInDim S256 ![] bcast_S_S256 : (⟨S_, .f32⟩ : BufTy).Contents (Elt F) → (⟨S256, .f32⟩ : BufTy).Contents (Elt F)),
    StableHlo.binary main_v110 main_v117 main_v118 (addf : (⟨S256, .f32⟩ : BufTy).Contents (Elt F) → (⟨S256, .f32⟩ : BufTy).Contents (Elt F) → (⟨S256, .f32⟩ : BufTy).Contents (Elt F)),
    StableHlo.unary main_v118 main_v119 (Host.rsqrt : (⟨S256, .f32⟩ : BufTy).Contents (Elt F) → (⟨S256, .f32⟩ : BufTy).Contents (Elt F)),
    StableHlo.unary main_v119 main_v120 (broadcastInDim S1x256 ![1] bcast_S256_S1x256_1 : (⟨S256, .f32⟩ : BufTy).Contents (Elt F) → (⟨S1x256, .f32⟩ : BufTy).Contents (Elt F)),
    StableHlo.unary main_v120 main_v121 (broadcastInDim S20000x256 ![0, 1] bcast_S1x256_S20000x256_0_1 : (⟨S1x256, .f32⟩ : BufTy).Contents (Elt F) → (⟨S20000x256, .f32⟩ : BufTy).Contents (Elt F)),
    StableHlo.binary main_v116 main_v121 main_v122 (mulf : (⟨S20000x256, .f32⟩ : BufTy).Contents (Elt F) → (⟨S20000x256, .f32⟩ : BufTy).Contents (Elt F) → (⟨S20000x256, .f32⟩ : BufTy).Contents (Elt F)),
    StableHlo.unary main_v106 main_v123 (broadcastInDim S1x256 ![1] bcast_S256_S1x256_1 : (⟨S256, .f32⟩ : BufTy).Contents (Elt F) → (⟨S1x256, .f32⟩ : BufTy).Contents (Elt F)),
    StableHlo.unary main_v123 main_v124 (broadcastInDim S20000x256 ![0, 1] bcast_S1x256_S20000x256_0_1 : (⟨S1x256, .f32⟩ : BufTy).Contents (Elt F) → (⟨S20000x256, .f32⟩ : BufTy).Contents (Elt F)),
    StableHlo.binary main_v122 main_v124 main_v125 (addf : (⟨S20000x256, .f32⟩ : BufTy).Contents (Elt F) → (⟨S20000x256, .f32⟩ : BufTy).Contents (Elt F) → (⟨S20000x256, .f32⟩ : BufTy).Contents (Elt F)) ]

/-- Operations 72 … 74 of `rL2`. -/
abbrev rL2e : List (HloOp τ sig (Elt F)) :=
  [ StableHlo.TRef.nullary main_call3.cst (constant S_ .f32 0x00000000#32),
    StableHlo.TRef.unary main_call3.cst main_call3.v0 (broadcastInDim S20000x256 ![] bcast_S_S20000x256),
    StableHlo.TRef.binary (.of main_v125) main_call3.v0 main_call3.v1 maximumf ]

/-- Operations 75 … 77 of `rL2`. -/
abbrev rL2f : List (HloOp τ sig (Elt F)) :=
  [ StableHlo.unary main_arg5 main_v127 ((extractStridedSlice S1x256x256 ![2, 0, 0] · slices_S4x256x256_S1x256x256_2_0_0) : (⟨S4x256x256, .f32⟩ : BufTy).Contents (Elt F) → (⟨S1x256x256, .f32⟩ : BufTy).Contents (Elt F)),
    StableHlo.reshape main_v127 main_v128 rfl shapeCasts_S1x256x256_S256x256,
    StableHlo.binary main_v126 main_v128 main_v129 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

theorem rL2_split : (rL2 : List (HloOp τ sig (Elt F))) = rL2a ++ (rL2b ++ (rL2c ++ (rL2d ++ (rL2e ++ rL2f)))) := rfl

/-- Operations 1 … 9 of `rL3`. -/
abbrev rL3a : List (HloOp τ sig (Elt F)) :=
  [ StableHlo.nullary main_c_19 (constantI S_ 32 0#32),
    StableHlo.unary main_c_19 main_v130 (broadcastInDim S320000 ![] bcast_S_S320000 : (⟨S_, .i32⟩ : BufTy).Contents (Elt F) → (⟨S320000, .i32⟩ : BufTy).Contents (Elt F)),
    StableHlo.binary main_v1 main_v130 main_v131 (cmpi .slt : (⟨S320000, .i32⟩ : BufTy).Contents (Elt F) → (⟨S320000, .i32⟩ : BufTy).Contents (Elt F) → (⟨S320000, .i1⟩ : BufTy).Contents (Elt F)),
    StableHlo.nullary main_c_20 (constantI S_ 32 20000#32),
    StableHlo.unary main_c_20 main_v132 (broadcastInDim S320000 ![] bcast_S_S320000 : (⟨S_, .i32⟩ : BufTy).Contents (Elt F) → (⟨S320000, .i32⟩ : BufTy).Contents (Elt F)),
    StableHlo.binary main_v1 main_v132 main_v133 (addi : (⟨S320000, .i32⟩ : BufTy).Contents (Elt F) → (⟨S320000, .i32⟩ : BufTy).Contents (Elt F) → (⟨S320000, .i32⟩ : BufTy).Contents (Elt F)),
    StableHlo.ternary main_v131 main_v133 main_v1 main_v134 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v134 main_v135 (broadcastInDim S320000x1 ![0] bcast_S320000_S320000x1_0 : (⟨S320000, .i32⟩ : BufTy).Contents (Elt F) → (⟨S320000x1, .i32⟩ : BufTy).Contents (Elt F)),
    StableHlo.binary main_v129 main_v135 main_v136 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)) ]

/-- Operations 10 … 33 of `rL3`. -/
abbrev rL3b : List (HloOp τ sig (Elt F)) :=
  [ StableHlo.unary main_v26 main_v137 (broadcastInDim S320000x256 ![0, 1] bcast_S320000x1_S320000x256_0_1 : (⟨S320000x1, .f32⟩ : BufTy).Contents (Elt F) → (⟨S320000x256, .f32⟩ : BufTy).Contents (Elt F)),
    StableHlo.binary main_v136 main_v137 main_v138 (mulf : (⟨S320000x256, .f32⟩ : BufTy).Contents (Elt F) → (⟨S320000x256, .f32⟩ : BufTy).Contents (Elt F) → (⟨S320000x256, .f32⟩ : BufTy).Contents (Elt F)),
    StableHlo.nullary main_cst_21 (constant S_ .f32 0x00000000#32),
    StableHlo.unary main_cst_21 main_v139 (broadcastInDim S20000x256 ![] bcast_S_S20000x256 : (⟨S_, .f32⟩ : BufTy).Contents (Elt F) → (⟨S20000x256, .f32⟩ : BufTy).Contents (Elt F)),
    StableHlo.unary main_v3 main_v140 (broadcastInDim S320000x1 ![0] bcast_S320000_S320000x1_0 : (⟨S320000, .i32⟩ : BufTy).Contents (Elt F) → (⟨S320000x1, .i32⟩ : BufTy).Contents (Elt F)),
    StableHlo.ternary main_v139 main_v140 main_v138 main_v141 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v28 main_v142 (broadcastInDim S20000x256 ![0, 1] bcast_S20000x1_S20000x256_0_1 : (⟨S20000x1, .f32⟩ : BufTy).Contents (Elt F) → (⟨S20000x256, .f32⟩ : BufTy).Contents (Elt F)),
    StableHlo.binary main_v129 main_v142 main_v143 (mulf : (⟨S20000x256, .f32⟩ : BufTy).Contents (Elt F) → (⟨S20000x256, .f32⟩ : BufTy).Contents (Elt F) → (⟨S20000x256, .f32⟩ : BufTy).Contents (Elt F)),
    StableHlo.binary main_v141 main_v143 main_v144 (addf : (⟨S20000x256, .f32⟩ : BufTy).Contents (Elt F) → (⟨S20000x256, .f32⟩ : BufTy).Contents (Elt F) → (⟨S20000x256, .f32⟩ : BufTy).Contents (Elt F)),
    StableHlo.unary main_arg6 main_v145 ((extractStridedSlice S1x256 ![2, 0] · slices_S4x256_S1x256_2_0) : (⟨S4x256, .f32⟩ : BufTy).Contents (Elt F) → (⟨S1x256, .f32⟩ : BufTy).Contents (Elt F)),
    StableHlo.reshape main_v145 main_v146 rfl shapeCasts_S1x256_S256,
    StableHlo.unary main_v146 main_v147 (broadcastInDim S1x256 ![1] bcast_S256_S1x256_1 : (⟨S256, .f32⟩ : BufTy).Contents (Elt F) → (⟨S1x256, .f32⟩ : BufTy).Contents (Elt F)),
    StableHlo.unary main_v147 main_v148 (broadcastInDim S20000x256 ![0, 1] bcast_S1x256_S20000x256_0_1 : (⟨S1x256, .f32⟩ : BufTy).Contents (Elt F) → (⟨S20000x256, .f32⟩ : BufTy).Contents (Elt F)),
    StableHlo.binary main_v144 main_v148 main_v149 (addf : (⟨S20000x256, .f32⟩ : BufTy).Contents (Elt F) → (⟨S20000x256, .f32⟩ : BufTy).Contents (Elt F) → (⟨S20000x256, .f32⟩ : BufTy).Contents (Elt F)),
    StableHlo.unary main_arg7 main_v150 ((extractStridedSlice S1x256 ![2, 0] · slices_S4x256_S1x256_2_0) : (⟨S4x256, .f32⟩ : BufTy).Contents (Elt F) → (⟨S1x256, .f32⟩ : BufTy).Contents (Elt F)),
    StableHlo.reshape main_v150 main_v151 rfl shapeCasts_S1x256_S256,
    StableHlo.unary main_arg8 main_v152 ((extractStridedSlice S1x256 ![2, 0] · slices_S4x256_S1x256_2_0) : (⟨S4x256, .f32⟩ : BufTy).Contents (Elt F) → (⟨S1x256, .f32⟩ : BufTy).Contents (Elt F)),
    StableHlo.reshape main_v152 main_v153 rfl shapeCasts_S1x256_S256,
    StableHlo.nullary main_cst_22 (constant S_ .f32 0x00000000#32),
    StableHlo.binary main_v149 main_cst_22 main_v154 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_23 (constant S_ .f32 0x469C4000#32),
    StableHlo.unary main_cst_23 main_v155 (broadcastInDim S256 ![] bcast_S_S256 : (⟨S_, .f32⟩ : BufTy).Contents (Elt F) → (⟨S256, .f32⟩ : BufTy).Contents (Elt F)),
    StableHlo.binary main_v154 main_v155 main_v156 (Host.divf : (⟨S256, .f32⟩ : BufTy).Contents (Elt F) → (⟨S256, .f32⟩ : BufTy).Contents (Elt F) → (⟨S256, .f32⟩ : BufTy).Contents (Elt F)),
    StableHlo.nullary main_c_24 (constantI S_ 32 0#32) ]

/-- Operations 34 … 55 of `rL3`. -/
abbrev rL3c : List (HloOp τ sig (Elt F)) :=
  [ StableHlo.TRef.nullary main_call4.cst (constant S_ .f32 0x00000000#32),
    StableHlo.TRef.binary (.of main_v149) main_call4.cst main_call4.v0 (fun x v => Host.reduceAdd x v reducesTo_S20000x256_S256_d0 h_S_),
    StableHlo.TRef.unary main_call4.v0 main_call4.v1 (broadcastInDim S1x256 ![1] bcast_S256_S1x256_1),
    StableHlo.TRef.nullary main_call4.cst_0 (constant S_ .f32 0x469C4000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S20000x256 ![0, 1] bcast_S1x256_S20000x256_0_1),
    StableHlo.TRef.binary (.of main_v149) main_call4.v4 main_call4.v5 subf,
    StableHlo.TRef.binary main_call4.v5 main_call4.v5 main_call4.v6 mulf,
    StableHlo.TRef.unary (.of main_c_24) main_call4.v7 (sitofp .f32),
    StableHlo.TRef.nullary main_call4.cst_1 (constant S_ .f32 0x469C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S20000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b) ]

/-- Operations 56 … 71 of `rL3`. -/
abbrev rL3d : List (HloOp τ sig (Elt F)) :=
  [ StableHlo.unary main_v156 main_v158 (broadcastInDim S1x256 ![1] bcast_S256_S1x256_1 : (⟨S256, .f32⟩ : BufTy).Contents (Elt F) → (⟨S1x256, .f32⟩ : BufTy).Contents (Elt F)),
    StableHlo.unary main_v158 main_v159 (broadcastInDim S20000x256 ![0, 1] bcast_S1x256_S20000x256_0_1 : (⟨S1x256, .f32⟩ : BufTy).Contents (Elt F) → (⟨S20000x256, .f32⟩ : BufTy).Contents (Elt F)),
    StableHlo.binary main_v149 main_v159 main_v160 (subf : (⟨S20000x256, .f32⟩ : BufTy).Contents (Elt F) → (⟨S20000x256, .f32⟩ : BufTy).Contents (Elt F) → (⟨S20000x256, .f32⟩ : BufTy).Contents (Elt F)),
    StableHlo.unary main_v151 main_v161 (broadcastInDim S1x256 ![1] bcast_S256_S1x256_1 : (⟨S256, .f32⟩ : BufTy).Contents (Elt F) → (⟨S1x256, .f32⟩ : BufTy).Contents (Elt F)),
    StableHlo.unary main_v161 main_v162 (broadcastInDim S20000x256 ![0, 1] bcast_S1x256_S20000x256_0_1 : (⟨S1x256, .f32⟩ : BufTy).Contents (Elt F) → (⟨S20000x256, .f32⟩ : BufTy).Contents (Elt F)),
    StableHlo.binary main_v162 main_v160 main_v163 (mulf : (⟨S20000x256, .f32⟩ : BufTy).Contents (Elt F) → (⟨S20000x256, .f32⟩ : BufTy).Contents (Elt F) → (⟨S20000x256, .f32⟩ : BufTy).Contents (Elt F)),
    StableHlo.nullary main_cst_25 (constant S_ .f32 0x3727C5AC#32),
    StableHlo.unary main_cst_25 main_v164 (broadcastInDim S256 ![] bcast_S_S256 : (⟨S_, .f32⟩ : BufTy).Contents (Elt F) → (⟨S256, .f32⟩ : BufTy).Contents (Elt F)),
    StableHlo.binary main_v157 main_v164 main_v165 (addf : (⟨S256, .f32⟩ : BufTy).Contents (Elt F) → (⟨S256, .f32⟩ : BufTy).Contents (Elt F) → (⟨S256, .f32⟩ : BufTy).Contents (Elt F)),
    StableHlo.unary main_v165 main_v166 (Host.rsqrt : (⟨S256, .f32⟩ : BufTy).Contents (Elt F) → (⟨S256, .f32⟩ : BufTy).Contents (Elt F)),
    StableHlo.unary main_v166 main_v167 (broadcastInDim S1x256 ![1] bcast_S256_S1x256_1 : (⟨S256, .f32⟩ : BufTy).Contents (Elt F) → (⟨S1x256, .f32⟩ : BufTy).Contents (Elt F)),
    StableHlo.unary main_v167 main_v168 (broadcastInDim S20000x256 ![0, 1] bcast_S1x256_S20000x256_0_1 : (⟨S1x256, .f32⟩ : BufTy).Contents (Elt F) → (⟨S20000x256, .f32⟩ : BufTy).Contents (Elt F)),
    StableHlo.binary main_v163 main_v168 main_v169 (mulf : (⟨S20000x256, .f32⟩ : BufTy).Contents (Elt F) → (⟨S20000x256, .f32⟩ : BufTy).Contents (Elt F) → (⟨S20000x256, .f32⟩ : BufTy).Contents (Elt F)),
    StableHlo.unary main_v153 main_v170 (broadcastInDim S1x256 ![1] bcast_S256_S1x256_1 : (⟨S256, .f32⟩ : BufTy).Contents (Elt F) → (⟨S1x256, .f32⟩ : BufTy).Contents (Elt F)),
    StableHlo.unary main_v170 main_v171 (broadcastInDim S20000x256 ![0, 1] bcast_S1x256_S20000x256_0_1 : (⟨S1x256, .f32⟩ : BufTy).Contents (Elt F) → (⟨S20000x256, .f32⟩ : BufTy).Contents (Elt F)),
    StableHlo.binary main_v169 main_v171 main_v172 (addf : (⟨S20000x256, .f32⟩ : BufTy).Contents (Elt F) → (⟨S20000x256, .f32⟩ : BufTy).Contents (Elt F) → (⟨S20000x256, .f32⟩ : BufTy).Contents (Elt F)) ]

/-- Operations 72 … 74 of `rL3`. -/
abbrev rL3e : List (HloOp τ sig (Elt F)) :=
  [ StableHlo.TRef.nullary main_call5.cst (constant S_ .f32 0x00000000#32),
    StableHlo.TRef.unary main_call5.cst main_call5.v0 (broadcastInDim S20000x256 ![] bcast_S_S20000x256),
    StableHlo.TRef.binary (.of main_v172) main_call5.v0 main_call5.v1 maximumf ]

/-- Operations 75 … 77 of `rL3`. -/
abbrev rL3f : List (HloOp τ sig (Elt F)) :=
  [ StableHlo.unary main_arg5 main_v174 ((extractStridedSlice S1x256x256 ![3, 0, 0] · slices_S4x256x256_S1x256x256_3_0_0) : (⟨S4x256x256, .f32⟩ : BufTy).Contents (Elt F) → (⟨S1x256x256, .f32⟩ : BufTy).Contents (Elt F)),
    StableHlo.reshape main_v174 main_v175 rfl shapeCasts_S1x256x256_S256x256,
    StableHlo.binary main_v173 main_v175 main_v176 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)) ]

theorem rL3_split : (rL3 : List (HloOp τ sig (Elt F))) = rL3a ++ (rL3b ++ (rL3c ++ (rL3d ++ (rL3e ++ rL3f)))) := rfl

/-- Operations 1 … 9 of `rP`. -/
abbrev rPa : List (HloOp τ sig (Elt F)) :=
  [ StableHlo.nullary main_c_26 (constantI S_ 32 0#32),
    StableHlo.unary main_c_26 main_v177 (broadcastInDim S320000 ![] bcast_S_S320000 : (⟨S_, .i32⟩ : BufTy).Contents (Elt F) → (⟨S320000, .i32⟩ : BufTy).Contents (Elt F)),
    StableHlo.binary main_v1 main_v177 main_v178 (cmpi .slt : (⟨S320000, .i32⟩ : BufTy).Contents (Elt F) → (⟨S320000, .i32⟩ : BufTy).Contents (Elt F) → (⟨S320000, .i1⟩ : BufTy).Contents (Elt F)),
    StableHlo.nullary main_c_27 (constantI S_ 32 20000#32),
    StableHlo.unary main_c_27 main_v179 (broadcastInDim S320000 ![] bcast_S_S320000 : (⟨S_, .i32⟩ : BufTy).Contents (Elt F) → (⟨S320000, .i32⟩ : BufTy).Contents (Elt F)),
    StableHlo.binary main_v1 main_v179 main_v180 (addi : (⟨S320000, .i32⟩ : BufTy).Contents (Elt F) → (⟨S320000, .i32⟩ : BufTy).Contents (Elt F) → (⟨S320000, .i32⟩ : BufTy).Contents (Elt F)),
    StableHlo.ternary main_v178 main_v180 main_v1 main_v181 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v181 main_v182 (broadcastInDim S320000x1 ![0] bcast_S320000_S320000x1_0 : (⟨S320000, .i32⟩ : BufTy).Contents (Elt F) → (⟨S320000x1, .i32⟩ : BufTy).Contents (Elt F)),
    StableHlo.binary main_v176 main_v182 main_v183 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)) ]

/-- Operations 10 … 33 of `rP`. -/
abbrev rPb : List (HloOp τ sig (Elt F)) :=
  [ StableHlo.unary main_v26 main_v184 (broadcastInDim S320000x256 ![0, 1] bcast_S320000x1_S320000x256_0_1 : (⟨S320000x1, .f32⟩ : BufTy).Contents (Elt F) → (⟨S320000x256, .f32⟩ : BufTy).Contents (Elt F)),
    StableHlo.binary main_v183 main_v184 main_v185 (mulf : (⟨S320000x256, .f32⟩ : BufTy).Contents (Elt F) → (⟨S320000x256, .f32⟩ : BufTy).Contents (Elt F) → (⟨S320000x256, .f32⟩ : BufTy).Contents (Elt F)),
    StableHlo.nullary main_cst_28 (constant S_ .f32 0x00000000#32),
    StableHlo.unary main_cst_28 main_v186 (broadcastInDim S20000x256 ![] bcast_S_S20000x256 : (⟨S_, .f32⟩ : BufTy).Contents (Elt F) → (⟨S20000x256, .f32⟩ : BufTy).Contents (Elt F)),
    StableHlo.unary main_v3 main_v187 (broadcastInDim S320000x1 ![0] bcast_S320000_S320000x1_0 : (⟨S320000, .i32⟩ : BufTy).Contents (Elt F) → (⟨S320000x1, .i32⟩ : BufTy).Contents (Elt F)),
    StableHlo.ternary main_v186 main_v187 main_v185 main_v188 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.unary main_v28 main_v189 (broadcastInDim S20000x256 ![0, 1] bcast_S20000x1_S20000x256_0_1 : (⟨S20000x1, .f32⟩ : BufTy).Contents (Elt F) → (⟨S20000x256, .f32⟩ : BufTy).Contents (Elt F)),
    StableHlo.binary main_v176 main_v189 main_v190 (mulf : (⟨S20000x256, .f32⟩ : BufTy).Contents (Elt F) → (⟨S20000x256, .f32⟩ : BufTy).Contents (Elt F) → (⟨S20000x256, .f32⟩ : BufTy).Contents (Elt F)),
    StableHlo.binary main_v188 main_v190 main_v191 (addf : (⟨S20000x256, .f32⟩ : BufTy).Contents (Elt F) → (⟨S20000x256, .f32⟩ : BufTy).Contents (Elt F) → (⟨S20000x256, .f32⟩ : BufTy).Contents (Elt F)),
    StableHlo.unary main_arg6 main_v192 ((extractStridedSlice S1x256 ![3, 0] · slices_S4x256_S1x256_3_0) : (⟨S4x256, .f32⟩ : BufTy).Contents (Elt F) → (⟨S1x256, .f32⟩ : BufTy).Contents (Elt F)),
    StableHlo.reshape main_v192 main_v193 rfl shapeCasts_S1x256_S256,
    StableHlo.unary main_v193 main_v194 (broadcastInDim S1x256 ![1] bcast_S256_S1x256_1 : (⟨S256, .f32⟩ : BufTy).Contents (Elt F) → (⟨S1x256, .f32⟩ : BufTy).Contents (Elt F)),
    StableHlo.unary main_v194 main_v195 (broadcastInDim S20000x256 ![0, 1] bcast_S1x256_S20000x256_0_1 : (⟨S1x256, .f32⟩ : BufTy).Contents (Elt F) → (⟨S20000x256, .f32⟩ : BufTy).Contents (Elt F)),
    StableHlo.binary main_v191 main_v195 main_v196 (addf : (⟨S20000x256, .f32⟩ : BufTy).Contents (Elt F) → (⟨S20000x256, .f32⟩ : BufTy).Contents (Elt F) → (⟨S20000x256, .f32⟩ : BufTy).Contents (Elt F)),
    StableHlo.unary main_arg7 main_v197 ((extractStridedSlice S1x256 ![3, 0] · slices_S4x256_S1x256_3_0) : (⟨S4x256, .f32⟩ : BufTy).Contents (Elt F) → (⟨S1x256, .f32⟩ : BufTy).Contents (Elt F)),
    StableHlo.reshape main_v197 main_v198 rfl shapeCasts_S1x256_S256,
    StableHlo.unary main_arg8 main_v199 ((extractStridedSlice S1x256 ![3, 0] · slices_S4x256_S1x256_3_0) : (⟨S4x256, .f32⟩ : BufTy).Contents (Elt F) → (⟨S1x256, .f32⟩ : BufTy).Contents (Elt F)),
    StableHlo.reshape main_v199 main_v200 rfl shapeCasts_S1x256_S256,
    StableHlo.nullary main_cst_29 (constant S_ .f32 0x00000000#32),
    StableHlo.binary main_v196 main_cst_29 main_v201 ((fun x v => Host.reduceAdd x v reducesTo_S20000x256_S256_d0 h_S_) : (⟨S20000x256, .f32⟩ : BufTy).Contents (Elt F) → (⟨S_, .f32⟩ : BufTy).Contents (Elt F) → (⟨S256, .f32⟩ : BufTy).Contents (Elt F)),
    StableHlo.nullary main_cst_30 (constant S_ .f32 0x469C4000#32),
    StableHlo.unary main_cst_30 main_v202 (broadcastInDim S256 ![] bcast_S_S256 : (⟨S_, .f32⟩ : BufTy).Contents (Elt F) → (⟨S256, .f32⟩ : BufTy).Contents (Elt F)),
    StableHlo.binary main_v201 main_v202 main_v203 (Host.divf : (⟨S256, .f32⟩ : BufTy).Contents (Elt F) → (⟨S256, .f32⟩ : BufTy).Contents (Elt F) → (⟨S256, .f32⟩ : BufTy).Contents (Elt F)),
    StableHlo.nullary main_c_31 (constantI S_ 32 0#32) ]

/-- Operations 34 … 55 of `rP`. -/
abbrev rPc : List (HloOp τ sig (Elt F)) :=
  [ StableHlo.TRef.nullary main_call6.cst (constant S_ .f32 0x00000000#32),
    StableHlo.TRef.binary (.of main_v196) main_call6.cst main_call6.v0 (fun x v => Host.reduceAdd x v reducesTo_S20000x256_S256_d0 h_S_),
    StableHlo.TRef.unary main_call6.v0 main_call6.v1 (broadcastInDim S1x256 ![1] bcast_S256_S1x256_1),
    StableHlo.TRef.nullary main_call6.cst_0 (constant S_ .f32 0x469C4000#32),
    StableHlo.TRef.unary main_call6.cst_0 main_call6.v2 (broadcastInDim S1x256 ![] bcast_S_S1x256),
    StableHlo.TRef.binary main_call6.v1 main_call6.v2 main_call6.v3 Host.divf,
    StableHlo.TRef.unary main_call6.v3 main_call6.v4 (broadcastInDim S20000x256 ![0, 1] bcast_S1x256_S20000x256_0_1),
    StableHlo.TRef.binary (.of main_v196) main_call6.v4 main_call6.v5 subf,
    StableHlo.TRef.binary main_call6.v5 main_call6.v5 main_call6.v6 mulf,
    StableHlo.TRef.unary (.of main_c_31) main_call6.v7 (sitofp .f32),
    StableHlo.TRef.nullary main_call6.cst_1 (constant S_ .f32 0x469C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S20000x256_S256_d0 h_S_),
    StableHlo.TRef.unary main_call6.v8 main_call6.v10 (broadcastInDim S256 ![] bcast_S_S256),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S256 ![] bcast_S_S256),
    StableHlo.TRef.ternary main_call6.v12 main_call6.v11 main_call6.call0.v1 main_call6.call0.v2 (fun p a b => select (broadcastInDim S256 ![] bcast_S_S256 p) a b) ]

/-- Operations 56 … 71 of `rP`. -/
abbrev rPd : List (HloOp τ sig (Elt F)) :=
  [ StableHlo.unary main_v203 main_v205 (broadcastInDim S1x256 ![1] bcast_S256_S1x256_1 : (⟨S256, .f32⟩ : BufTy).Contents (Elt F) → (⟨S1x256, .f32⟩ : BufTy).Contents (Elt F)),
    StableHlo.unary main_v205 main_v206 (broadcastInDim S20000x256 ![0, 1] bcast_S1x256_S20000x256_0_1 : (⟨S1x256, .f32⟩ : BufTy).Contents (Elt F) → (⟨S20000x256, .f32⟩ : BufTy).Contents (Elt F)),
    StableHlo.binary main_v196 main_v206 main_v207 (subf : (⟨S20000x256, .f32⟩ : BufTy).Contents (Elt F) → (⟨S20000x256, .f32⟩ : BufTy).Contents (Elt F) → (⟨S20000x256, .f32⟩ : BufTy).Contents (Elt F)),
    StableHlo.unary main_v198 main_v208 (broadcastInDim S1x256 ![1] bcast_S256_S1x256_1 : (⟨S256, .f32⟩ : BufTy).Contents (Elt F) → (⟨S1x256, .f32⟩ : BufTy).Contents (Elt F)),
    StableHlo.unary main_v208 main_v209 (broadcastInDim S20000x256 ![0, 1] bcast_S1x256_S20000x256_0_1 : (⟨S1x256, .f32⟩ : BufTy).Contents (Elt F) → (⟨S20000x256, .f32⟩ : BufTy).Contents (Elt F)),
    StableHlo.binary main_v209 main_v207 main_v210 (mulf : (⟨S20000x256, .f32⟩ : BufTy).Contents (Elt F) → (⟨S20000x256, .f32⟩ : BufTy).Contents (Elt F) → (⟨S20000x256, .f32⟩ : BufTy).Contents (Elt F)),
    StableHlo.nullary main_cst_32 (constant S_ .f32 0x3727C5AC#32),
    StableHlo.unary main_cst_32 main_v211 (broadcastInDim S256 ![] bcast_S_S256 : (⟨S_, .f32⟩ : BufTy).Contents (Elt F) → (⟨S256, .f32⟩ : BufTy).Contents (Elt F)),
    StableHlo.binary main_v204 main_v211 main_v212 (addf : (⟨S256, .f32⟩ : BufTy).Contents (Elt F) → (⟨S256, .f32⟩ : BufTy).Contents (Elt F) → (⟨S256, .f32⟩ : BufTy).Contents (Elt F)),
    StableHlo.unary main_v212 main_v213 (Host.rsqrt : (⟨S256, .f32⟩ : BufTy).Contents (Elt F) → (⟨S256, .f32⟩ : BufTy).Contents (Elt F)),
    StableHlo.unary main_v213 main_v214 (broadcastInDim S1x256 ![1] bcast_S256_S1x256_1 : (⟨S256, .f32⟩ : BufTy).Contents (Elt F) → (⟨S1x256, .f32⟩ : BufTy).Contents (Elt F)),
    StableHlo.unary main_v214 main_v215 (broadcastInDim S20000x256 ![0, 1] bcast_S1x256_S20000x256_0_1 : (⟨S1x256, .f32⟩ : BufTy).Contents (Elt F) → (⟨S20000x256, .f32⟩ : BufTy).Contents (Elt F)),
    StableHlo.binary main_v210 main_v215 main_v216 (mulf : (⟨S20000x256, .f32⟩ : BufTy).Contents (Elt F) → (⟨S20000x256, .f32⟩ : BufTy).Contents (Elt F) → (⟨S20000x256, .f32⟩ : BufTy).Contents (Elt F)),
    StableHlo.unary main_v200 main_v217 (broadcastInDim S1x256 ![1] bcast_S256_S1x256_1 : (⟨S256, .f32⟩ : BufTy).Contents (Elt F) → (⟨S1x256, .f32⟩ : BufTy).Contents (Elt F)),
    StableHlo.unary main_v217 main_v218 (broadcastInDim S20000x256 ![0, 1] bcast_S1x256_S20000x256_0_1 : (⟨S1x256, .f32⟩ : BufTy).Contents (Elt F) → (⟨S20000x256, .f32⟩ : BufTy).Contents (Elt F)),
    StableHlo.binary main_v216 main_v218 main_v219 (addf : (⟨S20000x256, .f32⟩ : BufTy).Contents (Elt F) → (⟨S20000x256, .f32⟩ : BufTy).Contents (Elt F) → (⟨S20000x256, .f32⟩ : BufTy).Contents (Elt F)) ]

/-- Operations 72 … 74 of `rP`. -/
abbrev rPe : List (HloOp τ sig (Elt F)) :=
  [ StableHlo.TRef.nullary main_call7.cst (constant S_ .f32 0x00000000#32),
    StableHlo.TRef.unary main_call7.cst main_call7.v0 (broadcastInDim S20000x256 ![] bcast_S_S20000x256),
    StableHlo.TRef.binary (.of main_v219) main_call7.v0 main_call7.v1 maximumf ]

/-- Operations 75 … 94 of `rP`. -/
abbrev rPf : List (HloOp τ sig (Elt F)) :=
  [ StableHlo.nullary main_cst_33 (constant S_ .f32 0x00000000#32),
    StableHlo.unary main_cst_33 main_v221 (broadcastInDim S128x256 ![] bcast_S_S128x256 : (⟨S_, .f32⟩ : BufTy).Contents (Elt F) → (⟨S128x256, .f32⟩ : BufTy).Contents (Elt F)),
    StableHlo.unary main_arg2 main_v222 (broadcastInDim S20000x1 ![0] bcast_S20000_S20000x1_0 : (⟨S20000, .i32⟩ : BufTy).Contents (Elt F) → (⟨S20000x1, .i32⟩ : BufTy).Contents (Elt F)),
    StableHlo.ternary main_v221 main_v222 main_v220 main_v223 ((fun x i u => Host.scatterAdd scatter_S128x256_S20000x1_S20000x256_1_0_0_1 x i u) : (⟨S128x256, .f32⟩ : BufTy).Contents (Elt F) → (⟨S20000x1, .i32⟩ : BufTy).Contents (Elt F) → (⟨S20000x256, .f32⟩ : BufTy).Contents (Elt F) → (⟨S128x256, .f32⟩ : BufTy).Contents (Elt F)),
    StableHlo.nullary main_cst_34 (constant S_ .f32 0x3F800000#32),
    StableHlo.unary main_cst_34 main_v224 (broadcastInDim S20000 ![] bcast_S_S20000 : (⟨S_, .f32⟩ : BufTy).Contents (Elt F) → (⟨S20000, .f32⟩ : BufTy).Contents (Elt F)),
    StableHlo.nullary main_cst_35 (constant S_ .f32 0x00000000#32),
    StableHlo.unary main_cst_35 main_v225 (broadcastInDim S128 ![] bcast_S_S128 : (⟨S_, .f32⟩ : BufTy).Contents (Elt F) → (⟨S128, .f32⟩ : BufTy).Contents (Elt F)),
    StableHlo.unary main_arg2 main_v226 (broadcastInDim S20000x1 ![0] bcast_S20000_S20000x1_0 : (⟨S20000, .i32⟩ : BufTy).Contents (Elt F) → (⟨S20000x1, .i32⟩ : BufTy).Contents (Elt F)),
    StableHlo.ternary main_v225 main_v226 main_v224 main_v227 ((fun x i u => Host.scatterAdd scatter_S128_S20000x1_S20000_n_0_0_1 x i u) : (⟨S128, .f32⟩ : BufTy).Contents (Elt F) → (⟨S20000x1, .i32⟩ : BufTy).Contents (Elt F) → (⟨S20000, .f32⟩ : BufTy).Contents (Elt F) → (⟨S128, .f32⟩ : BufTy).Contents (Elt F)),
    StableHlo.nullary main_cst_36 (constant S_ .f32 0x3F800000#32),
    StableHlo.unary main_cst_36 main_v228 (broadcastInDim S128 ![] bcast_S_S128 : (⟨S_, .f32⟩ : BufTy).Contents (Elt F) → (⟨S128, .f32⟩ : BufTy).Contents (Elt F)),
    StableHlo.binary main_v227 main_v228 main_v229 (maximumf : (⟨S128, .f32⟩ : BufTy).Contents (Elt F) → (⟨S128, .f32⟩ : BufTy).Contents (Elt F) → (⟨S128, .f32⟩ : BufTy).Contents (Elt F)),
    StableHlo.unary main_v229 main_v230 (broadcastInDim S128x1 ![0] bcast_S128_S128x1_0 : (⟨S128, .f32⟩ : BufTy).Contents (Elt F) → (⟨S128x1, .f32⟩ : BufTy).Contents (Elt F)),
    StableHlo.unary main_v230 main_v231 (broadcastInDim S128x256 ![0, 1] bcast_S128x1_S128x256_0_1 : (⟨S128x1, .f32⟩ : BufTy).Contents (Elt F) → (⟨S128x256, .f32⟩ : BufTy).Contents (Elt F)),
    StableHlo.binary main_v223 main_v231 main_v232 (Host.divf : (⟨S128x256, .f32⟩ : BufTy).Contents (Elt F) → (⟨S128x256, .f32⟩ : BufTy).Contents (Elt F) → (⟨S128x256, .f32⟩ : BufTy).Contents (Elt F)),
    StableHlo.binary main_v232 main_arg9 main_v233 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F)),
    StableHlo.unary main_arg10 main_v234 (broadcastInDim S1x256 ![1] bcast_S256_S1x256_1 : (⟨S256, .f32⟩ : BufTy).Contents (Elt F) → (⟨S1x256, .f32⟩ : BufTy).Contents (Elt F)),
    StableHlo.unary main_v234 main_v235 (broadcastInDim S128x256 ![0, 1] bcast_S1x256_S128x256_0_1 : (⟨S1x256, .f32⟩ : BufTy).Contents (Elt F) → (⟨S128x256, .f32⟩ : BufTy).Contents (Elt F)),
    StableHlo.binary main_v233 main_v235 main_v236 (addf : (⟨S128x256, .f32⟩ : BufTy).Contents (Elt F) → (⟨S128x256, .f32⟩ : BufTy).Contents (Elt F) → (⟨S128x256, .f32⟩ : BufTy).Contents (Elt F)) ]

theorem rP_split : (rP : List (HloOp τ sig (Elt F))) = rPa ++ (rPb ++ (rPc ++ (rPd ++ (rPe ++ rPf)))) := rfl

/-- The whole of @main: 467 operations. -/
abbrev rops : List (HloOp τ sig (Elt F)) := rA ++ (rL1 ++ (rL2 ++ (rL3 ++ (rP ++ (rF1 ++ rF2)))))

end Cert.ReferenceIdeal.Hand

end
-- ==== Proof.RefRun.lean ====
/- The reference's run. Its @main is one straight line of 467 host operations, the outlined functions' bodies
   standing at their calls; so every weakly fair execution ends with each buffer at the fold of those operations'
   results over the launch contents, and that fold splits along the seven stretches the line is listed in. -/
import proofs.«404594_j87462714015857_2_alg».proof.Proof.RefOps

noncomputable section

namespace Cert.ReferenceIdeal.Hand

open Idealize.ShloMosaic Idealize.ShloMosaic.TcCoe Idealize.SL.Sem Cert.ReferenceIdeal

variable {F : FTy → Type} [FloatOps F]

/-! ## The fold over a concatenation -/

/-- The fold over a concatenation is the fold over the second list, started from the fold over the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- The seven stretches are folded one after the other. -/
theorem after_rops (V : Valuation τ sig (Elt F)) :
    StableHlo.after rops V
      = StableHlo.after rF2 (StableHlo.after rF1 (StableHlo.after rP (StableHlo.after rL3 (StableHlo.after rL2
          (StableHlo.after rL1 (StableHlo.after rA V)))))) := by
  simp only [rops, after_append]

/-! ## @main's six printed windows against the seven stretches

The program is printed in six consecutive windows (60, 83, 83, 104, 85 and 52 operations once the calls are
unfolded), which do not end where the seven stretches (43, 77, 77, 77, 94, 51, 48) do. Window by window, the
operations are the following pieces of the stretches: 60 = 43 + 17, 83 = 60 + 23, 83 = 54 + 29, 104 = 48 + 56,
85 = 38 + 47, 52 = 4 + 48. -/

def p0 : List (HloOp τ sig (Elt F)) := rA ++ rL1.take 17
def p1 : List (HloOp τ sig (Elt F)) := rL1.drop 17 ++ rL2.take 23
def p2 : List (HloOp τ sig (Elt F)) := rL2.drop 23 ++ rL3.take 29
def p3 : List (HloOp τ sig (Elt F)) := rL3.drop 29 ++ rP.take 56
def p4 : List (HloOp τ sig (Elt F)) := rP.drop 56 ++ rF1.take 47
def p5 : List (HloOp τ sig (Elt F)) := rF1.drop 47 ++ rF2

/-- A list cut in two and followed by a third is the list followed by the third. -/
theorem take_drop_append {α : Type} (n : Nat) (l X : List α) : l.take n ++ (l.drop n ++ X) = l ++ X := by
  rw [← List.append_assoc, List.take_append_drop]

/-- The six windows' pieces, in order, are the whole line: each stretch cut in two is put together again. -/
theorem rops_eq_parts :
    (rops : List (HloOp τ sig (Elt F))) = p0 ++ (p1 ++ (p2 ++ (p3 ++ (p4 ++ p5)))) := by
  simp only [rops, p0, p1, p2, p3, p4, p5, List.append_assoc, take_drop_append]

/-! Each window is the straight line of its piece: the functions' definitions unfolded at their calls, both sides are
one chain of operation steps once sequencing is reassociated; a window that does not end in a return ends in its
last operation, which is that operation followed by the empty line's return. -/

set_option maxRecDepth 16384 in
set_option maxHeartbeats 4000000 in
theorem part0_eq (c : Dev nD) : main_part0 (F := F) c = StableHlo.seq p0 := by
  simp only [main_part0, bind_assoc, pure_bind]
  rfl

set_option maxRecDepth 16384 in
set_option maxHeartbeats 4000000 in
theorem part1_eq (c : Dev nD) : main_part1 (F := F) c = StableHlo.seq p1 := by
  simp only [main_part1, fn_var.body, fn_where.body, fn_relu.body, bind_assoc, pure_bind]
  rfl

set_option maxRecDepth 16384 in
set_option maxHeartbeats 4000000 in
theorem part2_eq (c : Dev nD) : main_part2 (F := F) c = StableHlo.seq p2 := by
  simp only [main_part2, fn_var.body, fn_where.body, fn_relu.body, bind_assoc, pure_bind]
  rfl

set_option maxRecDepth 16384 in
set_option maxHeartbeats 4000000 in
theorem part3_eq (c : Dev nD) : main_part3 (F := F) c = StableHlo.seq p3 := by
  simp only [main_part3, fn_var.body, fn_where.body, fn_relu.body, bind_assoc, pure_bind]
  rfl

set_option maxRecDepth 16384 in
set_option maxHeartbeats 4000000 in
theorem part4_eq (c : Dev nD) : main_part4 (F := F) c = StableHlo.seq p4 := by
  simp only [main_part4, fn_var.body, fn_var_0.body, fn_where.body, fn_relu.body, fn_relu_1.body, bind_assoc, pure_bind]
  rfl

set_option maxRecDepth 16384 in
set_option maxHeartbeats 4000000 in
theorem part5_eq (c : Dev nD) : main_part5 (F := F) c = StableHlo.seq p5 := by
  simp only [main_part5, fn_var_0.body, fn_where.body, bind_assoc, pure_bind]
  rfl

/-- @main is the straight line of the 467 operations: its six windows run in order are their pieces' lines run in
    order, which is the line of the pieces' concatenation. -/
theorem main_eq (c : Dev nD) : main (F := F) c = StableHlo.seq rops := by
  rw [rops_eq_parts, StableHlo.seq_append, StableHlo.seq_append, StableHlo.seq_append, StableHlo.seq_append,
    StableHlo.seq_append, ← part0_eq c, ← part1_eq c, ← part2_eq c, ← part3_eq c, ← part4_eq c, ← part5_eq c]
  rfl

/-! ## What the run theorem asks of the line -/

/-- Every operation of the line names TensorCore buffers only. -/
theorem rops_sub : (rops : List (HloOp τ sig (Elt F))).Forall fun op => op.bufs ⊆ StableHlo.tcRefs τ sig :=
  List.forall_append.mpr ⟨rA_sub, List.forall_append.mpr ⟨rL1_sub, List.forall_append.mpr ⟨rL2_sub,
    List.forall_append.mpr ⟨rL3_sub, List.forall_append.mpr ⟨rP_sub, List.forall_append.mpr ⟨rF1_sub, rF2_sub⟩⟩⟩⟩⟩⟩

/-! Every operation determines what it writes (none leaves a buffer's contents open): stretch by stretch, by
computation on each entry. -/

theorem rA_fresh : (rA : List (HloOp τ sig (Elt F))).Forall fun op => op.fresh = ∅ := by
  (repeat (refine ⟨rfl, ?_⟩)); rfl
theorem rL1_fresh : (rL1 : List (HloOp τ sig (Elt F))).Forall fun op => op.fresh = ∅ := by
  (repeat (refine ⟨rfl, ?_⟩)); rfl
theorem rL2_fresh : (rL2 : List (HloOp τ sig (Elt F))).Forall fun op => op.fresh = ∅ := by
  (repeat (refine ⟨rfl, ?_⟩)); rfl
theorem rL3_fresh : (rL3 : List (HloOp τ sig (Elt F))).Forall fun op => op.fresh = ∅ := by
  (repeat (refine ⟨rfl, ?_⟩)); rfl
theorem rP_fresh : (rP : List (HloOp τ sig (Elt F))).Forall fun op => op.fresh = ∅ := by
  (repeat (refine ⟨rfl, ?_⟩)); rfl
theorem rF1_fresh : (rF1 : List (HloOp τ sig (Elt F))).Forall fun op => op.fresh = ∅ := by
  (repeat (refine ⟨rfl, ?_⟩)); rfl
theorem rF2_fresh : (rF2 : List (HloOp τ sig (Elt F))).Forall fun op => op.fresh = ∅ := by
  (repeat (refine ⟨rfl, ?_⟩)); rfl

theorem rops_fresh : ∀ op ∈ (rops : List (HloOp τ sig (Elt F))), op.fresh = ∅ :=
  List.forall_iff_forall_mem.mp (List.forall_append.mpr ⟨rA_fresh, List.forall_append.mpr ⟨rL1_fresh,
    List.forall_append.mpr ⟨rL2_fresh, List.forall_append.mpr ⟨rL3_fresh, List.forall_append.mpr ⟨rP_fresh,
      List.forall_append.mpr ⟨rF1_fresh, rF2_fresh⟩⟩⟩⟩⟩⟩)

/-- The signature scopes no buffer. -/
theorem scopedRefs_eq : (Finset.univ.filter fun b : Ref sig .tc => b.isScoped) = ∅ := by decide
/-- The signature scopes no counter. -/
theorem scopedSems_eq : (Finset.univ.filter fun sm : SemLoc sig => sm.isScoped .tc) = ∅ := by decide

/-! ## The run -/

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after rops (StableHlo.launchContents m c) (b : DevRef τ sig) :=
  StableHlo.run_seq scopedRefs_eq scopedSems_eq defs main (fun _ => rops) main_eq (fun _ => rops_sub) m ρ
    (fun _ => rops_fresh)

end Cert.ReferenceIdeal.Hand

end
-- ==== Proof.RefWrites.lean ====
import proofs.«404594_j87462714015857_2_alg».proof.ReferenceIdeal
import proofs.«404594_j87462714015857_2_alg».proof.Proof.Gen.ReferenceIdeal

noncomputable section

namespace Cert.ReferenceIdeal.Hand

open Idealize.ShloMosaic Cert.ReferenceIdeal

/-- The references the 43 operations of `rA` write, in order. -/
abbrev wA : List (Ref sig .tc) :=
  [main_v0, main_v1, main_v2, main_v3, main_cst, main_v4, main_cst_0, main_v5, main_v6, main_v7, main_cst_1, main_v8,
   main_v9, main_v10, main_c, main_v11, main_v12, main_c_2, main_v13, main_v14, main_v15, main_v16, main_v17,
   main_c_3, main_v18, main_v19, main_c_4, main_v20, main_v21, main_v22, main_v23, main_v24, main_v25, main_v26,
   main_v27, main_v28, main_v29, main_v30, main_v31, main_v32, main_v33, main_v34, main_v35]

/-- The references the 77 operations of `rL1` write, in order. -/
abbrev wL1 : List (Ref sig .tc) :=
  [main_c_5, main_v36, main_v37, main_c_6, main_v38, main_v39, main_v40, main_v41, main_v42, main_v43, main_v44,
   main_cst_7, main_v45, main_v46, main_v47, main_v48, main_v49, main_v50, main_v51, main_v52, main_v53, main_v54,
   main_v55, main_v56, main_v57, main_v58, main_v59, main_cst_8, main_v60, main_cst_9, main_v61, main_v62, main_c_10,
   main_call0.cst.ref, main_call0.v0.ref, main_call0.v1.ref, main_call0.cst_0.ref, main_call0.v2.ref,
   main_call0.v3.ref, main_call0.v4.ref, main_call0.v5.ref, main_call0.v6.ref, main_call0.v7.ref,
   main_call0.cst_1.ref, main_call0.v8.ref, main_call0.cst_2.ref, main_call0.v9.ref, main_call0.v10.ref,
   main_call0.v11.ref, main_call0.cst_3.ref, main_call0.v12.ref, main_call0.cst_4.ref, main_call0.call0.v0.ref,
   main_call0.call0.v1.ref, main_call0.call0.v2.ref, main_v64, main_v65, main_v66, main_v67, main_v68, main_v69,
   main_cst_11, main_v70, main_v71, main_v72, main_v73, main_v74, main_v75, main_v76, main_v77, main_v78,
   main_call1.cst.ref, main_call1.v0.ref, main_call1.v1.ref, main_v80, main_v81, main_v82]

/-- The references the 77 operations of `rL2` write, in order. -/
abbrev wL2 : List (Ref sig .tc) :=
  [main_c_12, main_v83, main_v84, main_c_13, main_v85, main_v86, main_v87, main_v88, main_v89, main_v90, main_v91,
   main_cst_14, main_v92, main_v93, main_v94, main_v95, main_v96, main_v97, main_v98, main_v99, main_v100, main_v101,
   main_v102, main_v103, main_v104, main_v105, main_v106, main_cst_15, main_v107, main_cst_16, main_v108, main_v109,
   main_c_17, main_call2.cst.ref, main_call2.v0.ref, main_call2.v1.ref, main_call2.cst_0.ref, main_call2.v2.ref,
   main_call2.v3.ref, main_call2.v4.ref, main_call2.v5.ref, main_call2.v6.ref, main_call2.v7.ref,
   main_call2.cst_1.ref, main_call2.v8.ref, main_call2.cst_2.ref, main_call2.v9.ref, main_call2.v10.ref,
   main_call2.v11.ref, main_call2.cst_3.ref, main_call2.v12.ref, main_call2.cst_4.ref, main_call2.call0.v0.ref,
   main_call2.call0.v1.ref, main_call2.call0.v2.ref, main_v111, main_v112, main_v113, main_v114, main_v115,
   main_v116, main_cst_18, main_v117, main_v118, main_v119, main_v120, main_v121, main_v122, main_v123, main_v124,
   main_v125, main_call3.cst.ref, main_call3.v0.ref, main_call3.v1.ref, main_v127, main_v128, main_v129]

/-- The references the 77 operations of `rL3` write, in order. -/
abbrev wL3 : List (Ref sig .tc) :=
  [main_c_19, main_v130, main_v131, main_c_20, main_v132, main_v133, main_v134, main_v135, main_v136, main_v137,
   main_v138, main_cst_21, main_v139, main_v140, main_v141, main_v142, main_v143, main_v144, main_v145, main_v146,
   main_v147, main_v148, main_v149, main_v150, main_v151, main_v152, main_v153, main_cst_22, main_v154, main_cst_23,
   main_v155, main_v156, main_c_24, main_call4.cst.ref, main_call4.v0.ref, main_call4.v1.ref, main_call4.cst_0.ref,
   main_call4.v2.ref, main_call4.v3.ref, main_call4.v4.ref, main_call4.v5.ref, main_call4.v6.ref, main_call4.v7.ref,
   main_call4.cst_1.ref, main_call4.v8.ref, main_call4.cst_2.ref, main_call4.v9.ref, main_call4.v10.ref,
   main_call4.v11.ref, main_call4.cst_3.ref, main_call4.v12.ref, main_call4.cst_4.ref, main_call4.call0.v0.ref,
   main_call4.call0.v1.ref, main_call4.call0.v2.ref, main_v158, main_v159, main_v160, main_v161, main_v162,
   main_v163, main_cst_25, main_v164, main_v165, main_v166, main_v167, main_v168, main_v169, main_v170, main_v171,
   main_v172, main_call5.cst.ref, main_call5.v0.ref, main_call5.v1.ref, main_v174, main_v175, main_v176]

/-- The references the 94 operations of `rP` write, in order. -/
abbrev wP : List (Ref sig .tc) :=
  [main_c_26, main_v177, main_v178, main_c_27, main_v179, main_v180, main_v181, main_v182, main_v183, main_v184,
   main_v185, main_cst_28, main_v186, main_v187, main_v188, main_v189, main_v190, main_v191, main_v192, main_v193,
   main_v194, main_v195, main_v196, main_v197, main_v198, main_v199, main_v200, main_cst_29, main_v201, main_cst_30,
   main_v202, main_v203, main_c_31, main_call6.cst.ref, main_call6.v0.ref, main_call6.v1.ref, main_call6.cst_0.ref,
   main_call6.v2.ref, main_call6.v3.ref, main_call6.v4.ref, main_call6.v5.ref, main_call6.v6.ref, main_call6.v7.ref,
   main_call6.cst_1.ref, main_call6.v8.ref, main_call6.cst_2.ref, main_call6.v9.ref, main_call6.v10.ref,
   main_call6.v11.ref, main_call6.cst_3.ref, main_call6.v12.ref, main_call6.cst_4.ref, main_call6.call0.v0.ref,
   main_call6.call0.v1.ref, main_call6.call0.v2.ref, main_v205, main_v206, main_v207, main_v208, main_v209,
   main_v210, main_cst_32, main_v211, main_v212, main_v213, main_v214, main_v215, main_v216, main_v217, main_v218,
   main_v219, main_call7.cst.ref, main_call7.v0.ref, main_call7.v1.ref, main_cst_33, main_v221, main_v222, main_v223,
   main_cst_34, main_v224, main_cst_35, main_v225, main_v226, main_v227, main_cst_36, main_v228, main_v229,
   main_v230, main_v231, main_v232, main_v233, main_v234, main_v235, main_v236]

/-- The references the 51 operations of `rF1` write, in order. -/
abbrev wF1 : List (Ref sig .tc) :=
  [main_cst_37, main_v237, main_cst_38, main_v238, main_v239, main_c_39, main_call8.cst.ref, main_call8.v0.ref,
   main_call8.v1.ref, main_call8.cst_0.ref, main_call8.v2.ref, main_call8.v3.ref, main_call8.v4.ref,
   main_call8.v5.ref, main_call8.v6.ref, main_call8.v7.ref, main_call8.cst_1.ref, main_call8.v8.ref,
   main_call8.cst_2.ref, main_call8.v9.ref, main_call8.v10.ref, main_call8.v11.ref, main_call8.cst_3.ref,
   main_call8.v12.ref, main_call8.cst_4.ref, main_call8.call0.v0.ref, main_call8.call0.v1.ref,
   main_call8.call0.v2.ref, main_v241, main_v242, main_v243, main_v244, main_v245, main_v246, main_cst_40, main_v247,
   main_v248, main_v249, main_v250, main_v251, main_v252, main_v253, main_v254, main_v255, main_call9.cst.ref,
   main_call9.v0.ref, main_call9.v1.ref, main_v257, main_v258, main_v259, main_v260]

/-- The references the 48 operations of `rF2` write, in order. -/
abbrev wF2 : List (Ref sig .tc) :=
  [main_cst_41, main_v261, main_cst_42, main_v262, main_v263, main_c_43, main_call10.cst.ref, main_call10.v0.ref,
   main_call10.v1.ref, main_call10.cst_0.ref, main_call10.v2.ref, main_call10.v3.ref, main_call10.v4.ref,
   main_call10.v5.ref, main_call10.v6.ref, main_call10.v7.ref, main_call10.cst_1.ref, main_call10.v8.ref,
   main_call10.cst_2.ref, main_call10.v9.ref, main_call10.v10.ref, main_call10.v11.ref, main_call10.cst_3.ref,
   main_call10.v12.ref, main_call10.cst_4.ref, main_call10.call0.v0.ref, main_call10.call0.v1.ref,
   main_call10.call0.v2.ref, main_v265, main_v266, main_v267, main_v268, main_v269, main_v270, main_cst_44,
   main_v271, main_v272, main_v273, main_v274, main_v275, main_v276, main_v277, main_v278, main_v279, main_v280,
   main_v281, main_v282, main_v283]

end Cert.ReferenceIdeal.Hand

end
-- ==== Proof.RefArgs.lean ====
/- No operation of the reference's line writes an argument: each of the 467 operations writes one buffer of its own
   (a value of @main or of an unfolded call), so after the whole line every argument still holds its launch contents. -/
import proofs.«404594_j87462714015857_2_alg».proof.Proof.RefRun
import proofs.«404594_j87462714015857_2_alg».proof.Proof.RefWrites

noncomputable section

namespace Cert.ReferenceIdeal.Hand

open Idealize.ShloMosaic Idealize.ShloMosaic.TcCoe Idealize.SL.Sem Cert.ReferenceIdeal

variable {F : FTy → Type} [FloatOps F]

/-! ## What each stretch writes

The seven lists `wA` … `wF2` name, stretch by stretch, the buffer each operation writes. Every operation writes
exactly one buffer, so its written set is a singleton, and that buffer is a member of its stretch's list. -/

/-- Each operation of `rA` writes one buffer, a listed one. -/
theorem rA_writes : (rA : List (HloOp τ sig (Elt F))).Forall fun op =>
    op.writes ⊆ (wA.map (Proc.devRef (τ := τ) .tc)).toFinset := by
  simp only [rA, List.Forall, StableHlo.TRef.nullary, StableHlo.TRef.unary, StableHlo.TRef.binary, StableHlo.TRef.ternary,
    StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- Each operation of `rL1` writes one buffer, a listed one. -/
theorem rL1_writes : (rL1 : List (HloOp τ sig (Elt F))).Forall fun op =>
    op.writes ⊆ (wL1.map (Proc.devRef (τ := τ) .tc)).toFinset := by
  simp only [rL1, List.Forall, StableHlo.TRef.nullary, StableHlo.TRef.unary, StableHlo.TRef.binary, StableHlo.TRef.ternary,
    StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- Each operation of `rL2` writes one buffer, a listed one. -/
theorem rL2_writes : (rL2 : List (HloOp τ sig (Elt F))).Forall fun op =>
    op.writes ⊆ (wL2.map (Proc.devRef (τ := τ) .tc)).toFinset := by
  simp only [rL2, List.Forall, StableHlo.TRef.nullary, StableHlo.TRef.unary, StableHlo.TRef.binary, StableHlo.TRef.ternary,
    StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- Each operation of `rL3` writes one buffer, a listed one. -/
theorem rL3_writes : (rL3 : List (HloOp τ sig (Elt F))).Forall fun op =>
    op.writes ⊆ (wL3.map (Proc.devRef (τ := τ) .tc)).toFinset := by
  simp only [rL3, List.Forall, StableHlo.TRef.nullary, StableHlo.TRef.unary, StableHlo.TRef.binary, StableHlo.TRef.ternary,
    StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- Each operation of `rP` writes one buffer, a listed one. -/
theorem rP_writes : (rP : List (HloOp τ sig (Elt F))).Forall fun op =>
    op.writes ⊆ (wP.map (Proc.devRef (τ := τ) .tc)).toFinset := by
  simp only [rP, List.Forall, StableHlo.TRef.nullary, StableHlo.TRef.unary, StableHlo.TRef.binary, StableHlo.TRef.ternary,
    StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- Each operation of `rF1` writes one buffer, a listed one. -/
theorem rF1_writes : (rF1 : List (HloOp τ sig (Elt F))).Forall fun op =>
    op.writes ⊆ (wF1.map (Proc.devRef (τ := τ) .tc)).toFinset := by
  simp only [rF1, List.Forall, StableHlo.TRef.nullary, StableHlo.TRef.unary, StableHlo.TRef.binary, StableHlo.TRef.ternary,
    StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- Each operation of `rF2` writes one buffer, a listed one. -/
theorem rF2_writes : (rF2 : List (HloOp τ sig (Elt F))).Forall fun op =>
    op.writes ⊆ (wF2.map (Proc.devRef (τ := τ) .tc)).toFinset := by
  simp only [rF2, List.Forall, StableHlo.TRef.nullary, StableHlo.TRef.unary, StableHlo.TRef.binary, StableHlo.TRef.ternary,
    StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-! ## A reference outside all seven lists is kept by the whole line -/

/-- All the written references: the seven lists in the line's order. -/
abbrev wAll : List (Ref sig .tc) := wA ++ (wL1 ++ (wL2 ++ (wL3 ++ (wP ++ (wF1 ++ wF2)))))

/-- A reference none of the 467 operations writes holds after the line what it held before: the line's fold is the
    seven stretches' folds in turn, and each stretch leaves a reference outside its written list alone. -/
theorem kept_of {r : Ref sig .tc} (h : r ∉ wAll) (V : Valuation τ sig (Elt F)) :
    StableHlo.after rops V (Proc.devRef .tc r) = V (Proc.devRef .tc r) := by
  have hA : r ∉ wA := fun hm => h (List.mem_append_left _ hm)
  have h1 : r ∉ wL1 := fun hm => h (List.mem_append_right _ (List.mem_append_left _ hm))
  have h2 : r ∉ wL2 := fun hm => h (List.mem_append_right _ (List.mem_append_right _ (List.mem_append_left _ hm)))
  have h3 : r ∉ wL3 := fun hm =>
    h (List.mem_append_right _ (List.mem_append_right _ (List.mem_append_right _ (List.mem_append_left _ hm))))
  have h4 : r ∉ wP := fun hm => h (List.mem_append_right _ (List.mem_append_right _ (List.mem_append_right _
    (List.mem_append_right _ (List.mem_append_left _ hm)))))
  have h5 : r ∉ wF1 := fun hm => h (List.mem_append_right _ (List.mem_append_right _ (List.mem_append_right _
    (List.mem_append_right _ (List.mem_append_right _ (List.mem_append_left _ hm))))))
  have h6 : r ∉ wF2 := fun hm => h (List.mem_append_right _ (List.mem_append_right _ (List.mem_append_right _
    (List.mem_append_right _ (List.mem_append_right _ (List.mem_append_right _ hm))))))
  rw [after_rops, StableHlo.after_of_writes_sub rF2 _ rF2_writes h6, StableHlo.after_of_writes_sub rF1 _ rF1_writes h5,
    StableHlo.after_of_writes_sub rP _ rP_writes h4, StableHlo.after_of_writes_sub rL3 _ rL3_writes h3,
    StableHlo.after_of_writes_sub rL2 _ rL2_writes h2, StableHlo.after_of_writes_sub rL1 _ rL1_writes h1,
    StableHlo.after_of_writes_sub rA _ rA_writes hA]

/-! ## The nineteen arguments -/

theorem arg0_kept (V : Valuation τ sig (Elt F)) :
    StableHlo.after rops V (Proc.devRef .tc main_arg0) = V (Proc.devRef .tc main_arg0) := kept_of (by decide) V
theorem arg1_kept (V : Valuation τ sig (Elt F)) :
    StableHlo.after rops V (Proc.devRef .tc main_arg1) = V (Proc.devRef .tc main_arg1) := kept_of (by decide) V
theorem arg2_kept (V : Valuation τ sig (Elt F)) :
    StableHlo.after rops V (Proc.devRef .tc main_arg2) = V (Proc.devRef .tc main_arg2) := kept_of (by decide) V
theorem arg3_kept (V : Valuation τ sig (Elt F)) :
    StableHlo.after rops V (Proc.devRef .tc main_arg3) = V (Proc.devRef .tc main_arg3) := kept_of (by decide) V
theorem arg4_kept (V : Valuation τ sig (Elt F)) :
    StableHlo.after rops V (Proc.devRef .tc main_arg4) = V (Proc.devRef .tc main_arg4) := kept_of (by decide) V
theorem arg5_kept (V : Valuation τ sig (Elt F)) :
    StableHlo.after rops V (Proc.devRef .tc main_arg5) = V (Proc.devRef .tc main_arg5) := kept_of (by decide) V
theorem arg6_kept (V : Valuation τ sig (Elt F)) :
    StableHlo.after rops V (Proc.devRef .tc main_arg6) = V (Proc.devRef .tc main_arg6) := kept_of (by decide) V
theorem arg7_kept (V : Valuation τ sig (Elt F)) :
    StableHlo.after rops V (Proc.devRef .tc main_arg7) = V (Proc.devRef .tc main_arg7) := kept_of (by decide) V
theorem arg8_kept (V : Valuation τ sig (Elt F)) :
    StableHlo.after rops V (Proc.devRef .tc main_arg8) = V (Proc.devRef .tc main_arg8) := kept_of (by decide) V
theorem arg9_kept (V : Valuation τ sig (Elt F)) :
    StableHlo.after rops V (Proc.devRef .tc main_arg9) = V (Proc.devRef .tc main_arg9) := kept_of (by decide) V
theorem arg10_kept (V : Valuation τ sig (Elt F)) :
    StableHlo.after rops V (Proc.devRef .tc main_arg10) = V (Proc.devRef .tc main_arg10) := kept_of (by decide) V
theorem arg11_kept (V : Valuation τ sig (Elt F)) :
    StableHlo.after rops V (Proc.devRef .tc main_arg11) = V (Proc.devRef .tc main_arg11) := kept_of (by decide) V
theorem arg12_kept (V : Valuation τ sig (Elt F)) :
    StableHlo.after rops V (Proc.devRef .tc main_arg12) = V (Proc.devRef .tc main_arg12) := kept_of (by decide) V
theorem arg13_kept (V : Valuation τ sig (Elt F)) :
    StableHlo.after rops V (Proc.devRef .tc main_arg13) = V (Proc.devRef .tc main_arg13) := kept_of (by decide) V
theorem arg14_kept (V : Valuation τ sig (Elt F)) :
    StableHlo.after rops V (Proc.devRef .tc main_arg14) = V (Proc.devRef .tc main_arg14) := kept_of (by decide) V
theorem arg15_kept (V : Valuation τ sig (Elt F)) :
    StableHlo.after rops V (Proc.devRef .tc main_arg15) = V (Proc.devRef .tc main_arg15) := kept_of (by decide) V
theorem arg16_kept (V : Valuation τ sig (Elt F)) :
    StableHlo.after rops V (Proc.devRef .tc main_arg16) = V (Proc.devRef .tc main_arg16) := kept_of (by decide) V
theorem arg17_kept (V : Valuation τ sig (Elt F)) :
    StableHlo.after rops V (Proc.devRef .tc main_arg17) = V (Proc.devRef .tc main_arg17) := kept_of (by decide) V
theorem arg18_kept (V : Valuation τ sig (Elt F)) :
    StableHlo.after rops V (Proc.devRef .tc main_arg18) = V (Proc.devRef .tc main_arg18) := kept_of (by decide) V

end Cert.ReferenceIdeal.Hand

end
-- ==== Proof.Spec.lean ====
/-
  The two functions the bridge between the programs is stated over, on the extended reals.

  `mmb M K N x w b`: the product of an `M × K` array with a `K × N` array, a row of `N` numbers added to every
  row: entry `(i, j)` is `∑ k, x i k * w k j + b 0 j`. `mm` is the same with no row added. Every dense layer of
  the network is one of these two: the node encoder and the three layers of the head add a bias row, the four
  graph-convolution layers add none (their bias comes after the aggregation).

  `SrcOk s`: every entry of an integer vector of node ids is a valid index of an axis of extent 20000 under
  wrap-around indexing, `-20000 ≤ id < 20000`.
-/
import Idealize.ShloMosaic.Lib.ValueIdx
import Idealize.ShloMosaic.PureOps.Ideal.Laws

noncomputable section

namespace Cert.Bridge

open Idealize.ShloMosaic Idealize.ShloMosaic.ValueIdx

/-- `∑ k, x i k * w k j` at every `(i, j)`. -/
def mm (M K N : Nat) (x : FVec Ideal ⟨2, ![M, K]⟩ .f32) (w : FVec Ideal ⟨2, ![K, N]⟩ .f32) : FVec Ideal ⟨2, ![M, N]⟩ .f32 :=
  fun j => ∑ k : Fin K, x (ix2 (j 0) k) * w (ix2 k (j 1))

/-- `∑ k, x i k * w k j + b 0 j` at every `(i, j)`. -/
def mmb (M K N : Nat) (x : FVec Ideal ⟨2, ![M, K]⟩ .f32) (w : FVec Ideal ⟨2, ![K, N]⟩ .f32)
    (b : FVec Ideal ⟨2, ![1, N]⟩ .f32) : FVec Ideal ⟨2, ![M, N]⟩ .f32 :=
  fun j => mm M K N x w j + b (ix2 0 (j 1))

/-- A vector of `N` numbers laid out as the one row of a `1 × N` array. -/
def row1 (N : Nat) (b : FVec Ideal ⟨1, ![N]⟩ .f32) : FVec Ideal ⟨2, ![1, N]⟩ .f32 := fun j => b (ix1 (j 1))

/-- Adding a row of zeros changes nothing: `x + 0 = x` on every extended real, the infinities included. -/
theorem mmb_zero (M K N : Nat) (x : FVec Ideal ⟨2, ![M, K]⟩ .f32) (w : FVec Ideal ⟨2, ![K, N]⟩ .f32)
    (b : FVec Ideal ⟨2, ![1, N]⟩ .f32) (hb : ∀ j, b j = (0 : EReal)) : mmb M K N x w b = mm M K N x w := by
  funext j
  show mm M K N x w j + b (ix2 0 (j 1)) = mm M K N x w j
  rw [hb, add_zero]

/-- Every entry is a valid wrap-around index of an axis of extent 20000. -/
def SrcOk (s : IVec ⟨1, ![320000]⟩ 32) : Prop := ∀ e, (-20000 : Int) ≤ (s e).toInt ∧ (s e).toInt < 20000

end Cert.Bridge

end
-- ==== Proof.Inv.lean ====
/-
  What the two programs share at a cut between two dense layers, as a relation between the kernel program's
  buffer contents `Vk` and the reference's `Vr`.

  `ArgsEq`: the nineteen argument arrays hold the same values on both sides.
  `Base`: besides that, the four graph quantities both programs compute once, before the first dense layer, and
  read in every graph-convolution layer — the source ids, the destination ids, the edge weights
  `dinv[src] * dinv[dst]` as a column and the self-loop weights `dinv * dinv` as a column — agree; the source ids are
  valid indices (`SrcOk`); and the kernel program's all-zero bias vector is all zero.
-/
import proofs.«404594_j87462714015857_2_alg».proof.Defs
import proofs.«404594_j87462714015857_2_alg».proof.Proof.Spec

noncomputable section

namespace Cert.Bridge

open Idealize.ShloMosaic Idealize.SL.Sem

/-- Buffer contents of the kernel program's TensorCore, and of the reference's. -/
abbrev KV := Valuation Cert.KernelIdeal.τ Cert.KernelIdeal.sig (Elt Ideal)
abbrev RV := Valuation Cert.ReferenceIdeal.τ Cert.ReferenceIdeal.sig (Elt Ideal)

/-- A TensorCore buffer of the kernel program, of the reference. -/
abbrev kr (b : Ref Cert.KernelIdeal.sig .tc) : DevRef Cert.KernelIdeal.τ Cert.KernelIdeal.sig := Proc.devRef .tc b
abbrev rr (b : Ref Cert.ReferenceIdeal.sig .tc) : DevRef Cert.ReferenceIdeal.τ Cert.ReferenceIdeal.sig := Proc.devRef .tc b

set_option maxHeartbeats 4000000 in
/-- The nineteen arguments agree. -/
structure ArgsEq (Vk : KV) (Vr : RV) : Prop where
  a0 : (Vk (kr Cert.KernelIdeal.main_arg0) : FVec Ideal Cert.KernelIdeal.S20000x128 .f32) = Vr (rr Cert.ReferenceIdeal.main_arg0)
  a1 : (Vk (kr Cert.KernelIdeal.main_arg1) : IVec Cert.KernelIdeal.S2x320000 32) = Vr (rr Cert.ReferenceIdeal.main_arg1)
  a2 : (Vk (kr Cert.KernelIdeal.main_arg2) : IVec Cert.KernelIdeal.S20000 32) = Vr (rr Cert.ReferenceIdeal.main_arg2)
  a3 : (Vk (kr Cert.KernelIdeal.main_arg3) : FVec Ideal Cert.KernelIdeal.S128x256 .f32) = Vr (rr Cert.ReferenceIdeal.main_arg3)
  a4 : (Vk (kr Cert.KernelIdeal.main_arg4) : FVec Ideal Cert.KernelIdeal.S256 .f32) = Vr (rr Cert.ReferenceIdeal.main_arg4)
  a5 : (Vk (kr Cert.KernelIdeal.main_arg5) : FVec Ideal Cert.KernelIdeal.S4x256x256 .f32) = Vr (rr Cert.ReferenceIdeal.main_arg5)
  a6 : (Vk (kr Cert.KernelIdeal.main_arg6) : FVec Ideal Cert.KernelIdeal.S4x256 .f32) = Vr (rr Cert.ReferenceIdeal.main_arg6)
  a7 : (Vk (kr Cert.KernelIdeal.main_arg7) : FVec Ideal Cert.KernelIdeal.S4x256 .f32) = Vr (rr Cert.ReferenceIdeal.main_arg7)
  a8 : (Vk (kr Cert.KernelIdeal.main_arg8) : FVec Ideal Cert.KernelIdeal.S4x256 .f32) = Vr (rr Cert.ReferenceIdeal.main_arg8)
  a9 : (Vk (kr Cert.KernelIdeal.main_arg9) : FVec Ideal Cert.KernelIdeal.S256x256 .f32) = Vr (rr Cert.ReferenceIdeal.main_arg9)
  a10 : (Vk (kr Cert.KernelIdeal.main_arg10) : FVec Ideal Cert.KernelIdeal.S256 .f32) = Vr (rr Cert.ReferenceIdeal.main_arg10)
  a11 : (Vk (kr Cert.KernelIdeal.main_arg11) : FVec Ideal Cert.KernelIdeal.S256 .f32) = Vr (rr Cert.ReferenceIdeal.main_arg11)
  a12 : (Vk (kr Cert.KernelIdeal.main_arg12) : FVec Ideal Cert.KernelIdeal.S256 .f32) = Vr (rr Cert.ReferenceIdeal.main_arg12)
  a13 : (Vk (kr Cert.KernelIdeal.main_arg13) : FVec Ideal Cert.KernelIdeal.S256x256 .f32) = Vr (rr Cert.ReferenceIdeal.main_arg13)
  a14 : (Vk (kr Cert.KernelIdeal.main_arg14) : FVec Ideal Cert.KernelIdeal.S256 .f32) = Vr (rr Cert.ReferenceIdeal.main_arg14)
  a15 : (Vk (kr Cert.KernelIdeal.main_arg15) : FVec Ideal Cert.KernelIdeal.S256 .f32) = Vr (rr Cert.ReferenceIdeal.main_arg15)
  a16 : (Vk (kr Cert.KernelIdeal.main_arg16) : FVec Ideal Cert.KernelIdeal.S256 .f32) = Vr (rr Cert.ReferenceIdeal.main_arg16)
  a17 : (Vk (kr Cert.KernelIdeal.main_arg17) : FVec Ideal Cert.KernelIdeal.S256x10 .f32) = Vr (rr Cert.ReferenceIdeal.main_arg17)
  a18 : (Vk (kr Cert.KernelIdeal.main_arg18) : FVec Ideal Cert.KernelIdeal.S10 .f32) = Vr (rr Cert.ReferenceIdeal.main_arg18)

set_option maxHeartbeats 4000000 in
/-- The arguments and the graph quantities agree, the source ids are valid, the zero bias is zero. -/
structure Base (Vk : KV) (Vr : RV) : Prop extends ArgsEq Vk Vr where
  src : (Vk (kr Cert.KernelIdeal.main_v1) : IVec Cert.KernelIdeal.S320000 32) = Vr (rr Cert.ReferenceIdeal.main_v1)
  dst : (Vk (kr Cert.KernelIdeal.main_v3) : IVec Cert.KernelIdeal.S320000 32) = Vr (rr Cert.ReferenceIdeal.main_v3)
  enorm : (Vk (kr Cert.KernelIdeal.main_v26) : FVec Ideal Cert.KernelIdeal.S320000x1 .f32) = Vr (rr Cert.ReferenceIdeal.main_v26)
  snorm : (Vk (kr Cert.KernelIdeal.main_v28) : FVec Ideal Cert.KernelIdeal.S20000x1 .f32) = Vr (rr Cert.ReferenceIdeal.main_v28)
  srcOk : SrcOk (Vk (kr Cert.KernelIdeal.main_v1))
  z31 : ∀ i, (Vk (kr Cert.KernelIdeal.main_v31) : FVec Ideal Cert.KernelIdeal.S256 .f32) i = (0 : EReal)

end Cert.Bridge

end
-- ==== Proof.PreSrc.lean ====
/-
  The source ids the kernel program gathers by are valid wrap-around indices.

  The precondition is the printed predicate of the test file, all ones. It is one conjunction; its last conjunct is the
  and-reduction over the 320000 edges of `(src ≥ -20000) ∧ (src < 20000)`, signed, where `src` is the first row of the
  `2 × 320000` edge list read as a vector. The kernel program's buffer of source ids, when its first region is entered,
  is that same row of the same argument: a slice of the first row and a reshape to a vector, nothing else written to it.
  So every entry of that buffer lies in `[-20000, 20000)`. Nothing else of the precondition is used.
-/
import proofs.«404594_j87462714015857_2_alg».proof.Defs
import proofs.«404594_j87462714015857_2_alg».proof.Proof.Gen.Pre_finite_inputs
import proofs.«404594_j87462714015857_2_alg».proof.Proof.Gen.KernelIdeal.Frame
import proofs.«404594_j87462714015857_2_alg».proof.Proof.Spec
import proofs.«404594_j87462714015857_2_alg».proof.Proof.Inv
import Idealize.ShloMosaic.Lib.ReduceAll
import Idealize.ShloMosaic.Lib.ValueIdx

set_option maxRecDepth 16384

noncomputable section

namespace Cert.Bridge

open Idealize.ShloMosaic Idealize.ShloMosaic.TcCoe Idealize.SL.Sem

/-- A shape of rank zero has one index. -/
instance idx0_subsingleton : Subsingleton Cert.Pre_finite_inputs.S_.Idx := ⟨fun a b => funext fun d => d.elim0⟩

/-- The last conjunct of the predicate, read at one edge. That conjunct is the and-reduction, over all edges, of
    `(v ≥ -20000) ∧ (row < 20000)`, both comparisons signed, where `row` is the first row of the edge list as a vector,
    computed here, and `v` is a vector the earlier part hands in (it is that same row, computed there; the theorem after
    this one says so). If the conjunction of a word with that reduction is one, then every edge `e` has `-20000 ≤ v e` and
    `row e < 20000` as signed values: a conjunction that is one has both sides one, an and-reduction that is one met only
    ones, a signed comparison that is one orders the signed values, and the two broadcast constants are the words of
    `-20000` (that is `2^32 - 20000 = 4294947296`) and of `20000`. -/
theorem part5_range (a1 : IVec Cert.Pre_finite_inputs.S2x320000 32) (v83 : IVec Cert.Pre_finite_inputs.S_ 1) (v85 : IVec Cert.Pre_finite_inputs.S320000 32)
    (hs : Cert.Pre_finite_inputs.S2x320000.Slices ![0, 0] Cert.Pre_finite_inputs.S1x320000) (hc : Cert.Pre_finite_inputs.S1x320000.ShapeCasts Cert.Pre_finite_inputs.S320000)
    (h : Cert.Pre_finite_inputs.fn_part5 (F := Ideal) a1 v83 v85 ValueIdx.ix0 = 1#1) (e : Cert.Pre_finite_inputs.S320000.Idx) :
    (-20000 : Int) ≤ (v85 e).toInt ∧
      ((shapeCast Cert.Pre_finite_inputs.S320000 (extractStridedSlice Cert.Pre_finite_inputs.S1x320000 ![0, 0] a1 hs) hc : IVec Cert.Pre_finite_inputs.S320000 32) e).toInt < 20000 := by
  unfold Cert.Pre_finite_inputs.fn_part5 at h
  dsimp only at h
  have h93 := (IntOp.andi_eq_one.1 h).2
  have h92 := Host.reduce_andi_all _ _ _ _ _ h93 e
  obtain ⟨hge, hlt⟩ := IntOp.andi_eq_one.1 h92
  have h1 : (4294947296#32 : BitVec 32).toInt ≤ (v85 e).toInt := IntOp.cmpi_sge.1 hge
  have h2 : ((shapeCast Cert.Pre_finite_inputs.S320000 (extractStridedSlice Cert.Pre_finite_inputs.S1x320000 ![0, 0] a1 hs) hc : IVec Cert.Pre_finite_inputs.S320000 32) e).toInt
      < (20000#32 : BitVec 32).toInt := IntOp.cmpi_slt.1 hlt
  have c1 : (4294947296#32 : BitVec 32).toInt = -20000 := by decide
  have c2 : (20000#32 : BitVec 32).toInt = 20000 := by decide
  rw [c1] at h1
  rw [c2] at h2
  exact ⟨h1, h2⟩

/-- The whole predicate all ones puts the first row of the edge list, as a vector of 320000 words, in `[-20000, 20000)`
    at every edge: the predicate is a conjunction whose last conjunct is the one above, at `v` that same row. -/
theorem fn_range {a0 : FVec Ideal Cert.Pre_finite_inputs.S20000x128 .f32} {a1 : IVec Cert.Pre_finite_inputs.S2x320000 32} {a2 : IVec Cert.Pre_finite_inputs.S20000 32} {a3 : FVec Ideal Cert.Pre_finite_inputs.S128x256 .f32} {a4 : FVec Ideal Cert.Pre_finite_inputs.S256 .f32} {a5 : FVec Ideal Cert.Pre_finite_inputs.S4x256x256 .f32} {a6 : FVec Ideal Cert.Pre_finite_inputs.S4x256 .f32} {a7 : FVec Ideal Cert.Pre_finite_inputs.S4x256 .f32} {a8 : FVec Ideal Cert.Pre_finite_inputs.S4x256 .f32} {a9 : FVec Ideal Cert.Pre_finite_inputs.S256x256 .f32} {a10 : FVec Ideal Cert.Pre_finite_inputs.S256 .f32} {a11 : FVec Ideal Cert.Pre_finite_inputs.S256 .f32} {a12 : FVec Ideal Cert.Pre_finite_inputs.S256 .f32} {a13 : FVec Ideal Cert.Pre_finite_inputs.S256x256 .f32} {a14 : FVec Ideal Cert.Pre_finite_inputs.S256 .f32} {a15 : FVec Ideal Cert.Pre_finite_inputs.S256 .f32} {a16 : FVec Ideal Cert.Pre_finite_inputs.S256 .f32} {a17 : FVec Ideal Cert.Pre_finite_inputs.S256x10 .f32} {a18 : FVec Ideal Cert.Pre_finite_inputs.S10 .f32}
    (h : Cert.Pre_finite_inputs.fn (F := Ideal) a0 a1 a2 a3 a4 a5 a6 a7 a8 a9 a10 a11 a12 a13 a14 a15 a16 a17 a18 = fun _ => 1#1)
    (hs : Cert.Pre_finite_inputs.S2x320000.Slices ![0, 0] Cert.Pre_finite_inputs.S1x320000) (hc : Cert.Pre_finite_inputs.S1x320000.ShapeCasts Cert.Pre_finite_inputs.S320000) (e : Cert.Pre_finite_inputs.S320000.Idx) :
    (-20000 : Int) ≤ ((shapeCast Cert.Pre_finite_inputs.S320000 (extractStridedSlice Cert.Pre_finite_inputs.S1x320000 ![0, 0] a1 hs) hc : IVec Cert.Pre_finite_inputs.S320000 32) e).toInt ∧
      ((shapeCast Cert.Pre_finite_inputs.S320000 (extractStridedSlice Cert.Pre_finite_inputs.S1x320000 ![0, 0] a1 hs) hc : IVec Cert.Pre_finite_inputs.S320000 32) e).toInt < 20000 := by
  have h0 := congrFun h ValueIdx.ix0
  unfold Cert.Pre_finite_inputs.fn Cert.Pre_finite_inputs.fn_part1 Cert.Pre_finite_inputs.fn_part2 Cert.Pre_finite_inputs.fn_part3 Cert.Pre_finite_inputs.fn_part4 at h0
  dsimp only at h0
  exact part5_range a1 _ _ hs hc h0 e

/-- Whatever the buffers hold before them, after the host operations that precede the first region the buffer of source
    ids is the first row of the edge-list argument as a vector: of those operations only the slice and the reshape write
    towards it, and they read the argument, which none of them writes. -/
theorem after0_src (V : Valuation Cert.KernelIdeal.τ Cert.KernelIdeal.sig (Elt Ideal))
    (hs : Cert.Pre_finite_inputs.S2x320000.Slices ![0, 0] Cert.Pre_finite_inputs.S1x320000) (hc : Cert.Pre_finite_inputs.S1x320000.ShapeCasts Cert.Pre_finite_inputs.S320000) :
    (StableHlo.after (Cert.KernelIdeal.Gen.hostOps0 (F := Ideal)) V (Proc.devRef .tc Cert.KernelIdeal.main_v1) : IVec Cert.Pre_finite_inputs.S320000 32)
      = shapeCast Cert.Pre_finite_inputs.S320000
          (extractStridedSlice Cert.Pre_finite_inputs.S1x320000 ![0, 0] (V (Proc.devRef .tc Cert.KernelIdeal.main_arg1)) hs) hc := by
  simp only [Cert.KernelIdeal.Gen.hostOps0]
  after_results_simp
  all_goals rfl

/-- At the entry of the first region the kernel program's buffer of source ids is the first row of the LAUNCHED edge list
    as a vector: the contents there are the launch memory run through those host operations, and the launch contents of
    the argument are the launch memory at it. -/
theorem W1_src (m : (ℓ : Loc Cert.KernelIdeal.nD Cert.KernelIdeal.τ Cert.KernelIdeal.sig) → Buf (Elt Ideal) ℓ) (ρ : Dev Cert.KernelIdeal.nD → PrngReg)
    (c : Dev Cert.KernelIdeal.nD)
    (hs : Cert.Pre_finite_inputs.S2x320000.Slices ![0, 0] Cert.Pre_finite_inputs.S1x320000) (hc : Cert.Pre_finite_inputs.S1x320000.ShapeCasts Cert.Pre_finite_inputs.S320000) :
    (Cert.KernelIdeal.Gen.W1 (F := Ideal) m ρ c (kr Cert.KernelIdeal.main_v1) : IVec Cert.Pre_finite_inputs.S320000 32)
      = shapeCast Cert.Pre_finite_inputs.S320000
          (extractStridedSlice Cert.Pre_finite_inputs.S1x320000 ![0, 0]
            (m ((c.tc : Thread Cert.KernelIdeal.nD Cert.KernelIdeal.τ).loc Cert.KernelIdeal.main_arg1)) hs) hc :=
  after0_src (Cert.KernelIdeal.Gen.W0 (F := Ideal) m ρ c) hs hc

/-- Under the precondition every source id the kernel program gathers by is in `[-20000, 20000)`. -/
theorem srcOk_W1 (m : (ℓ : Loc Cert.KernelIdeal.nD Cert.KernelIdeal.τ Cert.KernelIdeal.sig) → Buf (Elt Ideal) ℓ) (ρ : Dev Cert.KernelIdeal.nD → PrngReg)
    (h : Cert.Pre_KernelIdeal m) (c : Dev Cert.KernelIdeal.nD) :
    SrcOk (Cert.KernelIdeal.Gen.W1 (F := Ideal) m ρ c (kr Cert.KernelIdeal.main_v1)) := by
  have hs : Cert.Pre_finite_inputs.S2x320000.Slices ![0, 0] Cert.Pre_finite_inputs.S1x320000 := Cert.Pre_finite_inputs.Facts.slices_S2x320000_S1x320000_0_0
  have hc : Cert.Pre_finite_inputs.S1x320000.ShapeCasts Cert.Pre_finite_inputs.S320000 := Cert.Pre_finite_inputs.Facts.shapeCasts_S1x320000_S320000
  refine Eq.mpr (congrArg SrcOk (W1_src m ρ c hs hc)) ?_
  exact fun e => fn_range (h c) hs hc e

end Cert.Bridge

end
-- ==== Proof.MMKa.lean ====
/-
  What each of the eight dense-layer regions leaves in its output array, as a function of the three arrays it reads
  (the activations, the weights, the bias row): the product plus the bias row, `Cert.Bridge.mmb`. The region works
  through the rows in tiles (ten tiles of 2000 rows for the node-level layers, one tile of 128 rows for the head);
  a tile's result depends only on the tile's own rows, so the tiles' results are the rows of one product.

  This file: the five node-level layers. For each, three steps. (1) One tile: entry `(p, q)` of what the body stores
  is `∑ k, X p k * W k q + B 0 q` for the tile `X` of activations, the weights `W` and the bias row `B` — on the
  extended reals the narrowing of the operands to half precision is the identity, the accumulator starts at zero, and
  the bias row is repeated down the rows. (2) At grid point `t` the tile of activations is rows `2000 t … 2000 t + 1999`
  of the activations, the weights and the bias row are read whole, and the tile written back is rows
  `2000 t … 2000 t + 1999` of the output: so what point `t` writes back is those rows of the one product.
  (3) Row `r` of the output belongs to the tile of point `r / 2000`, so the ten tiles cover the output.
-/
import proofs.«404594_j87462714015857_2_alg».proof.Proof.Gen.KernelIdeal.Frame
import proofs.«404594_j87462714015857_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.Bridge.MMKa

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.Bridge

/-- The zero offsets of a whole-tile access, as the constant function. -/
theorem hz : (![0, 0] : Fin 2 → Nat) = fun _ => 0 := funext fun a => by fin_cases a <;> rfl

/-! ## One tile: the product of a tile of rows with the weights, plus the bias row -/

/-- A bias row repeated down 2000 rows, at `(p, q)`: the row's entry in column `q`. -/
theorem row_at (hb : S1x256.Broadcasts S2000x256) (b : FVec Ideal S1x256 .f32) (p : Fin 2000) (q : Fin 256) :
    broadcastTo S2000x256 b hb (ix2 p q) = b (ix2 0 q) := by
  refine broadcastTo_apply b hb (ix2 p q) (ix2 0 q) fun a => ?_
  match a with
  | ⟨0, _⟩ => rfl
  | ⟨1, _⟩ => rfl

/-! ### The first layer's product: 2000 × 128 by 128 × 256 -/

/-- Left operand, row axis: the output entry's row. -/
theorem lhsA_0 (j : S2000x256.Idx) (k : dot_S2000x128_S128x256_S2000x256_1_0_0_1_n_n.contr.Idx) :
    (dot_S2000x128_S128x256_S2000x256_1_0_0_1_n_n.lhsIdx j k 0).val = (j 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  simp only [Fin.val_cast]
  have key : ∀ (a b : Nat) (ha : a < S2000x256.rank) (hb : b < S2000x256.rank), a = b → (j ⟨a, ha⟩).val = (j ⟨b, hb⟩).val :=
    fun a b ha hb h => by subst h; rfl
  exact key _ _ _ _ (by decide)

/-- Left operand, column axis: the position along the shared axis. -/
theorem lhsA_1 (j : S2000x256.Idx) (k : dot_S2000x128_S128x256_S2000x256_1_0_0_1_n_n.contr.Idx) :
    (dot_S2000x128_S128x256_S2000x256_1_0_0_1_n_n.lhsIdx j k 1).val = (k ⟨0, by decide⟩).val :=
  dot_S2000x128_S128x256_S2000x256_1_0_0_1_n_n.lhsIdx_val_of_single (cl := 1) rfl j k

/-- Right operand, row axis: the position along the shared axis. -/
theorem rhsA_0 (j : S2000x256.Idx) (k : dot_S2000x128_S128x256_S2000x256_1_0_0_1_n_n.contr.Idx) :
    (dot_S2000x128_S128x256_S2000x256_1_0_0_1_n_n.rhsIdx j k 0).val = (k ⟨0, by decide⟩).val :=
  dot_S2000x128_S128x256_S2000x256_1_0_0_1_n_n.rhsIdx_val_of_single (cr := 0) rfl j k

/-- Right operand, column axis: the output entry's column. -/
theorem rhsA_1 (j : S2000x256.Idx) (k : dot_S2000x128_S128x256_S2000x256_1_0_0_1_n_n.contr.Idx) :
    (dot_S2000x128_S128x256_S2000x256_1_0_0_1_n_n.rhsIdx j k 1).val = (j 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  simp only [Fin.val_cast]
  have key : ∀ (a b : Nat) (ha : a < S2000x256.rank) (hb : b < S2000x256.rank), a = b → (j ⟨a, ha⟩).val = (j ⟨b, hb⟩).val :=
    fun a b ha hb h => by subst h; rfl
  exact key _ _ _ _ (by decide)

/-- The tile product into the zero accumulator, at `(p, q)`: `∑ k, x p k * w k q`. -/
theorem mmA_at (x : FVec Ideal S2000x128 .bf16) (w : FVec Ideal S128x256 .bf16) (p : Fin 2000) (q : Fin 256) :
    matmul dot_S2000x128_S128x256_S2000x256_1_0_0_1_n_n none x w (constant (F := Ideal) S2000x256 .f32 0x00000000#32) (ix2 p q)
      = ∑ k : Fin 128, x (ix2 p k) * w (ix2 k q) := by
  show FloatOps.matmul dot_S2000x128_S128x256_S2000x256_1_0_0_1_n_n none x w (constant (F := Ideal) S2000x256 .f32 0x00000000#32) (ix2 p q) = _
  rw [Ideal.matmul_constant_zero_apply]
  rw [← Equiv.sum_comp (contrEquiv1 dot_S2000x128_S128x256_S2000x256_1_0_0_1_n_n 128 rfl rfl).symm]
  refine Finset.sum_congr rfl fun k _ => ?_
  have hk : (((contrEquiv1 dot_S2000x128_S128x256_S2000x256_1_0_0_1_n_n 128 rfl rfl).symm k) ⟨0, by decide⟩ : ℕ) = k.val :=
    contrEquiv1_symm_val dot_S2000x128_S128x256_S2000x256_1_0_0_1_n_n 128 rfl rfl k
  have hl : dot_S2000x128_S128x256_S2000x256_1_0_0_1_n_n.lhsIdx (ix2 p q) ((contrEquiv1 dot_S2000x128_S128x256_S2000x256_1_0_0_1_n_n 128 rfl rfl).symm k) = ix2 p k := by
    funext a; apply Fin.ext
    match a with
    | ⟨0, _⟩ => exact lhsA_0 _ _
    | ⟨1, _⟩ => exact (lhsA_1 _ _).trans hk
  have hr : dot_S2000x128_S128x256_S2000x256_1_0_0_1_n_n.rhsIdx (ix2 p q) ((contrEquiv1 dot_S2000x128_S128x256_S2000x256_1_0_0_1_n_n 128 rfl rfl).symm k) = ix2 k q := by
    funext a; apply Fin.ext
    match a with
    | ⟨0, _⟩ => exact (rhsA_0 _ _).trans hk
    | ⟨1, _⟩ => exact rhsA_1 _ _
  rw [hl, hr]

/-- The first layer's tile, at `(p, q)`: `∑ k, x p k * w k q + b 0 q` (128 terms). -/
theorem payA_at (h1 : S1x256.ShapeCasts S1x256) (hb : S1x256.Broadcasts S2000x256) (ht : FTy.bits .bf16 < FTy.bits .f32)
    (x : FVec Ideal S2000x128 .f32) (w : FVec Ideal S128x256 .f32) (b : FVec Ideal S1x256 .f32) (p : Fin 2000) (q : Fin 256) :
    addf (matmul dot_S2000x128_S128x256_S2000x256_1_0_0_1_n_n none (truncf .bf16 x ht) (truncf .bf16 w ht) (constant (F := Ideal) S2000x256 .f32 0x00000000#32))
        (broadcastTo S2000x256 (shapeCast S1x256 (shapeCast S1x256 b h1) h1) hb) (ix2 p q)
      = (∑ k : Fin 128, x (ix2 p k) * w (ix2 k q)) + b (ix2 0 q) := by
  rw [shapeCast_self b h1, shapeCast_self b h1]
  rw [addf_apply, mmA_at, row_at]
  rfl

/-! ### The later layers' product: 2000 × 256 by 256 × 256 -/

/-- Left operand, row axis: the output entry's row. -/
theorem lhsB_0 (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  simp only [Fin.val_cast]
  have key : ∀ (a b : Nat) (ha : a < S2000x256.rank) (hb : b < S2000x256.rank), a = b → (j ⟨a, ha⟩).val = (j ⟨b, hb⟩).val :=
    fun a b ha hb h => by subst h; rfl
  exact key _ _ _ _ (by decide)

/-- Left operand, column axis: the position along the shared axis. -/
theorem lhsB_1 (j : S2000x256.Idx) (k : dot_S2000x256_S256x256_S2000x256_1_0_0_1_n_n.contr.Idx) :
    (dot_S2000x256_S256x256_S2000x256_1_0_0_1_n_n.lhsIdx j k 1).val = (k ⟨0, by decide⟩).val :=
  dot_S2000x256_S256x256_S2000x256_1_0_0_1_n_n.lhsIdx_val_of_single (cl := 1) rfl j k

/-- Right operand, row axis: the position along the shared axis. -/
theorem rhsB_0 (j : S2000x256.Idx) (k : dot_S2000x256_S256x256_S2000x256_1_0_0_1_n_n.contr.Idx) :
    (dot_S2000x256_S256x256_S2000x256_1_0_0_1_n_n.rhsIdx j k 0).val = (k ⟨0, by decide⟩).val :=
  dot_S2000x256_S256x256_S2000x256_1_0_0_1_n_n.rhsIdx_val_of_single (cr := 0) rfl j k

/-- Right operand, column axis: the output entry's column. -/
theorem rhsB_1 (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  simp only [Fin.val_cast]
  have key : ∀ (a b : Nat) (ha : a < S2000x256.rank) (hb : b < S2000x256.rank), a = b → (j ⟨a, ha⟩).val = (j ⟨b, hb⟩).val :=
    fun a b ha hb h => by subst h; rfl
  exact key _ _ _ _ (by decide)

/-- The tile product into the zero accumulator, at `(p, q)`: `∑ k, x p k * w k q`. -/
theorem mmB_at (x : FVec Ideal S2000x256 .bf16) (w : FVec Ideal S256x256 .bf16) (p : Fin 2000) (q : Fin 256) :
    matmul dot_S2000x256_S256x256_S2000x256_1_0_0_1_n_n none x w (constant (F := Ideal) S2000x256 .f32 0x00000000#32) (ix2 p q)
      = ∑ k : Fin 256, x (ix2 p k) * w (ix2 k q) := by
  show FloatOps.matmul dot_S2000x256_S256x256_S2000x256_1_0_0_1_n_n none x w (constant (F := Ideal) S2000x256 .f32 0x00000000#32) (ix2 p q) = _
  rw [Ideal.matmul_constant_zero_apply]
  rw [← Equiv.sum_comp (contrEquiv1 dot_S2000x256_S256x256_S2000x256_1_0_0_1_n_n 256 rfl rfl).symm]
  refine Finset.sum_congr rfl fun k _ => ?_
  have hk : (((contrEquiv1 dot_S2000x256_S256x256_S2000x256_1_0_0_1_n_n 256 rfl rfl).symm k) ⟨0, by decide⟩ : ℕ) = k.val :=
    contrEquiv1_symm_val dot_S2000x256_S256x256_S2000x256_1_0_0_1_n_n 256 rfl rfl k
  have hl : dot_S2000x256_S256x256_S2000x256_1_0_0_1_n_n.lhsIdx (ix2 p q) ((contrEquiv1 dot_S2000x256_S256x256_S2000x256_1_0_0_1_n_n 256 rfl rfl).symm k) = ix2 p k := by
    funext a; apply Fin.ext
    match a with
    | ⟨0, _⟩ => exact lhsB_0 _ _
    | ⟨1, _⟩ => exact (lhsB_1 _ _).trans hk
  have hr : dot_S2000x256_S256x256_S2000x256_1_0_0_1_n_n.rhsIdx (ix2 p q) ((contrEquiv1 dot_S2000x256_S256x256_S2000x256_1_0_0_1_n_n 256 rfl rfl).symm k) = ix2 k q := by
    funext a; apply Fin.ext
    match a with
    | ⟨0, _⟩ => exact (rhsB_0 _ _).trans hk
    | ⟨1, _⟩ => exact rhsB_1 _ _
  rw [hl, hr]

/-- A later layer's tile, at `(p, q)`: `∑ k, x p k * w k q + b 0 q` (256 terms). -/
theorem payB_at (h2 : S2000x256.ShapeCasts S2000x256) (h3 : S256x256.ShapeCasts S256x256) (h1 : S1x256.ShapeCasts S1x256)
    (hb : S1x256.Broadcasts S2000x256) (ht : FTy.bits .bf16 < FTy.bits .f32)
    (x : FVec Ideal S2000x256 .f32) (w : FVec Ideal S256x256 .f32) (b : FVec Ideal S1x256 .f32) (p : Fin 2000) (q : Fin 256) :
    addf (matmul dot_S2000x256_S256x256_S2000x256_1_0_0_1_n_n none (truncf .bf16 (shapeCast S2000x256 x h2) ht) (truncf .bf16 (shapeCast S256x256 w h3) ht)
          (constant (F := Ideal) S2000x256 .f32 0x00000000#32))
        (broadcastTo S2000x256 (shapeCast S1x256 (shapeCast S1x256 b h1) h1) hb) (ix2 p q)
      = (∑ k : Fin 256, x (ix2 p k) * w (ix2 k q)) + b (ix2 0 q) := by
  rw [shapeCast_self x h2, shapeCast_self w h3, shapeCast_self b h1, shapeCast_self b h1]
  rw [addf_apply, mmB_at, row_at]
  rfl

section Region0

/-! ## Region 0 (the node encoder: 20000 × 128 by 128 × 256) -/

/-- The four index maps over the ten grid points: the activations' and the output's tiles are tile `t` of the rows,
    the weights and the bias row are read whole. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One tile's entry `(p, q)`, given that the tile's row `p` is row `r` of `x` and that the weights and the bias row are
    `w` and `b` where the entry reads them: entry `(r, q)` of the product of `x` and `w` plus the row `b`. -/
theorem point0 (X : FVec Ideal S2000x128 .f32) (W : FVec Ideal S128x256 .f32) (B : FVec Ideal S1x256 .f32)
    (x : FVec Ideal S20000x128 .f32) (w : FVec Ideal S128x256 .f32) (b : FVec Ideal S1x256 .f32)
    (p : Fin 2000) (q : Fin 256) (r : Fin 20000)
    (hX : ∀ k : Fin 128, X (ix2 p k) = x (ix2 r k)) (hW : ∀ k : Fin 128, W (ix2 k q) = w (ix2 k q))
    (hB : B (ix2 0 q) = b (ix2 0 q)) :
    k0_pay1 (F := Ideal) X W B (ix2 p q) = mmb 20000 128 256 x w b (ix2 r q) := by
  refine (payA_at (by decide) (by decide) (by decide) X W B p q).trans ?_
  show (∑ k : Fin 128, X (ix2 p k) * W (ix2 k q)) + B (ix2 0 q) = (∑ k : Fin 128, x (ix2 r k) * w (ix2 k q)) + b (ix2 0 q)
  rw [hB]
  exact congrArg (· + b (ix2 0 q)) (Finset.sum_congr rfl fun k _ => by rw [hX k, hW k])

variable (V : (c : Dev nD) → (b : Ref sig .tc) → Buf (Elt Ideal) ((c : Thread nD τ).loc b))

/-- The tile of activations at point `t`: row `p` of the tile is row `2000 t + p` of the activations. -/
theorem blk0_0 (c : Dev nD) (t : Fin cfg0.N) (p : Fin 2000) (k : Fin 128) (r : Fin 20000) (hr : r.val = 2000 * t.val + p.val) :
    (iblk0 V c 0 t : FVec Ideal S2000x128 .f32) (ix2 p k) = (V c (Pipeline.arrRef spec0 0) : FVec Ideal S20000x128 .f32) (ix2 r k) := by
  obtain ⟨e0, e1, -⟩ := idx0 t
  have h : ((cfg0.win 0).blk t).view.emb (ix2 p k) = (ix2 r k : S20000x128.Idx) := by
    funext a; apply Fin.ext
    match a with
    | ⟨0, _⟩ => show win0_0.index t (0 : Fin 2) * 2000 + 1 * p.val = r.val; omega
    | ⟨1, _⟩ => show win0_0.index t (1 : Fin 2) * 128 + 1 * k.val = k.val; omega
  unfold iblk0
  rw [View.read_apply]
  show (V c (Pipeline.arrRef spec0 0) : FVec Ideal S20000x128 .f32) (((cfg0.win 0).blk t).view.emb (ix2 p k)) = _
  rw [h]

/-- The weights at point `t`: all of them. -/
theorem blk0_1 (c : Dev nD) (t : Fin cfg0.N) (k : Fin 128) (q : Fin 256) :
    (iblk0 V c 1 t : FVec Ideal S128x256 .f32) (ix2 k q) = (V c (Pipeline.arrRef spec0 1) : FVec Ideal S128x256 .f32) (ix2 k q) := by
  obtain ⟨-, -, e0, e1, -⟩ := idx0 t
  have h : ((cfg0.win 1).blk t).view.emb (ix2 k q) = (ix2 k q : S128x256.Idx) := by
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  unfold iblk0
  rw [View.read_apply]
  show (V c (Pipeline.arrRef spec0 1) : FVec Ideal S128x256 .f32) (((cfg0.win 1).blk t).view.emb (ix2 k q)) = _
  rw [h]

/-- The bias row at point `t`: all of it. -/
theorem blk0_2 (c : Dev nD) (t : Fin cfg0.N) (z : Fin 1) (q : Fin 256) :
    (iblk0 V c 2 t : FVec Ideal S1x256 .f32) (ix2 z q) = (V c (Pipeline.arrRef spec0 2) : FVec Ideal S1x256 .f32) (ix2 z q) := by
  obtain ⟨-, -, -, -, e0, e1, -⟩ := idx0 t
  have h : ((cfg0.win 2).blk t).view.emb (ix2 z q) = (ix2 z q : S1x256.Idx) := by
    funext a; apply Fin.ext
    match a with
    | ⟨0, _⟩ => show win0_2.index t (0 : Fin 2) * 1 + 1 * z.val = z.val; omega
    | ⟨1, _⟩ => show win0_2.index t (1 : Fin 2) * 256 + 1 * q.val = q.val; omega
  unfold iblk0
  rw [View.read_apply]
  show (V c (Pipeline.arrRef spec0 2) : FVec Ideal S1x256 .f32) (((cfg0.win 2).blk t).view.emb (ix2 z q)) = _
  rw [h]

/-- The product of the region's first two arrays plus its third as a row. -/
abbrev G0 (c : Dev nD) : FVec Ideal ⟨2, ![20000, 256]⟩ .f32 :=
  mmb 20000 128 256 (V c (Pipeline.arrRef spec0 0)) (V c (Pipeline.arrRef spec0 1)) (V c (Pipeline.arrRef spec0 2))

/-- Entry `(p, q)` of the tile point `t` computes is the product's entry where the output's tile `t` puts it. -/
theorem entry0 (c : Dev nD) (t : Fin cfg0.N) (p : Fin 2000) (q : Fin 256) :
    k0_pay1 (F := Ideal) (iblk0 V c 0 t) (iblk0 V c 1 t) (iblk0 V c 2 t) (ix2 p q)
      = G0 V c (((cfg0.win 3).blk t).view.emb (ix2 p q)) := by
  have hN : cfg0.N = 10 := N_0
  have ht : t.val < 10 := lt_of_lt_of_eq t.isLt hN
  obtain ⟨-, -, -, -, -, -, e0, e1⟩ := idx0 t
  have hr : 2000 * t.val + p.val < 20000 := by omega
  have h : ((cfg0.win 3).blk t).view.emb (ix2 p q) = (ix2 (⟨2000 * t.val + p.val, hr⟩ : Fin 20000) q : S20000x256.Idx) := by
    funext a; apply Fin.ext
    match a with
    | ⟨0, _⟩ => show win0_3.index t (0 : Fin 2) * 2000 + 1 * p.val = 2000 * t.val + p.val; omega
    | ⟨1, _⟩ => show win0_3.index t (1 : Fin 2) * 256 + 1 * q.val = q.val; omega
  rw [h]
  exact point0 (iblk0 V c 0 t) (iblk0 V c 1 t) (iblk0 V c 2 t)
    (V c (Pipeline.arrRef spec0 0)) (V c (Pipeline.arrRef spec0 1)) (V c (Pipeline.arrRef spec0 2))
    p q ⟨2000 * t.val + p.val, hr⟩
    (fun k => blk0_0 V c t p k ⟨2000 * t.val + p.val, hr⟩ rfl) (fun k => blk0_1 V c t k q) (blk0_2 V c t 0 q)

/-- What point `t` writes back is the output's tile `t` of the product. -/
theorem flushed0 (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (ix2 p q)
    = G0 V c (((cfg0.win 3).blk t).view.emb (ix2 p q))
  exact entry0 V c t p q

/-- An entry of the output is in tile `t` iff each coordinate is in the tile's range on its axis. -/
theorem mem_blk0 (t : Fin cfg0.N) (i : S20000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v30).slice (win0_3.rect t)).set ↔ _
  rw [View.set_slice_whole, Rect.mem_set_unit]
  exact Iff.rfl

/-- Row `r` of the output is in the tile of point `r / 2000`, which is written back. -/
theorem cover0 (i : S20000x256.Idx) :
    ∃ t : Fin cfg0.N, (cfg0.win 3).flush t = true ∧ i ∈ ((cfg0.win 3).blk t).view.set := by
  have h0 : (i 0).val < 20000 := idx2_lt0 i
  have h1 : (i 1).val < 256 := idx2_lt1 i
  have hN : cfg0.N = 10 := N_0
  obtain ⟨t, ht⟩ : ∃ t : Fin cfg0.N, t.val = (i 0).val / 2000 := ⟨⟨(i 0).val / 2000, by rw [hN]; omega⟩, rfl⟩
  obtain ⟨-, -, -, -, -, -, e0, e1⟩ := idx0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 256 ≤ (i 1).val ∧ (i 1).val < win0_3.index t (1 : Fin 2) * 256 + 256
    omega

/-- Region 0: the output array after the region is the product of its first two arrays plus its third as a row. -/
theorem out0 (c : Dev nD) :
    ((dat0 (F := Ideal) V c).arrAt 3 cfg0.N : FVec Ideal ⟨2, ![20000, 256]⟩ .f32)
      = mmb 20000 128 256 (V c (Pipeline.arrRef spec0 0)) (V c (Pipeline.arrRef spec0 1)) (V c (Pipeline.arrRef spec0 2)) :=
  (dat0 (F := Ideal) V c).arrAt_eq_of_cover 3 (G0 V c) (fun t _ => flushed0 V c t) cover0

end Region0

section Region1

/-! ## Region 1 (the first graph-convolution layer's linear map: 20000 × 256 by 256 × 256) -/

/-- The four index maps over the ten grid points: the activations' and the output's tiles are tile `t` of the rows,
    the weights and the bias row are read whole. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One tile's entry `(p, q)`, given that the tile's row `p` is row `r` of `x` and that the weights and the bias row are
    `w` and `b` where the entry reads them: entry `(r, q)` of the product of `x` and `w` plus the row `b`. -/
theorem point1 (X : FVec Ideal S2000x256 .f32) (W : FVec Ideal S256x256 .f32) (B : FVec Ideal S1x256 .f32)
    (x : FVec Ideal S20000x256 .f32) (w : FVec Ideal S256x256 .f32) (b : FVec Ideal S1x256 .f32)
    (p : Fin 2000) (q : Fin 256) (r : Fin 20000)
    (hX : ∀ k : Fin 256, X (ix2 p k) = x (ix2 r k)) (hW : ∀ k : Fin 256, W (ix2 k q) = w (ix2 k q))
    (hB : B (ix2 0 q) = b (ix2 0 q)) :
    k1_pay1 (F := Ideal) X W B (ix2 p q) = mmb 20000 256 256 x w b (ix2 r q) := by
  refine (payB_at (by decide) (by decide) (by decide) (by decide) (by decide) X W B p q).trans ?_
  show (∑ k : Fin 256, X (ix2 p k) * W (ix2 k q)) + B (ix2 0 q) = (∑ k : Fin 256, x (ix2 r k) * w (ix2 k q)) + b (ix2 0 q)
  rw [hB]
  exact congrArg (· + b (ix2 0 q)) (Finset.sum_congr rfl fun k _ => by rw [hX k, hW k])

variable (V : (c : Dev nD) → (b : Ref sig .tc) → Buf (Elt Ideal) ((c : Thread nD τ).loc b))

/-- The tile of activations at point `t`: row `p` of the tile is row `2000 t + p` of the activations. -/
theorem blk1_0 (c : Dev nD) (t : Fin cfg1.N) (p : Fin 2000) (k : Fin 256) (r : Fin 20000) (hr : r.val = 2000 * t.val + p.val) :
    (iblk1 V c 0 t : FVec Ideal S2000x256 .f32) (ix2 p k) = (V c (Pipeline.arrRef spec1 0) : FVec Ideal S20000x256 .f32) (ix2 r k) := by
  obtain ⟨e0, e1, -⟩ := idx1 t
  have h : ((cfg1.win 0).blk t).view.emb (ix2 p k) = (ix2 r k : S20000x256.Idx) := by
    funext a; apply Fin.ext
    match a with
    | ⟨0, _⟩ => show win1_0.index t (0 : Fin 2) * 2000 + 1 * p.val = r.val; omega
    | ⟨1, _⟩ => show win1_0.index t (1 : Fin 2) * 256 + 1 * k.val = k.val; omega
  unfold iblk1
  rw [View.read_apply]
  show (V c (Pipeline.arrRef spec1 0) : FVec Ideal S20000x256 .f32) (((cfg1.win 0).blk t).view.emb (ix2 p k)) = _
  rw [h]

/-- The weights at point `t`: all of them. -/
theorem blk1_1 (c : Dev nD) (t : Fin cfg1.N) (k : Fin 256) (q : Fin 256) :
    (iblk1 V c 1 t : FVec Ideal S256x256 .f32) (ix2 k q) = (V c (Pipeline.arrRef spec1 1) : FVec Ideal S256x256 .f32) (ix2 k q) := by
  obtain ⟨-, -, e0, e1, -⟩ := idx1 t
  have h : ((cfg1.win 1).blk t).view.emb (ix2 k q) = (ix2 k q : S256x256.Idx) := by
    funext a; apply Fin.ext
    match a with
    | ⟨0, _⟩ => show win1_1.index t (0 : Fin 2) * 256 + 1 * k.val = k.val; omega
    | ⟨1, _⟩ => show win1_1.index t (1 : Fin 2) * 256 + 1 * q.val = q.val; omega
  unfold iblk1
  rw [View.read_apply]
  show (V c (Pipeline.arrRef spec1 1) : FVec Ideal S256x256 .f32) (((cfg1.win 1).blk t).view.emb (ix2 k q)) = _
  rw [h]

/-- The bias row at point `t`: all of it. -/
theorem blk1_2 (c : Dev nD) (t : Fin cfg1.N) (z : Fin 1) (q : Fin 256) :
    (iblk1 V c 2 t : FVec Ideal S1x256 .f32) (ix2 z q) = (V c (Pipeline.arrRef spec1 2) : FVec Ideal S1x256 .f32) (ix2 z q) := by
  obtain ⟨-, -, -, -, e0, e1, -⟩ := idx1 t
  have h : ((cfg1.win 2).blk t).view.emb (ix2 z q) = (ix2 z q : S1x256.Idx) := by
    funext a; apply Fin.ext
    match a with
    | ⟨0, _⟩ => show win1_2.index t (0 : Fin 2) * 1 + 1 * z.val = z.val; omega
    | ⟨1, _⟩ => show win1_2.index t (1 : Fin 2) * 256 + 1 * q.val = q.val; omega
  unfold iblk1
  rw [View.read_apply]
  show (V c (Pipeline.arrRef spec1 2) : FVec Ideal S1x256 .f32) (((cfg1.win 2).blk t).view.emb (ix2 z q)) = _
  rw [h]

/-- The product of the region's first two arrays plus its third as a row. -/
abbrev G1 (c : Dev nD) : FVec Ideal ⟨2, ![20000, 256]⟩ .f32 :=
  mmb 20000 256 256 (V c (Pipeline.arrRef spec1 0)) (V c (Pipeline.arrRef spec1 1)) (V c (Pipeline.arrRef spec1 2))

/-- Entry `(p, q)` of the tile point `t` computes is the product's entry where the output's tile `t` puts it. -/
theorem entry1 (c : Dev nD) (t : Fin cfg1.N) (p : Fin 2000) (q : Fin 256) :
    k1_pay1 (F := Ideal) (iblk1 V c 0 t) (iblk1 V c 1 t) (iblk1 V c 2 t) (ix2 p q)
      = G1 V c (((cfg1.win 3).blk t).view.emb (ix2 p q)) := by
  have hN : cfg1.N = 10 := N_1
  have ht : t.val < 10 := lt_of_lt_of_eq t.isLt hN
  obtain ⟨-, -, -, -, -, -, e0, e1⟩ := idx1 t
  have hr : 2000 * t.val + p.val < 20000 := by omega
  have h : ((cfg1.win 3).blk t).view.emb (ix2 p q) = (ix2 (⟨2000 * t.val + p.val, hr⟩ : Fin 20000) q : S20000x256.Idx) := by
    funext a; apply Fin.ext
    match a with
    | ⟨0, _⟩ => show win1_3.index t (0 : Fin 2) * 2000 + 1 * p.val = 2000 * t.val + p.val; omega
    | ⟨1, _⟩ => show win1_3.index t (1 : Fin 2) * 256 + 1 * q.val = q.val; omega
  rw [h]
  exact point1 (iblk1 V c 0 t) (iblk1 V c 1 t) (iblk1 V c 2 t)
    (V c (Pipeline.arrRef spec1 0)) (V c (Pipeline.arrRef spec1 1)) (V c (Pipeline.arrRef spec1 2))
    p q ⟨2000 * t.val + p.val, hr⟩
    (fun k => blk1_0 V c t p k ⟨2000 * t.val + p.val, hr⟩ rfl) (fun k => blk1_1 V c t k q) (blk1_2 V c t 0 q)

/-- What point `t` writes back is the output's tile `t` of the product. -/
theorem flushed1 (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (ix2 p q)
    = G1 V c (((cfg1.win 3).blk t).view.emb (ix2 p q))
  exact entry1 V c t p q

/-- An entry of the output is in tile `t` iff each coordinate is in the tile's range on its axis. -/
theorem mem_blk1 (t : Fin cfg1.N) (i : S20000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v35).slice (win1_3.rect t)).set ↔ _
  rw [View.set_slice_whole, Rect.mem_set_unit]
  exact Iff.rfl

/-- Row `r` of the output is in the tile of point `r / 2000`, which is written back. -/
theorem cover1 (i : S20000x256.Idx) :
    ∃ t : Fin cfg1.N, (cfg1.win 3).flush t = true ∧ i ∈ ((cfg1.win 3).blk t).view.set := by
  have h0 : (i 0).val < 20000 := idx2_lt0 i
  have h1 : (i 1).val < 256 := idx2_lt1 i
  have hN : cfg1.N = 10 := N_1
  obtain ⟨t, ht⟩ : ∃ t : Fin cfg1.N, t.val = (i 0).val / 2000 := ⟨⟨(i 0).val / 2000, by rw [hN]; omega⟩, rfl⟩
  obtain ⟨-, -, -, -, -, -, e0, e1⟩ := idx1 t
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 256 ≤ (i 1).val ∧ (i 1).val < win1_3.index t (1 : Fin 2) * 256 + 256
    omega

/-- Region 1: the output array after the region is the product of its first two arrays plus its third as a row. -/
theorem out1 (c : Dev nD) :
    ((dat1 (F := Ideal) V c).arrAt 3 cfg1.N : FVec Ideal ⟨2, ![20000, 256]⟩ .f32)
      = mmb 20000 256 256 (V c (Pipeline.arrRef spec1 0)) (V c (Pipeline.arrRef spec1 1)) (V c (Pipeline.arrRef spec1 2)) :=
  (dat1 (F := Ideal) V c).arrAt_eq_of_cover 3 (G1 V c) (fun t _ => flushed1 V c t) cover1

end Region1

section Region2

/-! ## Region 2 (the second graph-convolution layer's linear map) -/

/-- The four index maps over the ten grid points: the activations' and the output's tiles are tile `t` of the rows,
    the weights and the bias row are read whole. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One tile's entry `(p, q)`, given that the tile's row `p` is row `r` of `x` and that the weights and the bias row are
    `w` and `b` where the entry reads them: entry `(r, q)` of the product of `x` and `w` plus the row `b`. -/
theorem point2 (X : FVec Ideal S2000x256 .f32) (W : FVec Ideal S256x256 .f32) (B : FVec Ideal S1x256 .f32)
    (x : FVec Ideal S20000x256 .f32) (w : FVec Ideal S256x256 .f32) (b : FVec Ideal S1x256 .f32)
    (p : Fin 2000) (q : Fin 256) (r : Fin 20000)
    (hX : ∀ k : Fin 256, X (ix2 p k) = x (ix2 r k)) (hW : ∀ k : Fin 256, W (ix2 k q) = w (ix2 k q))
    (hB : B (ix2 0 q) = b (ix2 0 q)) :
    k2_pay1 (F := Ideal) X W B (ix2 p q) = mmb 20000 256 256 x w b (ix2 r q) := by
  refine (payB_at (by decide) (by decide) (by decide) (by decide) (by decide) X W B p q).trans ?_
  show (∑ k : Fin 256, X (ix2 p k) * W (ix2 k q)) + B (ix2 0 q) = (∑ k : Fin 256, x (ix2 r k) * w (ix2 k q)) + b (ix2 0 q)
  rw [hB]
  exact congrArg (· + b (ix2 0 q)) (Finset.sum_congr rfl fun k _ => by rw [hX k, hW k])

variable (V : (c : Dev nD) → (b : Ref sig .tc) → Buf (Elt Ideal) ((c : Thread nD τ).loc b))

/-- The tile of activations at point `t`: row `p` of the tile is row `2000 t + p` of the activations. -/
theorem blk2_0 (c : Dev nD) (t : Fin cfg2.N) (p : Fin 2000) (k : Fin 256) (r : Fin 20000) (hr : r.val = 2000 * t.val + p.val) :
    (iblk2 V c 0 t : FVec Ideal S2000x256 .f32) (ix2 p k) = (V c (Pipeline.arrRef spec2 0) : FVec Ideal S20000x256 .f32) (ix2 r k) := by
  obtain ⟨e0, e1, -⟩ := idx2 t
  have h : ((cfg2.win 0).blk t).view.emb (ix2 p k) = (ix2 r k : S20000x256.Idx) := by
    funext a; apply Fin.ext
    match a with
    | ⟨0, _⟩ => show win2_0.index t (0 : Fin 2) * 2000 + 1 * p.val = r.val; omega
    | ⟨1, _⟩ => show win2_0.index t (1 : Fin 2) * 256 + 1 * k.val = k.val; omega
  unfold iblk2
  rw [View.read_apply]
  show (V c (Pipeline.arrRef spec2 0) : FVec Ideal S20000x256 .f32) (((cfg2.win 0).blk t).view.emb (ix2 p k)) = _
  rw [h]

/-- The weights at point `t`: all of them. -/
theorem blk2_1 (c : Dev nD) (t : Fin cfg2.N) (k : Fin 256) (q : Fin 256) :
    (iblk2 V c 1 t : FVec Ideal S256x256 .f32) (ix2 k q) = (V c (Pipeline.arrRef spec2 1) : FVec Ideal S256x256 .f32) (ix2 k q) := by
  obtain ⟨-, -, e0, e1, -⟩ := idx2 t
  have h : ((cfg2.win 1).blk t).view.emb (ix2 k q) = (ix2 k q : S256x256.Idx) := by
    funext a; apply Fin.ext
    match a with
    | ⟨0, _⟩ => show win2_1.index t (0 : Fin 2) * 256 + 1 * k.val = k.val; omega
    | ⟨1, _⟩ => show win2_1.index t (1 : Fin 2) * 256 + 1 * q.val = q.val; omega
  unfold iblk2
  rw [View.read_apply]
  show (V c (Pipeline.arrRef spec2 1) : FVec Ideal S256x256 .f32) (((cfg2.win 1).blk t).view.emb (ix2 k q)) = _
  rw [h]

/-- The bias row at point `t`: all of it. -/
theorem blk2_2 (c : Dev nD) (t : Fin cfg2.N) (z : Fin 1) (q : Fin 256) :
    (iblk2 V c 2 t : FVec Ideal S1x256 .f32) (ix2 z q) = (V c (Pipeline.arrRef spec2 2) : FVec Ideal S1x256 .f32) (ix2 z q) := by
  obtain ⟨-, -, -, -, e0, e1, -⟩ := idx2 t
  have h : ((cfg2.win 2).blk t).view.emb (ix2 z q) = (ix2 z q : S1x256.Idx) := by
    funext a; apply Fin.ext
    match a with
    | ⟨0, _⟩ => show win2_2.index t (0 : Fin 2) * 1 + 1 * z.val = z.val; omega
    | ⟨1, _⟩ => show win2_2.index t (1 : Fin 2) * 256 + 1 * q.val = q.val; omega
  unfold iblk2
  rw [View.read_apply]
  show (V c (Pipeline.arrRef spec2 2) : FVec Ideal S1x256 .f32) (((cfg2.win 2).blk t).view.emb (ix2 z q)) = _
  rw [h]

/-- The product of the region's first two arrays plus its third as a row. -/
abbrev G2 (c : Dev nD) : FVec Ideal ⟨2, ![20000, 256]⟩ .f32 :=
  mmb 20000 256 256 (V c (Pipeline.arrRef spec2 0)) (V c (Pipeline.arrRef spec2 1)) (V c (Pipeline.arrRef spec2 2))

/-- Entry `(p, q)` of the tile point `t` computes is the product's entry where the output's tile `t` puts it. -/
theorem entry2 (c : Dev nD) (t : Fin cfg2.N) (p : Fin 2000) (q : Fin 256) :
    k2_pay1 (F := Ideal) (iblk2 V c 0 t) (iblk2 V c 1 t) (iblk2 V c 2 t) (ix2 p q)
      = G2 V c (((cfg2.win 3).blk t).view.emb (ix2 p q)) := by
  have hN : cfg2.N = 10 := N_2
  have ht : t.val < 10 := lt_of_lt_of_eq t.isLt hN
  obtain ⟨-, -, -, -, -, -, e0, e1⟩ := idx2 t
  have hr : 2000 * t.val + p.val < 20000 := by omega
  have h : ((cfg2.win 3).blk t).view.emb (ix2 p q) = (ix2 (⟨2000 * t.val + p.val, hr⟩ : Fin 20000) q : S20000x256.Idx) := by
    funext a; apply Fin.ext
    match a with
    | ⟨0, _⟩ => show win2_3.index t (0 : Fin 2) * 2000 + 1 * p.val = 2000 * t.val + p.val; omega
    | ⟨1, _⟩ => show win2_3.index t (1 : Fin 2) * 256 + 1 * q.val = q.val; omega
  rw [h]
  exact point2 (iblk2 V c 0 t) (iblk2 V c 1 t) (iblk2 V c 2 t)
    (V c (Pipeline.arrRef spec2 0)) (V c (Pipeline.arrRef spec2 1)) (V c (Pipeline.arrRef spec2 2))
    p q ⟨2000 * t.val + p.val, hr⟩
    (fun k => blk2_0 V c t p k ⟨2000 * t.val + p.val, hr⟩ rfl) (fun k => blk2_1 V c t k q) (blk2_2 V c t 0 q)

/-- What point `t` writes back is the output's tile `t` of the product. -/
theorem flushed2 (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k2_pay1 (F := Ideal) (iblk2 V c 0 t) (iblk2 V c 1 t) (iblk2 V c 2 t) (ix2 p q)
    = G2 V c (((cfg2.win 3).blk t).view.emb (ix2 p q))
  exact entry2 V c t p q

/-- An entry of the output is in tile `t` iff each coordinate is in the tile's range on its axis. -/
theorem mem_blk2 (t : Fin cfg2.N) (i : S20000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v77).slice (win2_3.rect t)).set ↔ _
  rw [View.set_slice_whole, Rect.mem_set_unit]
  exact Iff.rfl

/-- Row `r` of the output is in the tile of point `r / 2000`, which is written back. -/
theorem cover2 (i : S20000x256.Idx) :
    ∃ t : Fin cfg2.N, (cfg2.win 3).flush t = true ∧ i ∈ ((cfg2.win 3).blk t).view.set := by
  have h0 : (i 0).val < 20000 := idx2_lt0 i
  have h1 : (i 1).val < 256 := idx2_lt1 i
  have hN : cfg2.N = 10 := N_2
  obtain ⟨t, ht⟩ : ∃ t : Fin cfg2.N, t.val = (i 0).val / 2000 := ⟨⟨(i 0).val / 2000, by rw [hN]; omega⟩, rfl⟩
  obtain ⟨-, -, -, -, -, -, e0, e1⟩ := idx2 t
  refine ⟨t, flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 256 ≤ (i 1).val ∧ (i 1).val < win2_3.index t (1 : Fin 2) * 256 + 256
    omega

/-- Region 2: the output array after the region is the product of its first two arrays plus its third as a row. -/
theorem out2 (c : Dev nD) :
    ((dat2 (F := Ideal) V c).arrAt 3 cfg2.N : FVec Ideal ⟨2, ![20000, 256]⟩ .f32)
      = mmb 20000 256 256 (V c (Pipeline.arrRef spec2 0)) (V c (Pipeline.arrRef spec2 1)) (V c (Pipeline.arrRef spec2 2)) :=
  (dat2 (F := Ideal) V c).arrAt_eq_of_cover 3 (G2 V c) (fun t _ => flushed2 V c t) cover2

end Region2

section Region3

/-! ## Region 3 (the third graph-convolution layer's linear map) -/

/-- The four index maps over the ten grid points: the activations' and the output's tiles are tile `t` of the rows,
    the weights and the bias row are read whole. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One tile's entry `(p, q)`, given that the tile's row `p` is row `r` of `x` and that the weights and the bias row are
    `w` and `b` where the entry reads them: entry `(r, q)` of the product of `x` and `w` plus the row `b`. -/
theorem point3 (X : FVec Ideal S2000x256 .f32) (W : FVec Ideal S256x256 .f32) (B : FVec Ideal S1x256 .f32)
    (x : FVec Ideal S20000x256 .f32) (w : FVec Ideal S256x256 .f32) (b : FVec Ideal S1x256 .f32)
    (p : Fin 2000) (q : Fin 256) (r : Fin 20000)
    (hX : ∀ k : Fin 256, X (ix2 p k) = x (ix2 r k)) (hW : ∀ k : Fin 256, W (ix2 k q) = w (ix2 k q))
    (hB : B (ix2 0 q) = b (ix2 0 q)) :
    k3_pay1 (F := Ideal) X W B (ix2 p q) = mmb 20000 256 256 x w b (ix2 r q) := by
  refine (payB_at (by decide) (by decide) (by decide) (by decide) (by decide) X W B p q).trans ?_
  show (∑ k : Fin 256, X (ix2 p k) * W (ix2 k q)) + B (ix2 0 q) = (∑ k : Fin 256, x (ix2 r k) * w (ix2 k q)) + b (ix2 0 q)
  rw [hB]
  exact congrArg (· + b (ix2 0 q)) (Finset.sum_congr rfl fun k _ => by rw [hX k, hW k])

variable (V : (c : Dev nD) → (b : Ref sig .tc) → Buf (Elt Ideal) ((c : Thread nD τ).loc b))

/-- The tile of activations at point `t`: row `p` of the tile is row `2000 t + p` of the activations. -/
theorem blk3_0 (c : Dev nD) (t : Fin cfg3.N) (p : Fin 2000) (k : Fin 256) (r : Fin 20000) (hr : r.val = 2000 * t.val + p.val) :
    (iblk3 V c 0 t : FVec Ideal S2000x256 .f32) (ix2 p k) = (V c (Pipeline.arrRef spec3 0) : FVec Ideal S20000x256 .f32) (ix2 r k) := by
  obtain ⟨e0, e1, -⟩ := idx3 t
  have h : ((cfg3.win 0).blk t).view.emb (ix2 p k) = (ix2 r k : S20000x256.Idx) := by
    funext a; apply Fin.ext
    match a with
    | ⟨0, _⟩ => show win3_0.index t (0 : Fin 2) * 2000 + 1 * p.val = r.val; omega
    | ⟨1, _⟩ => show win3_0.index t (1 : Fin 2) * 256 + 1 * k.val = k.val; omega
  unfold iblk3
  rw [View.read_apply]
  show (V c (Pipeline.arrRef spec3 0) : FVec Ideal S20000x256 .f32) (((cfg3.win 0).blk t).view.emb (ix2 p k)) = _
  rw [h]

/-- The weights at point `t`: all of them. -/
theorem blk3_1 (c : Dev nD) (t : Fin cfg3.N) (k : Fin 256) (q : Fin 256) :
    (iblk3 V c 1 t : FVec Ideal S256x256 .f32) (ix2 k q) = (V c (Pipeline.arrRef spec3 1) : FVec Ideal S256x256 .f32) (ix2 k q) := by
  obtain ⟨-, -, e0, e1, -⟩ := idx3 t
  have h : ((cfg3.win 1).blk t).view.emb (ix2 k q) = (ix2 k q : S256x256.Idx) := by
    funext a; apply Fin.ext
    match a with
    | ⟨0, _⟩ => show win3_1.index t (0 : Fin 2) * 256 + 1 * k.val = k.val; omega
    | ⟨1, _⟩ => show win3_1.index t (1 : Fin 2) * 256 + 1 * q.val = q.val; omega
  unfold iblk3
  rw [View.read_apply]
  show (V c (Pipeline.arrRef spec3 1) : FVec Ideal S256x256 .f32) (((cfg3.win 1).blk t).view.emb (ix2 k q)) = _
  rw [h]

/-- The bias row at point `t`: all of it. -/
theorem blk3_2 (c : Dev nD) (t : Fin cfg3.N) (z : Fin 1) (q : Fin 256) :
    (iblk3 V c 2 t : FVec Ideal S1x256 .f32) (ix2 z q) = (V c (Pipeline.arrRef spec3 2) : FVec Ideal S1x256 .f32) (ix2 z q) := by
  obtain ⟨-, -, -, -, e0, e1, -⟩ := idx3 t
  have h : ((cfg3.win 2).blk t).view.emb (ix2 z q) = (ix2 z q : S1x256.Idx) := by
    funext a; apply Fin.ext
    match a with
    | ⟨0, _⟩ => show win3_2.index t (0 : Fin 2) * 1 + 1 * z.val = z.val; omega
    | ⟨1, _⟩ => show win3_2.index t (1 : Fin 2) * 256 + 1 * q.val = q.val; omega
  unfold iblk3
  rw [View.read_apply]
  show (V c (Pipeline.arrRef spec3 2) : FVec Ideal S1x256 .f32) (((cfg3.win 2).blk t).view.emb (ix2 z q)) = _
  rw [h]

/-- The product of the region's first two arrays plus its third as a row. -/
abbrev G3 (c : Dev nD) : FVec Ideal ⟨2, ![20000, 256]⟩ .f32 :=
  mmb 20000 256 256 (V c (Pipeline.arrRef spec3 0)) (V c (Pipeline.arrRef spec3 1)) (V c (Pipeline.arrRef spec3 2))

/-- Entry `(p, q)` of the tile point `t` computes is the product's entry where the output's tile `t` puts it. -/
theorem entry3 (c : Dev nD) (t : Fin cfg3.N) (p : Fin 2000) (q : Fin 256) :
    k3_pay1 (F := Ideal) (iblk3 V c 0 t) (iblk3 V c 1 t) (iblk3 V c 2 t) (ix2 p q)
      = G3 V c (((cfg3.win 3).blk t).view.emb (ix2 p q)) := by
  have hN : cfg3.N = 10 := N_3
  have ht : t.val < 10 := lt_of_lt_of_eq t.isLt hN
  obtain ⟨-, -, -, -, -, -, e0, e1⟩ := idx3 t
  have hr : 2000 * t.val + p.val < 20000 := by omega
  have h : ((cfg3.win 3).blk t).view.emb (ix2 p q) = (ix2 (⟨2000 * t.val + p.val, hr⟩ : Fin 20000) q : S20000x256.Idx) := by
    funext a; apply Fin.ext
    match a with
    | ⟨0, _⟩ => show win3_3.index t (0 : Fin 2) * 2000 + 1 * p.val = 2000 * t.val + p.val; omega
    | ⟨1, _⟩ => show win3_3.index t (1 : Fin 2) * 256 + 1 * q.val = q.val; omega
  rw [h]
  exact point3 (iblk3 V c 0 t) (iblk3 V c 1 t) (iblk3 V c 2 t)
    (V c (Pipeline.arrRef spec3 0)) (V c (Pipeline.arrRef spec3 1)) (V c (Pipeline.arrRef spec3 2))
    p q ⟨2000 * t.val + p.val, hr⟩
    (fun k => blk3_0 V c t p k ⟨2000 * t.val + p.val, hr⟩ rfl) (fun k => blk3_1 V c t k q) (blk3_2 V c t 0 q)

/-- What point `t` writes back is the output's tile `t` of the product. -/
theorem flushed3 (c : Dev nD) (t : Fin cfg3.N) :
    (dat3 (F := Ideal) V c).flushed 3 t = ((cfg3.win 3).blk t).view.read (Elt Ideal) (G3 V c) := by
  show (cfg3.win 3).cut (grid3.coords t) ((dat3 V c).after 3 t) = _
  rw [after3_3]
  unfold out3_3
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k3_pay1 (F := Ideal) (iblk3 V c 0 t) (iblk3 V c 1 t) (iblk3 V c 2 t) (ix2 p q)
    = G3 V c (((cfg3.win 3).blk t).view.emb (ix2 p q))
  exact entry3 V c t p q

/-- An entry of the output is in tile `t` iff each coordinate is in the tile's range on its axis. -/
theorem mem_blk3 (t : Fin cfg3.N) (i : S20000x256.Idx) :
    i ∈ ((cfg3.win 3).blk t).view.set ↔ ∀ a : Fin 2, win3_3.index t a * S2000x256.size a ≤ (i a).val
      ∧ (i a).val < win3_3.index t a * S2000x256.size a + S2000x256.size a := by
  show i ∈ ((View.whole main_v119).slice (win3_3.rect t)).set ↔ _
  rw [View.set_slice_whole, Rect.mem_set_unit]
  exact Iff.rfl

/-- Row `r` of the output is in the tile of point `r / 2000`, which is written back. -/
theorem cover3 (i : S20000x256.Idx) :
    ∃ t : Fin cfg3.N, (cfg3.win 3).flush t = true ∧ i ∈ ((cfg3.win 3).blk t).view.set := by
  have h0 : (i 0).val < 20000 := idx2_lt0 i
  have h1 : (i 1).val < 256 := idx2_lt1 i
  have hN : cfg3.N = 10 := N_3
  obtain ⟨t, ht⟩ : ∃ t : Fin cfg3.N, t.val = (i 0).val / 2000 := ⟨⟨(i 0).val / 2000, by rw [hN]; omega⟩, rfl⟩
  obtain ⟨-, -, -, -, -, -, e0, e1⟩ := idx3 t
  refine ⟨t, flush3_3 t, ?_⟩
  rw [mem_blk3]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 256 ≤ (i 1).val ∧ (i 1).val < win3_3.index t (1 : Fin 2) * 256 + 256
    omega

/-- Region 3: the output array after the region is the product of its first two arrays plus its third as a row. -/
theorem out3 (c : Dev nD) :
    ((dat3 (F := Ideal) V c).arrAt 3 cfg3.N : FVec Ideal ⟨2, ![20000, 256]⟩ .f32)
      = mmb 20000 256 256 (V c (Pipeline.arrRef spec3 0)) (V c (Pipeline.arrRef spec3 1)) (V c (Pipeline.arrRef spec3 2)) :=
  (dat3 (F := Ideal) V c).arrAt_eq_of_cover 3 (G3 V c) (fun t _ => flushed3 V c t) cover3

end Region3

section Region4

/-! ## Region 4 (the fourth graph-convolution layer's linear map) -/

/-- The four index maps over the ten grid points: the activations' and the output's tiles are tile `t` of the rows,
    the weights and the bias row are read whole. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- One tile's entry `(p, q)`, given that the tile's row `p` is row `r` of `x` and that the weights and the bias row are
    `w` and `b` where the entry reads them: entry `(r, q)` of the product of `x` and `w` plus the row `b`. -/
theorem point4 (X : FVec Ideal S2000x256 .f32) (W : FVec Ideal S256x256 .f32) (B : FVec Ideal S1x256 .f32)
    (x : FVec Ideal S20000x256 .f32) (w : FVec Ideal S256x256 .f32) (b : FVec Ideal S1x256 .f32)
    (p : Fin 2000) (q : Fin 256) (r : Fin 20000)
    (hX : ∀ k : Fin 256, X (ix2 p k) = x (ix2 r k)) (hW : ∀ k : Fin 256, W (ix2 k q) = w (ix2 k q))
    (hB : B (ix2 0 q) = b (ix2 0 q)) :
    k4_pay1 (F := Ideal) X W B (ix2 p q) = mmb 20000 256 256 x w b (ix2 r q) := by
  refine (payB_at (by decide) (by decide) (by decide) (by decide) (by decide) X W B p q).trans ?_
  show (∑ k : Fin 256, X (ix2 p k) * W (ix2 k q)) + B (ix2 0 q) = (∑ k : Fin 256, x (ix2 r k) * w (ix2 k q)) + b (ix2 0 q)
  rw [hB]
  exact congrArg (· + b (ix2 0 q)) (Finset.sum_congr rfl fun k _ => by rw [hX k, hW k])

variable (V : (c : Dev nD) → (b : Ref sig .tc) → Buf (Elt Ideal) ((c : Thread nD τ).loc b))

/-- The tile of activations at point `t`: row `p` of the tile is row `2000 t + p` of the activations. -/
theorem blk4_0 (c : Dev nD) (t : Fin cfg4.N) (p : Fin 2000) (k : Fin 256) (r : Fin 20000) (hr : r.val = 2000 * t.val + p.val) :
    (iblk4 V c 0 t : FVec Ideal S2000x256 .f32) (ix2 p k) = (V c (Pipeline.arrRef spec4 0) : FVec Ideal S20000x256 .f32) (ix2 r k) := by
  obtain ⟨e0, e1, -⟩ := idx4 t
  have h : ((cfg4.win 0).blk t).view.emb (ix2 p k) = (ix2 r k : S20000x256.Idx) := by
    funext a; apply Fin.ext
    match a with
    | ⟨0, _⟩ => show win4_0.index t (0 : Fin 2) * 2000 + 1 * p.val = r.val; omega
    | ⟨1, _⟩ => show win4_0.index t (1 : Fin 2) * 256 + 1 * k.val = k.val; omega
  unfold iblk4
  rw [View.read_apply]
  show (V c (Pipeline.arrRef spec4 0) : FVec Ideal S20000x256 .f32) (((cfg4.win 0).blk t).view.emb (ix2 p k)) = _
  rw [h]

/-- The weights at point `t`: all of them. -/
theorem blk4_1 (c : Dev nD) (t : Fin cfg4.N) (k : Fin 256) (q : Fin 256) :
    (iblk4 V c 1 t : FVec Ideal S256x256 .f32) (ix2 k q) = (V c (Pipeline.arrRef spec4 1) : FVec Ideal S256x256 .f32) (ix2 k q) := by
  obtain ⟨-, -, e0, e1, -⟩ := idx4 t
  have h : ((cfg4.win 1).blk t).view.emb (ix2 k q) = (ix2 k q : S256x256.Idx) := by
    funext a; apply Fin.ext
    match a with
    | ⟨0, _⟩ => show win4_1.index t (0 : Fin 2) * 256 + 1 * k.val = k.val; omega
    | ⟨1, _⟩ => show win4_1.index t (1 : Fin 2) * 256 + 1 * q.val = q.val; omega
  unfold iblk4
  rw [View.read_apply]
  show (V c (Pipeline.arrRef spec4 1) : FVec Ideal S256x256 .f32) (((cfg4.win 1).blk t).view.emb (ix2 k q)) = _
  rw [h]

/-- The bias row at point `t`: all of it. -/
theorem blk4_2 (c : Dev nD) (t : Fin cfg4.N) (z : Fin 1) (q : Fin 256) :
    (iblk4 V c 2 t : FVec Ideal S1x256 .f32) (ix2 z q) = (V c (Pipeline.arrRef spec4 2) : FVec Ideal S1x256 .f32) (ix2 z q) := by
  obtain ⟨-, -, -, -, e0, e1, -⟩ := idx4 t
  have h : ((cfg4.win 2).blk t).view.emb (ix2 z q) = (ix2 z q : S1x256.Idx) := by
    funext a; apply Fin.ext
    match a with
    | ⟨0, _⟩ => show win4_2.index t (0 : Fin 2) * 1 + 1 * z.val = z.val; omega
    | ⟨1, _⟩ => show win4_2.index t (1 : Fin 2) * 256 + 1 * q.val = q.val; omega
  unfold iblk4
  rw [View.read_apply]
  show (V c (Pipeline.arrRef spec4 2) : FVec Ideal S1x256 .f32) (((cfg4.win 2).blk t).view.emb (ix2 z q)) = _
  rw [h]

/-- The product of the region's first two arrays plus its third as a row. -/
abbrev G4 (c : Dev nD) : FVec Ideal ⟨2, ![20000, 256]⟩ .f32 :=
  mmb 20000 256 256 (V c (Pipeline.arrRef spec4 0)) (V c (Pipeline.arrRef spec4 1)) (V c (Pipeline.arrRef spec4 2))

/-- Entry `(p, q)` of the tile point `t` computes is the product's entry where the output's tile `t` puts it. -/
theorem entry4 (c : Dev nD) (t : Fin cfg4.N) (p : Fin 2000) (q : Fin 256) :
    k4_pay1 (F := Ideal) (iblk4 V c 0 t) (iblk4 V c 1 t) (iblk4 V c 2 t) (ix2 p q)
      = G4 V c (((cfg4.win 3).blk t).view.emb (ix2 p q)) := by
  have hN : cfg4.N = 10 := N_4
  have ht : t.val < 10 := lt_of_lt_of_eq t.isLt hN
  obtain ⟨-, -, -, -, -, -, e0, e1⟩ := idx4 t
  have hr : 2000 * t.val + p.val < 20000 := by omega
  have h : ((cfg4.win 3).blk t).view.emb (ix2 p q) = (ix2 (⟨2000 * t.val + p.val, hr⟩ : Fin 20000) q : S20000x256.Idx) := by
    funext a; apply Fin.ext
    match a with
    | ⟨0, _⟩ => show win4_3.index t (0 : Fin 2) * 2000 + 1 * p.val = 2000 * t.val + p.val; omega
    | ⟨1, _⟩ => show win4_3.index t (1 : Fin 2) * 256 + 1 * q.val = q.val; omega
  rw [h]
  exact point4 (iblk4 V c 0 t) (iblk4 V c 1 t) (iblk4 V c 2 t)
    (V c (Pipeline.arrRef spec4 0)) (V c (Pipeline.arrRef spec4 1)) (V c (Pipeline.arrRef spec4 2))
    p q ⟨2000 * t.val + p.val, hr⟩
    (fun k => blk4_0 V c t p k ⟨2000 * t.val + p.val, hr⟩ rfl) (fun k => blk4_1 V c t k q) (blk4_2 V c t 0 q)

/-- What point `t` writes back is the output's tile `t` of the product. -/
theorem flushed4 (c : Dev nD) (t : Fin cfg4.N) :
    (dat4 (F := Ideal) V c).flushed 3 t = ((cfg4.win 3).blk t).view.read (Elt Ideal) (G4 V c) := by
  show (cfg4.win 3).cut (grid4.coords t) ((dat4 V c).after 3 t) = _
  rw [after4_3]
  unfold out4_3
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k4_pay1 (F := Ideal) (iblk4 V c 0 t) (iblk4 V c 1 t) (iblk4 V c 2 t) (ix2 p q)
    = G4 V c (((cfg4.win 3).blk t).view.emb (ix2 p q))
  exact entry4 V c t p q

/-- An entry of the output is in tile `t` iff each coordinate is in the tile's range on its axis. -/
theorem mem_blk4 (t : Fin cfg4.N) (i : S20000x256.Idx) :
    i ∈ ((cfg4.win 3).blk t).view.set ↔ ∀ a : Fin 2, win4_3.index t a * S2000x256.size a ≤ (i a).val
      ∧ (i a).val < win4_3.index t a * S2000x256.size a + S2000x256.size a := by
  show i ∈ ((View.whole main_v161).slice (win4_3.rect t)).set ↔ _
  rw [View.set_slice_whole, Rect.mem_set_unit]
  exact Iff.rfl

/-- Row `r` of the output is in the tile of point `r / 2000`, which is written back. -/
theorem cover4 (i : S20000x256.Idx) :
    ∃ t : Fin cfg4.N, (cfg4.win 3).flush t = true ∧ i ∈ ((cfg4.win 3).blk t).view.set := by
  have h0 : (i 0).val < 20000 := idx2_lt0 i
  have h1 : (i 1).val < 256 := idx2_lt1 i
  have hN : cfg4.N = 10 := N_4
  obtain ⟨t, ht⟩ : ∃ t : Fin cfg4.N, t.val = (i 0).val / 2000 := ⟨⟨(i 0).val / 2000, by rw [hN]; omega⟩, rfl⟩
  obtain ⟨-, -, -, -, -, -, e0, e1⟩ := idx4 t
  refine ⟨t, flush4_3 t, ?_⟩
  rw [mem_blk4]
  intro a
  match a with
  | ⟨0, _⟩ =>
    show win4_3.index t (0 : Fin 2) * 2000 ≤ (i 0).val ∧ (i 0).val < win4_3.index t (0 : Fin 2) * 2000 + 2000
    omega
  | ⟨1, _⟩ =>
    show win4_3.index t (1 : Fin 2) * 256 ≤ (i 1).val ∧ (i 1).val < win4_3.index t (1 : Fin 2) * 256 + 256
    omega

/-- Region 4: the output array after the region is the product of its first two arrays plus its third as a row. -/
theorem out4 (c : Dev nD) :
    ((dat4 (F := Ideal) V c).arrAt 3 cfg4.N : FVec Ideal ⟨2, ![20000, 256]⟩ .f32)
      = mmb 20000 256 256 (V c (Pipeline.arrRef spec4 0)) (V c (Pipeline.arrRef spec4 1)) (V c (Pipeline.arrRef spec4 2)) :=
  (dat4 (F := Ideal) V c).arrAt_eq_of_cover 3 (G4 V c) (fun t _ => flushed4 V c t) cover4

end Region4

end Cert.Bridge.MMKa

end
-- ==== Proof.MMR.lean ====
/-
  The reference's dense layers read as `Cert.Bridge.mmb` / `Cert.Bridge.mm`: a host `dot_general` contracting the
  first array's columns with the second's rows is, on the extended reals, the sum over the inner index of the
  products; the bias, broadcast first to one row and then to every row, adds `b j` at column `j`.
-/
import proofs.«404594_j87462714015857_2_alg».proof.Proof.Gen.ReferenceIdeal
import proofs.«404594_j87462714015857_2_alg».proof.Proof.Spec
import Idealize.ShloMosaic.Lib.StackMember

noncomputable section

namespace Cert.Bridge.MMR

open Idealize.ShloMosaic Idealize.ShloMosaic.ValueIdx
open Cert.ReferenceIdeal Cert.ReferenceIdeal.Facts₀ Cert.Bridge

/-! ## The product -/

/-- With the plain dimension numbers (contract the first array's columns with the second's rows, no batch axis) the
    host's product of an `M × K` by a `K × N` array has, at `(i, j)`, the sum over `k` of `x i k * w k j`. -/
theorem dot_plain (M K N : Nat) (x : FVec Ideal ⟨2, ![M, K]⟩ .f32) (w : FVec Ideal ⟨2, ![K, N]⟩ .f32) :
    Host.dotGeneral (DotDims.plain M K N) none x w = mm M K N x w := by
  funext j
  obtain ⟨p, q, rfl⟩ : ∃ (p : Fin M) (q : Fin N), j = ix2 p q := ⟨j 0, j 1, eq_ix2 j⟩
  exact StackMember.dotGeneral_plain_apply none x w p q

/-- Each of the four printed dimension-number records lists the same axes as the plain product's: contracting `[1]`
    and `[0]`, free `[0]` and `[1]`, no batch axis. -/
theorem plain0 : dot_S20000x128_S128x256_S20000x256_1_0_0_1_n_n = DotDims.plain 20000 128 256 := rfl
theorem plainL : dot_S20000x256_S256x256_S20000x256_1_0_0_1_n_n = DotDims.plain 20000 256 256 := rfl
theorem plainF : dot_S128x256_S256x256_S128x256_1_0_0_1_n_n = DotDims.plain 128 256 256 := rfl
theorem plainO : dot_S128x256_S256x10_S128x10_1_0_0_1_n_n = DotDims.plain 128 256 10 := rfl

/-! ## The bias -/

/-- A vector of `N` numbers broadcast to one row and that row to `M` rows reads, at `(i, j)`, its entry `j`: the
    entry `(0, j)` of the vector laid out as one row. -/
theorem bias_apply (M N : Nat) (hN : N ≠ 1)
    (h1 : (⟨1, ![N]⟩ : Shape).BroadcastsInDim ⟨2, ![1, N]⟩ ![1])
    (h2 : (⟨2, ![1, N]⟩ : Shape).BroadcastsInDim ⟨2, ![M, N]⟩ ![0, 1])
    (b : FVec Ideal ⟨1, ![N]⟩ .f32) (p : Fin M) (q : Fin N) :
    broadcastInDim ⟨2, ![M, N]⟩ ![0, 1] h2 (broadcastInDim ⟨2, ![1, N]⟩ ![1] h1 b) (ix2 p q) = row1 N b (ix2 0 q) := by
  rw [broadcastInDim_oneRow_apply h2 _ p q]
  refine broadcastInDim_apply ![1] h1 b (ix2 (0 : Fin 1) q) (ix1 q) ?_
  intro a
  match a with
  | ⟨0, _⟩ =>
    show q.val = if N = 1 then 0 else q.val
    rw [if_neg hN]

/-! ## The four layers -/

/-- The node encoder: `x @ encW + encB`. -/
theorem dot0 (x : FVec Ideal S20000x128 .f32) (w : FVec Ideal S128x256 .f32) (b : FVec Ideal S256 .f32) :
    addf (Host.dotGeneral dot_S20000x128_S128x256_S20000x256_1_0_0_1_n_n none x w)
        (broadcastInDim S20000x256 ![0, 1] bcast_S1x256_S20000x256_0_1 (broadcastInDim S1x256 ![1] bcast_S256_S1x256_1 b))
      = mmb 20000 128 256 x w (row1 256 b) := by
  funext j
  obtain ⟨p, q, rfl⟩ : ∃ (p : Fin 20000) (q : Fin 256), j = ix2 p q := ⟨j 0, j 1, eq_ix2 j⟩
  rw [addf_apply, plain0, dot_plain, bias_apply 20000 256 (by decide) bcast_S256_S1x256_1 bcast_S1x256_S20000x256_0_1 b p q]
  rfl

/-- A graph-convolution layer's linear map: `h @ convW[i]`, no bias. -/
theorem dotL (x : FVec Ideal S20000x256 .f32) (w : FVec Ideal S256x256 .f32) :
    Host.dotGeneral dot_S20000x256_S256x256_S20000x256_1_0_0_1_n_n none x w = mm 20000 256 256 x w := by
  rw [plainL]
  exact dot_plain 20000 256 256 x w

/-- The head's first two layers: `g @ W + b` over 128 rows. -/
theorem dotF (x : FVec Ideal S128x256 .f32) (w : FVec Ideal S256x256 .f32) (b : FVec Ideal S256 .f32) :
    addf (Host.dotGeneral dot_S128x256_S256x256_S128x256_1_0_0_1_n_n none x w)
        (broadcastInDim S128x256 ![0, 1] bcast_S1x256_S128x256_0_1 (broadcastInDim S1x256 ![1] bcast_S256_S1x256_1 b))
      = mmb 128 256 256 x w (row1 256 b) := by
  funext j
  obtain ⟨p, q, rfl⟩ : ∃ (p : Fin 128) (q : Fin 256), j = ix2 p q := ⟨j 0, j 1, eq_ix2 j⟩
  rw [addf_apply, plainF, dot_plain, bias_apply 128 256 (by decide) bcast_S256_S1x256_1 bcast_S1x256_S128x256_0_1 b p q]
  rfl

/-- The head's last layer: `m @ fcW3 + fcB3`, ten columns. -/
theorem dotO (x : FVec Ideal S128x256 .f32) (w : FVec Ideal S256x10 .f32) (b : FVec Ideal S10 .f32) :
    addf (Host.dotGeneral dot_S128x256_S256x10_S128x10_1_0_0_1_n_n none x w)
        (broadcastInDim S128x10 ![0, 1] bcast_S1x10_S128x10_0_1 (broadcastInDim S1x10 ![1] bcast_S10_S1x10_1 b))
      = mmb 128 256 10 x w (row1 10 b) := by
  funext j
  obtain ⟨p, q, rfl⟩ : ∃ (p : Fin 128) (q : Fin 10), j = ix2 p q := ⟨j 0, j 1, eq_ix2 j⟩
  rw [addf_apply, plainO, dot_plain, bias_apply 128 10 (by decide) bcast_S10_S1x10_1 bcast_S1x10_S128x10_0_1 b p q]
  rfl

end Cert.Bridge.MMR

end
-- ==== Proof.StageA.lean ====
/-
  From the launch to the first graph-convolution layer's linear map.

  Both programs begin with the same operations on the edge list: the source and the destination ids, the degrees by a
  scatter-add of ones, `dinv = rsqrt (deg + 1)`, the edge weights `dinv[src] * dinv[dst]` and the self-loop weights
  `dinv * dinv`. The two texts are one function of the edge list, so equal edge lists give equal graph quantities
  and nothing is computed to see it.

  Then the node encoder `h = x @ encW + encB` and the first layer's linear map `t = h @ convW[0]`. The kernel program
  computes each in a row-tiled region, the first with `encB` laid out as one row, the second with a row of zeros in
  the bias's place, and `mmb … 0 = mm …`. The reference computes `h` by a dot product and a broadcast bias and `t` by
  a dot product. Both are `mm (mmb x encW (row1 encB)) convW[0]`.

  No operation of this stretch writes an argument and a region writes only its output array, so the arguments and the
  graph quantities are, when the second region ends, what they were; the kernel program's zero vector is the
  broadcast of the constant 0.
-/
import proofs.«404594_j87462714015857_2_alg».proof.Proof.Gen.KernelIdeal.Frame
import proofs.«404594_j87462714015857_2_alg».proof.Proof.Inv
import proofs.«404594_j87462714015857_2_alg».proof.Proof.RefOps
import proofs.«404594_j87462714015857_2_alg».proof.Proof.MMKa
import proofs.«404594_j87462714015857_2_alg».proof.Proof.MMR
import Idealize.ShloMosaic.Lib.ValueLayout
import Idealize.ShloMosaic.Lib.IdealHost

set_option maxRecDepth 16384

noncomputable section

namespace Cert.Bridge

open Idealize.ShloMosaic Idealize.ShloMosaic.TcCoe
open Idealize.SL Idealize.SL.Sem
open Idealize.ShloMosaic.Pipeline (Dat Cfg Window)
open Idealize.ShloMosaic.ValueIdx

/-! ## Three readings at an index -/

/-- A vector of `N` numbers reshaped to a `1 × N` array is the vector as one row. -/
theorem reshape_eq_row1 (N : Nat) (b : FVec Ideal ⟨1, ![N]⟩ .f32) (h : (⟨1, ![N]⟩ : Shape).ShapeCasts ⟨2, ![1, N]⟩) :
    (shapeCast ⟨2, ![1, N]⟩ b h : FVec Ideal ⟨2, ![1, N]⟩ .f32) = row1 N b := by
  funext j
  obtain ⟨u, i, rfl⟩ : ∃ (u : Fin 1) (i : Fin N), j = ix2 u i := ⟨j 0, j 1, eq_ix2 j⟩
  exact shapeCast_a_1a_apply b h u i

/-- The constant 0 broadcast to any shape is 0 at every index. -/
theorem bcast_zero (T : Shape) (h : (⟨0, ![]⟩ : Shape).BroadcastsInDim T ![]) (j : T.Idx) :
    (broadcastInDim T ![] h (constant (F := Ideal) ⟨0, ![]⟩ .f32 0x00000000#32) : FVec Ideal T .f32) j = (0 : EReal) := by
  rw [broadcastInDim_scalar_apply, constant_apply, Ideal.ofBits_zero_f32]

/-- A zero vector reshaped to one row is zero at every index. -/
theorem shapeCast_zero (N : Nat) (b : FVec Ideal ⟨1, ![N]⟩ .f32) (h : (⟨1, ![N]⟩ : Shape).ShapeCasts ⟨2, ![1, N]⟩)
    (hb : ∀ i, b i = (0 : EReal)) (j : (⟨2, ![1, N]⟩ : Shape).Idx) :
    (shapeCast ⟨2, ![1, N]⟩ b h : FVec Ideal ⟨2, ![1, N]⟩ .f32) j = (0 : EReal) := by
  rw [reshape_eq_row1]; exact hb _

/-! ## The reference's stretch -/

section Reference

open Cert.ReferenceIdeal Cert.ReferenceIdeal.Hand

/-- The first graph-convolution layer's weights `convW[0]`: the first of the four stacked matrices. -/
def w0 (a : FVec Ideal S4x256x256 .f32) : FVec Ideal S256x256 .f32 :=
  shapeCast S256x256 (extractStridedSlice S1x256x256 ![0, 0, 0] a Gen.slices_S4x256x256_S1x256x256_0_0_0) Gen.shapeCasts_S1x256x256_S256x256

/-- The buffers the reference's stretch writes: every one of its 43 results, no argument. -/
abbrev wrA : List (Ref sig .tc) :=
  [main_v0, main_v1, main_v2, main_v3, main_cst, main_v4, main_cst_0, main_v5, main_v6, main_v7,
   main_cst_1, main_v8, main_v9, main_v10, main_c, main_v11, main_v12, main_c_2, main_v13, main_v14,
   main_v15, main_v16, main_v17, main_c_3, main_v18, main_v19, main_c_4, main_v20, main_v21, main_v22,
   main_v23, main_v24, main_v25, main_v26, main_v27, main_v28, main_v29, main_v30, main_v31, main_v32,
   main_v33, main_v34, main_v35]

theorem writesA : (rA : List (HloOp τ sig (Elt Ideal))).Forall fun op => op.writes ⊆ (wrA.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer the stretch does not write holds afterwards what it held. -/
theorem rA_kept (V : RV) (b : Ref sig .tc) (h : b ∉ wrA) : StableHlo.after (rA (F := Ideal)) V (rr b) = V (rr b) :=
  StableHlo.after_of_writes_sub _ V writesA h

/-- The reference's first linear map: `(x @ encW + encB) @ convW[0]`. -/
theorem r_v35 (V : RV) :
    (StableHlo.after (rA (F := Ideal)) V (rr main_v35) : FVec Ideal S20000x256 .f32)
      = mm 20000 256 256 (mmb 20000 128 256 (V (rr main_arg0)) (V (rr main_arg3)) (row1 256 (V (rr main_arg4)))) (w0 (V (rr main_arg5))) := by
  simp only [rA]
  after_results_simp
  rewrite [MMR.dot0, MMR.dotL]
  rfl

end Reference

/-! ## The kernel program's stretch -/

open Cert.KernelIdeal Cert.KernelIdeal.Gen

attribute [local irreducible] Host.scatterAdd Host.gather Host.rsqrt

/-- The buffers the kernel program's first host stretch writes: its 37 results. -/
abbrev wr0 : List (Ref sig .tc) :=
  [main_v0, main_v1, main_v2, main_v3, main_cst, main_v4, main_cst_0, main_v5, main_v6, main_v7,
   main_cst_1, main_v8, main_v9, main_v10, main_c, main_v11, main_v12, main_c_2, main_v13, main_v14,
   main_v15, main_v16, main_v17, main_c_3, main_v18, main_v19, main_c_4, main_v20, main_v21, main_v22,
   main_v23, main_v24, main_v25, main_v26, main_v27, main_v28, main_v29]

/-- The buffers its second host stretch writes. -/
abbrev wr1 : List (Ref sig .tc) := [main_cst_5, main_v31, main_v32, main_v33, main_v34]

theorem writes0 : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem writes1 : (hostOps1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer the first host stretch does not write holds afterwards what it held; -/
theorem k0_kept (V : KV) (b : Ref sig .tc) (h : b ∉ wr0) : StableHlo.after (hostOps0 (F := Ideal)) V (kr b) = V (kr b) :=
  StableHlo.after_of_writes_sub _ V writes0 h

/-- and likewise for the second. -/
theorem k1_kept (V : KV) (b : Ref sig .tc) (h : b ∉ wr1) : StableHlo.after (hostOps1 (F := Ideal)) V (kr b) = V (kr b) :=
  StableHlo.after_of_writes_sub _ V writes1 h

/-- The graph quantities: the two programs apply the same operations to the edge list. -/
theorem graph_eq (Vk : KV) (Vr : RV)
    (h1 : (Vk (kr main_arg1) : IVec S2x320000 32) = Vr (rr Cert.ReferenceIdeal.main_arg1)) :
    ((StableHlo.after (hostOps0 (F := Ideal)) Vk (kr main_v1) : IVec S320000 32)
        = StableHlo.after (Cert.ReferenceIdeal.Hand.rA (F := Ideal)) Vr (rr Cert.ReferenceIdeal.main_v1))
    ∧ ((StableHlo.after (hostOps0 (F := Ideal)) Vk (kr main_v3) : IVec S320000 32)
        = StableHlo.after (Cert.ReferenceIdeal.Hand.rA (F := Ideal)) Vr (rr Cert.ReferenceIdeal.main_v3))
    ∧ ((StableHlo.after (hostOps0 (F := Ideal)) Vk (kr main_v26) : FVec Ideal S320000x1 .f32)
        = StableHlo.after (Cert.ReferenceIdeal.Hand.rA (F := Ideal)) Vr (rr Cert.ReferenceIdeal.main_v26))
    ∧ ((StableHlo.after (hostOps0 (F := Ideal)) Vk (kr main_v28) : FVec Ideal S20000x1 .f32)
        = StableHlo.after (Cert.ReferenceIdeal.Hand.rA (F := Ideal)) Vr (rr Cert.ReferenceIdeal.main_v28)) := by
  have h1' : Vk (Proc.devRef .tc main_arg1) = Vr (Proc.devRef .tc Cert.ReferenceIdeal.main_arg1) := h1
  refine ⟨?_, ?_, ?_, ?_⟩
  all_goals
    simp only [hostOps0, Cert.ReferenceIdeal.Hand.rA]
    after_results_simp
    rewrite [h1']
    rfl

/-- The bias of the node encoder as the kernel program lays it out: one row. -/
theorem k0_v29 (V : KV) :
    (StableHlo.after (hostOps0 (F := Ideal)) V (kr main_v29) : FVec Ideal S1x256 .f32) = row1 256 (V (kr main_arg4)) := by
  simp only [hostOps0]
  after_results_simp
  exact reshape_eq_row1 256 (V (kr main_arg4)) _

/-- The kernel program's zero vector is zero, -/
theorem k1_v31 (V : KV) (i : S256.Idx) :
    (StableHlo.after (hostOps1 (F := Ideal)) V (kr main_v31) : FVec Ideal S256 .f32) i = (0 : EReal) := by
  simp only [hostOps1]
  after_results_simp
  exact bcast_zero _ _ i

/-- so the row it is reshaped to is zero, -/
theorem k1_v34 (V : KV) (j : S1x256.Idx) :
    (StableHlo.after (hostOps1 (F := Ideal)) V (kr main_v34) : FVec Ideal S1x256 .f32) j = (0 : EReal) := by
  simp only [hostOps1]
  after_results_simp
  exact shapeCast_zero 256 _ _ (fun i => bcast_zero _ _ i) j

/-- and the weights of the second region are `convW[0]`. -/
theorem k1_v33 (V : KV) :
    (StableHlo.after (hostOps1 (F := Ideal)) V (kr main_v33) : FVec Ideal S256x256 .f32) = w0 (V (kr main_arg5)) := by
  simp only [hostOps1]
  after_results_simp
  rfl

section Run

variable (m : (ℓ : Loc nD τ sig) → Buf (Elt Ideal) ℓ) (ρ : Dev nD → PrngReg) (c : Dev nD)

/-- The first region leaves an array it only reads as it was. -/
theorem W2_in (w : Fin cfg0.W) (hin : (cfg0.win w).isOut = false) :
    W2 (F := Ideal) m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- A buffer that is no array of either region and that the second host stretch does not write: at the second region's
    exit it holds what it held at the first region's entry. -/
theorem W4_W1_ne (b : Ref sig .tc) (h4 : ∀ w, Pipeline.arrRef spec1 w ≠ b) (h3 : b ∉ wr1) (h2 : ∀ w, Pipeline.arrRef spec0 w ≠ b) :
    W4 (F := Ideal) m ρ c (kr b) = W1 m ρ c (kr b) :=
  (W4_of_ne m ρ c b h4).trans ((k1_kept (W2 m ρ c) b h3).trans (W2_of_ne m ρ c b h2))

/-- The same for an array the first region only reads. -/
theorem W4_W1_in (w : Fin cfg0.W) (hin : (cfg0.win w).isOut = false) (h4 : ∀ w', Pipeline.arrRef spec1 w' ≠ Pipeline.arrRef spec0 w)
    (h3 : Pipeline.arrRef spec0 w ∉ wr1) :
    W4 (F := Ideal) m ρ c (kr (Pipeline.arrRef spec0 w)) = W1 m ρ c (kr (Pipeline.arrRef spec0 w)) :=
  (W4_of_ne m ρ c _ h4).trans ((k1_kept (W2 m ρ c) _ h3).trans (W2_in m ρ c w hin))

/-- An argument holds at the second region's exit what it held at launch. -/
theorem W4_arg_ne (b : Ref sig .tc) (h4 : ∀ w, Pipeline.arrRef spec1 w ≠ b) (h3 : b ∉ wr1) (h2 : ∀ w, Pipeline.arrRef spec0 w ≠ b)
    (h0 : b ∉ wr0) : W4 (F := Ideal) m ρ c (kr b) = W0 m ρ c (kr b) :=
  (W4_W1_ne m ρ c b h4 h3 h2).trans (k0_kept (W0 m ρ c) b h0)

theorem W4_arg_in (w : Fin cfg0.W) (hin : (cfg0.win w).isOut = false) (h4 : ∀ w', Pipeline.arrRef spec1 w' ≠ Pipeline.arrRef spec0 w)
    (h3 : Pipeline.arrRef spec0 w ∉ wr1) (h0 : Pipeline.arrRef spec0 w ∉ wr0) :
    W4 (F := Ideal) m ρ c (kr (Pipeline.arrRef spec0 w)) = W0 m ρ c (kr (Pipeline.arrRef spec0 w)) :=
  (W4_W1_in m ρ c w hin h4 h3).trans (k0_kept (W0 m ρ c) _ h0)

/-- The first region's output, the node encoder: `x @ encW + encB` over the launch's arguments. -/
theorem k_v30 :
    (W3 (F := Ideal) m ρ c (kr main_v30) : FVec Ideal S20000x256 .f32)
      = mmb 20000 128 256 (W0 m ρ c (kr main_arg0)) (W0 m ρ c (kr main_arg3)) (row1 256 (W0 m ρ c (kr main_arg4))) := by
  have e0 : V1 (F := Ideal) m ρ c (Pipeline.arrRef spec0 0) = W0 m ρ c (kr main_arg0) := k0_kept (W0 m ρ c) main_arg0 (by decide)
  have e1 : V1 (F := Ideal) m ρ c (Pipeline.arrRef spec0 1) = W0 m ρ c (kr main_arg3) := k0_kept (W0 m ρ c) main_arg3 (by decide)
  have e2 : (V1 (F := Ideal) m ρ c (Pipeline.arrRef spec0 2) : FVec Ideal S1x256 .f32) = row1 256 (W0 m ρ c (kr main_arg4)) :=
    k0_v29 (W0 m ρ c)
  calc (W3 (F := Ideal) m ρ c (kr main_v30) : FVec Ideal S20000x256 .f32)
      = W2 m ρ c (kr main_v30) := k1_kept (W2 m ρ c) main_v30 (by decide)
    _ = (dat0 (V1 m ρ) c).arrAt 3 cfg0.N := W2_arr m ρ c 3
    _ = mmb 20000 128 256 (V1 m ρ c (Pipeline.arrRef spec0 0)) (V1 m ρ c (Pipeline.arrRef spec0 1)) (V1 m ρ c (Pipeline.arrRef spec0 2)) :=
        MMKa.out0 (V1 m ρ) c
    _ = _ := by rw [e0, e1, e2]

/-- The second region's output, the first linear map: `(x @ encW + encB) @ convW[0]` over the launch's arguments. -/
theorem k_v35 :
    (W4 (F := Ideal) m ρ c (kr main_v35) : FVec Ideal S20000x256 .f32)
      = mm 20000 256 256 (mmb 20000 128 256 (W0 m ρ c (kr main_arg0)) (W0 m ρ c (kr main_arg3)) (row1 256 (W0 m ρ c (kr main_arg4))))
          (w0 (W0 m ρ c (kr main_arg5))) := by
  have e0 : (V3 (F := Ideal) m ρ c (Pipeline.arrRef spec1 0) : FVec Ideal S20000x256 .f32)
      = mmb 20000 128 256 (W0 m ρ c (kr main_arg0)) (W0 m ρ c (kr main_arg3)) (row1 256 (W0 m ρ c (kr main_arg4))) := k_v30 m ρ c
  have e5 : W2 (F := Ideal) m ρ c (kr main_arg5) = W0 m ρ c (kr main_arg5) :=
    (W2_of_ne m ρ c main_arg5 (by decide)).trans (k0_kept (W0 m ρ c) main_arg5 (by decide))
  have e1 : (V3 (F := Ideal) m ρ c (Pipeline.arrRef spec1 1) : FVec Ideal S256x256 .f32) = w0 (W0 m ρ c (kr main_arg5)) :=
    (k1_v33 (W2 m ρ c)).trans (congrArg w0 e5)
  have e2 : ∀ j, (V3 (F := Ideal) m ρ c (Pipeline.arrRef spec1 2) : FVec Ideal S1x256 .f32) j = (0 : EReal) :=
    fun j => k1_v34 (W2 m ρ c) j
  calc (W4 (F := Ideal) m ρ c (kr main_v35) : FVec Ideal S20000x256 .f32)
      = (dat1 (V3 m ρ) c).arrAt 3 cfg1.N := W4_arr m ρ c 3
    _ = mmb 20000 256 256 (V3 m ρ c (Pipeline.arrRef spec1 0)) (V3 m ρ c (Pipeline.arrRef spec1 1)) (V3 m ρ c (Pipeline.arrRef spec1 2)) :=
        MMKa.out1 (V3 m ρ) c
    _ = mm 20000 256 256 (V3 m ρ c (Pipeline.arrRef spec1 0)) (V3 m ρ c (Pipeline.arrRef spec1 1)) := mmb_zero _ _ _ _ _ _ e2
    _ = _ := by rw [e0, e1]

/-- From the launch to the second region's exit, against the reference's first 43 operations: the arguments and the
    graph quantities agree, the source ids are valid, the zero vector is zero, and the first linear map agrees. -/
theorem stageA (Vr : RV)
    (hargs : ArgsEq (W0 (F := Ideal) m ρ c) Vr)
    (hsrc : SrcOk (W1 (F := Ideal) m ρ c (kr main_v1))) :
    Base (W4 (F := Ideal) m ρ c) (StableHlo.after (Cert.ReferenceIdeal.Hand.rA (F := Ideal)) Vr)
      ∧ (W4 (F := Ideal) m ρ c (kr main_v35) : FVec Ideal S20000x256 .f32)
          = StableHlo.after (Cert.ReferenceIdeal.Hand.rA (F := Ideal)) Vr (rr Cert.ReferenceIdeal.main_v35) := by
  have hg := graph_eq (W0 (F := Ideal) m ρ c) Vr hargs.a1
  have hv1 : W4 (F := Ideal) m ρ c (kr main_v1) = W1 m ρ c (kr main_v1) := W4_W1_ne m ρ c main_v1 (by decide) (by decide) (by decide)
  refine ⟨{
    a0 := (W4_arg_in m ρ c 0 rfl (by decide) (by decide) (by decide)).trans (hargs.a0.trans (rA_kept Vr _ (by decide)).symm)
    a1 := (W4_arg_ne m ρ c main_arg1 (by decide) (by decide) (by decide) (by decide)).trans (hargs.a1.trans (rA_kept Vr _ (by decide)).symm)
    a2 := (W4_arg_ne m ρ c main_arg2 (by decide) (by decide) (by decide) (by decide)).trans (hargs.a2.trans (rA_kept Vr _ (by decide)).symm)
    a3 := (W4_arg_in m ρ c 1 rfl (by decide) (by decide) (by decide)).trans (hargs.a3.trans (rA_kept Vr _ (by decide)).symm)
    a4 := (W4_arg_ne m ρ c main_arg4 (by decide) (by decide) (by decide) (by decide)).trans (hargs.a4.trans (rA_kept Vr _ (by decide)).symm)
    a5 := (W4_arg_ne m ρ c main_arg5 (by decide) (by decide) (by decide) (by decide)).trans (hargs.a5.trans (rA_kept Vr _ (by decide)).symm)
    a6 := (W4_arg_ne m ρ c main_arg6 (by decide) (by decide) (by decide) (by decide)).trans (hargs.a6.trans (rA_kept Vr _ (by decide)).symm)
    a7 := (W4_arg_ne m ρ c main_arg7 (by decide) (by decide) (by decide) (by decide)).trans (hargs.a7.trans (rA_kept Vr _ (by decide)).symm)
    a8 := (W4_arg_ne m ρ c main_arg8 (by decide) (by decide) (by decide) (by decide)).trans (hargs.a8.trans (rA_kept Vr _ (by decide)).symm)
    a9 := (W4_arg_ne m ρ c main_arg9 (by decide) (by decide) (by decide) (by decide)).trans (hargs.a9.trans (rA_kept Vr _ (by decide)).symm)
    a10 := (W4_arg_ne m ρ c main_arg10 (by decide) (by decide) (by decide) (by decide)).trans (hargs.a10.trans (rA_kept Vr _ (by decide)).symm)
    a11 := (W4_arg_ne m ρ c main_arg11 (by decide) (by decide) (by decide) (by decide)).trans (hargs.a11.trans (rA_kept Vr _ (by decide)).symm)
    a12 := (W4_arg_ne m ρ c main_arg12 (by decide) (by decide) (by decide) (by decide)).trans (hargs.a12.trans (rA_kept Vr _ (by decide)).symm)
    a13 := (W4_arg_ne m ρ c main_arg13 (by decide) (by decide) (by decide) (by decide)).trans (hargs.a13.trans (rA_kept Vr _ (by decide)).symm)
    a14 := (W4_arg_ne m ρ c main_arg14 (by decide) (by decide) (by decide) (by decide)).trans (hargs.a14.trans (rA_kept Vr _ (by decide)).symm)
    a15 := (W4_arg_ne m ρ c main_arg15 (by decide) (by decide) (by decide) (by decide)).trans (hargs.a15.trans (rA_kept Vr _ (by decide)).symm)
    a16 := (W4_arg_ne m ρ c main_arg16 (by decide) (by decide) (by decide) (by decide)).trans (hargs.a16.trans (rA_kept Vr _ (by decide)).symm)
    a17 := (W4_arg_ne m ρ c main_arg17 (by decide) (by decide) (by decide) (by decide)).trans (hargs.a17.trans (rA_kept Vr _ (by decide)).symm)
    a18 := (W4_arg_ne m ρ c main_arg18 (by decide) (by decide) (by decide) (by decide)).trans (hargs.a18.trans (rA_kept Vr _ (by decide)).symm)
    src := hv1.trans hg.1
    dst := (W4_W1_ne m ρ c main_v3 (by decide) (by decide) (by decide)).trans hg.2.1
    enorm := (W4_W1_ne m ρ c main_v26 (by decide) (by decide) (by decide)).trans hg.2.2.1
    snorm := (W4_W1_ne m ρ c main_v28 (by decide) (by decide) (by decide)).trans hg.2.2.2
    srcOk := by rw [hv1]; exact hsrc
    z31 := fun i => by rw [W4_of_ne m ρ c main_v31 (by decide)]; exact k1_v31 (W2 m ρ c) i }, ?_⟩
  rw [k_v35 m ρ c, r_v35 Vr, hargs.a0, hargs.a3, hargs.a4, hargs.a5]

end Run

end Cert.Bridge

end
-- ==== Proof.Take.lean ====
/-
  The row gather by source id as the kernel program spells it. It normalises each id (a negative id has the axis's
  extent 20000 added), gathers the rows at the normalised ids, and then keeps a gathered row only where the normalised id
  lies in `0 … 19999`, putting a fill value elsewhere. For an id `s` with `-20000 ≤ s < 20000` the normalised id
  `n = if s < 0 then s + 20000 else s` always satisfies `0 ≤ n ≤ 19999`: the sum `s + 20000` of a negative id does not
  leave the 32-bit signed range, so it is the integer sum. Every bit of the range mask is then 1, the conjunction over
  the one-element index axis is 1, and the selection returns the gathered array itself, whatever the fill value is.
-/
import proofs.«404594_j87462714015857_2_alg».proof.Proof.Gen.KernelIdeal
import proofs.«404594_j87462714015857_2_alg».proof.Proof.Spec
import Idealize.ShloMosaic.Lib.ValueIdx
import Idealize.ShloMosaic.Lib.ReduceAll

namespace Cert.Bridge

open Idealize.ShloMosaic Idealize.ShloMosaic.ValueIdx
open Cert.KernelIdeal Cert.KernelIdeal.Gen

/-- A left fold by `and` from 1 over words that are all 1 is 1. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_ones f l _ ?_ fun n hn => hl n (List.mem_cons_of_mem _ hn)
    exact IntOp.andi_eq_one.2 ⟨h, hl a (List.mem_cons_self ..)⟩

/-- A reduction by `and` from the initial value 1 of an array whose every word is 1 is 1 at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl]
  exact foldl_andi_ones x _ _ hinit fun i _ => hx i

/-- `-20000 ≤ a < 0`: the sum `a + 20000` is its own balanced residue modulo `2 ^ 32`. -/
theorem bmod_wrap (a : Int) (h1 : -20000 ≤ a) (h2 : a < 0) : (a + 20000).bmod (2 ^ 32) = a + 20000 := by
  apply Int.bmod_eq_of_le <;> omega

/-- The normalised id of a valid id lies in `0 … 19999`. -/
theorem wrap_range (x : BitVec 32) (h : (-20000 : Int) ≤ x.toInt ∧ x.toInt < 20000) :
    (0 : Int) ≤ (Scalar.select (IntOp.cmpi .slt x 0#32) (IntOp.addi x 20000#32) x).toInt ∧
      (Scalar.select (IntOp.cmpi .slt x 0#32) (IntOp.addi x 20000#32) x).toInt ≤ 19999 := by
  have h0 : (0#32 : BitVec 32).toInt = 0 := by decide
  by_cases hc : IntOp.cmpi .slt x 0#32 = 1#1
  · rw [hc, select_one]
    have hlt : x.toInt < 0 := by have := IntOp.cmpi_slt.1 hc; rwa [h0] at this
    have : (IntOp.addi x 20000#32).toInt = x.toInt + 20000 := by
      show (x + 20000#32).toInt = _
      rw [BitVec.toInt_add]
      have h2 : (20000#32 : BitVec 32).toInt = 20000 := by decide
      rw [h2]
      exact bmod_wrap _ h.1 hlt
    omega
  · have hb : ∀ b : BitVec 1, b ≠ 1#1 → b = 0#1 := by decide
    rw [hb _ hc, select_zero]
    have hge : ¬ x.toInt < 0 := fun hlt => hc (IntOp.cmpi_slt.2 (by rw [h0]; exact hlt))
    omega

/-- A selection against the range mask of a column of ids that all lie in `0 … 19999` returns its first array. -/
theorem mask_select_eq {α : Type} (v : IVec S320000x1 32)
    (hv : ∀ i, (0 : Int) ≤ (v i).toInt ∧ (v i).toInt ≤ 19999) (g fill : S320000x256.Idx → α) :
    select (broadcastInDim S320000x256 ![0] bcast_S320000_S320000x256_0
        (Host.reduce IntOp.andi
          (andi (cmpi .sge v (broadcastInDim S320000x1 ![] bcast_S_S320000x1 (constantI S_ 32 0#32)))
            (cmpi .sle v (broadcastInDim S320000x1 ![0, 1] bcast_S1x1_S320000x1_0_1
              (broadcastInDim S1x1 ![1] bcast_S1_S1x1_1 (constantI S1 32 19999#32)))))
          (constantI S_ 1 1#1) reducesTo_S320000x1_S320000_d1 h_S_)) g fill = g := by
  funext j
  rw [select_apply]
  have hm : broadcastInDim S320000x256 ![0] bcast_S320000_S320000x256_0
        (Host.reduce IntOp.andi
          (andi (cmpi .sge v (broadcastInDim S320000x1 ![] bcast_S_S320000x1 (constantI S_ 32 0#32)))
            (cmpi .sle v (broadcastInDim S320000x1 ![0, 1] bcast_S1x1_S320000x1_0_1
              (broadcastInDim S1x1 ![1] bcast_S1_S1x1_1 (constantI S1 32 19999#32)))))
          (constantI S_ 1 1#1) reducesTo_S320000x1_S320000_d1 h_S_) j = 1#1 := by
    show Host.reduce IntOp.andi _ _ reducesTo_S320000x1_S320000_d1 h_S_ _ = 1#1
    refine reduce_andi_ones _ _ reducesTo_S320000x1_S320000_d1 h_S_ rfl (fun i => ?_) _
    show IntOp.andi (IntOp.cmpi .sge (v i) 0#32) (IntOp.cmpi .sle (v i) 19999#32) = 1#1
    have h0 : (0#32 : BitVec 32).toInt = 0 := by decide
    have h1 : (19999#32 : BitVec 32).toInt = 19999 := by decide
    exact IntOp.andi_eq_one.2 ⟨IntOp.cmpi_sge.2 (by rw [h0]; exact (hv i).1), IntOp.cmpi_sle.2 (by rw [h1]; exact (hv i).2)⟩
  rw [hm, select_one]

/-- Under `SrcOk s` the selection against the range mask of the normalised ids of `s` returns the gathered array. -/
theorem take_select_eq {α : Type} (s : IVec S320000 32) (hs : SrcOk s) (g fill : S320000x256.Idx → α) :
    select (broadcastInDim S320000x256 ![0] bcast_S320000_S320000x256_0
        (Host.reduce IntOp.andi
          (andi
            (cmpi .sge
              (broadcastInDim S320000x1 ![0] bcast_S320000_S320000x1_0
                (select (cmpi .slt s (broadcastInDim S320000 ![] bcast_S_S320000 (constantI S_ 32 0#32)))
                  (addi s (broadcastInDim S320000 ![] bcast_S_S320000 (constantI S_ 32 20000#32))) s))
              (broadcastInDim S320000x1 ![] bcast_S_S320000x1 (constantI S_ 32 0#32)))
            (cmpi .sle
              (broadcastInDim S320000x1 ![0] bcast_S320000_S320000x1_0
                (select (cmpi .slt s (broadcastInDim S320000 ![] bcast_S_S320000 (constantI S_ 32 0#32)))
                  (addi s (broadcastInDim S320000 ![] bcast_S_S320000 (constantI S_ 32 20000#32))) s))
              (broadcastInDim S320000x1 ![0, 1] bcast_S1x1_S320000x1_0_1
                (broadcastInDim S1x1 ![1] bcast_S1_S1x1_1 (constantI S1 32 19999#32)))))
          (constantI S_ 1 1#1) reducesTo_S320000x1_S320000_d1 h_S_)) g fill = g :=
  mask_select_eq _ (fun _ => wrap_range _ (hs _)) g fill

end Cert.Bridge
-- ==== Proof.StageL1.lean ====
/-
  The first graph-convolution layer's tail and the next layer's linear map, on both programs at once.

  From the cut after the layer's linear map `t` both programs compute, in the same order: the rows of `t` gathered by
  the normalised source ids, times the edge weights, summed into the destination rows; plus `t` times the self-loop
  weights, plus the layer's bias; the batch normalisation over the rows (mean, variance, the reciprocal square root of
  the variance plus a constant, the layer's scale and shift); the maximum with zero; and the product of the result with
  the next layer's weight matrix. They differ in two places. The kernel program keeps a gathered row only where the
  normalised source id is in range and puts a fill value elsewhere: under the validity of the source ids every id is in
  range and the selection is the gathered array. The kernel program's product is a row-tiled region that adds a bias
  row, here the all-zero row: adding zero changes no entry, and the region's output is the plain product, as the
  reference's contraction is. Every other operation is the same function applied to equal arguments.

  The comparison goes stretch by stretch: the operations between the two cuts are six consecutive stretches on either
  side (the gather; the aggregation and the mean; the variance; the normalisation; the maximum with zero; the next
  weight matrix), and after each stretch the few arrays still to be read agree. The quantities carried from cut to cut
  (the arguments, the source and destination ids, the two weight columns, the zero vector) are written by no operation
  between the two cuts, on either side.
-/
import proofs.«404594_j87462714015857_2_alg».proof.Proof.Gen.KernelIdeal.Frame
import proofs.«404594_j87462714015857_2_alg».proof.Proof.Inv
import proofs.«404594_j87462714015857_2_alg».proof.Proof.RefOps
import proofs.«404594_j87462714015857_2_alg».proof.Proof.MMKa
import proofs.«404594_j87462714015857_2_alg».proof.Proof.MMR
import proofs.«404594_j87462714015857_2_alg».proof.Proof.Take

set_option maxRecDepth 16384
set_option maxHeartbeats 4000000

noncomputable section

namespace Cert.Bridge.L1

open Idealize.ShloMosaic Idealize.ShloMosaic.TcCoe Idealize.SL.Sem
open Cert.KernelIdeal Cert.KernelIdeal.Gen Cert.Bridge

/-- Two lists of operations run one after the other are their concatenation run as one. -/
theorem after_append {tp : Topo} {sg : RefSig} {Val : EltTy → Type} (l₁ l₂ : List (HloOp tp sg Val))
    (V : Valuation tp sg Val) : StableHlo.after (l₁ ++ l₂) V = StableHlo.after l₂ (StableHlo.after l₁ V) := by
  induction l₁ generalizing V with
  | nil => rfl
  | cons op l ih => exact ih _

/-! ## What agrees after each stretch -/

/-- After the gather. -/
structure C1 (Vk : KV) (Vr : RV) : Prop where
  g : (Vk (kr main_v36) : FVec Ideal S320000x256 .f32) = Vr (rr Cert.ReferenceIdeal.main_v42)
  enorm : (Vk (kr main_v26) : FVec Ideal S320000x1 .f32) = Vr (rr Cert.ReferenceIdeal.main_v26)
  dst : (Vk (kr main_v3) : IVec S320000 32) = Vr (rr Cert.ReferenceIdeal.main_v3)
  snorm : (Vk (kr main_v28) : FVec Ideal S20000x1 .f32) = Vr (rr Cert.ReferenceIdeal.main_v28)
  t : (Vk (kr main_v35) : FVec Ideal S20000x256 .f32) = Vr (rr Cert.ReferenceIdeal.main_v35)
  a6 : (Vk (kr main_arg6) : FVec Ideal S4x256 .f32) = Vr (rr Cert.ReferenceIdeal.main_arg6)
  a7 : (Vk (kr main_arg7) : FVec Ideal S4x256 .f32) = Vr (rr Cert.ReferenceIdeal.main_arg7)
  a8 : (Vk (kr main_arg8) : FVec Ideal S4x256 .f32) = Vr (rr Cert.ReferenceIdeal.main_arg8)

/-- After the aggregation and the mean. -/
structure C2 (Vk : KV) (Vr : RV) : Prop where
  x : (Vk (kr main_v49) : FVec Ideal S20000x256 .f32) = Vr (rr Cert.ReferenceIdeal.main_v55)
  gm : (Vk (kr main_v51) : FVec Ideal S256 .f32) = Vr (rr Cert.ReferenceIdeal.main_v57)
  bt : (Vk (kr main_v53) : FVec Ideal S256 .f32) = Vr (rr Cert.ReferenceIdeal.main_v59)
  mean : (Vk (kr main_v56) : FVec Ideal S256 .f32) = Vr (rr Cert.ReferenceIdeal.main_v62)
  cnt : (Vk (kr main_c_9) : IVec S_ 32) = Vr (rr Cert.ReferenceIdeal.main_c_10)

/-- After the variance. -/
structure C3 (Vk : KV) (Vr : RV) : Prop where
  x : (Vk (kr main_v49) : FVec Ideal S20000x256 .f32) = Vr (rr Cert.ReferenceIdeal.main_v55)
  gm : (Vk (kr main_v51) : FVec Ideal S256 .f32) = Vr (rr Cert.ReferenceIdeal.main_v57)
  bt : (Vk (kr main_v53) : FVec Ideal S256 .f32) = Vr (rr Cert.ReferenceIdeal.main_v59)
  mean : (Vk (kr main_v56) : FVec Ideal S256 .f32) = Vr (rr Cert.ReferenceIdeal.main_v62)
  var : (Vk (kr main_v57) : FVec Ideal S256 .f32) = Vr (rr Cert.ReferenceIdeal.main_v63)

attribute [local irreducible] Host.scatterAdd Host.gather Host.reduce Host.reduceAdd

/-! ## The gather: the range mask is all ones -/

theorem a_g (Vk : KV) (Vr : RV) (hsrc : (Vk (kr main_v1) : IVec S320000 32) = Vr (rr Cert.ReferenceIdeal.main_v1))
    (hok : SrcOk (Vk (kr main_v1)))
    (ht : (Vk (kr main_v35) : FVec Ideal S20000x256 .f32) = Vr (rr Cert.ReferenceIdeal.main_v35)) :
    (StableHlo.after hostOps2 Vk (kr main_v36) : FVec Ideal S320000x256 .f32)
      = StableHlo.after Cert.ReferenceIdeal.Hand.rL1a Vr (rr Cert.ReferenceIdeal.main_v42) := by
  simp only [hostOps2, Cert.ReferenceIdeal.Hand.rL1a]
  after_results_simp
  simp only [StableHlo.TRef.toBuf, StableHlo.TRef.ofBuf, cast_cast]
  simp only [cast_eq]
  rw [take_select_eq _ hok, hsrc, ht]
  try rfl

theorem a_main_v26 (Vk : KV) (Vr : RV) (h : (Vk (kr main_v26) : FVec Ideal S320000x1 .f32) = Vr (rr Cert.ReferenceIdeal.main_v26)) :
    (StableHlo.after hostOps2 Vk (kr main_v26) : FVec Ideal S320000x1 .f32) = StableHlo.after Cert.ReferenceIdeal.Hand.rL1a Vr (rr Cert.ReferenceIdeal.main_v26) := by
  simp only [hostOps2, Cert.ReferenceIdeal.Hand.rL1a]
  after_results_simp
  exact h
theorem a_main_v3 (Vk : KV) (Vr : RV) (h : (Vk (kr main_v3) : IVec S320000 32) = Vr (rr Cert.ReferenceIdeal.main_v3)) :
    (StableHlo.after hostOps2 Vk (kr main_v3) : IVec S320000 32) = StableHlo.after Cert.ReferenceIdeal.Hand.rL1a Vr (rr Cert.ReferenceIdeal.main_v3) := by
  simp only [hostOps2, Cert.ReferenceIdeal.Hand.rL1a]
  after_results_simp
  exact h
theorem a_main_v28 (Vk : KV) (Vr : RV) (h : (Vk (kr main_v28) : FVec Ideal S20000x1 .f32) = Vr (rr Cert.ReferenceIdeal.main_v28)) :
    (StableHlo.after hostOps2 Vk (kr main_v28) : FVec Ideal S20000x1 .f32) = StableHlo.after Cert.ReferenceIdeal.Hand.rL1a Vr (rr Cert.ReferenceIdeal.main_v28) := by
  simp only [hostOps2, Cert.ReferenceIdeal.Hand.rL1a]
  after_results_simp
  exact h
theorem a_main_v35 (Vk : KV) (Vr : RV) (h : (Vk (kr main_v35) : FVec Ideal S20000x256 .f32) = Vr (rr Cert.ReferenceIdeal.main_v35)) :
    (StableHlo.after hostOps2 Vk (kr main_v35) : FVec Ideal S20000x256 .f32) = StableHlo.after Cert.ReferenceIdeal.Hand.rL1a Vr (rr Cert.ReferenceIdeal.main_v35) := by
  simp only [hostOps2, Cert.ReferenceIdeal.Hand.rL1a]
  after_results_simp
  exact h
theorem a_main_arg6 (Vk : KV) (Vr : RV) (h : (Vk (kr main_arg6) : FVec Ideal S4x256 .f32) = Vr (rr Cert.ReferenceIdeal.main_arg6)) :
    (StableHlo.after hostOps2 Vk (kr main_arg6) : FVec Ideal S4x256 .f32) = StableHlo.after Cert.ReferenceIdeal.Hand.rL1a Vr (rr Cert.ReferenceIdeal.main_arg6) := by
  simp only [hostOps2, Cert.ReferenceIdeal.Hand.rL1a]
  after_results_simp
  exact h
theorem a_main_arg7 (Vk : KV) (Vr : RV) (h : (Vk (kr main_arg7) : FVec Ideal S4x256 .f32) = Vr (rr Cert.ReferenceIdeal.main_arg7)) :
    (StableHlo.after hostOps2 Vk (kr main_arg7) : FVec Ideal S4x256 .f32) = StableHlo.after Cert.ReferenceIdeal.Hand.rL1a Vr (rr Cert.ReferenceIdeal.main_arg7) := by
  simp only [hostOps2, Cert.ReferenceIdeal.Hand.rL1a]
  after_results_simp
  exact h
theorem a_main_arg8 (Vk : KV) (Vr : RV) (h : (Vk (kr main_arg8) : FVec Ideal S4x256 .f32) = Vr (rr Cert.ReferenceIdeal.main_arg8)) :
    (StableHlo.after hostOps2 Vk (kr main_arg8) : FVec Ideal S4x256 .f32) = StableHlo.after Cert.ReferenceIdeal.Hand.rL1a Vr (rr Cert.ReferenceIdeal.main_arg8) := by
  simp only [hostOps2, Cert.ReferenceIdeal.Hand.rL1a]
  after_results_simp
  exact h

/-! ## The aggregation and the mean -/

theorem b_x (Vk : KV) (Vr : RV) (h : C1 Vk Vr) :
    (StableHlo.after hostOps2_1 Vk (kr main_v49) : FVec Ideal S20000x256 .f32)
      = StableHlo.after Cert.ReferenceIdeal.Hand.rL1b Vr (rr Cert.ReferenceIdeal.main_v55) := by
  simp only [hostOps2_1, Cert.ReferenceIdeal.Hand.rL1b]
  after_results_simp
  rw [h.g, h.enorm, h.dst, h.snorm, h.t, h.a6]
  try rfl

theorem b_gm (Vk : KV) (Vr : RV) (h : C1 Vk Vr) :
    (StableHlo.after hostOps2_1 Vk (kr main_v51) : FVec Ideal S256 .f32)
      = StableHlo.after Cert.ReferenceIdeal.Hand.rL1b Vr (rr Cert.ReferenceIdeal.main_v57) := by
  simp only [hostOps2_1, Cert.ReferenceIdeal.Hand.rL1b]
  after_results_simp
  rw [h.a7]
  try rfl

theorem b_bt (Vk : KV) (Vr : RV) (h : C1 Vk Vr) :
    (StableHlo.after hostOps2_1 Vk (kr main_v53) : FVec Ideal S256 .f32)
      = StableHlo.after Cert.ReferenceIdeal.Hand.rL1b Vr (rr Cert.ReferenceIdeal.main_v59) := by
  simp only [hostOps2_1, Cert.ReferenceIdeal.Hand.rL1b]
  after_results_simp
  rw [h.a8]
  try rfl

theorem b_mean (Vk : KV) (Vr : RV) (h : C1 Vk Vr) :
    (StableHlo.after hostOps2_1 Vk (kr main_v56) : FVec Ideal S256 .f32)
      = StableHlo.after Cert.ReferenceIdeal.Hand.rL1b Vr (rr Cert.ReferenceIdeal.main_v62) := by
  simp only [hostOps2_1, Cert.ReferenceIdeal.Hand.rL1b]
  after_results_simp
  rw [h.g, h.enorm, h.dst, h.snorm, h.t, h.a6]
  try rfl

theorem b_cnt (Vk : KV) (Vr : RV) :
    (StableHlo.after hostOps2_1 Vk (kr main_c_9) : IVec S_ 32)
      = StableHlo.after Cert.ReferenceIdeal.Hand.rL1b Vr (rr Cert.ReferenceIdeal.main_c_10) := by
  simp only [hostOps2_1, Cert.ReferenceIdeal.Hand.rL1b]
  after_results_simp
  try rfl

/-! ## The variance -/

theorem c_var (Vk : KV) (Vr : RV) (h : C2 Vk Vr) :
    (StableHlo.after hostOps2_2 Vk (kr main_v57) : FVec Ideal S256 .f32)
      = StableHlo.after Cert.ReferenceIdeal.Hand.rL1c Vr (rr Cert.ReferenceIdeal.main_v63) := by
  simp only [hostOps2_2, Cert.ReferenceIdeal.Hand.rL1c]
  after_results_simp
  simp only [StableHlo.TRef.toBuf, StableHlo.TRef.ofBuf, cast_cast]
  simp only [cast_eq]
  rw [h.x, h.cnt]
  try rfl

theorem c_x (Vk : KV) (Vr : RV) (h : (Vk (kr main_v49) : FVec Ideal S20000x256 .f32) = Vr (rr Cert.ReferenceIdeal.main_v55)) :
    (StableHlo.after hostOps2_2 Vk (kr main_v49) : FVec Ideal S20000x256 .f32) = StableHlo.after Cert.ReferenceIdeal.Hand.rL1c Vr (rr Cert.ReferenceIdeal.main_v55) := by
  simp only [hostOps2_2, Cert.ReferenceIdeal.Hand.rL1c]
  after_results_simp
  exact h
theorem c_gm (Vk : KV) (Vr : RV) (h : (Vk (kr main_v51) : FVec Ideal S256 .f32) = Vr (rr Cert.ReferenceIdeal.main_v57)) :
    (StableHlo.after hostOps2_2 Vk (kr main_v51) : FVec Ideal S256 .f32) = StableHlo.after Cert.ReferenceIdeal.Hand.rL1c Vr (rr Cert.ReferenceIdeal.main_v57) := by
  simp only [hostOps2_2, Cert.ReferenceIdeal.Hand.rL1c]
  after_results_simp
  exact h
theorem c_bt (Vk : KV) (Vr : RV) (h : (Vk (kr main_v53) : FVec Ideal S256 .f32) = Vr (rr Cert.ReferenceIdeal.main_v59)) :
    (StableHlo.after hostOps2_2 Vk (kr main_v53) : FVec Ideal S256 .f32) = StableHlo.after Cert.ReferenceIdeal.Hand.rL1c Vr (rr Cert.ReferenceIdeal.main_v59) := by
  simp only [hostOps2_2, Cert.ReferenceIdeal.Hand.rL1c]
  after_results_simp
  exact h
theorem c_mean (Vk : KV) (Vr : RV) (h : (Vk (kr main_v56) : FVec Ideal S256 .f32) = Vr (rr Cert.ReferenceIdeal.main_v62)) :
    (StableHlo.after hostOps2_2 Vk (kr main_v56) : FVec Ideal S256 .f32) = StableHlo.after Cert.ReferenceIdeal.Hand.rL1c Vr (rr Cert.ReferenceIdeal.main_v62) := by
  simp only [hostOps2_2, Cert.ReferenceIdeal.Hand.rL1c]
  after_results_simp
  exact h

/-! ## The normalisation, the maximum with zero, the last stretch -/

theorem d_y (Vk : KV) (Vr : RV) (h : C3 Vk Vr) :
    (StableHlo.after hostOps2_3 Vk (kr main_v72) : FVec Ideal S20000x256 .f32)
      = StableHlo.after Cert.ReferenceIdeal.Hand.rL1d Vr (rr Cert.ReferenceIdeal.main_v78) := by
  simp only [hostOps2_3, Cert.ReferenceIdeal.Hand.rL1d]
  after_results_simp
  rw [h.mean, h.x, h.gm, h.var, h.bt]
  try rfl

theorem e_y (Vk : KV) (Vr : RV) (h : (Vk (kr main_v72) : FVec Ideal S20000x256 .f32) = Vr (rr Cert.ReferenceIdeal.main_v78)) :
    (StableHlo.after hostOps2_4 Vk (kr main_v73) : FVec Ideal S20000x256 .f32)
      = StableHlo.after Cert.ReferenceIdeal.Hand.rL1e Vr (rr Cert.ReferenceIdeal.main_v79) := by
  simp only [hostOps2_4, Cert.ReferenceIdeal.Hand.rL1e]
  after_results_simp
  simp only [StableHlo.TRef.toBuf, StableHlo.TRef.ofBuf, cast_cast]
  simp only [cast_eq]
  rw [h]
  try rfl

theorem f_x (Vk : KV) (Vr : RV) (h : (Vk (kr main_v73) : FVec Ideal S20000x256 .f32) = Vr (rr Cert.ReferenceIdeal.main_v79)) :
    (StableHlo.after hostOps2_5 Vk (kr main_v73) : FVec Ideal S20000x256 .f32)
      = StableHlo.after Cert.ReferenceIdeal.Hand.rL1f Vr (rr Cert.ReferenceIdeal.main_v79) := by
  simp only [hostOps2_5, Cert.ReferenceIdeal.Hand.rL1f]
  after_results_simp
  exact h

/-- The reference's last stretch ends with the product of the two arrays it holds then. -/
theorem f_out (V : RV) : (StableHlo.after Cert.ReferenceIdeal.Hand.rL1f V (rr Cert.ReferenceIdeal.main_v82) : FVec Ideal Cert.ReferenceIdeal.S20000x256 .f32)
    = mm 20000 256 256 (StableHlo.after Cert.ReferenceIdeal.Hand.rL1f V (rr Cert.ReferenceIdeal.main_v79)) (StableHlo.after Cert.ReferenceIdeal.Hand.rL1f V (rr Cert.ReferenceIdeal.main_v81)) := by
  simp only [Cert.ReferenceIdeal.Hand.rL1f]
  after_results_simp
  exact MMR.dotL _ _

/-! ## The stretches in a row -/

variable (m : (ℓ : Loc nD τ sig) → Buf (Elt Ideal) ℓ) (ρ : Dev nD → PrngReg) (c : Dev nD) (Vr : RV)

/-- The reference's contents before its last stretch. -/
abbrev R5 : RV :=
  StableHlo.after Cert.ReferenceIdeal.Hand.rL1e (StableHlo.after Cert.ReferenceIdeal.Hand.rL1d (StableHlo.after Cert.ReferenceIdeal.Hand.rL1c (StableHlo.after Cert.ReferenceIdeal.Hand.rL1b
    (StableHlo.after Cert.ReferenceIdeal.Hand.rL1a Vr))))

theorem rL1_after : StableHlo.after Cert.ReferenceIdeal.Hand.rL1 Vr = StableHlo.after Cert.ReferenceIdeal.Hand.rL1f (R5 Vr) := by
  rw [Cert.ReferenceIdeal.Hand.rL1_split, after_append, after_append, after_append, after_append, after_append]

/-- The activations entering the product agree. -/
theorem x_eq (hb : Base (W4 (F := Ideal) m ρ c) Vr)
    (ht : (W4 (F := Ideal) m ρ c (kr main_v35) : FVec Ideal S20000x256 .f32) = Vr (rr Cert.ReferenceIdeal.main_v35)) :
    (W10 (F := Ideal) m ρ c (kr main_v73) : FVec Ideal S20000x256 .f32)
      = StableHlo.after Cert.ReferenceIdeal.Hand.rL1f (R5 Vr) (rr Cert.ReferenceIdeal.main_v79) := by
  have h1 : C1 (StableHlo.after hostOps2 (W4 (F := Ideal) m ρ c)) (StableHlo.after Cert.ReferenceIdeal.Hand.rL1a Vr) :=
    ⟨a_g _ _ hb.src hb.srcOk ht, a_main_v26 _ _ hb.enorm, a_main_v3 _ _ hb.dst, a_main_v28 _ _ hb.snorm,
      a_main_v35 _ _ ht, a_main_arg6 _ _ hb.a6, a_main_arg7 _ _ hb.a7, a_main_arg8 _ _ hb.a8⟩
  have h2 : C2 (StableHlo.after hostOps2_1 (StableHlo.after hostOps2 (W4 (F := Ideal) m ρ c)))
      (StableHlo.after Cert.ReferenceIdeal.Hand.rL1b (StableHlo.after Cert.ReferenceIdeal.Hand.rL1a Vr)) :=
    ⟨b_x _ _ h1, b_gm _ _ h1, b_bt _ _ h1, b_mean _ _ h1, b_cnt _ _⟩
  have h3 : C3 (StableHlo.after hostOps2_2 (StableHlo.after hostOps2_1 (StableHlo.after hostOps2 (W4 (F := Ideal) m ρ c))))
      (StableHlo.after Cert.ReferenceIdeal.Hand.rL1c (StableHlo.after Cert.ReferenceIdeal.Hand.rL1b (StableHlo.after Cert.ReferenceIdeal.Hand.rL1a Vr))) :=
    ⟨c_x _ _ h2.x, c_gm _ _ h2.gm, c_bt _ _ h2.bt, c_mean _ _ h2.mean, c_var _ _ h2⟩
  exact f_x _ _ (e_y _ _ (d_y _ _ h3))

/-- The weight matrix entering the product agrees. -/
theorem w_eq (hb : Base (W4 (F := Ideal) m ρ c) Vr) :
    (W10 (F := Ideal) m ρ c (kr main_v75) : FVec Ideal S256x256 .f32)
      = StableHlo.after Cert.ReferenceIdeal.Hand.rL1f (R5 Vr) (rr Cert.ReferenceIdeal.main_v81) := by
  simp only [W10, W9, W8, W7, W6, W5, hostOps2_5, hostOps2_4, hostOps2_3, hostOps2_2, hostOps2_1, hostOps2, R5,
    Cert.ReferenceIdeal.Hand.rL1f, Cert.ReferenceIdeal.Hand.rL1e, Cert.ReferenceIdeal.Hand.rL1d, Cert.ReferenceIdeal.Hand.rL1c, Cert.ReferenceIdeal.Hand.rL1b, Cert.ReferenceIdeal.Hand.rL1a]
  after_results_simp
  rw [hb.a5]
  try rfl

/-- The bias row entering the kernel program's product is all zero. -/
theorem z_eq (hb : Base (W4 (F := Ideal) m ρ c) Vr) (j : S1x256.Idx) :
    (W10 (F := Ideal) m ρ c (kr main_v76) : FVec Ideal S1x256 .f32) j = (0 : EReal) := by
  simp only [W10, W9, W8, W7, W6, W5, hostOps2_5, hostOps2_4, hostOps2_3, hostOps2_2, hostOps2_1, hostOps2]
  after_results_simp
  exact hb.z31 _

/-- The products agree. -/
theorem out_eq (hb : Base (W4 (F := Ideal) m ρ c) Vr)
    (ht : (W4 (F := Ideal) m ρ c (kr main_v35) : FVec Ideal S20000x256 .f32) = Vr (rr Cert.ReferenceIdeal.main_v35)) :
    (W11 (F := Ideal) m ρ c (kr main_v77) : FVec Ideal S20000x256 .f32)
      = StableHlo.after Cert.ReferenceIdeal.Hand.rL1 Vr (rr Cert.ReferenceIdeal.main_v82) :=
  calc (W11 (F := Ideal) m ρ c (kr main_v77) : FVec Ideal S20000x256 .f32)
      = (dat2 (F := Ideal) (V10 m ρ) c).arrAt 3 cfg2.N := W11_arr m ρ c 3
    _ = mmb 20000 256 256 (V10 (F := Ideal) m ρ c (Pipeline.arrRef spec2 0))
          (V10 (F := Ideal) m ρ c (Pipeline.arrRef spec2 1)) (V10 (F := Ideal) m ρ c (Pipeline.arrRef spec2 2)) :=
        MMKa.out2 (V10 m ρ) c
    _ = mm 20000 256 256 (W10 (F := Ideal) m ρ c (kr main_v73)) (W10 (F := Ideal) m ρ c (kr main_v75)) :=
        mmb_zero _ _ _ _ _ _ (z_eq m ρ c Vr hb)
    _ = mm 20000 256 256 (StableHlo.after Cert.ReferenceIdeal.Hand.rL1f (R5 Vr) (rr Cert.ReferenceIdeal.main_v79))
          (StableHlo.after Cert.ReferenceIdeal.Hand.rL1f (R5 Vr) (rr Cert.ReferenceIdeal.main_v81)) := by
        rw [x_eq m ρ c Vr hb ht, w_eq m ρ c Vr hb]
    _ = StableHlo.after Cert.ReferenceIdeal.Hand.rL1f (R5 Vr) (rr Cert.ReferenceIdeal.main_v82) := (f_out (R5 Vr)).symm
    _ = StableHlo.after Cert.ReferenceIdeal.Hand.rL1 Vr (rr Cert.ReferenceIdeal.main_v82) := by rw [rL1_after]

/-! ## What neither side writes between the two cuts -/

theorem k_main_arg0 : (W11 (F := Ideal) m ρ c (kr main_arg0) : FVec Ideal S20000x128 .f32) = W4 (F := Ideal) m ρ c (kr main_arg0) := by
  rw [W11_of_ne m ρ c main_arg0 (by decide)]
  simp only [W10, W9, W8, W7, W6, W5, hostOps2_5, hostOps2_4, hostOps2_3, hostOps2_2, hostOps2_1, hostOps2]
  after_results_simp
theorem k_main_arg1 : (W11 (F := Ideal) m ρ c (kr main_arg1) : IVec S2x320000 32) = W4 (F := Ideal) m ρ c (kr main_arg1) := by
  rw [W11_of_ne m ρ c main_arg1 (by decide)]
  simp only [W10, W9, W8, W7, W6, W5, hostOps2_5, hostOps2_4, hostOps2_3, hostOps2_2, hostOps2_1, hostOps2]
  after_results_simp
theorem k_main_arg2 : (W11 (F := Ideal) m ρ c (kr main_arg2) : IVec S20000 32) = W4 (F := Ideal) m ρ c (kr main_arg2) := by
  rw [W11_of_ne m ρ c main_arg2 (by decide)]
  simp only [W10, W9, W8, W7, W6, W5, hostOps2_5, hostOps2_4, hostOps2_3, hostOps2_2, hostOps2_1, hostOps2]
  after_results_simp
theorem k_main_arg3 : (W11 (F := Ideal) m ρ c (kr main_arg3) : FVec Ideal S128x256 .f32) = W4 (F := Ideal) m ρ c (kr main_arg3) := by
  rw [W11_of_ne m ρ c main_arg3 (by decide)]
  simp only [W10, W9, W8, W7, W6, W5, hostOps2_5, hostOps2_4, hostOps2_3, hostOps2_2, hostOps2_1, hostOps2]
  after_results_simp
theorem k_main_arg4 : (W11 (F := Ideal) m ρ c (kr main_arg4) : FVec Ideal S256 .f32) = W4 (F := Ideal) m ρ c (kr main_arg4) := by
  rw [W11_of_ne m ρ c main_arg4 (by decide)]
  simp only [W10, W9, W8, W7, W6, W5, hostOps2_5, hostOps2_4, hostOps2_3, hostOps2_2, hostOps2_1, hostOps2]
  after_results_simp
theorem k_main_arg5 : (W11 (F := Ideal) m ρ c (kr main_arg5) : FVec Ideal S4x256x256 .f32) = W4 (F := Ideal) m ρ c (kr main_arg5) := by
  rw [W11_of_ne m ρ c main_arg5 (by decide)]
  simp only [W10, W9, W8, W7, W6, W5, hostOps2_5, hostOps2_4, hostOps2_3, hostOps2_2, hostOps2_1, hostOps2]
  after_results_simp
theorem k_main_arg6 : (W11 (F := Ideal) m ρ c (kr main_arg6) : FVec Ideal S4x256 .f32) = W4 (F := Ideal) m ρ c (kr main_arg6) := by
  rw [W11_of_ne m ρ c main_arg6 (by decide)]
  simp only [W10, W9, W8, W7, W6, W5, hostOps2_5, hostOps2_4, hostOps2_3, hostOps2_2, hostOps2_1, hostOps2]
  after_results_simp
theorem k_main_arg7 : (W11 (F := Ideal) m ρ c (kr main_arg7) : FVec Ideal S4x256 .f32) = W4 (F := Ideal) m ρ c (kr main_arg7) := by
  rw [W11_of_ne m ρ c main_arg7 (by decide)]
  simp only [W10, W9, W8, W7, W6, W5, hostOps2_5, hostOps2_4, hostOps2_3, hostOps2_2, hostOps2_1, hostOps2]
  after_results_simp
theorem k_main_arg8 : (W11 (F := Ideal) m ρ c (kr main_arg8) : FVec Ideal S4x256 .f32) = W4 (F := Ideal) m ρ c (kr main_arg8) := by
  rw [W11_of_ne m ρ c main_arg8 (by decide)]
  simp only [W10, W9, W8, W7, W6, W5, hostOps2_5, hostOps2_4, hostOps2_3, hostOps2_2, hostOps2_1, hostOps2]
  after_results_simp
theorem k_main_arg9 : (W11 (F := Ideal) m ρ c (kr main_arg9) : FVec Ideal S256x256 .f32) = W4 (F := Ideal) m ρ c (kr main_arg9) := by
  rw [W11_of_ne m ρ c main_arg9 (by decide)]
  simp only [W10, W9, W8, W7, W6, W5, hostOps2_5, hostOps2_4, hostOps2_3, hostOps2_2, hostOps2_1, hostOps2]
  after_results_simp
theorem k_main_arg10 : (W11 (F := Ideal) m ρ c (kr main_arg10) : FVec Ideal S256 .f32) = W4 (F := Ideal) m ρ c (kr main_arg10) := by
  rw [W11_of_ne m ρ c main_arg10 (by decide)]
  simp only [W10, W9, W8, W7, W6, W5, hostOps2_5, hostOps2_4, hostOps2_3, hostOps2_2, hostOps2_1, hostOps2]
  after_results_simp
theorem k_main_arg11 : (W11 (F := Ideal) m ρ c (kr main_arg11) : FVec Ideal S256 .f32) = W4 (F := Ideal) m ρ c (kr main_arg11) := by
  rw [W11_of_ne m ρ c main_arg11 (by decide)]
  simp only [W10, W9, W8, W7, W6, W5, hostOps2_5, hostOps2_4, hostOps2_3, hostOps2_2, hostOps2_1, hostOps2]
  after_results_simp
theorem k_main_arg12 : (W11 (F := Ideal) m ρ c (kr main_arg12) : FVec Ideal S256 .f32) = W4 (F := Ideal) m ρ c (kr main_arg12) := by
  rw [W11_of_ne m ρ c main_arg12 (by decide)]
  simp only [W10, W9, W8, W7, W6, W5, hostOps2_5, hostOps2_4, hostOps2_3, hostOps2_2, hostOps2_1, hostOps2]
  after_results_simp
theorem k_main_arg13 : (W11 (F := Ideal) m ρ c (kr main_arg13) : FVec Ideal S256x256 .f32) = W4 (F := Ideal) m ρ c (kr main_arg13) := by
  rw [W11_of_ne m ρ c main_arg13 (by decide)]
  simp only [W10, W9, W8, W7, W6, W5, hostOps2_5, hostOps2_4, hostOps2_3, hostOps2_2, hostOps2_1, hostOps2]
  after_results_simp
theorem k_main_arg14 : (W11 (F := Ideal) m ρ c (kr main_arg14) : FVec Ideal S256 .f32) = W4 (F := Ideal) m ρ c (kr main_arg14) := by
  rw [W11_of_ne m ρ c main_arg14 (by decide)]
  simp only [W10, W9, W8, W7, W6, W5, hostOps2_5, hostOps2_4, hostOps2_3, hostOps2_2, hostOps2_1, hostOps2]
  after_results_simp
theorem k_main_arg15 : (W11 (F := Ideal) m ρ c (kr main_arg15) : FVec Ideal S256 .f32) = W4 (F := Ideal) m ρ c (kr main_arg15) := by
  rw [W11_of_ne m ρ c main_arg15 (by decide)]
  simp only [W10, W9, W8, W7, W6, W5, hostOps2_5, hostOps2_4, hostOps2_3, hostOps2_2, hostOps2_1, hostOps2]
  after_results_simp
theorem k_main_arg16 : (W11 (F := Ideal) m ρ c (kr main_arg16) : FVec Ideal S256 .f32) = W4 (F := Ideal) m ρ c (kr main_arg16) := by
  rw [W11_of_ne m ρ c main_arg16 (by decide)]
  simp only [W10, W9, W8, W7, W6, W5, hostOps2_5, hostOps2_4, hostOps2_3, hostOps2_2, hostOps2_1, hostOps2]
  after_results_simp
theorem k_main_arg17 : (W11 (F := Ideal) m ρ c (kr main_arg17) : FVec Ideal S256x10 .f32) = W4 (F := Ideal) m ρ c (kr main_arg17) := by
  rw [W11_of_ne m ρ c main_arg17 (by decide)]
  simp only [W10, W9, W8, W7, W6, W5, hostOps2_5, hostOps2_4, hostOps2_3, hostOps2_2, hostOps2_1, hostOps2]
  after_results_simp
theorem k_main_arg18 : (W11 (F := Ideal) m ρ c (kr main_arg18) : FVec Ideal S10 .f32) = W4 (F := Ideal) m ρ c (kr main_arg18) := by
  rw [W11_of_ne m ρ c main_arg18 (by decide)]
  simp only [W10, W9, W8, W7, W6, W5, hostOps2_5, hostOps2_4, hostOps2_3, hostOps2_2, hostOps2_1, hostOps2]
  after_results_simp
theorem k_main_v1 : (W11 (F := Ideal) m ρ c (kr main_v1) : IVec S320000 32) = W4 (F := Ideal) m ρ c (kr main_v1) := by
  rw [W11_of_ne m ρ c main_v1 (by decide)]
  simp only [W10, W9, W8, W7, W6, W5, hostOps2_5, hostOps2_4, hostOps2_3, hostOps2_2, hostOps2_1, hostOps2]
  after_results_simp
theorem k_main_v3 : (W11 (F := Ideal) m ρ c (kr main_v3) : IVec S320000 32) = W4 (F := Ideal) m ρ c (kr main_v3) := by
  rw [W11_of_ne m ρ c main_v3 (by decide)]
  simp only [W10, W9, W8, W7, W6, W5, hostOps2_5, hostOps2_4, hostOps2_3, hostOps2_2, hostOps2_1, hostOps2]
  after_results_simp
theorem k_main_v26 : (W11 (F := Ideal) m ρ c (kr main_v26) : FVec Ideal S320000x1 .f32) = W4 (F := Ideal) m ρ c (kr main_v26) := by
  rw [W11_of_ne m ρ c main_v26 (by decide)]
  simp only [W10, W9, W8, W7, W6, W5, hostOps2_5, hostOps2_4, hostOps2_3, hostOps2_2, hostOps2_1, hostOps2]
  after_results_simp
theorem k_main_v28 : (W11 (F := Ideal) m ρ c (kr main_v28) : FVec Ideal S20000x1 .f32) = W4 (F := Ideal) m ρ c (kr main_v28) := by
  rw [W11_of_ne m ρ c main_v28 (by decide)]
  simp only [W10, W9, W8, W7, W6, W5, hostOps2_5, hostOps2_4, hostOps2_3, hostOps2_2, hostOps2_1, hostOps2]
  after_results_simp
theorem k_main_v31 : (W11 (F := Ideal) m ρ c (kr main_v31) : FVec Ideal S256 .f32) = W4 (F := Ideal) m ρ c (kr main_v31) := by
  rw [W11_of_ne m ρ c main_v31 (by decide)]
  simp only [W10, W9, W8, W7, W6, W5, hostOps2_5, hostOps2_4, hostOps2_3, hostOps2_2, hostOps2_1, hostOps2]
  after_results_simp

theorem r_main_arg0 : StableHlo.after Cert.ReferenceIdeal.Hand.rL1 Vr (rr Cert.ReferenceIdeal.main_arg0) = Vr (rr Cert.ReferenceIdeal.main_arg0) := by
  simp only [Cert.ReferenceIdeal.Hand.rL1]
  after_results_simp
theorem r_main_arg1 : StableHlo.after Cert.ReferenceIdeal.Hand.rL1 Vr (rr Cert.ReferenceIdeal.main_arg1) = Vr (rr Cert.ReferenceIdeal.main_arg1) := by
  simp only [Cert.ReferenceIdeal.Hand.rL1]
  after_results_simp
theorem r_main_arg2 : StableHlo.after Cert.ReferenceIdeal.Hand.rL1 Vr (rr Cert.ReferenceIdeal.main_arg2) = Vr (rr Cert.ReferenceIdeal.main_arg2) := by
  simp only [Cert.ReferenceIdeal.Hand.rL1]
  after_results_simp
theorem r_main_arg3 : StableHlo.after Cert.ReferenceIdeal.Hand.rL1 Vr (rr Cert.ReferenceIdeal.main_arg3) = Vr (rr Cert.ReferenceIdeal.main_arg3) := by
  simp only [Cert.ReferenceIdeal.Hand.rL1]
  after_results_simp
theorem r_main_arg4 : StableHlo.after Cert.ReferenceIdeal.Hand.rL1 Vr (rr Cert.ReferenceIdeal.main_arg4) = Vr (rr Cert.ReferenceIdeal.main_arg4) := by
  simp only [Cert.ReferenceIdeal.Hand.rL1]
  after_results_simp
theorem r_main_arg5 : StableHlo.after Cert.ReferenceIdeal.Hand.rL1 Vr (rr Cert.ReferenceIdeal.main_arg5) = Vr (rr Cert.ReferenceIdeal.main_arg5) := by
  simp only [Cert.ReferenceIdeal.Hand.rL1]
  after_results_simp
theorem r_main_arg6 : StableHlo.after Cert.ReferenceIdeal.Hand.rL1 Vr (rr Cert.ReferenceIdeal.main_arg6) = Vr (rr Cert.ReferenceIdeal.main_arg6) := by
  simp only [Cert.ReferenceIdeal.Hand.rL1]
  after_results_simp
theorem r_main_arg7 : StableHlo.after Cert.ReferenceIdeal.Hand.rL1 Vr (rr Cert.ReferenceIdeal.main_arg7) = Vr (rr Cert.ReferenceIdeal.main_arg7) := by
  simp only [Cert.ReferenceIdeal.Hand.rL1]
  after_results_simp
theorem r_main_arg8 : StableHlo.after Cert.ReferenceIdeal.Hand.rL1 Vr (rr Cert.ReferenceIdeal.main_arg8) = Vr (rr Cert.ReferenceIdeal.main_arg8) := by
  simp only [Cert.ReferenceIdeal.Hand.rL1]
  after_results_simp
theorem r_main_arg9 : StableHlo.after Cert.ReferenceIdeal.Hand.rL1 Vr (rr Cert.ReferenceIdeal.main_arg9) = Vr (rr Cert.ReferenceIdeal.main_arg9) := by
  simp only [Cert.ReferenceIdeal.Hand.rL1]
  after_results_simp
theorem r_main_arg10 : StableHlo.after Cert.ReferenceIdeal.Hand.rL1 Vr (rr Cert.ReferenceIdeal.main_arg10) = Vr (rr Cert.ReferenceIdeal.main_arg10) := by
  simp only [Cert.ReferenceIdeal.Hand.rL1]
  after_results_simp
theorem r_main_arg11 : StableHlo.after Cert.ReferenceIdeal.Hand.rL1 Vr (rr Cert.ReferenceIdeal.main_arg11) = Vr (rr Cert.ReferenceIdeal.main_arg11) := by
  simp only [Cert.ReferenceIdeal.Hand.rL1]
  after_results_simp
theorem r_main_arg12 : StableHlo.after Cert.ReferenceIdeal.Hand.rL1 Vr (rr Cert.ReferenceIdeal.main_arg12) = Vr (rr Cert.ReferenceIdeal.main_arg12) := by
  simp only [Cert.ReferenceIdeal.Hand.rL1]
  after_results_simp
theorem r_main_arg13 : StableHlo.after Cert.ReferenceIdeal.Hand.rL1 Vr (rr Cert.ReferenceIdeal.main_arg13) = Vr (rr Cert.ReferenceIdeal.main_arg13) := by
  simp only [Cert.ReferenceIdeal.Hand.rL1]
  after_results_simp
theorem r_main_arg14 : StableHlo.after Cert.ReferenceIdeal.Hand.rL1 Vr (rr Cert.ReferenceIdeal.main_arg14) = Vr (rr Cert.ReferenceIdeal.main_arg14) := by
  simp only [Cert.ReferenceIdeal.Hand.rL1]
  after_results_simp
theorem r_main_arg15 : StableHlo.after Cert.ReferenceIdeal.Hand.rL1 Vr (rr Cert.ReferenceIdeal.main_arg15) = Vr (rr Cert.ReferenceIdeal.main_arg15) := by
  simp only [Cert.ReferenceIdeal.Hand.rL1]
  after_results_simp
theorem r_main_arg16 : StableHlo.after Cert.ReferenceIdeal.Hand.rL1 Vr (rr Cert.ReferenceIdeal.main_arg16) = Vr (rr Cert.ReferenceIdeal.main_arg16) := by
  simp only [Cert.ReferenceIdeal.Hand.rL1]
  after_results_simp
theorem r_main_arg17 : StableHlo.after Cert.ReferenceIdeal.Hand.rL1 Vr (rr Cert.ReferenceIdeal.main_arg17) = Vr (rr Cert.ReferenceIdeal.main_arg17) := by
  simp only [Cert.ReferenceIdeal.Hand.rL1]
  after_results_simp
theorem r_main_arg18 : StableHlo.after Cert.ReferenceIdeal.Hand.rL1 Vr (rr Cert.ReferenceIdeal.main_arg18) = Vr (rr Cert.ReferenceIdeal.main_arg18) := by
  simp only [Cert.ReferenceIdeal.Hand.rL1]
  after_results_simp
theorem r_main_v1 : StableHlo.after Cert.ReferenceIdeal.Hand.rL1 Vr (rr Cert.ReferenceIdeal.main_v1) = Vr (rr Cert.ReferenceIdeal.main_v1) := by
  simp only [Cert.ReferenceIdeal.Hand.rL1]
  after_results_simp
theorem r_main_v3 : StableHlo.after Cert.ReferenceIdeal.Hand.rL1 Vr (rr Cert.ReferenceIdeal.main_v3) = Vr (rr Cert.ReferenceIdeal.main_v3) := by
  simp only [Cert.ReferenceIdeal.Hand.rL1]
  after_results_simp
theorem r_main_v26 : StableHlo.after Cert.ReferenceIdeal.Hand.rL1 Vr (rr Cert.ReferenceIdeal.main_v26) = Vr (rr Cert.ReferenceIdeal.main_v26) := by
  simp only [Cert.ReferenceIdeal.Hand.rL1]
  after_results_simp
theorem r_main_v28 : StableHlo.after Cert.ReferenceIdeal.Hand.rL1 Vr (rr Cert.ReferenceIdeal.main_v28) = Vr (rr Cert.ReferenceIdeal.main_v28) := by
  simp only [Cert.ReferenceIdeal.Hand.rL1]
  after_results_simp

/-- The carried quantities agree at the next cut as they did at this one. -/
theorem base (hb : Base (W4 (F := Ideal) m ρ c) Vr) :
    Base (W11 (F := Ideal) m ρ c) (StableHlo.after Cert.ReferenceIdeal.Hand.rL1 Vr) where
  a0 := (k_main_arg0 m ρ c).trans (hb.a0.trans (r_main_arg0 Vr).symm)
  a1 := (k_main_arg1 m ρ c).trans (hb.a1.trans (r_main_arg1 Vr).symm)
  a2 := (k_main_arg2 m ρ c).trans (hb.a2.trans (r_main_arg2 Vr).symm)
  a3 := (k_main_arg3 m ρ c).trans (hb.a3.trans (r_main_arg3 Vr).symm)
  a4 := (k_main_arg4 m ρ c).trans (hb.a4.trans (r_main_arg4 Vr).symm)
  a5 := (k_main_arg5 m ρ c).trans (hb.a5.trans (r_main_arg5 Vr).symm)
  a6 := (k_main_arg6 m ρ c).trans (hb.a6.trans (r_main_arg6 Vr).symm)
  a7 := (k_main_arg7 m ρ c).trans (hb.a7.trans (r_main_arg7 Vr).symm)
  a8 := (k_main_arg8 m ρ c).trans (hb.a8.trans (r_main_arg8 Vr).symm)
  a9 := (k_main_arg9 m ρ c).trans (hb.a9.trans (r_main_arg9 Vr).symm)
  a10 := (k_main_arg10 m ρ c).trans (hb.a10.trans (r_main_arg10 Vr).symm)
  a11 := (k_main_arg11 m ρ c).trans (hb.a11.trans (r_main_arg11 Vr).symm)
  a12 := (k_main_arg12 m ρ c).trans (hb.a12.trans (r_main_arg12 Vr).symm)
  a13 := (k_main_arg13 m ρ c).trans (hb.a13.trans (r_main_arg13 Vr).symm)
  a14 := (k_main_arg14 m ρ c).trans (hb.a14.trans (r_main_arg14 Vr).symm)
  a15 := (k_main_arg15 m ρ c).trans (hb.a15.trans (r_main_arg15 Vr).symm)
  a16 := (k_main_arg16 m ρ c).trans (hb.a16.trans (r_main_arg16 Vr).symm)
  a17 := (k_main_arg17 m ρ c).trans (hb.a17.trans (r_main_arg17 Vr).symm)
  a18 := (k_main_arg18 m ρ c).trans (hb.a18.trans (r_main_arg18 Vr).symm)
  src := (k_main_v1 m ρ c).trans (hb.src.trans (r_main_v1 Vr).symm)
  dst := (k_main_v3 m ρ c).trans (hb.dst.trans (r_main_v3 Vr).symm)
  enorm := (k_main_v26 m ρ c).trans (hb.enorm.trans (r_main_v26 Vr).symm)
  snorm := (k_main_v28 m ρ c).trans (hb.snorm.trans (r_main_v28 Vr).symm)
  srcOk := fun e => by rw [k_main_v1 m ρ c]; exact hb.srcOk e
  z31 := fun i => by rw [k_main_v31 m ρ c]; exact hb.z31 i

end Cert.Bridge.L1

namespace Cert.Bridge

open Idealize.ShloMosaic Idealize.SL.Sem

/-- From the cut after the layer's linear map to the cut after the next layer's: the carried quantities agree and the
    two programs' next linear maps are equal. -/
theorem stageL1 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (Vr : RV)
    (hb : Base (Cert.KernelIdeal.Gen.W4 (F := Ideal) m ρ c) Vr)
    (ht : (Cert.KernelIdeal.Gen.W4 (F := Ideal) m ρ c (kr Cert.KernelIdeal.main_v35) : FVec Ideal Cert.KernelIdeal.S20000x256 .f32)
      = Vr (rr Cert.ReferenceIdeal.main_v35)) :
    Base (Cert.KernelIdeal.Gen.W11 (F := Ideal) m ρ c) (StableHlo.after Cert.ReferenceIdeal.Hand.rL1 Vr) ∧
      (Cert.KernelIdeal.Gen.W11 (F := Ideal) m ρ c (kr Cert.KernelIdeal.main_v77) : FVec Ideal Cert.KernelIdeal.S20000x256 .f32)
        = StableHlo.after Cert.ReferenceIdeal.Hand.rL1 Vr (rr Cert.ReferenceIdeal.main_v82) :=
  ⟨L1.base m ρ c Vr hb, L1.out_eq m ρ c Vr hb ht⟩

end Cert.Bridge

end
-- ==== Proof.StageL2.lean ====
/-
  The second graph-convolution layer's tail and the next layer's linear map, on both programs at once.

  From the cut after the layer's linear map `t` both programs compute, in the same order: the rows of `t` gathered by
  the normalised source ids, times the edge weights, summed into the destination rows; plus `t` times the self-loop
  weights, plus the layer's bias; the batch normalisation over the rows (mean, variance, the reciprocal square root of
  the variance plus a constant, the layer's scale and shift); the maximum with zero; and the product of the result with
  the next layer's weight matrix. They differ in two places. The kernel program keeps a gathered row only where the
  normalised source id is in range and puts a fill value elsewhere: under the validity of the source ids every id is in
  range and the selection is the gathered array. The kernel program's product is a row-tiled region that adds a bias
  row, here the all-zero row: adding zero changes no entry, and the region's output is the plain product, as the
  reference's contraction is. Every other operation is the same function applied to equal arguments.

  The comparison goes stretch by stretch: the operations between the two cuts are six consecutive stretches on either
  side (the gather; the aggregation and the mean; the variance; the normalisation; the maximum with zero; the next
  weight matrix), and after each stretch the few arrays still to be read agree. The quantities carried from cut to cut
  (the arguments, the source and destination ids, the two weight columns, the zero vector) are written by no operation
  between the two cuts, on either side.
-/
import proofs.«404594_j87462714015857_2_alg».proof.Proof.Gen.KernelIdeal.Frame
import proofs.«404594_j87462714015857_2_alg».proof.Proof.Inv
import proofs.«404594_j87462714015857_2_alg».proof.Proof.RefOps
import proofs.«404594_j87462714015857_2_alg».proof.Proof.MMKa
import proofs.«404594_j87462714015857_2_alg».proof.Proof.MMR
import proofs.«404594_j87462714015857_2_alg».proof.Proof.Take

set_option maxRecDepth 16384
set_option maxHeartbeats 4000000

noncomputable section

namespace Cert.Bridge.L2

open Idealize.ShloMosaic Idealize.ShloMosaic.TcCoe Idealize.SL.Sem
open Cert.KernelIdeal Cert.KernelIdeal.Gen Cert.Bridge

/-- Two lists of operations run one after the other are their concatenation run as one. -/
theorem after_append {tp : Topo} {sg : RefSig} {Val : EltTy → Type} (l₁ l₂ : List (HloOp tp sg Val))
    (V : Valuation tp sg Val) : StableHlo.after (l₁ ++ l₂) V = StableHlo.after l₂ (StableHlo.after l₁ V) := by
  induction l₁ generalizing V with
  | nil => rfl
  | cons op l ih => exact ih _

/-! ## What agrees after each stretch -/

/-- After the gather. -/
structure C1 (Vk : KV) (Vr : RV) : Prop where
  g : (Vk (kr main_v78) : FVec Ideal S320000x256 .f32) = Vr (rr Cert.ReferenceIdeal.main_v89)
  enorm : (Vk (kr main_v26) : FVec Ideal S320000x1 .f32) = Vr (rr Cert.ReferenceIdeal.main_v26)
  dst : (Vk (kr main_v3) : IVec S320000 32) = Vr (rr Cert.ReferenceIdeal.main_v3)
  snorm : (Vk (kr main_v28) : FVec Ideal S20000x1 .f32) = Vr (rr Cert.ReferenceIdeal.main_v28)
  t : (Vk (kr main_v77) : FVec Ideal S20000x256 .f32) = Vr (rr Cert.ReferenceIdeal.main_v82)
  a6 : (Vk (kr main_arg6) : FVec Ideal S4x256 .f32) = Vr (rr Cert.ReferenceIdeal.main_arg6)
  a7 : (Vk (kr main_arg7) : FVec Ideal S4x256 .f32) = Vr (rr Cert.ReferenceIdeal.main_arg7)
  a8 : (Vk (kr main_arg8) : FVec Ideal S4x256 .f32) = Vr (rr Cert.ReferenceIdeal.main_arg8)

/-- After the aggregation and the mean. -/
structure C2 (Vk : KV) (Vr : RV) : Prop where
  x : (Vk (kr main_v91) : FVec Ideal S20000x256 .f32) = Vr (rr Cert.ReferenceIdeal.main_v102)
  gm : (Vk (kr main_v93) : FVec Ideal S256 .f32) = Vr (rr Cert.ReferenceIdeal.main_v104)
  bt : (Vk (kr main_v95) : FVec Ideal S256 .f32) = Vr (rr Cert.ReferenceIdeal.main_v106)
  mean : (Vk (kr main_v98) : FVec Ideal S256 .f32) = Vr (rr Cert.ReferenceIdeal.main_v109)
  cnt : (Vk (kr main_c_14) : IVec S_ 32) = Vr (rr Cert.ReferenceIdeal.main_c_17)

/-- After the variance. -/
structure C3 (Vk : KV) (Vr : RV) : Prop where
  x : (Vk (kr main_v91) : FVec Ideal S20000x256 .f32) = Vr (rr Cert.ReferenceIdeal.main_v102)
  gm : (Vk (kr main_v93) : FVec Ideal S256 .f32) = Vr (rr Cert.ReferenceIdeal.main_v104)
  bt : (Vk (kr main_v95) : FVec Ideal S256 .f32) = Vr (rr Cert.ReferenceIdeal.main_v106)
  mean : (Vk (kr main_v98) : FVec Ideal S256 .f32) = Vr (rr Cert.ReferenceIdeal.main_v109)
  var : (Vk (kr main_v99) : FVec Ideal S256 .f32) = Vr (rr Cert.ReferenceIdeal.main_v110)

attribute [local irreducible] Host.scatterAdd Host.gather Host.reduce Host.reduceAdd

/-! ## The gather: the range mask is all ones -/

theorem a_g (Vk : KV) (Vr : RV) (hsrc : (Vk (kr main_v1) : IVec S320000 32) = Vr (rr Cert.ReferenceIdeal.main_v1))
    (hok : SrcOk (Vk (kr main_v1)))
    (ht : (Vk (kr main_v77) : FVec Ideal S20000x256 .f32) = Vr (rr Cert.ReferenceIdeal.main_v82)) :
    (StableHlo.after hostOps3 Vk (kr main_v78) : FVec Ideal S320000x256 .f32)
      = StableHlo.after Cert.ReferenceIdeal.Hand.rL2a Vr (rr Cert.ReferenceIdeal.main_v89) := by
  simp only [hostOps3, Cert.ReferenceIdeal.Hand.rL2a]
  after_results_simp
  simp only [StableHlo.TRef.toBuf, StableHlo.TRef.ofBuf, cast_cast]
  simp only [cast_eq]
  rw [take_select_eq _ hok, hsrc, ht]
  try rfl

theorem a_main_v26 (Vk : KV) (Vr : RV) (h : (Vk (kr main_v26) : FVec Ideal S320000x1 .f32) = Vr (rr Cert.ReferenceIdeal.main_v26)) :
    (StableHlo.after hostOps3 Vk (kr main_v26) : FVec Ideal S320000x1 .f32) = StableHlo.after Cert.ReferenceIdeal.Hand.rL2a Vr (rr Cert.ReferenceIdeal.main_v26) := by
  simp only [hostOps3, Cert.ReferenceIdeal.Hand.rL2a]
  after_results_simp
  exact h
theorem a_main_v3 (Vk : KV) (Vr : RV) (h : (Vk (kr main_v3) : IVec S320000 32) = Vr (rr Cert.ReferenceIdeal.main_v3)) :
    (StableHlo.after hostOps3 Vk (kr main_v3) : IVec S320000 32) = StableHlo.after Cert.ReferenceIdeal.Hand.rL2a Vr (rr Cert.ReferenceIdeal.main_v3) := by
  simp only [hostOps3, Cert.ReferenceIdeal.Hand.rL2a]
  after_results_simp
  exact h
theorem a_main_v28 (Vk : KV) (Vr : RV) (h : (Vk (kr main_v28) : FVec Ideal S20000x1 .f32) = Vr (rr Cert.ReferenceIdeal.main_v28)) :
    (StableHlo.after hostOps3 Vk (kr main_v28) : FVec Ideal S20000x1 .f32) = StableHlo.after Cert.ReferenceIdeal.Hand.rL2a Vr (rr Cert.ReferenceIdeal.main_v28) := by
  simp only [hostOps3, Cert.ReferenceIdeal.Hand.rL2a]
  after_results_simp
  exact h
theorem a_main_v77 (Vk : KV) (Vr : RV) (h : (Vk (kr main_v77) : FVec Ideal S20000x256 .f32) = Vr (rr Cert.ReferenceIdeal.main_v82)) :
    (StableHlo.after hostOps3 Vk (kr main_v77) : FVec Ideal S20000x256 .f32) = StableHlo.after Cert.ReferenceIdeal.Hand.rL2a Vr (rr Cert.ReferenceIdeal.main_v82) := by
  simp only [hostOps3, Cert.ReferenceIdeal.Hand.rL2a]
  after_results_simp
  exact h
theorem a_main_arg6 (Vk : KV) (Vr : RV) (h : (Vk (kr main_arg6) : FVec Ideal S4x256 .f32) = Vr (rr Cert.ReferenceIdeal.main_arg6)) :
    (StableHlo.after hostOps3 Vk (kr main_arg6) : FVec Ideal S4x256 .f32) = StableHlo.after Cert.ReferenceIdeal.Hand.rL2a Vr (rr Cert.ReferenceIdeal.main_arg6) := by
  simp only [hostOps3, Cert.ReferenceIdeal.Hand.rL2a]
  after_results_simp
  exact h
theorem a_main_arg7 (Vk : KV) (Vr : RV) (h : (Vk (kr main_arg7) : FVec Ideal S4x256 .f32) = Vr (rr Cert.ReferenceIdeal.main_arg7)) :
    (StableHlo.after hostOps3 Vk (kr main_arg7) : FVec Ideal S4x256 .f32) = StableHlo.after Cert.ReferenceIdeal.Hand.rL2a Vr (rr Cert.ReferenceIdeal.main_arg7) := by
  simp only [hostOps3, Cert.ReferenceIdeal.Hand.rL2a]
  after_results_simp
  exact h
theorem a_main_arg8 (Vk : KV) (Vr : RV) (h : (Vk (kr main_arg8) : FVec Ideal S4x256 .f32) = Vr (rr Cert.ReferenceIdeal.main_arg8)) :
    (StableHlo.after hostOps3 Vk (kr main_arg8) : FVec Ideal S4x256 .f32) = StableHlo.after Cert.ReferenceIdeal.Hand.rL2a Vr (rr Cert.ReferenceIdeal.main_arg8) := by
  simp only [hostOps3, Cert.ReferenceIdeal.Hand.rL2a]
  after_results_simp
  exact h

/-! ## The aggregation and the mean -/

theorem b_x (Vk : KV) (Vr : RV) (h : C1 Vk Vr) :
    (StableHlo.after hostOps3_1 Vk (kr main_v91) : FVec Ideal S20000x256 .f32)
      = StableHlo.after Cert.ReferenceIdeal.Hand.rL2b Vr (rr Cert.ReferenceIdeal.main_v102) := by
  simp only [hostOps3_1, Cert.ReferenceIdeal.Hand.rL2b]
  after_results_simp
  rw [h.g, h.enorm, h.dst, h.snorm, h.t, h.a6]
  try rfl

theorem b_gm (Vk : KV) (Vr : RV) (h : C1 Vk Vr) :
    (StableHlo.after hostOps3_1 Vk (kr main_v93) : FVec Ideal S256 .f32)
      = StableHlo.after Cert.ReferenceIdeal.Hand.rL2b Vr (rr Cert.ReferenceIdeal.main_v104) := by
  simp only [hostOps3_1, Cert.ReferenceIdeal.Hand.rL2b]
  after_results_simp
  rw [h.a7]
  try rfl

theorem b_bt (Vk : KV) (Vr : RV) (h : C1 Vk Vr) :
    (StableHlo.after hostOps3_1 Vk (kr main_v95) : FVec Ideal S256 .f32)
      = StableHlo.after Cert.ReferenceIdeal.Hand.rL2b Vr (rr Cert.ReferenceIdeal.main_v106) := by
  simp only [hostOps3_1, Cert.ReferenceIdeal.Hand.rL2b]
  after_results_simp
  rw [h.a8]
  try rfl

theorem b_mean (Vk : KV) (Vr : RV) (h : C1 Vk Vr) :
    (StableHlo.after hostOps3_1 Vk (kr main_v98) : FVec Ideal S256 .f32)
      = StableHlo.after Cert.ReferenceIdeal.Hand.rL2b Vr (rr Cert.ReferenceIdeal.main_v109) := by
  simp only [hostOps3_1, Cert.ReferenceIdeal.Hand.rL2b]
  after_results_simp
  rw [h.g, h.enorm, h.dst, h.snorm, h.t, h.a6]
  try rfl

theorem b_cnt (Vk : KV) (Vr : RV) :
    (StableHlo.after hostOps3_1 Vk (kr main_c_14) : IVec S_ 32)
      = StableHlo.after Cert.ReferenceIdeal.Hand.rL2b Vr (rr Cert.ReferenceIdeal.main_c_17) := by
  simp only [hostOps3_1, Cert.ReferenceIdeal.Hand.rL2b]
  after_results_simp
  try rfl

/-! ## The variance -/

theorem c_var (Vk : KV) (Vr : RV) (h : C2 Vk Vr) :
    (StableHlo.after hostOps3_2 Vk (kr main_v99) : FVec Ideal S256 .f32)
      = StableHlo.after Cert.ReferenceIdeal.Hand.rL2c Vr (rr Cert.ReferenceIdeal.main_v110) := by
  simp only [hostOps3_2, Cert.ReferenceIdeal.Hand.rL2c]
  after_results_simp
  simp only [StableHlo.TRef.toBuf, StableHlo.TRef.ofBuf, cast_cast]
  simp only [cast_eq]
  rw [h.x, h.cnt]
  try rfl

theorem c_x (Vk : KV) (Vr : RV) (h : (Vk (kr main_v91) : FVec Ideal S20000x256 .f32) = Vr (rr Cert.ReferenceIdeal.main_v102)) :
    (StableHlo.after hostOps3_2 Vk (kr main_v91) : FVec Ideal S20000x256 .f32) = StableHlo.after Cert.ReferenceIdeal.Hand.rL2c Vr (rr Cert.ReferenceIdeal.main_v102) := by
  simp only [hostOps3_2, Cert.ReferenceIdeal.Hand.rL2c]
  after_results_simp
  exact h
theorem c_gm (Vk : KV) (Vr : RV) (h : (Vk (kr main_v93) : FVec Ideal S256 .f32) = Vr (rr Cert.ReferenceIdeal.main_v104)) :
    (StableHlo.after hostOps3_2 Vk (kr main_v93) : FVec Ideal S256 .f32) = StableHlo.after Cert.ReferenceIdeal.Hand.rL2c Vr (rr Cert.ReferenceIdeal.main_v104) := by
  simp only [hostOps3_2, Cert.ReferenceIdeal.Hand.rL2c]
  after_results_simp
  exact h
theorem c_bt (Vk : KV) (Vr : RV) (h : (Vk (kr main_v95) : FVec Ideal S256 .f32) = Vr (rr Cert.ReferenceIdeal.main_v106)) :
    (StableHlo.after hostOps3_2 Vk (kr main_v95) : FVec Ideal S256 .f32) = StableHlo.after Cert.ReferenceIdeal.Hand.rL2c Vr (rr Cert.ReferenceIdeal.main_v106) := by
  simp only [hostOps3_2, Cert.ReferenceIdeal.Hand.rL2c]
  after_results_simp
  exact h
theorem c_mean (Vk : KV) (Vr : RV) (h : (Vk (kr main_v98) : FVec Ideal S256 .f32) = Vr (rr Cert.ReferenceIdeal.main_v109)) :
    (StableHlo.after hostOps3_2 Vk (kr main_v98) : FVec Ideal S256 .f32) = StableHlo.after Cert.ReferenceIdeal.Hand.rL2c Vr (rr Cert.ReferenceIdeal.main_v109) := by
  simp only [hostOps3_2, Cert.ReferenceIdeal.Hand.rL2c]
  after_results_simp
  exact h

/-! ## The normalisation, the maximum with zero, the last stretch -/

theorem d_y (Vk : KV) (Vr : RV) (h : C3 Vk Vr) :
    (StableHlo.after hostOps3_3 Vk (kr main_v114) : FVec Ideal S20000x256 .f32)
      = StableHlo.after Cert.ReferenceIdeal.Hand.rL2d Vr (rr Cert.ReferenceIdeal.main_v125) := by
  simp only [hostOps3_3, Cert.ReferenceIdeal.Hand.rL2d]
  after_results_simp
  rw [h.mean, h.x, h.gm, h.var, h.bt]
  try rfl

theorem e_y (Vk : KV) (Vr : RV) (h : (Vk (kr main_v114) : FVec Ideal S20000x256 .f32) = Vr (rr Cert.ReferenceIdeal.main_v125)) :
    (StableHlo.after hostOps3_4 Vk (kr main_v115) : FVec Ideal S20000x256 .f32)
      = StableHlo.after Cert.ReferenceIdeal.Hand.rL2e Vr (rr Cert.ReferenceIdeal.main_v126) := by
  simp only [hostOps3_4, Cert.ReferenceIdeal.Hand.rL2e]
  after_results_simp
  simp only [StableHlo.TRef.toBuf, StableHlo.TRef.ofBuf, cast_cast]
  simp only [cast_eq]
  rw [h]
  try rfl

theorem f_x (Vk : KV) (Vr : RV) (h : (Vk (kr main_v115) : FVec Ideal S20000x256 .f32) = Vr (rr Cert.ReferenceIdeal.main_v126)) :
    (StableHlo.after hostOps3_5 Vk (kr main_v115) : FVec Ideal S20000x256 .f32)
      = StableHlo.after Cert.ReferenceIdeal.Hand.rL2f Vr (rr Cert.ReferenceIdeal.main_v126) := by
  simp only [hostOps3_5, Cert.ReferenceIdeal.Hand.rL2f]
  after_results_simp
  exact h

/-- The reference's last stretch ends with the product of the two arrays it holds then. -/
theorem f_out (V : RV) : (StableHlo.after Cert.ReferenceIdeal.Hand.rL2f V (rr Cert.ReferenceIdeal.main_v129) : FVec Ideal Cert.ReferenceIdeal.S20000x256 .f32)
    = mm 20000 256 256 (StableHlo.after Cert.ReferenceIdeal.Hand.rL2f V (rr Cert.ReferenceIdeal.main_v126)) (StableHlo.after Cert.ReferenceIdeal.Hand.rL2f V (rr Cert.ReferenceIdeal.main_v128)) := by
  simp only [Cert.ReferenceIdeal.Hand.rL2f]
  after_results_simp
  exact MMR.dotL _ _

/-! ## The stretches in a row -/

variable (m : (ℓ : Loc nD τ sig) → Buf (Elt Ideal) ℓ) (ρ : Dev nD → PrngReg) (c : Dev nD) (Vr : RV)

/-- The reference's contents before its last stretch. -/
abbrev R5 : RV :=
  StableHlo.after Cert.ReferenceIdeal.Hand.rL2e (StableHlo.after Cert.ReferenceIdeal.Hand.rL2d (StableHlo.after Cert.ReferenceIdeal.Hand.rL2c (StableHlo.after Cert.ReferenceIdeal.Hand.rL2b
    (StableHlo.after Cert.ReferenceIdeal.Hand.rL2a Vr))))

theorem rL2_after : StableHlo.after Cert.ReferenceIdeal.Hand.rL2 Vr = StableHlo.after Cert.ReferenceIdeal.Hand.rL2f (R5 Vr) := by
  rw [Cert.ReferenceIdeal.Hand.rL2_split, after_append, after_append, after_append, after_append, after_append]

/-- The activations entering the product agree. -/
theorem x_eq (hb : Base (W11 (F := Ideal) m ρ c) Vr)
    (ht : (W11 (F := Ideal) m ρ c (kr main_v77) : FVec Ideal S20000x256 .f32) = Vr (rr Cert.ReferenceIdeal.main_v82)) :
    (W17 (F := Ideal) m ρ c (kr main_v115) : FVec Ideal S20000x256 .f32)
      = StableHlo.after Cert.ReferenceIdeal.Hand.rL2f (R5 Vr) (rr Cert.ReferenceIdeal.main_v126) := by
  have h1 : C1 (StableHlo.after hostOps3 (W11 (F := Ideal) m ρ c)) (StableHlo.after Cert.ReferenceIdeal.Hand.rL2a Vr) :=
    ⟨a_g _ _ hb.src hb.srcOk ht, a_main_v26 _ _ hb.enorm, a_main_v3 _ _ hb.dst, a_main_v28 _ _ hb.snorm,
      a_main_v77 _ _ ht, a_main_arg6 _ _ hb.a6, a_main_arg7 _ _ hb.a7, a_main_arg8 _ _ hb.a8⟩
  have h2 : C2 (StableHlo.after hostOps3_1 (StableHlo.after hostOps3 (W11 (F := Ideal) m ρ c)))
      (StableHlo.after Cert.ReferenceIdeal.Hand.rL2b (StableHlo.after Cert.ReferenceIdeal.Hand.rL2a Vr)) :=
    ⟨b_x _ _ h1, b_gm _ _ h1, b_bt _ _ h1, b_mean _ _ h1, b_cnt _ _⟩
  have h3 : C3 (StableHlo.after hostOps3_2 (StableHlo.after hostOps3_1 (StableHlo.after hostOps3 (W11 (F := Ideal) m ρ c))))
      (StableHlo.after Cert.ReferenceIdeal.Hand.rL2c (StableHlo.after Cert.ReferenceIdeal.Hand.rL2b (StableHlo.after Cert.ReferenceIdeal.Hand.rL2a Vr))) :=
    ⟨c_x _ _ h2.x, c_gm _ _ h2.gm, c_bt _ _ h2.bt, c_mean _ _ h2.mean, c_var _ _ h2⟩
  exact f_x _ _ (e_y _ _ (d_y _ _ h3))

/-- The weight matrix entering the product agrees. -/
theorem w_eq (hb : Base (W11 (F := Ideal) m ρ c) Vr) :
    (W17 (F := Ideal) m ρ c (kr main_v117) : FVec Ideal S256x256 .f32)
      = StableHlo.after Cert.ReferenceIdeal.Hand.rL2f (R5 Vr) (rr Cert.ReferenceIdeal.main_v128) := by
  simp only [W17, W16, W15, W14, W13, W12, hostOps3_5, hostOps3_4, hostOps3_3, hostOps3_2, hostOps3_1, hostOps3, R5,
    Cert.ReferenceIdeal.Hand.rL2f, Cert.ReferenceIdeal.Hand.rL2e, Cert.ReferenceIdeal.Hand.rL2d, Cert.ReferenceIdeal.Hand.rL2c, Cert.ReferenceIdeal.Hand.rL2b, Cert.ReferenceIdeal.Hand.rL2a]
  after_results_simp
  rw [hb.a5]
  try rfl

/-- The bias row entering the kernel program's product is all zero. -/
theorem z_eq (hb : Base (W11 (F := Ideal) m ρ c) Vr) (j : S1x256.Idx) :
    (W17 (F := Ideal) m ρ c (kr main_v118) : FVec Ideal S1x256 .f32) j = (0 : EReal) := by
  simp only [W17, W16, W15, W14, W13, W12, hostOps3_5, hostOps3_4, hostOps3_3, hostOps3_2, hostOps3_1, hostOps3]
  after_results_simp
  exact hb.z31 _

/-- The products agree. -/
theorem out_eq (hb : Base (W11 (F := Ideal) m ρ c) Vr)
    (ht : (W11 (F := Ideal) m ρ c (kr main_v77) : FVec Ideal S20000x256 .f32) = Vr (rr Cert.ReferenceIdeal.main_v82)) :
    (W18 (F := Ideal) m ρ c (kr main_v119) : FVec Ideal S20000x256 .f32)
      = StableHlo.after Cert.ReferenceIdeal.Hand.rL2 Vr (rr Cert.ReferenceIdeal.main_v129) :=
  calc (W18 (F := Ideal) m ρ c (kr main_v119) : FVec Ideal S20000x256 .f32)
      = (dat3 (F := Ideal) (V17 m ρ) c).arrAt 3 cfg3.N := W18_arr m ρ c 3
    _ = mmb 20000 256 256 (V17 (F := Ideal) m ρ c (Pipeline.arrRef spec3 0))
          (V17 (F := Ideal) m ρ c (Pipeline.arrRef spec3 1)) (V17 (F := Ideal) m ρ c (Pipeline.arrRef spec3 2)) :=
        MMKa.out3 (V17 m ρ) c
    _ = mm 20000 256 256 (W17 (F := Ideal) m ρ c (kr main_v115)) (W17 (F := Ideal) m ρ c (kr main_v117)) :=
        mmb_zero _ _ _ _ _ _ (z_eq m ρ c Vr hb)
    _ = mm 20000 256 256 (StableHlo.after Cert.ReferenceIdeal.Hand.rL2f (R5 Vr) (rr Cert.ReferenceIdeal.main_v126))
          (StableHlo.after Cert.ReferenceIdeal.Hand.rL2f (R5 Vr) (rr Cert.ReferenceIdeal.main_v128)) := by
        rw [x_eq m ρ c Vr hb ht, w_eq m ρ c Vr hb]
    _ = StableHlo.after Cert.ReferenceIdeal.Hand.rL2f (R5 Vr) (rr Cert.ReferenceIdeal.main_v129) := (f_out (R5 Vr)).symm
    _ = StableHlo.after Cert.ReferenceIdeal.Hand.rL2 Vr (rr Cert.ReferenceIdeal.main_v129) := by rw [rL2_after]

/-! ## What neither side writes between the two cuts -/

theorem k_main_arg0 : (W18 (F := Ideal) m ρ c (kr main_arg0) : FVec Ideal S20000x128 .f32) = W11 (F := Ideal) m ρ c (kr main_arg0) := by
  rw [W18_of_ne m ρ c main_arg0 (by decide)]
  simp only [W17, W16, W15, W14, W13, W12, hostOps3_5, hostOps3_4, hostOps3_3, hostOps3_2, hostOps3_1, hostOps3]
  after_results_simp
theorem k_main_arg1 : (W18 (F := Ideal) m ρ c (kr main_arg1) : IVec S2x320000 32) = W11 (F := Ideal) m ρ c (kr main_arg1) := by
  rw [W18_of_ne m ρ c main_arg1 (by decide)]
  simp only [W17, W16, W15, W14, W13, W12, hostOps3_5, hostOps3_4, hostOps3_3, hostOps3_2, hostOps3_1, hostOps3]
  after_results_simp
theorem k_main_arg2 : (W18 (F := Ideal) m ρ c (kr main_arg2) : IVec S20000 32) = W11 (F := Ideal) m ρ c (kr main_arg2) := by
  rw [W18_of_ne m ρ c main_arg2 (by decide)]
  simp only [W17, W16, W15, W14, W13, W12, hostOps3_5, hostOps3_4, hostOps3_3, hostOps3_2, hostOps3_1, hostOps3]
  after_results_simp
theorem k_main_arg3 : (W18 (F := Ideal) m ρ c (kr main_arg3) : FVec Ideal S128x256 .f32) = W11 (F := Ideal) m ρ c (kr main_arg3) := by
  rw [W18_of_ne m ρ c main_arg3 (by decide)]
  simp only [W17, W16, W15, W14, W13, W12, hostOps3_5, hostOps3_4, hostOps3_3, hostOps3_2, hostOps3_1, hostOps3]
  after_results_simp
theorem k_main_arg4 : (W18 (F := Ideal) m ρ c (kr main_arg4) : FVec Ideal S256 .f32) = W11 (F := Ideal) m ρ c (kr main_arg4) := by
  rw [W18_of_ne m ρ c main_arg4 (by decide)]
  simp only [W17, W16, W15, W14, W13, W12, hostOps3_5, hostOps3_4, hostOps3_3, hostOps3_2, hostOps3_1, hostOps3]
  after_results_simp
theorem k_main_arg5 : (W18 (F := Ideal) m ρ c (kr main_arg5) : FVec Ideal S4x256x256 .f32) = W11 (F := Ideal) m ρ c (kr main_arg5) := by
  rw [W18_of_ne m ρ c main_arg5 (by decide)]
  simp only [W17, W16, W15, W14, W13, W12, hostOps3_5, hostOps3_4, hostOps3_3, hostOps3_2, hostOps3_1, hostOps3]
  after_results_simp
theorem k_main_arg6 : (W18 (F := Ideal) m ρ c (kr main_arg6) : FVec Ideal S4x256 .f32) = W11 (F := Ideal) m ρ c (kr main_arg6) := by
  rw [W18_of_ne m ρ c main_arg6 (by decide)]
  simp only [W17, W16, W15, W14, W13, W12, hostOps3_5, hostOps3_4, hostOps3_3, hostOps3_2, hostOps3_1, hostOps3]
  after_results_simp
theorem k_main_arg7 : (W18 (F := Ideal) m ρ c (kr main_arg7) : FVec Ideal S4x256 .f32) = W11 (F := Ideal) m ρ c (kr main_arg7) := by
  rw [W18_of_ne m ρ c main_arg7 (by decide)]
  simp only [W17, W16, W15, W14, W13, W12, hostOps3_5, hostOps3_4, hostOps3_3, hostOps3_2, hostOps3_1, hostOps3]
  after_results_simp
theorem k_main_arg8 : (W18 (F := Ideal) m ρ c (kr main_arg8) : FVec Ideal S4x256 .f32) = W11 (F := Ideal) m ρ c (kr main_arg8) := by
  rw [W18_of_ne m ρ c main_arg8 (by decide)]
  simp only [W17, W16, W15, W14, W13, W12, hostOps3_5, hostOps3_4, hostOps3_3, hostOps3_2, hostOps3_1, hostOps3]
  after_results_simp
theorem k_main_arg9 : (W18 (F := Ideal) m ρ c (kr main_arg9) : FVec Ideal S256x256 .f32) = W11 (F := Ideal) m ρ c (kr main_arg9) := by
  rw [W18_of_ne m ρ c main_arg9 (by decide)]
  simp only [W17, W16, W15, W14, W13, W12, hostOps3_5, hostOps3_4, hostOps3_3, hostOps3_2, hostOps3_1, hostOps3]
  after_results_simp
theorem k_main_arg10 : (W18 (F := Ideal) m ρ c (kr main_arg10) : FVec Ideal S256 .f32) = W11 (F := Ideal) m ρ c (kr main_arg10) := by
  rw [W18_of_ne m ρ c main_arg10 (by decide)]
  simp only [W17, W16, W15, W14, W13, W12, hostOps3_5, hostOps3_4, hostOps3_3, hostOps3_2, hostOps3_1, hostOps3]
  after_results_simp
theorem k_main_arg11 : (W18 (F := Ideal) m ρ c (kr main_arg11) : FVec Ideal S256 .f32) = W11 (F := Ideal) m ρ c (kr main_arg11) := by
  rw [W18_of_ne m ρ c main_arg11 (by decide)]
  simp only [W17, W16, W15, W14, W13, W12, hostOps3_5, hostOps3_4, hostOps3_3, hostOps3_2, hostOps3_1, hostOps3]
  after_results_simp
theorem k_main_arg12 : (W18 (F := Ideal) m ρ c (kr main_arg12) : FVec Ideal S256 .f32) = W11 (F := Ideal) m ρ c (kr main_arg12) := by
  rw [W18_of_ne m ρ c main_arg12 (by decide)]
  simp only [W17, W16, W15, W14, W13, W12, hostOps3_5, hostOps3_4, hostOps3_3, hostOps3_2, hostOps3_1, hostOps3]
  after_results_simp
theorem k_main_arg13 : (W18 (F := Ideal) m ρ c (kr main_arg13) : FVec Ideal S256x256 .f32) = W11 (F := Ideal) m ρ c (kr main_arg13) := by
  rw [W18_of_ne m ρ c main_arg13 (by decide)]
  simp only [W17, W16, W15, W14, W13, W12, hostOps3_5, hostOps3_4, hostOps3_3, hostOps3_2, hostOps3_1, hostOps3]
  after_results_simp
theorem k_main_arg14 : (W18 (F := Ideal) m ρ c (kr main_arg14) : FVec Ideal S256 .f32) = W11 (F := Ideal) m ρ c (kr main_arg14) := by
  rw [W18_of_ne m ρ c main_arg14 (by decide)]
  simp only [W17, W16, W15, W14, W13, W12, hostOps3_5, hostOps3_4, hostOps3_3, hostOps3_2, hostOps3_1, hostOps3]
  after_results_simp
theorem k_main_arg15 : (W18 (F := Ideal) m ρ c (kr main_arg15) : FVec Ideal S256 .f32) = W11 (F := Ideal) m ρ c (kr main_arg15) := by
  rw [W18_of_ne m ρ c main_arg15 (by decide)]
  simp only [W17, W16, W15, W14, W13, W12, hostOps3_5, hostOps3_4, hostOps3_3, hostOps3_2, hostOps3_1, hostOps3]
  after_results_simp
theorem k_main_arg16 : (W18 (F := Ideal) m ρ c (kr main_arg16) : FVec Ideal S256 .f32) = W11 (F := Ideal) m ρ c (kr main_arg16) := by
  rw [W18_of_ne m ρ c main_arg16 (by decide)]
  simp only [W17, W16, W15, W14, W13, W12, hostOps3_5, hostOps3_4, hostOps3_3, hostOps3_2, hostOps3_1, hostOps3]
  after_results_simp
theorem k_main_arg17 : (W18 (F := Ideal) m ρ c (kr main_arg17) : FVec Ideal S256x10 .f32) = W11 (F := Ideal) m ρ c (kr main_arg17) := by
  rw [W18_of_ne m ρ c main_arg17 (by decide)]
  simp only [W17, W16, W15, W14, W13, W12, hostOps3_5, hostOps3_4, hostOps3_3, hostOps3_2, hostOps3_1, hostOps3]
  after_results_simp
theorem k_main_arg18 : (W18 (F := Ideal) m ρ c (kr main_arg18) : FVec Ideal S10 .f32) = W11 (F := Ideal) m ρ c (kr main_arg18) := by
  rw [W18_of_ne m ρ c main_arg18 (by decide)]
  simp only [W17, W16, W15, W14, W13, W12, hostOps3_5, hostOps3_4, hostOps3_3, hostOps3_2, hostOps3_1, hostOps3]
  after_results_simp
theorem k_main_v1 : (W18 (F := Ideal) m ρ c (kr main_v1) : IVec S320000 32) = W11 (F := Ideal) m ρ c (kr main_v1) := by
  rw [W18_of_ne m ρ c main_v1 (by decide)]
  simp only [W17, W16, W15, W14, W13, W12, hostOps3_5, hostOps3_4, hostOps3_3, hostOps3_2, hostOps3_1, hostOps3]
  after_results_simp
theorem k_main_v3 : (W18 (F := Ideal) m ρ c (kr main_v3) : IVec S320000 32) = W11 (F := Ideal) m ρ c (kr main_v3) := by
  rw [W18_of_ne m ρ c main_v3 (by decide)]
  simp only [W17, W16, W15, W14, W13, W12, hostOps3_5, hostOps3_4, hostOps3_3, hostOps3_2, hostOps3_1, hostOps3]
  after_results_simp
theorem k_main_v26 : (W18 (F := Ideal) m ρ c (kr main_v26) : FVec Ideal S320000x1 .f32) = W11 (F := Ideal) m ρ c (kr main_v26) := by
  rw [W18_of_ne m ρ c main_v26 (by decide)]
  simp only [W17, W16, W15, W14, W13, W12, hostOps3_5, hostOps3_4, hostOps3_3, hostOps3_2, hostOps3_1, hostOps3]
  after_results_simp
theorem k_main_v28 : (W18 (F := Ideal) m ρ c (kr main_v28) : FVec Ideal S20000x1 .f32) = W11 (F := Ideal) m ρ c (kr main_v28) := by
  rw [W18_of_ne m ρ c main_v28 (by decide)]
  simp only [W17, W16, W15, W14, W13, W12, hostOps3_5, hostOps3_4, hostOps3_3, hostOps3_2, hostOps3_1, hostOps3]
  after_results_simp
theorem k_main_v31 : (W18 (F := Ideal) m ρ c (kr main_v31) : FVec Ideal S256 .f32) = W11 (F := Ideal) m ρ c (kr main_v31) := by
  rw [W18_of_ne m ρ c main_v31 (by decide)]
  simp only [W17, W16, W15, W14, W13, W12, hostOps3_5, hostOps3_4, hostOps3_3, hostOps3_2, hostOps3_1, hostOps3]
  after_results_simp

theorem r_main_arg0 : StableHlo.after Cert.ReferenceIdeal.Hand.rL2 Vr (rr Cert.ReferenceIdeal.main_arg0) = Vr (rr Cert.ReferenceIdeal.main_arg0) := by
  simp only [Cert.ReferenceIdeal.Hand.rL2]
  after_results_simp
theorem r_main_arg1 : StableHlo.after Cert.ReferenceIdeal.Hand.rL2 Vr (rr Cert.ReferenceIdeal.main_arg1) = Vr (rr Cert.ReferenceIdeal.main_arg1) := by
  simp only [Cert.ReferenceIdeal.Hand.rL2]
  after_results_simp
theorem r_main_arg2 : StableHlo.after Cert.ReferenceIdeal.Hand.rL2 Vr (rr Cert.ReferenceIdeal.main_arg2) = Vr (rr Cert.ReferenceIdeal.main_arg2) := by
  simp only [Cert.ReferenceIdeal.Hand.rL2]
  after_results_simp
theorem r_main_arg3 : StableHlo.after Cert.ReferenceIdeal.Hand.rL2 Vr (rr Cert.ReferenceIdeal.main_arg3) = Vr (rr Cert.ReferenceIdeal.main_arg3) := by
  simp only [Cert.ReferenceIdeal.Hand.rL2]
  after_results_simp
theorem r_main_arg4 : StableHlo.after Cert.ReferenceIdeal.Hand.rL2 Vr (rr Cert.ReferenceIdeal.main_arg4) = Vr (rr Cert.ReferenceIdeal.main_arg4) := by
  simp only [Cert.ReferenceIdeal.Hand.rL2]
  after_results_simp
theorem r_main_arg5 : StableHlo.after Cert.ReferenceIdeal.Hand.rL2 Vr (rr Cert.ReferenceIdeal.main_arg5) = Vr (rr Cert.ReferenceIdeal.main_arg5) := by
  simp only [Cert.ReferenceIdeal.Hand.rL2]
  after_results_simp
theorem r_main_arg6 : StableHlo.after Cert.ReferenceIdeal.Hand.rL2 Vr (rr Cert.ReferenceIdeal.main_arg6) = Vr (rr Cert.ReferenceIdeal.main_arg6) := by
  simp only [Cert.ReferenceIdeal.Hand.rL2]
  after_results_simp
theorem r_main_arg7 : StableHlo.after Cert.ReferenceIdeal.Hand.rL2 Vr (rr Cert.ReferenceIdeal.main_arg7) = Vr (rr Cert.ReferenceIdeal.main_arg7) := by
  simp only [Cert.ReferenceIdeal.Hand.rL2]
  after_results_simp
theorem r_main_arg8 : StableHlo.after Cert.ReferenceIdeal.Hand.rL2 Vr (rr Cert.ReferenceIdeal.main_arg8) = Vr (rr Cert.ReferenceIdeal.main_arg8) := by
  simp only [Cert.ReferenceIdeal.Hand.rL2]
  after_results_simp
theorem r_main_arg9 : StableHlo.after Cert.ReferenceIdeal.Hand.rL2 Vr (rr Cert.ReferenceIdeal.main_arg9) = Vr (rr Cert.ReferenceIdeal.main_arg9) := by
  simp only [Cert.ReferenceIdeal.Hand.rL2]
  after_results_simp
theorem r_main_arg10 : StableHlo.after Cert.ReferenceIdeal.Hand.rL2 Vr (rr Cert.ReferenceIdeal.main_arg10) = Vr (rr Cert.ReferenceIdeal.main_arg10) := by
  simp only [Cert.ReferenceIdeal.Hand.rL2]
  after_results_simp
theorem r_main_arg11 : StableHlo.after Cert.ReferenceIdeal.Hand.rL2 Vr (rr Cert.ReferenceIdeal.main_arg11) = Vr (rr Cert.ReferenceIdeal.main_arg11) := by
  simp only [Cert.ReferenceIdeal.Hand.rL2]
  after_results_simp
theorem r_main_arg12 : StableHlo.after Cert.ReferenceIdeal.Hand.rL2 Vr (rr Cert.ReferenceIdeal.main_arg12) = Vr (rr Cert.ReferenceIdeal.main_arg12) := by
  simp only [Cert.ReferenceIdeal.Hand.rL2]
  after_results_simp
theorem r_main_arg13 : StableHlo.after Cert.ReferenceIdeal.Hand.rL2 Vr (rr Cert.ReferenceIdeal.main_arg13) = Vr (rr Cert.ReferenceIdeal.main_arg13) := by
  simp only [Cert.ReferenceIdeal.Hand.rL2]
  after_results_simp
theorem r_main_arg14 : StableHlo.after Cert.ReferenceIdeal.Hand.rL2 Vr (rr Cert.ReferenceIdeal.main_arg14) = Vr (rr Cert.ReferenceIdeal.main_arg14) := by
  simp only [Cert.ReferenceIdeal.Hand.rL2]
  after_results_simp
theorem r_main_arg15 : StableHlo.after Cert.ReferenceIdeal.Hand.rL2 Vr (rr Cert.ReferenceIdeal.main_arg15) = Vr (rr Cert.ReferenceIdeal.main_arg15) := by
  simp only [Cert.ReferenceIdeal.Hand.rL2]
  after_results_simp
theorem r_main_arg16 : StableHlo.after Cert.ReferenceIdeal.Hand.rL2 Vr (rr Cert.ReferenceIdeal.main_arg16) = Vr (rr Cert.ReferenceIdeal.main_arg16) := by
  simp only [Cert.ReferenceIdeal.Hand.rL2]
  after_results_simp
theorem r_main_arg17 : StableHlo.after Cert.ReferenceIdeal.Hand.rL2 Vr (rr Cert.ReferenceIdeal.main_arg17) = Vr (rr Cert.ReferenceIdeal.main_arg17) := by
  simp only [Cert.ReferenceIdeal.Hand.rL2]
  after_results_simp
theorem r_main_arg18 : StableHlo.after Cert.ReferenceIdeal.Hand.rL2 Vr (rr Cert.ReferenceIdeal.main_arg18) = Vr (rr Cert.ReferenceIdeal.main_arg18) := by
  simp only [Cert.ReferenceIdeal.Hand.rL2]
  after_results_simp
theorem r_main_v1 : StableHlo.after Cert.ReferenceIdeal.Hand.rL2 Vr (rr Cert.ReferenceIdeal.main_v1) = Vr (rr Cert.ReferenceIdeal.main_v1) := by
  simp only [Cert.ReferenceIdeal.Hand.rL2]
  after_results_simp
theorem r_main_v3 : StableHlo.after Cert.ReferenceIdeal.Hand.rL2 Vr (rr Cert.ReferenceIdeal.main_v3) = Vr (rr Cert.ReferenceIdeal.main_v3) := by
  simp only [Cert.ReferenceIdeal.Hand.rL2]
  after_results_simp
theorem r_main_v26 : StableHlo.after Cert.ReferenceIdeal.Hand.rL2 Vr (rr Cert.ReferenceIdeal.main_v26) = Vr (rr Cert.ReferenceIdeal.main_v26) := by
  simp only [Cert.ReferenceIdeal.Hand.rL2]
  after_results_simp
theorem r_main_v28 : StableHlo.after Cert.ReferenceIdeal.Hand.rL2 Vr (rr Cert.ReferenceIdeal.main_v28) = Vr (rr Cert.ReferenceIdeal.main_v28) := by
  simp only [Cert.ReferenceIdeal.Hand.rL2]
  after_results_simp

/-- The carried quantities agree at the next cut as they did at this one. -/
theorem base (hb : Base (W11 (F := Ideal) m ρ c) Vr) :
    Base (W18 (F := Ideal) m ρ c) (StableHlo.after Cert.ReferenceIdeal.Hand.rL2 Vr) where
  a0 := (k_main_arg0 m ρ c).trans (hb.a0.trans (r_main_arg0 Vr).symm)
  a1 := (k_main_arg1 m ρ c).trans (hb.a1.trans (r_main_arg1 Vr).symm)
  a2 := (k_main_arg2 m ρ c).trans (hb.a2.trans (r_main_arg2 Vr).symm)
  a3 := (k_main_arg3 m ρ c).trans (hb.a3.trans (r_main_arg3 Vr).symm)
  a4 := (k_main_arg4 m ρ c).trans (hb.a4.trans (r_main_arg4 Vr).symm)
  a5 := (k_main_arg5 m ρ c).trans (hb.a5.trans (r_main_arg5 Vr).symm)
  a6 := (k_main_arg6 m ρ c).trans (hb.a6.trans (r_main_arg6 Vr).symm)
  a7 := (k_main_arg7 m ρ c).trans (hb.a7.trans (r_main_arg7 Vr).symm)
  a8 := (k_main_arg8 m ρ c).trans (hb.a8.trans (r_main_arg8 Vr).symm)
  a9 := (k_main_arg9 m ρ c).trans (hb.a9.trans (r_main_arg9 Vr).symm)
  a10 := (k_main_arg10 m ρ c).trans (hb.a10.trans (r_main_arg10 Vr).symm)
  a11 := (k_main_arg11 m ρ c).trans (hb.a11.trans (r_main_arg11 Vr).symm)
  a12 := (k_main_arg12 m ρ c).trans (hb.a12.trans (r_main_arg12 Vr).symm)
  a13 := (k_main_arg13 m ρ c).trans (hb.a13.trans (r_main_arg13 Vr).symm)
  a14 := (k_main_arg14 m ρ c).trans (hb.a14.trans (r_main_arg14 Vr).symm)
  a15 := (k_main_arg15 m ρ c).trans (hb.a15.trans (r_main_arg15 Vr).symm)
  a16 := (k_main_arg16 m ρ c).trans (hb.a16.trans (r_main_arg16 Vr).symm)
  a17 := (k_main_arg17 m ρ c).trans (hb.a17.trans (r_main_arg17 Vr).symm)
  a18 := (k_main_arg18 m ρ c).trans (hb.a18.trans (r_main_arg18 Vr).symm)
  src := (k_main_v1 m ρ c).trans (hb.src.trans (r_main_v1 Vr).symm)
  dst := (k_main_v3 m ρ c).trans (hb.dst.trans (r_main_v3 Vr).symm)
  enorm := (k_main_v26 m ρ c).trans (hb.enorm.trans (r_main_v26 Vr).symm)
  snorm := (k_main_v28 m ρ c).trans (hb.snorm.trans (r_main_v28 Vr).symm)
  srcOk := fun e => by rw [k_main_v1 m ρ c]; exact hb.srcOk e
  z31 := fun i => by rw [k_main_v31 m ρ c]; exact hb.z31 i

end Cert.Bridge.L2

namespace Cert.Bridge

open Idealize.ShloMosaic Idealize.SL.Sem

/-- From the cut after the layer's linear map to the cut after the next layer's: the carried quantities agree and the
    two programs' next linear maps are equal. -/
theorem stageL2 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (Vr : RV)
    (hb : Base (Cert.KernelIdeal.Gen.W11 (F := Ideal) m ρ c) Vr)
    (ht : (Cert.KernelIdeal.Gen.W11 (F := Ideal) m ρ c (kr Cert.KernelIdeal.main_v77) : FVec Ideal Cert.KernelIdeal.S20000x256 .f32)
      = Vr (rr Cert.ReferenceIdeal.main_v82)) :
    Base (Cert.KernelIdeal.Gen.W18 (F := Ideal) m ρ c) (StableHlo.after Cert.ReferenceIdeal.Hand.rL2 Vr) ∧
      (Cert.KernelIdeal.Gen.W18 (F := Ideal) m ρ c (kr Cert.KernelIdeal.main_v119) : FVec Ideal Cert.KernelIdeal.S20000x256 .f32)
        = StableHlo.after Cert.ReferenceIdeal.Hand.rL2 Vr (rr Cert.ReferenceIdeal.main_v129) :=
  ⟨L2.base m ρ c Vr hb, L2.out_eq m ρ c Vr hb ht⟩

end Cert.Bridge

end
-- ==== Proof.StageL3.lean ====
/-
  The third graph-convolution layer's tail and the next layer's linear map, on both programs at once.

  From the cut after the layer's linear map `t` both programs compute, in the same order: the rows of `t` gathered by
  the normalised source ids, times the edge weights, summed into the destination rows; plus `t` times the self-loop
  weights, plus the layer's bias; the batch normalisation over the rows (mean, variance, the reciprocal square root of
  the variance plus a constant, the layer's scale and shift); the maximum with zero; and the product of the result with
  the next layer's weight matrix. They differ in two places. The kernel program keeps a gathered row only where the
  normalised source id is in range and puts a fill value elsewhere: under the validity of the source ids every id is in
  range and the selection is the gathered array. The kernel program's product is a row-tiled region that adds a bias
  row, here the all-zero row: adding zero changes no entry, and the region's output is the plain product, as the
  reference's contraction is. Every other operation is the same function applied to equal arguments.

  The comparison goes stretch by stretch: the operations between the two cuts are six consecutive stretches on either
  side (the gather; the aggregation and the mean; the variance; the normalisation; the maximum with zero; the next
  weight matrix), and after each stretch the few arrays still to be read agree. The quantities carried from cut to cut
  (the arguments, the source and destination ids, the two weight columns, the zero vector) are written by no operation
  between the two cuts, on either side.
-/
import proofs.«404594_j87462714015857_2_alg».proof.Proof.Gen.KernelIdeal.Frame
import proofs.«404594_j87462714015857_2_alg».proof.Proof.Inv
import proofs.«404594_j87462714015857_2_alg».proof.Proof.RefOps
import proofs.«404594_j87462714015857_2_alg».proof.Proof.MMKa
import proofs.«404594_j87462714015857_2_alg».proof.Proof.MMR
import proofs.«404594_j87462714015857_2_alg».proof.Proof.Take

set_option maxRecDepth 16384
set_option maxHeartbeats 4000000

noncomputable section

namespace Cert.Bridge.L3

open Idealize.ShloMosaic Idealize.ShloMosaic.TcCoe Idealize.SL.Sem
open Cert.KernelIdeal Cert.KernelIdeal.Gen Cert.Bridge

/-- Two lists of operations run one after the other are their concatenation run as one. -/
theorem after_append {tp : Topo} {sg : RefSig} {Val : EltTy → Type} (l₁ l₂ : List (HloOp tp sg Val))
    (V : Valuation tp sg Val) : StableHlo.after (l₁ ++ l₂) V = StableHlo.after l₂ (StableHlo.after l₁ V) := by
  induction l₁ generalizing V with
  | nil => rfl
  | cons op l ih => exact ih _

/-! ## What agrees after each stretch -/

/-- After the gather. -/
structure C1 (Vk : KV) (Vr : RV) : Prop where
  g : (Vk (kr main_v120) : FVec Ideal S320000x256 .f32) = Vr (rr Cert.ReferenceIdeal.main_v136)
  enorm : (Vk (kr main_v26) : FVec Ideal S320000x1 .f32) = Vr (rr Cert.ReferenceIdeal.main_v26)
  dst : (Vk (kr main_v3) : IVec S320000 32) = Vr (rr Cert.ReferenceIdeal.main_v3)
  snorm : (Vk (kr main_v28) : FVec Ideal S20000x1 .f32) = Vr (rr Cert.ReferenceIdeal.main_v28)
  t : (Vk (kr main_v119) : FVec Ideal S20000x256 .f32) = Vr (rr Cert.ReferenceIdeal.main_v129)
  a6 : (Vk (kr main_arg6) : FVec Ideal S4x256 .f32) = Vr (rr Cert.ReferenceIdeal.main_arg6)
  a7 : (Vk (kr main_arg7) : FVec Ideal S4x256 .f32) = Vr (rr Cert.ReferenceIdeal.main_arg7)
  a8 : (Vk (kr main_arg8) : FVec Ideal S4x256 .f32) = Vr (rr Cert.ReferenceIdeal.main_arg8)

/-- After the aggregation and the mean. -/
structure C2 (Vk : KV) (Vr : RV) : Prop where
  x : (Vk (kr main_v133) : FVec Ideal S20000x256 .f32) = Vr (rr Cert.ReferenceIdeal.main_v149)
  gm : (Vk (kr main_v135) : FVec Ideal S256 .f32) = Vr (rr Cert.ReferenceIdeal.main_v151)
  bt : (Vk (kr main_v137) : FVec Ideal S256 .f32) = Vr (rr Cert.ReferenceIdeal.main_v153)
  mean : (Vk (kr main_v140) : FVec Ideal S256 .f32) = Vr (rr Cert.ReferenceIdeal.main_v156)
  cnt : (Vk (kr main_c_19) : IVec S_ 32) = Vr (rr Cert.ReferenceIdeal.main_c_24)

/-- After the variance. -/
structure C3 (Vk : KV) (Vr : RV) : Prop where
  x : (Vk (kr main_v133) : FVec Ideal S20000x256 .f32) = Vr (rr Cert.ReferenceIdeal.main_v149)
  gm : (Vk (kr main_v135) : FVec Ideal S256 .f32) = Vr (rr Cert.ReferenceIdeal.main_v151)
  bt : (Vk (kr main_v137) : FVec Ideal S256 .f32) = Vr (rr Cert.ReferenceIdeal.main_v153)
  mean : (Vk (kr main_v140) : FVec Ideal S256 .f32) = Vr (rr Cert.ReferenceIdeal.main_v156)
  var : (Vk (kr main_v141) : FVec Ideal S256 .f32) = Vr (rr Cert.ReferenceIdeal.main_v157)

attribute [local irreducible] Host.scatterAdd Host.gather Host.reduce Host.reduceAdd

/-! ## The gather: the range mask is all ones -/

theorem a_g (Vk : KV) (Vr : RV) (hsrc : (Vk (kr main_v1) : IVec S320000 32) = Vr (rr Cert.ReferenceIdeal.main_v1))
    (hok : SrcOk (Vk (kr main_v1)))
    (ht : (Vk (kr main_v119) : FVec Ideal S20000x256 .f32) = Vr (rr Cert.ReferenceIdeal.main_v129)) :
    (StableHlo.after hostOps4 Vk (kr main_v120) : FVec Ideal S320000x256 .f32)
      = StableHlo.after Cert.ReferenceIdeal.Hand.rL3a Vr (rr Cert.ReferenceIdeal.main_v136) := by
  simp only [hostOps4, Cert.ReferenceIdeal.Hand.rL3a]
  after_results_simp
  simp only [StableHlo.TRef.toBuf, StableHlo.TRef.ofBuf, cast_cast]
  simp only [cast_eq]
  rw [take_select_eq _ hok, hsrc, ht]
  try rfl

theorem a_main_v26 (Vk : KV) (Vr : RV) (h : (Vk (kr main_v26) : FVec Ideal S320000x1 .f32) = Vr (rr Cert.ReferenceIdeal.main_v26)) :
    (StableHlo.after hostOps4 Vk (kr main_v26) : FVec Ideal S320000x1 .f32) = StableHlo.after Cert.ReferenceIdeal.Hand.rL3a Vr (rr Cert.ReferenceIdeal.main_v26) := by
  simp only [hostOps4, Cert.ReferenceIdeal.Hand.rL3a]
  after_results_simp
  exact h
theorem a_main_v3 (Vk : KV) (Vr : RV) (h : (Vk (kr main_v3) : IVec S320000 32) = Vr (rr Cert.ReferenceIdeal.main_v3)) :
    (StableHlo.after hostOps4 Vk (kr main_v3) : IVec S320000 32) = StableHlo.after Cert.ReferenceIdeal.Hand.rL3a Vr (rr Cert.ReferenceIdeal.main_v3) := by
  simp only [hostOps4, Cert.ReferenceIdeal.Hand.rL3a]
  after_results_simp
  exact h
theorem a_main_v28 (Vk : KV) (Vr : RV) (h : (Vk (kr main_v28) : FVec Ideal S20000x1 .f32) = Vr (rr Cert.ReferenceIdeal.main_v28)) :
    (StableHlo.after hostOps4 Vk (kr main_v28) : FVec Ideal S20000x1 .f32) = StableHlo.after Cert.ReferenceIdeal.Hand.rL3a Vr (rr Cert.ReferenceIdeal.main_v28) := by
  simp only [hostOps4, Cert.ReferenceIdeal.Hand.rL3a]
  after_results_simp
  exact h
theorem a_main_v119 (Vk : KV) (Vr : RV) (h : (Vk (kr main_v119) : FVec Ideal S20000x256 .f32) = Vr (rr Cert.ReferenceIdeal.main_v129)) :
    (StableHlo.after hostOps4 Vk (kr main_v119) : FVec Ideal S20000x256 .f32) = StableHlo.after Cert.ReferenceIdeal.Hand.rL3a Vr (rr Cert.ReferenceIdeal.main_v129) := by
  simp only [hostOps4, Cert.ReferenceIdeal.Hand.rL3a]
  after_results_simp
  exact h
theorem a_main_arg6 (Vk : KV) (Vr : RV) (h : (Vk (kr main_arg6) : FVec Ideal S4x256 .f32) = Vr (rr Cert.ReferenceIdeal.main_arg6)) :
    (StableHlo.after hostOps4 Vk (kr main_arg6) : FVec Ideal S4x256 .f32) = StableHlo.after Cert.ReferenceIdeal.Hand.rL3a Vr (rr Cert.ReferenceIdeal.main_arg6) := by
  simp only [hostOps4, Cert.ReferenceIdeal.Hand.rL3a]
  after_results_simp
  exact h
theorem a_main_arg7 (Vk : KV) (Vr : RV) (h : (Vk (kr main_arg7) : FVec Ideal S4x256 .f32) = Vr (rr Cert.ReferenceIdeal.main_arg7)) :
    (StableHlo.after hostOps4 Vk (kr main_arg7) : FVec Ideal S4x256 .f32) = StableHlo.after Cert.ReferenceIdeal.Hand.rL3a Vr (rr Cert.ReferenceIdeal.main_arg7) := by
  simp only [hostOps4, Cert.ReferenceIdeal.Hand.rL3a]
  after_results_simp
  exact h
theorem a_main_arg8 (Vk : KV) (Vr : RV) (h : (Vk (kr main_arg8) : FVec Ideal S4x256 .f32) = Vr (rr Cert.ReferenceIdeal.main_arg8)) :
    (StableHlo.after hostOps4 Vk (kr main_arg8) : FVec Ideal S4x256 .f32) = StableHlo.after Cert.ReferenceIdeal.Hand.rL3a Vr (rr Cert.ReferenceIdeal.main_arg8) := by
  simp only [hostOps4, Cert.ReferenceIdeal.Hand.rL3a]
  after_results_simp
  exact h

/-! ## The aggregation and the mean -/

theorem b_x (Vk : KV) (Vr : RV) (h : C1 Vk Vr) :
    (StableHlo.after hostOps4_1 Vk (kr main_v133) : FVec Ideal S20000x256 .f32)
      = StableHlo.after Cert.ReferenceIdeal.Hand.rL3b Vr (rr Cert.ReferenceIdeal.main_v149) := by
  simp only [hostOps4_1, Cert.ReferenceIdeal.Hand.rL3b]
  after_results_simp
  rw [h.g, h.enorm, h.dst, h.snorm, h.t, h.a6]
  try rfl

theorem b_gm (Vk : KV) (Vr : RV) (h : C1 Vk Vr) :
    (StableHlo.after hostOps4_1 Vk (kr main_v135) : FVec Ideal S256 .f32)
      = StableHlo.after Cert.ReferenceIdeal.Hand.rL3b Vr (rr Cert.ReferenceIdeal.main_v151) := by
  simp only [hostOps4_1, Cert.ReferenceIdeal.Hand.rL3b]
  after_results_simp
  rw [h.a7]
  try rfl

theorem b_bt (Vk : KV) (Vr : RV) (h : C1 Vk Vr) :
    (StableHlo.after hostOps4_1 Vk (kr main_v137) : FVec Ideal S256 .f32)
      = StableHlo.after Cert.ReferenceIdeal.Hand.rL3b Vr (rr Cert.ReferenceIdeal.main_v153) := by
  simp only [hostOps4_1, Cert.ReferenceIdeal.Hand.rL3b]
  after_results_simp
  rw [h.a8]
  try rfl

theorem b_mean (Vk : KV) (Vr : RV) (h : C1 Vk Vr) :
    (StableHlo.after hostOps4_1 Vk (kr main_v140) : FVec Ideal S256 .f32)
      = StableHlo.after Cert.ReferenceIdeal.Hand.rL3b Vr (rr Cert.ReferenceIdeal.main_v156) := by
  simp only [hostOps4_1, Cert.ReferenceIdeal.Hand.rL3b]
  after_results_simp
  rw [h.g, h.enorm, h.dst, h.snorm, h.t, h.a6]
  try rfl

theorem b_cnt (Vk : KV) (Vr : RV) :
    (StableHlo.after hostOps4_1 Vk (kr main_c_19) : IVec S_ 32)
      = StableHlo.after Cert.ReferenceIdeal.Hand.rL3b Vr (rr Cert.ReferenceIdeal.main_c_24) := by
  simp only [hostOps4_1, Cert.ReferenceIdeal.Hand.rL3b]
  after_results_simp
  try rfl

/-! ## The variance -/

theorem c_var (Vk : KV) (Vr : RV) (h : C2 Vk Vr) :
    (StableHlo.after hostOps4_2 Vk (kr main_v141) : FVec Ideal S256 .f32)
      = StableHlo.after Cert.ReferenceIdeal.Hand.rL3c Vr (rr Cert.ReferenceIdeal.main_v157) := by
  simp only [hostOps4_2, Cert.ReferenceIdeal.Hand.rL3c]
  after_results_simp
  simp only [StableHlo.TRef.toBuf, StableHlo.TRef.ofBuf, cast_cast]
  simp only [cast_eq]
  rw [h.x, h.cnt]
  try rfl

theorem c_x (Vk : KV) (Vr : RV) (h : (Vk (kr main_v133) : FVec Ideal S20000x256 .f32) = Vr (rr Cert.ReferenceIdeal.main_v149)) :
    (StableHlo.after hostOps4_2 Vk (kr main_v133) : FVec Ideal S20000x256 .f32) = StableHlo.after Cert.ReferenceIdeal.Hand.rL3c Vr (rr Cert.ReferenceIdeal.main_v149) := by
  simp only [hostOps4_2, Cert.ReferenceIdeal.Hand.rL3c]
  after_results_simp
  exact h
theorem c_gm (Vk : KV) (Vr : RV) (h : (Vk (kr main_v135) : FVec Ideal S256 .f32) = Vr (rr Cert.ReferenceIdeal.main_v151)) :
    (StableHlo.after hostOps4_2 Vk (kr main_v135) : FVec Ideal S256 .f32) = StableHlo.after Cert.ReferenceIdeal.Hand.rL3c Vr (rr Cert.ReferenceIdeal.main_v151) := by
  simp only [hostOps4_2, Cert.ReferenceIdeal.Hand.rL3c]
  after_results_simp
  exact h
theorem c_bt (Vk : KV) (Vr : RV) (h : (Vk (kr main_v137) : FVec Ideal S256 .f32) = Vr (rr Cert.ReferenceIdeal.main_v153)) :
    (StableHlo.after hostOps4_2 Vk (kr main_v137) : FVec Ideal S256 .f32) = StableHlo.after Cert.ReferenceIdeal.Hand.rL3c Vr (rr Cert.ReferenceIdeal.main_v153) := by
  simp only [hostOps4_2, Cert.ReferenceIdeal.Hand.rL3c]
  after_results_simp
  exact h
theorem c_mean (Vk : KV) (Vr : RV) (h : (Vk (kr main_v140) : FVec Ideal S256 .f32) = Vr (rr Cert.ReferenceIdeal.main_v156)) :
    (StableHlo.after hostOps4_2 Vk (kr main_v140) : FVec Ideal S256 .f32) = StableHlo.after Cert.ReferenceIdeal.Hand.rL3c Vr (rr Cert.ReferenceIdeal.main_v156) := by
  simp only [hostOps4_2, Cert.ReferenceIdeal.Hand.rL3c]
  after_results_simp
  exact h

/-! ## The normalisation, the maximum with zero, the last stretch -/

theorem d_y (Vk : KV) (Vr : RV) (h : C3 Vk Vr) :
    (StableHlo.after hostOps4_3 Vk (kr main_v156) : FVec Ideal S20000x256 .f32)
      = StableHlo.after Cert.ReferenceIdeal.Hand.rL3d Vr (rr Cert.ReferenceIdeal.main_v172) := by
  simp only [hostOps4_3, Cert.ReferenceIdeal.Hand.rL3d]
  after_results_simp
  rw [h.mean, h.x, h.gm, h.var, h.bt]
  try rfl

theorem e_y (Vk : KV) (Vr : RV) (h : (Vk (kr main_v156) : FVec Ideal S20000x256 .f32) = Vr (rr Cert.ReferenceIdeal.main_v172)) :
    (StableHlo.after hostOps4_4 Vk (kr main_v157) : FVec Ideal S20000x256 .f32)
      = StableHlo.after Cert.ReferenceIdeal.Hand.rL3e Vr (rr Cert.ReferenceIdeal.main_v173) := by
  simp only [hostOps4_4, Cert.ReferenceIdeal.Hand.rL3e]
  after_results_simp
  simp only [StableHlo.TRef.toBuf, StableHlo.TRef.ofBuf, cast_cast]
  simp only [cast_eq]
  rw [h]
  try rfl

theorem f_x (Vk : KV) (Vr : RV) (h : (Vk (kr main_v157) : FVec Ideal S20000x256 .f32) = Vr (rr Cert.ReferenceIdeal.main_v173)) :
    (StableHlo.after hostOps4_5 Vk (kr main_v157) : FVec Ideal S20000x256 .f32)
      = StableHlo.after Cert.ReferenceIdeal.Hand.rL3f Vr (rr Cert.ReferenceIdeal.main_v173) := by
  simp only [hostOps4_5, Cert.ReferenceIdeal.Hand.rL3f]
  after_results_simp
  exact h

/-- The reference's last stretch ends with the product of the two arrays it holds then. -/
theorem f_out (V : RV) : (StableHlo.after Cert.ReferenceIdeal.Hand.rL3f V (rr Cert.ReferenceIdeal.main_v176) : FVec Ideal Cert.ReferenceIdeal.S20000x256 .f32)
    = mm 20000 256 256 (StableHlo.after Cert.ReferenceIdeal.Hand.rL3f V (rr Cert.ReferenceIdeal.main_v173)) (StableHlo.after Cert.ReferenceIdeal.Hand.rL3f V (rr Cert.ReferenceIdeal.main_v175)) := by
  simp only [Cert.ReferenceIdeal.Hand.rL3f]
  after_results_simp
  exact MMR.dotL _ _

/-! ## The stretches in a row -/

variable (m : (ℓ : Loc nD τ sig) → Buf (Elt Ideal) ℓ) (ρ : Dev nD → PrngReg) (c : Dev nD) (Vr : RV)

/-- The reference's contents before its last stretch. -/
abbrev R5 : RV :=
  StableHlo.after Cert.ReferenceIdeal.Hand.rL3e (StableHlo.after Cert.ReferenceIdeal.Hand.rL3d (StableHlo.after Cert.ReferenceIdeal.Hand.rL3c (StableHlo.after Cert.ReferenceIdeal.Hand.rL3b
    (StableHlo.after Cert.ReferenceIdeal.Hand.rL3a Vr))))

theorem rL3_after : StableHlo.after Cert.ReferenceIdeal.Hand.rL3 Vr = StableHlo.after Cert.ReferenceIdeal.Hand.rL3f (R5 Vr) := by
  rw [Cert.ReferenceIdeal.Hand.rL3_split, after_append, after_append, after_append, after_append, after_append]

/-- The activations entering the product agree. -/
theorem x_eq (hb : Base (W18 (F := Ideal) m ρ c) Vr)
    (ht : (W18 (F := Ideal) m ρ c (kr main_v119) : FVec Ideal S20000x256 .f32) = Vr (rr Cert.ReferenceIdeal.main_v129)) :
    (W24 (F := Ideal) m ρ c (kr main_v157) : FVec Ideal S20000x256 .f32)
      = StableHlo.after Cert.ReferenceIdeal.Hand.rL3f (R5 Vr) (rr Cert.ReferenceIdeal.main_v173) := by
  have h1 : C1 (StableHlo.after hostOps4 (W18 (F := Ideal) m ρ c)) (StableHlo.after Cert.ReferenceIdeal.Hand.rL3a Vr) :=
    ⟨a_g _ _ hb.src hb.srcOk ht, a_main_v26 _ _ hb.enorm, a_main_v3 _ _ hb.dst, a_main_v28 _ _ hb.snorm,
      a_main_v119 _ _ ht, a_main_arg6 _ _ hb.a6, a_main_arg7 _ _ hb.a7, a_main_arg8 _ _ hb.a8⟩
  have h2 : C2 (StableHlo.after hostOps4_1 (StableHlo.after hostOps4 (W18 (F := Ideal) m ρ c)))
      (StableHlo.after Cert.ReferenceIdeal.Hand.rL3b (StableHlo.after Cert.ReferenceIdeal.Hand.rL3a Vr)) :=
    ⟨b_x _ _ h1, b_gm _ _ h1, b_bt _ _ h1, b_mean _ _ h1, b_cnt _ _⟩
  have h3 : C3 (StableHlo.after hostOps4_2 (StableHlo.after hostOps4_1 (StableHlo.after hostOps4 (W18 (F := Ideal) m ρ c))))
      (StableHlo.after Cert.ReferenceIdeal.Hand.rL3c (StableHlo.after Cert.ReferenceIdeal.Hand.rL3b (StableHlo.after Cert.ReferenceIdeal.Hand.rL3a Vr))) :=
    ⟨c_x _ _ h2.x, c_gm _ _ h2.gm, c_bt _ _ h2.bt, c_mean _ _ h2.mean, c_var _ _ h2⟩
  exact f_x _ _ (e_y _ _ (d_y _ _ h3))

/-- The weight matrix entering the product agrees. -/
theorem w_eq (hb : Base (W18 (F := Ideal) m ρ c) Vr) :
    (W24 (F := Ideal) m ρ c (kr main_v159) : FVec Ideal S256x256 .f32)
      = StableHlo.after Cert.ReferenceIdeal.Hand.rL3f (R5 Vr) (rr Cert.ReferenceIdeal.main_v175) := by
  simp only [W24, W23, W22, W21, W20, W19, hostOps4_5, hostOps4_4, hostOps4_3, hostOps4_2, hostOps4_1, hostOps4, R5,
    Cert.ReferenceIdeal.Hand.rL3f, Cert.ReferenceIdeal.Hand.rL3e, Cert.ReferenceIdeal.Hand.rL3d, Cert.ReferenceIdeal.Hand.rL3c, Cert.ReferenceIdeal.Hand.rL3b, Cert.ReferenceIdeal.Hand.rL3a]
  after_results_simp
  rw [hb.a5]
  try rfl

/-- The bias row entering the kernel program's product is all zero. -/
theorem z_eq (hb : Base (W18 (F := Ideal) m ρ c) Vr) (j : S1x256.Idx) :
    (W24 (F := Ideal) m ρ c (kr main_v160) : FVec Ideal S1x256 .f32) j = (0 : EReal) := by
  simp only [W24, W23, W22, W21, W20, W19, hostOps4_5, hostOps4_4, hostOps4_3, hostOps4_2, hostOps4_1, hostOps4]
  after_results_simp
  exact hb.z31 _

/-- The products agree. -/
theorem out_eq (hb : Base (W18 (F := Ideal) m ρ c) Vr)
    (ht : (W18 (F := Ideal) m ρ c (kr main_v119) : FVec Ideal S20000x256 .f32) = Vr (rr Cert.ReferenceIdeal.main_v129)) :
    (W25 (F := Ideal) m ρ c (kr main_v161) : FVec Ideal S20000x256 .f32)
      = StableHlo.after Cert.ReferenceIdeal.Hand.rL3 Vr (rr Cert.ReferenceIdeal.main_v176) :=
  calc (W25 (F := Ideal) m ρ c (kr main_v161) : FVec Ideal S20000x256 .f32)
      = (dat4 (F := Ideal) (V24 m ρ) c).arrAt 3 cfg4.N := W25_arr m ρ c 3
    _ = mmb 20000 256 256 (V24 (F := Ideal) m ρ c (Pipeline.arrRef spec4 0))
          (V24 (F := Ideal) m ρ c (Pipeline.arrRef spec4 1)) (V24 (F := Ideal) m ρ c (Pipeline.arrRef spec4 2)) :=
        MMKa.out4 (V24 m ρ) c
    _ = mm 20000 256 256 (W24 (F := Ideal) m ρ c (kr main_v157)) (W24 (F := Ideal) m ρ c (kr main_v159)) :=
        mmb_zero _ _ _ _ _ _ (z_eq m ρ c Vr hb)
    _ = mm 20000 256 256 (StableHlo.after Cert.ReferenceIdeal.Hand.rL3f (R5 Vr) (rr Cert.ReferenceIdeal.main_v173))
          (StableHlo.after Cert.ReferenceIdeal.Hand.rL3f (R5 Vr) (rr Cert.ReferenceIdeal.main_v175)) := by
        rw [x_eq m ρ c Vr hb ht, w_eq m ρ c Vr hb]
    _ = StableHlo.after Cert.ReferenceIdeal.Hand.rL3f (R5 Vr) (rr Cert.ReferenceIdeal.main_v176) := (f_out (R5 Vr)).symm
    _ = StableHlo.after Cert.ReferenceIdeal.Hand.rL3 Vr (rr Cert.ReferenceIdeal.main_v176) := by rw [rL3_after]

/-! ## What neither side writes between the two cuts -/

theorem k_main_arg0 : (W25 (F := Ideal) m ρ c (kr main_arg0) : FVec Ideal S20000x128 .f32) = W18 (F := Ideal) m ρ c (kr main_arg0) := by
  rw [W25_of_ne m ρ c main_arg0 (by decide)]
  simp only [W24, W23, W22, W21, W20, W19, hostOps4_5, hostOps4_4, hostOps4_3, hostOps4_2, hostOps4_1, hostOps4]
  after_results_simp
theorem k_main_arg1 : (W25 (F := Ideal) m ρ c (kr main_arg1) : IVec S2x320000 32) = W18 (F := Ideal) m ρ c (kr main_arg1) := by
  rw [W25_of_ne m ρ c main_arg1 (by decide)]
  simp only [W24, W23, W22, W21, W20, W19, hostOps4_5, hostOps4_4, hostOps4_3, hostOps4_2, hostOps4_1, hostOps4]
  after_results_simp
theorem k_main_arg2 : (W25 (F := Ideal) m ρ c (kr main_arg2) : IVec S20000 32) = W18 (F := Ideal) m ρ c (kr main_arg2) := by
  rw [W25_of_ne m ρ c main_arg2 (by decide)]
  simp only [W24, W23, W22, W21, W20, W19, hostOps4_5, hostOps4_4, hostOps4_3, hostOps4_2, hostOps4_1, hostOps4]
  after_results_simp
theorem k_main_arg3 : (W25 (F := Ideal) m ρ c (kr main_arg3) : FVec Ideal S128x256 .f32) = W18 (F := Ideal) m ρ c (kr main_arg3) := by
  rw [W25_of_ne m ρ c main_arg3 (by decide)]
  simp only [W24, W23, W22, W21, W20, W19, hostOps4_5, hostOps4_4, hostOps4_3, hostOps4_2, hostOps4_1, hostOps4]
  after_results_simp
theorem k_main_arg4 : (W25 (F := Ideal) m ρ c (kr main_arg4) : FVec Ideal S256 .f32) = W18 (F := Ideal) m ρ c (kr main_arg4) := by
  rw [W25_of_ne m ρ c main_arg4 (by decide)]
  simp only [W24, W23, W22, W21, W20, W19, hostOps4_5, hostOps4_4, hostOps4_3, hostOps4_2, hostOps4_1, hostOps4]
  after_results_simp
theorem k_main_arg5 : (W25 (F := Ideal) m ρ c (kr main_arg5) : FVec Ideal S4x256x256 .f32) = W18 (F := Ideal) m ρ c (kr main_arg5) := by
  rw [W25_of_ne m ρ c main_arg5 (by decide)]
  simp only [W24, W23, W22, W21, W20, W19, hostOps4_5, hostOps4_4, hostOps4_3, hostOps4_2, hostOps4_1, hostOps4]
  after_results_simp
theorem k_main_arg6 : (W25 (F := Ideal) m ρ c (kr main_arg6) : FVec Ideal S4x256 .f32) = W18 (F := Ideal) m ρ c (kr main_arg6) := by
  rw [W25_of_ne m ρ c main_arg6 (by decide)]
  simp only [W24, W23, W22, W21, W20, W19, hostOps4_5, hostOps4_4, hostOps4_3, hostOps4_2, hostOps4_1, hostOps4]
  after_results_simp
theorem k_main_arg7 : (W25 (F := Ideal) m ρ c (kr main_arg7) : FVec Ideal S4x256 .f32) = W18 (F := Ideal) m ρ c (kr main_arg7) := by
  rw [W25_of_ne m ρ c main_arg7 (by decide)]
  simp only [W24, W23, W22, W21, W20, W19, hostOps4_5, hostOps4_4, hostOps4_3, hostOps4_2, hostOps4_1, hostOps4]
  after_results_simp
theorem k_main_arg8 : (W25 (F := Ideal) m ρ c (kr main_arg8) : FVec Ideal S4x256 .f32) = W18 (F := Ideal) m ρ c (kr main_arg8) := by
  rw [W25_of_ne m ρ c main_arg8 (by decide)]
  simp only [W24, W23, W22, W21, W20, W19, hostOps4_5, hostOps4_4, hostOps4_3, hostOps4_2, hostOps4_1, hostOps4]
  after_results_simp
theorem k_main_arg9 : (W25 (F := Ideal) m ρ c (kr main_arg9) : FVec Ideal S256x256 .f32) = W18 (F := Ideal) m ρ c (kr main_arg9) := by
  rw [W25_of_ne m ρ c main_arg9 (by decide)]
  simp only [W24, W23, W22, W21, W20, W19, hostOps4_5, hostOps4_4, hostOps4_3, hostOps4_2, hostOps4_1, hostOps4]
  after_results_simp
theorem k_main_arg10 : (W25 (F := Ideal) m ρ c (kr main_arg10) : FVec Ideal S256 .f32) = W18 (F := Ideal) m ρ c (kr main_arg10) := by
  rw [W25_of_ne m ρ c main_arg10 (by decide)]
  simp only [W24, W23, W22, W21, W20, W19, hostOps4_5, hostOps4_4, hostOps4_3, hostOps4_2, hostOps4_1, hostOps4]
  after_results_simp
theorem k_main_arg11 : (W25 (F := Ideal) m ρ c (kr main_arg11) : FVec Ideal S256 .f32) = W18 (F := Ideal) m ρ c (kr main_arg11) := by
  rw [W25_of_ne m ρ c main_arg11 (by decide)]
  simp only [W24, W23, W22, W21, W20, W19, hostOps4_5, hostOps4_4, hostOps4_3, hostOps4_2, hostOps4_1, hostOps4]
  after_results_simp
theorem k_main_arg12 : (W25 (F := Ideal) m ρ c (kr main_arg12) : FVec Ideal S256 .f32) = W18 (F := Ideal) m ρ c (kr main_arg12) := by
  rw [W25_of_ne m ρ c main_arg12 (by decide)]
  simp only [W24, W23, W22, W21, W20, W19, hostOps4_5, hostOps4_4, hostOps4_3, hostOps4_2, hostOps4_1, hostOps4]
  after_results_simp
theorem k_main_arg13 : (W25 (F := Ideal) m ρ c (kr main_arg13) : FVec Ideal S256x256 .f32) = W18 (F := Ideal) m ρ c (kr main_arg13) := by
  rw [W25_of_ne m ρ c main_arg13 (by decide)]
  simp only [W24, W23, W22, W21, W20, W19, hostOps4_5, hostOps4_4, hostOps4_3, hostOps4_2, hostOps4_1, hostOps4]
  after_results_simp
theorem k_main_arg14 : (W25 (F := Ideal) m ρ c (kr main_arg14) : FVec Ideal S256 .f32) = W18 (F := Ideal) m ρ c (kr main_arg14) := by
  rw [W25_of_ne m ρ c main_arg14 (by decide)]
  simp only [W24, W23, W22, W21, W20, W19, hostOps4_5, hostOps4_4, hostOps4_3, hostOps4_2, hostOps4_1, hostOps4]
  after_results_simp
theorem k_main_arg15 : (W25 (F := Ideal) m ρ c (kr main_arg15) : FVec Ideal S256 .f32) = W18 (F := Ideal) m ρ c (kr main_arg15) := by
  rw [W25_of_ne m ρ c main_arg15 (by decide)]
  simp only [W24, W23, W22, W21, W20, W19, hostOps4_5, hostOps4_4, hostOps4_3, hostOps4_2, hostOps4_1, hostOps4]
  after_results_simp
theorem k_main_arg16 : (W25 (F := Ideal) m ρ c (kr main_arg16) : FVec Ideal S256 .f32) = W18 (F := Ideal) m ρ c (kr main_arg16) := by
  rw [W25_of_ne m ρ c main_arg16 (by decide)]
  simp only [W24, W23, W22, W21, W20, W19, hostOps4_5, hostOps4_4, hostOps4_3, hostOps4_2, hostOps4_1, hostOps4]
  after_results_simp
theorem k_main_arg17 : (W25 (F := Ideal) m ρ c (kr main_arg17) : FVec Ideal S256x10 .f32) = W18 (F := Ideal) m ρ c (kr main_arg17) := by
  rw [W25_of_ne m ρ c main_arg17 (by decide)]
  simp only [W24, W23, W22, W21, W20, W19, hostOps4_5, hostOps4_4, hostOps4_3, hostOps4_2, hostOps4_1, hostOps4]
  after_results_simp
theorem k_main_arg18 : (W25 (F := Ideal) m ρ c (kr main_arg18) : FVec Ideal S10 .f32) = W18 (F := Ideal) m ρ c (kr main_arg18) := by
  rw [W25_of_ne m ρ c main_arg18 (by decide)]
  simp only [W24, W23, W22, W21, W20, W19, hostOps4_5, hostOps4_4, hostOps4_3, hostOps4_2, hostOps4_1, hostOps4]
  after_results_simp
theorem k_main_v1 : (W25 (F := Ideal) m ρ c (kr main_v1) : IVec S320000 32) = W18 (F := Ideal) m ρ c (kr main_v1) := by
  rw [W25_of_ne m ρ c main_v1 (by decide)]
  simp only [W24, W23, W22, W21, W20, W19, hostOps4_5, hostOps4_4, hostOps4_3, hostOps4_2, hostOps4_1, hostOps4]
  after_results_simp
theorem k_main_v3 : (W25 (F := Ideal) m ρ c (kr main_v3) : IVec S320000 32) = W18 (F := Ideal) m ρ c (kr main_v3) := by
  rw [W25_of_ne m ρ c main_v3 (by decide)]
  simp only [W24, W23, W22, W21, W20, W19, hostOps4_5, hostOps4_4, hostOps4_3, hostOps4_2, hostOps4_1, hostOps4]
  after_results_simp
theorem k_main_v26 : (W25 (F := Ideal) m ρ c (kr main_v26) : FVec Ideal S320000x1 .f32) = W18 (F := Ideal) m ρ c (kr main_v26) := by
  rw [W25_of_ne m ρ c main_v26 (by decide)]
  simp only [W24, W23, W22, W21, W20, W19, hostOps4_5, hostOps4_4, hostOps4_3, hostOps4_2, hostOps4_1, hostOps4]
  after_results_simp
theorem k_main_v28 : (W25 (F := Ideal) m ρ c (kr main_v28) : FVec Ideal S20000x1 .f32) = W18 (F := Ideal) m ρ c (kr main_v28) := by
  rw [W25_of_ne m ρ c main_v28 (by decide)]
  simp only [W24, W23, W22, W21, W20, W19, hostOps4_5, hostOps4_4, hostOps4_3, hostOps4_2, hostOps4_1, hostOps4]
  after_results_simp
theorem k_main_v31 : (W25 (F := Ideal) m ρ c (kr main_v31) : FVec Ideal S256 .f32) = W18 (F := Ideal) m ρ c (kr main_v31) := by
  rw [W25_of_ne m ρ c main_v31 (by decide)]
  simp only [W24, W23, W22, W21, W20, W19, hostOps4_5, hostOps4_4, hostOps4_3, hostOps4_2, hostOps4_1, hostOps4]
  after_results_simp

theorem r_main_arg0 : StableHlo.after Cert.ReferenceIdeal.Hand.rL3 Vr (rr Cert.ReferenceIdeal.main_arg0) = Vr (rr Cert.ReferenceIdeal.main_arg0) := by
  simp only [Cert.ReferenceIdeal.Hand.rL3]
  after_results_simp
theorem r_main_arg1 : StableHlo.after Cert.ReferenceIdeal.Hand.rL3 Vr (rr Cert.ReferenceIdeal.main_arg1) = Vr (rr Cert.ReferenceIdeal.main_arg1) := by
  simp only [Cert.ReferenceIdeal.Hand.rL3]
  after_results_simp
theorem r_main_arg2 : StableHlo.after Cert.ReferenceIdeal.Hand.rL3 Vr (rr Cert.ReferenceIdeal.main_arg2) = Vr (rr Cert.ReferenceIdeal.main_arg2) := by
  simp only [Cert.ReferenceIdeal.Hand.rL3]
  after_results_simp
theorem r_main_arg3 : StableHlo.after Cert.ReferenceIdeal.Hand.rL3 Vr (rr Cert.ReferenceIdeal.main_arg3) = Vr (rr Cert.ReferenceIdeal.main_arg3) := by
  simp only [Cert.ReferenceIdeal.Hand.rL3]
  after_results_simp
theorem r_main_arg4 : StableHlo.after Cert.ReferenceIdeal.Hand.rL3 Vr (rr Cert.ReferenceIdeal.main_arg4) = Vr (rr Cert.ReferenceIdeal.main_arg4) := by
  simp only [Cert.ReferenceIdeal.Hand.rL3]
  after_results_simp
theorem r_main_arg5 : StableHlo.after Cert.ReferenceIdeal.Hand.rL3 Vr (rr Cert.ReferenceIdeal.main_arg5) = Vr (rr Cert.ReferenceIdeal.main_arg5) := by
  simp only [Cert.ReferenceIdeal.Hand.rL3]
  after_results_simp
theorem r_main_arg6 : StableHlo.after Cert.ReferenceIdeal.Hand.rL3 Vr (rr Cert.ReferenceIdeal.main_arg6) = Vr (rr Cert.ReferenceIdeal.main_arg6) := by
  simp only [Cert.ReferenceIdeal.Hand.rL3]
  after_results_simp
theorem r_main_arg7 : StableHlo.after Cert.ReferenceIdeal.Hand.rL3 Vr (rr Cert.ReferenceIdeal.main_arg7) = Vr (rr Cert.ReferenceIdeal.main_arg7) := by
  simp only [Cert.ReferenceIdeal.Hand.rL3]
  after_results_simp
theorem r_main_arg8 : StableHlo.after Cert.ReferenceIdeal.Hand.rL3 Vr (rr Cert.ReferenceIdeal.main_arg8) = Vr (rr Cert.ReferenceIdeal.main_arg8) := by
  simp only [Cert.ReferenceIdeal.Hand.rL3]
  after_results_simp
theorem r_main_arg9 : StableHlo.after Cert.ReferenceIdeal.Hand.rL3 Vr (rr Cert.ReferenceIdeal.main_arg9) = Vr (rr Cert.ReferenceIdeal.main_arg9) := by
  simp only [Cert.ReferenceIdeal.Hand.rL3]
  after_results_simp
theorem r_main_arg10 : StableHlo.after Cert.ReferenceIdeal.Hand.rL3 Vr (rr Cert.ReferenceIdeal.main_arg10) = Vr (rr Cert.ReferenceIdeal.main_arg10) := by
  simp only [Cert.ReferenceIdeal.Hand.rL3]
  after_results_simp
theorem r_main_arg11 : StableHlo.after Cert.ReferenceIdeal.Hand.rL3 Vr (rr Cert.ReferenceIdeal.main_arg11) = Vr (rr Cert.ReferenceIdeal.main_arg11) := by
  simp only [Cert.ReferenceIdeal.Hand.rL3]
  after_results_simp
theorem r_main_arg12 : StableHlo.after Cert.ReferenceIdeal.Hand.rL3 Vr (rr Cert.ReferenceIdeal.main_arg12) = Vr (rr Cert.ReferenceIdeal.main_arg12) := by
  simp only [Cert.ReferenceIdeal.Hand.rL3]
  after_results_simp
theorem r_main_arg13 : StableHlo.after Cert.ReferenceIdeal.Hand.rL3 Vr (rr Cert.ReferenceIdeal.main_arg13) = Vr (rr Cert.ReferenceIdeal.main_arg13) := by
  simp only [Cert.ReferenceIdeal.Hand.rL3]
  after_results_simp
theorem r_main_arg14 : StableHlo.after Cert.ReferenceIdeal.Hand.rL3 Vr (rr Cert.ReferenceIdeal.main_arg14) = Vr (rr Cert.ReferenceIdeal.main_arg14) := by
  simp only [Cert.ReferenceIdeal.Hand.rL3]
  after_results_simp
theorem r_main_arg15 : StableHlo.after Cert.ReferenceIdeal.Hand.rL3 Vr (rr Cert.ReferenceIdeal.main_arg15) = Vr (rr Cert.ReferenceIdeal.main_arg15) := by
  simp only [Cert.ReferenceIdeal.Hand.rL3]
  after_results_simp
theorem r_main_arg16 : StableHlo.after Cert.ReferenceIdeal.Hand.rL3 Vr (rr Cert.ReferenceIdeal.main_arg16) = Vr (rr Cert.ReferenceIdeal.main_arg16) := by
  simp only [Cert.ReferenceIdeal.Hand.rL3]
  after_results_simp
theorem r_main_arg17 : StableHlo.after Cert.ReferenceIdeal.Hand.rL3 Vr (rr Cert.ReferenceIdeal.main_arg17) = Vr (rr Cert.ReferenceIdeal.main_arg17) := by
  simp only [Cert.ReferenceIdeal.Hand.rL3]
  after_results_simp
theorem r_main_arg18 : StableHlo.after Cert.ReferenceIdeal.Hand.rL3 Vr (rr Cert.ReferenceIdeal.main_arg18) = Vr (rr Cert.ReferenceIdeal.main_arg18) := by
  simp only [Cert.ReferenceIdeal.Hand.rL3]
  after_results_simp
theorem r_main_v1 : StableHlo.after Cert.ReferenceIdeal.Hand.rL3 Vr (rr Cert.ReferenceIdeal.main_v1) = Vr (rr Cert.ReferenceIdeal.main_v1) := by
  simp only [Cert.ReferenceIdeal.Hand.rL3]
  after_results_simp
theorem r_main_v3 : StableHlo.after Cert.ReferenceIdeal.Hand.rL3 Vr (rr Cert.ReferenceIdeal.main_v3) = Vr (rr Cert.ReferenceIdeal.main_v3) := by
  simp only [Cert.ReferenceIdeal.Hand.rL3]
  after_results_simp
theorem r_main_v26 : StableHlo.after Cert.ReferenceIdeal.Hand.rL3 Vr (rr Cert.ReferenceIdeal.main_v26) = Vr (rr Cert.ReferenceIdeal.main_v26) := by
  simp only [Cert.ReferenceIdeal.Hand.rL3]
  after_results_simp
theorem r_main_v28 : StableHlo.after Cert.ReferenceIdeal.Hand.rL3 Vr (rr Cert.ReferenceIdeal.main_v28) = Vr (rr Cert.ReferenceIdeal.main_v28) := by
  simp only [Cert.ReferenceIdeal.Hand.rL3]
  after_results_simp

/-- The carried quantities agree at the next cut as they did at this one. -/
theorem base (hb : Base (W18 (F := Ideal) m ρ c) Vr) :
    Base (W25 (F := Ideal) m ρ c) (StableHlo.after Cert.ReferenceIdeal.Hand.rL3 Vr) where
  a0 := (k_main_arg0 m ρ c).trans (hb.a0.trans (r_main_arg0 Vr).symm)
  a1 := (k_main_arg1 m ρ c).trans (hb.a1.trans (r_main_arg1 Vr).symm)
  a2 := (k_main_arg2 m ρ c).trans (hb.a2.trans (r_main_arg2 Vr).symm)
  a3 := (k_main_arg3 m ρ c).trans (hb.a3.trans (r_main_arg3 Vr).symm)
  a4 := (k_main_arg4 m ρ c).trans (hb.a4.trans (r_main_arg4 Vr).symm)
  a5 := (k_main_arg5 m ρ c).trans (hb.a5.trans (r_main_arg5 Vr).symm)
  a6 := (k_main_arg6 m ρ c).trans (hb.a6.trans (r_main_arg6 Vr).symm)
  a7 := (k_main_arg7 m ρ c).trans (hb.a7.trans (r_main_arg7 Vr).symm)
  a8 := (k_main_arg8 m ρ c).trans (hb.a8.trans (r_main_arg8 Vr).symm)
  a9 := (k_main_arg9 m ρ c).trans (hb.a9.trans (r_main_arg9 Vr).symm)
  a10 := (k_main_arg10 m ρ c).trans (hb.a10.trans (r_main_arg10 Vr).symm)
  a11 := (k_main_arg11 m ρ c).trans (hb.a11.trans (r_main_arg11 Vr).symm)
  a12 := (k_main_arg12 m ρ c).trans (hb.a12.trans (r_main_arg12 Vr).symm)
  a13 := (k_main_arg13 m ρ c).trans (hb.a13.trans (r_main_arg13 Vr).symm)
  a14 := (k_main_arg14 m ρ c).trans (hb.a14.trans (r_main_arg14 Vr).symm)
  a15 := (k_main_arg15 m ρ c).trans (hb.a15.trans (r_main_arg15 Vr).symm)
  a16 := (k_main_arg16 m ρ c).trans (hb.a16.trans (r_main_arg16 Vr).symm)
  a17 := (k_main_arg17 m ρ c).trans (hb.a17.trans (r_main_arg17 Vr).symm)
  a18 := (k_main_arg18 m ρ c).trans (hb.a18.trans (r_main_arg18 Vr).symm)
  src := (k_main_v1 m ρ c).trans (hb.src.trans (r_main_v1 Vr).symm)
  dst := (k_main_v3 m ρ c).trans (hb.dst.trans (r_main_v3 Vr).symm)
  enorm := (k_main_v26 m ρ c).trans (hb.enorm.trans (r_main_v26 Vr).symm)
  snorm := (k_main_v28 m ρ c).trans (hb.snorm.trans (r_main_v28 Vr).symm)
  srcOk := fun e => by rw [k_main_v1 m ρ c]; exact hb.srcOk e
  z31 := fun i => by rw [k_main_v31 m ρ c]; exact hb.z31 i

end Cert.Bridge.L3

namespace Cert.Bridge

open Idealize.ShloMosaic Idealize.SL.Sem

/-- From the cut after the layer's linear map to the cut after the next layer's: the carried quantities agree and the
    two programs' next linear maps are equal. -/
theorem stageL3 (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (Vr : RV)
    (hb : Base (Cert.KernelIdeal.Gen.W18 (F := Ideal) m ρ c) Vr)
    (ht : (Cert.KernelIdeal.Gen.W18 (F := Ideal) m ρ c (kr Cert.KernelIdeal.main_v119) : FVec Ideal Cert.KernelIdeal.S20000x256 .f32)
      = Vr (rr Cert.ReferenceIdeal.main_v129)) :
    Base (Cert.KernelIdeal.Gen.W25 (F := Ideal) m ρ c) (StableHlo.after Cert.ReferenceIdeal.Hand.rL3 Vr) ∧
      (Cert.KernelIdeal.Gen.W25 (F := Ideal) m ρ c (kr Cert.KernelIdeal.main_v161) : FVec Ideal Cert.KernelIdeal.S20000x256 .f32)
        = StableHlo.after Cert.ReferenceIdeal.Hand.rL3 Vr (rr Cert.ReferenceIdeal.main_v176) :=
  ⟨L3.base m ρ c Vr hb, L3.out_eq m ρ c Vr hb ht⟩

end Cert.Bridge

end
-- ==== Proof.MMKb.lean ====
/-
  What each of the eight dense-layer regions leaves in its output array, as a function of the three arrays it reads
  (the activations, the weights, the bias row): the product plus the bias row, `Cert.Bridge.mmb`. The region works
  through the rows in tiles (ten tiles of 2000 rows for the node-level layers, one tile of 128 rows for the head);
  a tile's result depends only on the tile's own rows, so the tiles' results are the rows of one product.
-/
import proofs.«404594_j87462714015857_2_alg».proof.Proof.Gen.KernelIdeal.Frame
import proofs.«404594_j87462714015857_2_alg».proof.Proof.Spec
import Idealize.ShloMosaic.Lib.Pipeline.Value
import Idealize.ShloMosaic.Lib.StackMember
import Idealize.ShloMosaic.Lib.ValueLayout

set_option maxRecDepth 16384

noncomputable section

namespace Cert.Bridge.MMKb

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.Bridge

variable (V : (c : Dev nD) → (b : Ref sig .tc) → Buf (Elt Ideal) ((c : Thread nD τ).loc b))

/-! ## What the three regions share: zero offsets, the dimension numbers, the stored values -/

/-- Zero offsets on both axes. -/
theorem hz : (![0, 0] : Fin 2 → Nat) = fun _ => 0 := funext fun a => by fin_cases a <;> rfl

/-- The kernels' two dimension-number records list the same axes as the plain product's: contracting `[1]` and `[0]`,
    free `[0]` and `[1]`, no batch axis. -/
theorem plainF : dot_S128x256_S256x256_S128x256_1_0_0_1_n_n = DotDims.plain 128 256 256 := rfl
theorem plainO : dot_S128x256_S256x10_S128x10_1_0_0_1_n_n = DotDims.plain 128 256 10 := rfl

/-- Region 5's stored value: the two arrays are multiplied as they are (the casts to themselves and the change of
    format are the identity on the extended reals, the accumulator starts at zero) and the bias row is laid along every row. -/
theorem pay5 (x : FVec Ideal S128x256 .f32) (w : FVec Ideal S256x256 .f32) (b : FVec Ideal S1x256 .f32) :
    k5_pay1 (F := Ideal) x w b = mmb 128 256 256 x w b := by
  funext j
  obtain ⟨p, q, rfl⟩ : ∃ (p : Fin 128) (q : Fin 256), j = ix2 p q := ⟨j 0, j 1, eq_ix2 j⟩
  unfold k5_pay1
  rw [addf_apply, matmul_zero_eq_dotGeneral, plainF, StackMember.dotGeneral_plain_apply, broadcastTo_1b_ab_apply]
  simp only [shapeCast_self]
  rfl

/-- Region 6's stored value: the two arrays are multiplied as they are (the casts to themselves and the change of
    format are the identity on the extended reals, the accumulator starts at zero) and the bias row is laid along every row. -/
theorem pay6 (x : FVec Ideal S128x256 .f32) (w : FVec Ideal S256x256 .f32) (b : FVec Ideal S1x256 .f32) :
    k6_pay1 (F := Ideal) x w b = mmb 128 256 256 x w b := by
  funext j
  obtain ⟨p, q, rfl⟩ : ∃ (p : Fin 128) (q : Fin 256), j = ix2 p q := ⟨j 0, j 1, eq_ix2 j⟩
  unfold k6_pay1
  rw [addf_apply, matmul_zero_eq_dotGeneral, plainF, StackMember.dotGeneral_plain_apply, broadcastTo_1b_ab_apply]
  simp only [shapeCast_self]
  rfl

/-- Region 7's stored value: the two arrays are multiplied as they are (the casts to themselves and the change of
    format are the identity on the extended reals, the accumulator starts at zero) and the bias row is laid along every row. -/
theorem pay7 (x : FVec Ideal S128x256 .f32) (w : FVec Ideal S256x10 .f32) (b : FVec Ideal S1x10 .f32) :
    k7_pay1 (F := Ideal) x w b = mmb 128 256 10 x w b := by
  funext j
  obtain ⟨p, q, rfl⟩ : ∃ (p : Fin 128) (q : Fin 10), j = ix2 p q := ⟨j 0, j 1, eq_ix2 j⟩
  unfold k7_pay1
  rw [addf_apply, matmul_zero_eq_dotGeneral, plainO, StackMember.dotGeneral_plain_apply, broadcastTo_1b_ab_apply]
  simp only [shapeCast_self]
  rfl

/-! ## Region 5 -/

/-- Each of the region's four windows sits at block `(0, 0)` at the grid's one point. -/
theorem idx5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- So each window's block starts at offset zero on both axes of its array. -/
theorem off5_0 (t : Fin cfg5.N) : (fun a : Fin 2 => win5_0.index t a * main_v211.ty.shape.size a) = fun _ => 0 := by
  obtain ⟨e00, e01, e10, e11, e20, e21, e30, e31⟩ := idx5 t
  funext a
  match a with
  | ⟨0, _⟩ => show win5_0.index t (0 : Fin 2) * _ = 0; rw [e00, Nat.zero_mul]
  | ⟨1, _⟩ => show win5_0.index t (1 : Fin 2) * _ = 0; rw [e01, Nat.zero_mul]

theorem off5_1 (t : Fin cfg5.N) : (fun a : Fin 2 => win5_1.index t a * main_arg9.ty.shape.size a) = fun _ => 0 := by
  obtain ⟨e00, e01, e10, e11, e20, e21, e30, e31⟩ := idx5 t
  funext a
  match a with
  | ⟨0, _⟩ => show win5_1.index t (0 : Fin 2) * _ = 0; rw [e10, Nat.zero_mul]
  | ⟨1, _⟩ => show win5_1.index t (1 : Fin 2) * _ = 0; rw [e11, Nat.zero_mul]

theorem off5_2 (t : Fin cfg5.N) : (fun a : Fin 2 => win5_2.index t a * main_v212.ty.shape.size a) = fun _ => 0 := by
  obtain ⟨e00, e01, e10, e11, e20, e21, e30, e31⟩ := idx5 t
  funext a
  match a with
  | ⟨0, _⟩ => show win5_2.index t (0 : Fin 2) * _ = 0; rw [e20, Nat.zero_mul]
  | ⟨1, _⟩ => show win5_2.index t (1 : Fin 2) * _ = 0; rw [e21, Nat.zero_mul]

theorem off5_3 (t : Fin cfg5.N) : (fun a : Fin 2 => win5_3.index t a * main_v213.ty.shape.size a) = fun _ => 0 := by
  obtain ⟨e00, e01, e10, e11, e20, e21, e30, e31⟩ := idx5 t
  funext a
  match a with
  | ⟨0, _⟩ => show win5_3.index t (0 : Fin 2) * _ = 0; rw [e30, Nat.zero_mul]
  | ⟨1, _⟩ => show win5_3.index t (1 : Fin 2) * _ = 0; rw [e31, Nat.zero_mul]

/-- A block of the array's own shape at offset zero is the array: each input window's block is its whole array. -/
theorem iblk5_0 (c : Dev nD) (t : Fin cfg5.N) : iblk5 V c 0 t = V c (Pipeline.arrRef spec5 0) := by
  unfold iblk5
  exact Memref.read_access_unit_zero (Elt Ideal) main_v211 (off5_0 t) (fun a => by rw [congrFun (off5_0 t) a]; simp) _

theorem iblk5_1 (c : Dev nD) (t : Fin cfg5.N) : iblk5 V c 1 t = V c (Pipeline.arrRef spec5 1) := by
  unfold iblk5
  exact Memref.read_access_unit_zero (Elt Ideal) main_arg9 (off5_1 t) (fun a => by rw [congrFun (off5_1 t) a]; simp) _

theorem iblk5_2 (c : Dev nD) (t : Fin cfg5.N) : iblk5 V c 2 t = V c (Pipeline.arrRef spec5 2) := by
  unfold iblk5
  exact Memref.read_access_unit_zero (Elt Ideal) main_v212 (off5_2 t) (fun a => by rw [congrFun (off5_2 t) a]; simp) _

/-- What the one point writes back is the whole of the product plus the bias row. -/
theorem flushed5 (c : Dev nD) (t : Fin cfg5.N) :
    (dat5 (F := Ideal) V c).flushed 3 t
      = ((cfg5.win 3).blk t).view.read (Elt Ideal)
          (mmb 128 256 256 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S128x256) hz, View.ld_unit_zero (S := S256x256) hz, View.ld_unit_zero (S := S1x256) hz]
  rw [iblk5_0 V c t, iblk5_1 V c t, iblk5_2 V c t,
    pay5 (V c (Pipeline.arrRef spec5 0)) (V c (Pipeline.arrRef spec5 1)) (V c (Pipeline.arrRef spec5 2))]
  exact (Memref.read_access_unit_zero (Elt Ideal) main_v213 (off5_3 t) (fun a => by rw [congrFun (off5_3 t) a]; simp)
    (mmb 128 256 256 (V c (Pipeline.arrRef spec5 0)) (V c (Pipeline.arrRef spec5 1)) (V c (Pipeline.arrRef spec5 2)))).symm

/-- Region 5: the output array after the region is the product of its first two arrays plus its third as a row. -/
theorem out5 (c : Dev nD) :
    ((dat5 (F := Ideal) V c).arrAt 3 cfg5.N : FVec Ideal ⟨2, ![128, 256]⟩ .f32)
      = mmb 128 256 256 (V c (Pipeline.arrRef spec5 0)) (V c (Pipeline.arrRef spec5 1)) (V c (Pipeline.arrRef spec5 2)) := by
  refine (dat5 (F := Ideal) V c).arrAt_eq_of_cover 3 _ (fun t _ => flushed5 V c t)
    fun i => ⟨t5_0, flush5_3 t5_0, ?_⟩
  show i ∈ ((View.whole main_v213).slice (win5_3.rect t5_0)).set
  rw [View.set_slice_whole]
  exact View.mem_set_unit_zero (off5_3 t5_0) _ i

/-! ## Region 6 -/

/-- Each of the region's four windows sits at block `(0, 0)` at the grid's one point. -/
theorem idx6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- So each window's block starts at offset zero on both axes of its array. -/
theorem off6_0 (t : Fin cfg6.N) : (fun a : Fin 2 => win6_0.index t a * main_v233.ty.shape.size a) = fun _ => 0 := by
  obtain ⟨e00, e01, e10, e11, e20, e21, e30, e31⟩ := idx6 t
  funext a
  match a with
  | ⟨0, _⟩ => show win6_0.index t (0 : Fin 2) * _ = 0; rw [e00, Nat.zero_mul]
  | ⟨1, _⟩ => show win6_0.index t (1 : Fin 2) * _ = 0; rw [e01, Nat.zero_mul]

theorem off6_1 (t : Fin cfg6.N) : (fun a : Fin 2 => win6_1.index t a * main_arg13.ty.shape.size a) = fun _ => 0 := by
  obtain ⟨e00, e01, e10, e11, e20, e21, e30, e31⟩ := idx6 t
  funext a
  match a with
  | ⟨0, _⟩ => show win6_1.index t (0 : Fin 2) * _ = 0; rw [e10, Nat.zero_mul]
  | ⟨1, _⟩ => show win6_1.index t (1 : Fin 2) * _ = 0; rw [e11, Nat.zero_mul]

theorem off6_2 (t : Fin cfg6.N) : (fun a : Fin 2 => win6_2.index t a * main_v234.ty.shape.size a) = fun _ => 0 := by
  obtain ⟨e00, e01, e10, e11, e20, e21, e30, e31⟩ := idx6 t
  funext a
  match a with
  | ⟨0, _⟩ => show win6_2.index t (0 : Fin 2) * _ = 0; rw [e20, Nat.zero_mul]
  | ⟨1, _⟩ => show win6_2.index t (1 : Fin 2) * _ = 0; rw [e21, Nat.zero_mul]

theorem off6_3 (t : Fin cfg6.N) : (fun a : Fin 2 => win6_3.index t a * main_v235.ty.shape.size a) = fun _ => 0 := by
  obtain ⟨e00, e01, e10, e11, e20, e21, e30, e31⟩ := idx6 t
  funext a
  match a with
  | ⟨0, _⟩ => show win6_3.index t (0 : Fin 2) * _ = 0; rw [e30, Nat.zero_mul]
  | ⟨1, _⟩ => show win6_3.index t (1 : Fin 2) * _ = 0; rw [e31, Nat.zero_mul]

/-- A block of the array's own shape at offset zero is the array: each input window's block is its whole array. -/
theorem iblk6_0 (c : Dev nD) (t : Fin cfg6.N) : iblk6 V c 0 t = V c (Pipeline.arrRef spec6 0) := by
  unfold iblk6
  exact Memref.read_access_unit_zero (Elt Ideal) main_v233 (off6_0 t) (fun a => by rw [congrFun (off6_0 t) a]; simp) _

theorem iblk6_1 (c : Dev nD) (t : Fin cfg6.N) : iblk6 V c 1 t = V c (Pipeline.arrRef spec6 1) := by
  unfold iblk6
  exact Memref.read_access_unit_zero (Elt Ideal) main_arg13 (off6_1 t) (fun a => by rw [congrFun (off6_1 t) a]; simp) _

theorem iblk6_2 (c : Dev nD) (t : Fin cfg6.N) : iblk6 V c 2 t = V c (Pipeline.arrRef spec6 2) := by
  unfold iblk6
  exact Memref.read_access_unit_zero (Elt Ideal) main_v234 (off6_2 t) (fun a => by rw [congrFun (off6_2 t) a]; simp) _

/-- What the one point writes back is the whole of the product plus the bias row. -/
theorem flushed6 (c : Dev nD) (t : Fin cfg6.N) :
    (dat6 (F := Ideal) V c).flushed 3 t
      = ((cfg6.win 3).blk t).view.read (Elt Ideal)
          (mmb 128 256 256 (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz]
  simp only [View.ld_unit_zero (S := S128x256) hz, View.ld_unit_zero (S := S256x256) hz, View.ld_unit_zero (S := S1x256) hz]
  rw [iblk6_0 V c t, iblk6_1 V c t, iblk6_2 V c t,
    pay6 (V c (Pipeline.arrRef spec6 0)) (V c (Pipeline.arrRef spec6 1)) (V c (Pipeline.arrRef spec6 2))]
  exact (Memref.read_access_unit_zero (Elt Ideal) main_v235 (off6_3 t) (fun a => by rw [congrFun (off6_3 t) a]; simp)
    (mmb 128 256 256 (V c (Pipeline.arrRef spec6 0)) (V c (Pipeline.arrRef spec6 1)) (V c (Pipeline.arrRef spec6 2)))).symm

/-- Region 6: the output array after the region is the product of its first two arrays plus its third as a row. -/
theorem out6 (c : Dev nD) :
    ((dat6 (F := Ideal) V c).arrAt 3 cfg6.N : FVec Ideal ⟨2, ![128, 256]⟩ .f32)
      = mmb 128 256 256 (V c (Pipeline.arrRef spec6 0)) (V c (Pipeline.arrRef spec6 1)) (V c (Pipeline.arrRef spec6 2)) := by
  refine (dat6 (F := Ideal) V c).arrAt_eq_of_cover 3 _ (fun t _ => flushed6 V c t)
    fun i => ⟨t6_0, flush6_3 t6_0, ?_⟩
  show i ∈ ((View.whole main_v235).slice (win6_3.rect t6_0)).set
  rw [View.set_slice_whole]
  exact View.mem_set_unit_zero (off6_3 t6_0) _ i

/-! ## Region 7 -/

/-- Each of the region's four windows sits at block `(0, 0)` at the grid's one point. -/
theorem idx7 : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- So each window's block starts at offset zero on both axes of its array. -/
theorem off7_0 (t : Fin cfg7.N) : (fun a : Fin 2 => win7_0.index t a * main_v254.ty.shape.size a) = fun _ => 0 := by
  obtain ⟨e00, e01, e10, e11, e20, e21, e30, e31⟩ := idx7 t
  funext a
  match a with
  | ⟨0, _⟩ => show win7_0.index t (0 : Fin 2) * _ = 0; rw [e00, Nat.zero_mul]
  | ⟨1, _⟩ => show win7_0.index t (1 : Fin 2) * _ = 0; rw [e01, Nat.zero_mul]

theorem off7_1 (t : Fin cfg7.N) : (fun a : Fin 2 => win7_1.index t a * main_arg17.ty.shape.size a) = fun _ => 0 := by
  obtain ⟨e00, e01, e10, e11, e20, e21, e30, e31⟩ := idx7 t
  funext a
  match a with
  | ⟨0, _⟩ => show win7_1.index t (0 : Fin 2) * _ = 0; rw [e10, Nat.zero_mul]
  | ⟨1, _⟩ => show win7_1.index t (1 : Fin 2) * _ = 0; rw [e11, Nat.zero_mul]

theorem off7_2 (t : Fin cfg7.N) : (fun a : Fin 2 => win7_2.index t a * main_v255.ty.shape.size a) = fun _ => 0 := by
  obtain ⟨e00, e01, e10, e11, e20, e21, e30, e31⟩ := idx7 t
  funext a
  match a with
  | ⟨0, _⟩ => show win7_2.index t (0 : Fin 2) * _ = 0; rw [e20, Nat.zero_mul]
  | ⟨1, _⟩ => show win7_2.index t (1 : Fin 2) * _ = 0; rw [e21, Nat.zero_mul]

theorem off7_3 (t : Fin cfg7.N) : (fun a : Fin 2 => win7_3.index t a * main_v256.ty.shape.size a) = fun _ => 0 := by
  obtain ⟨e00, e01, e10, e11, e20, e21, e30, e31⟩ := idx7 t
  funext a
  match a with
  | ⟨0, _⟩ => show win7_3.index t (0 : Fin 2) * _ = 0; rw [e30, Nat.zero_mul]
  | ⟨1, _⟩ => show win7_3.index t (1 : Fin 2) * _ = 0; rw [e31, Nat.zero_mul]

/-- A block of the array's own shape at offset zero is the array: each input window's block is its whole array. -/
theorem iblk7_0 (c : Dev nD) (t : Fin cfg7.N) : iblk7 V c 0 t = V c (Pipeline.arrRef spec7 0) := by
  unfold iblk7
  exact Memref.read_access_unit_zero (Elt Ideal) main_v254 (off7_0 t) (fun a => by rw [congrFun (off7_0 t) a]; simp) _

theorem iblk7_1 (c : Dev nD) (t : Fin cfg7.N) : iblk7 V c 1 t = V c (Pipeline.arrRef spec7 1) := by
  unfold iblk7
  exact Memref.read_access_unit_zero (Elt Ideal) main_arg17 (off7_1 t) (fun a => by rw [congrFun (off7_1 t) a]; simp) _

theorem iblk7_2 (c : Dev nD) (t : Fin cfg7.N) : iblk7 V c 2 t = V c (Pipeline.arrRef spec7 2) := by
  unfold iblk7
  exact Memref.read_access_unit_zero (Elt Ideal) main_v255 (off7_2 t) (fun a => by rw [congrFun (off7_2 t) a]; simp) _

/-- What the one point writes back is the whole of the product plus the bias row. -/
theorem flushed7 (c : Dev nD) (t : Fin cfg7.N) :
    (dat7 (F := Ideal) V c).flushed 3 t
      = ((cfg7.win 3).blk t).view.read (Elt Ideal)
          (mmb 128 256 10 (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz]
  simp only [View.ld_unit_zero (S := S128x256) hz, View.ld_unit_zero (S := S256x10) hz, View.ld_unit_zero (S := S1x10) hz]
  rw [iblk7_0 V c t, iblk7_1 V c t, iblk7_2 V c t,
    pay7 (V c (Pipeline.arrRef spec7 0)) (V c (Pipeline.arrRef spec7 1)) (V c (Pipeline.arrRef spec7 2))]
  exact (Memref.read_access_unit_zero (Elt Ideal) main_v256 (off7_3 t) (fun a => by rw [congrFun (off7_3 t) a]; simp)
    (mmb 128 256 10 (V c (Pipeline.arrRef spec7 0)) (V c (Pipeline.arrRef spec7 1)) (V c (Pipeline.arrRef spec7 2)))).symm

/-- Region 7: the output array after the region is the product of its first two arrays plus its third as a row. -/
theorem out7 (c : Dev nD) :
    ((dat7 (F := Ideal) V c).arrAt 3 cfg7.N : FVec Ideal ⟨2, ![128, 10]⟩ .f32)
      = mmb 128 256 10 (V c (Pipeline.arrRef spec7 0)) (V c (Pipeline.arrRef spec7 1)) (V c (Pipeline.arrRef spec7 2)) := by
  refine (dat7 (F := Ideal) V c).arrAt_eq_of_cover 3 _ (fun t _ => flushed7 V c t)
    fun i => ⟨t7_0, flush7_3 t7_0, ?_⟩
  show i ∈ ((View.whole main_v256).slice (win7_3.rect t7_0)).set
  rw [View.set_slice_whole]
  exact View.mem_set_unit_zero (off7_3 t7_0) _ i

end Cert.Bridge.MMKb

end
-- ==== Proof.StageP.lean ====
/-
  From the fourth graph-convolution layer's linear map to the head's first dense layer.

  Both programs apply the same operations to the layer's linear output `t`: gather its rows by source id, weight
  them by the edge weights, add them up by destination id, add `t` weighted by the self-loop weights and the
  layer's bias, normalise every column over the nodes (mean, variance, scale, shift), clamp at zero, average the
  nodes of each graph (the sum by graph id over the count, the count at least one), and apply the head's first
  dense layer. They differ in two places. The kernel program's gather replaces by a not-a-number fill the rows whose
  id, after wrap-around, lies outside `0 … 19999`; when every source id is a valid wrap-around index no row is
  replaced, so the masked gather is the gather. The kernel program's dense layer is a row-tiled product with the
  bias as a one-row array, the reference's a host product plus the bias broadcast to every row: both are
  `Cert.Bridge.mmb` of the same three arrays. The nineteen arguments are written by no operation on either side.

  The comparison goes through the operations in six runs, cut where the kernel program's text is cut: the gather;
  the aggregation, bias and column means; the column variances; the normalisation; the clamp; the pool. At each cut
  the values still to be read agree on the two sides, and a run takes agreeing values to agreeing values because
  it is the same operations on both sides.
-/
import proofs.«404594_j87462714015857_2_alg».proof.Proof.Gen.KernelIdeal.Frame
import proofs.«404594_j87462714015857_2_alg».proof.Proof.Inv
import proofs.«404594_j87462714015857_2_alg».proof.Proof.RefOps
import proofs.«404594_j87462714015857_2_alg».proof.Proof.MMKb
import proofs.«404594_j87462714015857_2_alg».proof.Proof.MMR
import proofs.«404594_j87462714015857_2_alg».proof.Proof.Take
import Idealize.ShloMosaic.Lib.StableHlo.Run
import Idealize.ShloMosaic.Lib.ValueLayout

set_option maxRecDepth 16384

noncomputable section

namespace Cert.Bridge

open Idealize.ShloMosaic Idealize.SL.Sem Idealize.ShloMosaic.ValueIdx

/-- A vector cast to a one-row array is that row: at `(u, i)` the cast reads the vector at `i`. -/
theorem shapeCast_row1 (b : FVec Ideal ⟨1, ![256]⟩ .f32)
    (h : (⟨1, ![256]⟩ : Shape).ShapeCasts ⟨2, ![1, 256]⟩) :
    shapeCast ⟨2, ![1, 256]⟩ b h = row1 256 b := by
  funext j
  obtain ⟨u, i, rfl⟩ : ∃ (u : Fin 1) (i : Fin 256), j = ix2 u i := ⟨j 0, j 1, eq_ix2 j⟩
  rw [shapeCast_a_1a_apply]
  rfl

attribute [local irreducible] Host.scatterAdd Host.gather Host.reduce Host.reduceAdd

/-! ## One run at a time: agreeing values in, agreeing values out -/

set_option maxHeartbeats 2000000 in
/-- The masked gather is the gather: with every source id a valid wrap-around index the range test holds in every
    row, and the selection against the fill returns the gathered rows. -/
theorem stageP_a_g (V : KV) (Vr : RV) (hs : SrcOk (V (kr Cert.KernelIdeal.main_v1)))
    (h_v1 : (V (kr Cert.KernelIdeal.main_v1) : IVec Cert.KernelIdeal.S320000 32) = Vr (rr Cert.ReferenceIdeal.main_v1))
    (h_t : (V (kr Cert.KernelIdeal.main_v161) : FVec Ideal Cert.KernelIdeal.S20000x256 .f32) = Vr (rr Cert.ReferenceIdeal.main_v176)) :
    (StableHlo.after Cert.KernelIdeal.Gen.hostOps5 V (kr Cert.KernelIdeal.main_v162) : FVec Ideal Cert.KernelIdeal.S320000x256 .f32) = StableHlo.after Cert.ReferenceIdeal.Hand.rPa Vr (rr Cert.ReferenceIdeal.main_v183) := by
  simp only [Cert.KernelIdeal.Gen.hostOps5, Cert.ReferenceIdeal.Hand.rPa]
  after_results_simp
  simp only [StableHlo.TRef.toBuf, StableHlo.TRef.ofBuf, cast_cast, cast_eq]
  refine (take_select_eq (V (kr Cert.KernelIdeal.main_v1)) hs _ _).trans ?_
  rw [h_t, h_v1] <;> rfl

set_option maxHeartbeats 2000000 in
/-- The aggregated rows plus the self-loop term plus the layer's bias. -/
theorem stageP_b_x (V : KV) (Vr : RV)
    (h_g : (V (kr Cert.KernelIdeal.main_v162) : FVec Ideal Cert.KernelIdeal.S320000x256 .f32) = Vr (rr Cert.ReferenceIdeal.main_v183))
    (h_en : (V (kr Cert.KernelIdeal.main_v26) : FVec Ideal Cert.KernelIdeal.S320000x1 .f32) = Vr (rr Cert.ReferenceIdeal.main_v26))
    (h_dst : (V (kr Cert.KernelIdeal.main_v3) : IVec Cert.KernelIdeal.S320000 32) = Vr (rr Cert.ReferenceIdeal.main_v3))
    (h_sn : (V (kr Cert.KernelIdeal.main_v28) : FVec Ideal Cert.KernelIdeal.S20000x1 .f32) = Vr (rr Cert.ReferenceIdeal.main_v28))
    (h_t : (V (kr Cert.KernelIdeal.main_v161) : FVec Ideal Cert.KernelIdeal.S20000x256 .f32) = Vr (rr Cert.ReferenceIdeal.main_v176))
    (h_a6 : (V (kr Cert.KernelIdeal.main_arg6) : FVec Ideal Cert.KernelIdeal.S4x256 .f32) = Vr (rr Cert.ReferenceIdeal.main_arg6)) :
    (StableHlo.after Cert.KernelIdeal.Gen.hostOps5_1 V (kr Cert.KernelIdeal.main_v175) : FVec Ideal Cert.KernelIdeal.S20000x256 .f32) = StableHlo.after Cert.ReferenceIdeal.Hand.rPb Vr (rr Cert.ReferenceIdeal.main_v196) := by
  simp only [Cert.KernelIdeal.Gen.hostOps5_1, Cert.ReferenceIdeal.Hand.rPb]
  after_results_simp
  rw [h_g, h_en, h_dst, h_sn, h_t, h_a6] <;> rfl

set_option maxHeartbeats 2000000 in
/-- The layer's scale vector. -/
theorem stageP_b_ga (V : KV) (Vr : RV)
    (h_a7 : (V (kr Cert.KernelIdeal.main_arg7) : FVec Ideal Cert.KernelIdeal.S4x256 .f32) = Vr (rr Cert.ReferenceIdeal.main_arg7)) :
    (StableHlo.after Cert.KernelIdeal.Gen.hostOps5_1 V (kr Cert.KernelIdeal.main_v177) : FVec Ideal Cert.KernelIdeal.S256 .f32) = StableHlo.after Cert.ReferenceIdeal.Hand.rPb Vr (rr Cert.ReferenceIdeal.main_v198) := by
  simp only [Cert.KernelIdeal.Gen.hostOps5_1, Cert.ReferenceIdeal.Hand.rPb]
  after_results_simp
  rw [h_a7] <;> rfl

set_option maxHeartbeats 2000000 in
/-- The layer's shift vector. -/
theorem stageP_b_be (V : KV) (Vr : RV)
    (h_a8 : (V (kr Cert.KernelIdeal.main_arg8) : FVec Ideal Cert.KernelIdeal.S4x256 .f32) = Vr (rr Cert.ReferenceIdeal.main_arg8)) :
    (StableHlo.after Cert.KernelIdeal.Gen.hostOps5_1 V (kr Cert.KernelIdeal.main_v179) : FVec Ideal Cert.KernelIdeal.S256 .f32) = StableHlo.after Cert.ReferenceIdeal.Hand.rPb Vr (rr Cert.ReferenceIdeal.main_v200) := by
  simp only [Cert.KernelIdeal.Gen.hostOps5_1, Cert.ReferenceIdeal.Hand.rPb]
  after_results_simp
  rw [h_a8] <;> rfl

set_option maxHeartbeats 2000000 in
/-- The column means over the nodes. -/
theorem stageP_b_mu (V : KV) (Vr : RV)
    (h_g : (V (kr Cert.KernelIdeal.main_v162) : FVec Ideal Cert.KernelIdeal.S320000x256 .f32) = Vr (rr Cert.ReferenceIdeal.main_v183))
    (h_en : (V (kr Cert.KernelIdeal.main_v26) : FVec Ideal Cert.KernelIdeal.S320000x1 .f32) = Vr (rr Cert.ReferenceIdeal.main_v26))
    (h_dst : (V (kr Cert.KernelIdeal.main_v3) : IVec Cert.KernelIdeal.S320000 32) = Vr (rr Cert.ReferenceIdeal.main_v3))
    (h_sn : (V (kr Cert.KernelIdeal.main_v28) : FVec Ideal Cert.KernelIdeal.S20000x1 .f32) = Vr (rr Cert.ReferenceIdeal.main_v28))
    (h_t : (V (kr Cert.KernelIdeal.main_v161) : FVec Ideal Cert.KernelIdeal.S20000x256 .f32) = Vr (rr Cert.ReferenceIdeal.main_v176))
    (h_a6 : (V (kr Cert.KernelIdeal.main_arg6) : FVec Ideal Cert.KernelIdeal.S4x256 .f32) = Vr (rr Cert.ReferenceIdeal.main_arg6)) :
    (StableHlo.after Cert.KernelIdeal.Gen.hostOps5_1 V (kr Cert.KernelIdeal.main_v182) : FVec Ideal Cert.KernelIdeal.S256 .f32) = StableHlo.after Cert.ReferenceIdeal.Hand.rPb Vr (rr Cert.ReferenceIdeal.main_v203) := by
  simp only [Cert.KernelIdeal.Gen.hostOps5_1, Cert.ReferenceIdeal.Hand.rPb]
  after_results_simp
  rw [h_g, h_en, h_dst, h_sn, h_t, h_a6] <;> rfl

set_option maxHeartbeats 2000000 in
/-- The variance's degrees-of-freedom correction, the constant zero. -/
theorem stageP_b_c0 (V : KV) (Vr : RV) :
    (StableHlo.after Cert.KernelIdeal.Gen.hostOps5_1 V (kr Cert.KernelIdeal.main_c_24) : IVec Cert.KernelIdeal.S_ 32) = StableHlo.after Cert.ReferenceIdeal.Hand.rPb Vr (rr Cert.ReferenceIdeal.main_c_31) := by
  simp only [Cert.KernelIdeal.Gen.hostOps5_1, Cert.ReferenceIdeal.Hand.rPb]
  after_results_simp

set_option maxHeartbeats 2000000 in
/-- The column variances over the nodes. -/
theorem stageP_c_va (V : KV) (Vr : RV)
    (h_x : (V (kr Cert.KernelIdeal.main_v175) : FVec Ideal Cert.KernelIdeal.S20000x256 .f32) = Vr (rr Cert.ReferenceIdeal.main_v196))
    (h_c0 : (V (kr Cert.KernelIdeal.main_c_24) : IVec Cert.KernelIdeal.S_ 32) = Vr (rr Cert.ReferenceIdeal.main_c_31)) :
    (StableHlo.after Cert.KernelIdeal.Gen.hostOps5_2 V (kr Cert.KernelIdeal.main_v183) : FVec Ideal Cert.KernelIdeal.S256 .f32) = StableHlo.after Cert.ReferenceIdeal.Hand.rPc Vr (rr Cert.ReferenceIdeal.main_v204) := by
  simp only [Cert.KernelIdeal.Gen.hostOps5_2, Cert.ReferenceIdeal.Hand.rPc]
  after_results_simp
  simp only [StableHlo.TRef.toBuf, StableHlo.TRef.ofBuf, cast_cast, cast_eq]
  rw [h_x, h_c0] <;> rfl

set_option maxHeartbeats 2000000 in
/-- The normalised columns, scaled and shifted. -/
theorem stageP_d_y (V : KV) (Vr : RV)
    (h_mu : (V (kr Cert.KernelIdeal.main_v182) : FVec Ideal Cert.KernelIdeal.S256 .f32) = Vr (rr Cert.ReferenceIdeal.main_v203))
    (h_x : (V (kr Cert.KernelIdeal.main_v175) : FVec Ideal Cert.KernelIdeal.S20000x256 .f32) = Vr (rr Cert.ReferenceIdeal.main_v196))
    (h_ga : (V (kr Cert.KernelIdeal.main_v177) : FVec Ideal Cert.KernelIdeal.S256 .f32) = Vr (rr Cert.ReferenceIdeal.main_v198))
    (h_va : (V (kr Cert.KernelIdeal.main_v183) : FVec Ideal Cert.KernelIdeal.S256 .f32) = Vr (rr Cert.ReferenceIdeal.main_v204))
    (h_be : (V (kr Cert.KernelIdeal.main_v179) : FVec Ideal Cert.KernelIdeal.S256 .f32) = Vr (rr Cert.ReferenceIdeal.main_v200)) :
    (StableHlo.after Cert.KernelIdeal.Gen.hostOps5_3 V (kr Cert.KernelIdeal.main_v198) : FVec Ideal Cert.KernelIdeal.S20000x256 .f32) = StableHlo.after Cert.ReferenceIdeal.Hand.rPd Vr (rr Cert.ReferenceIdeal.main_v219) := by
  simp only [Cert.KernelIdeal.Gen.hostOps5_3, Cert.ReferenceIdeal.Hand.rPd]
  after_results_simp
  rw [h_mu, h_x, h_ga, h_va, h_be] <;> rfl

set_option maxHeartbeats 2000000 in
/-- Clamped at zero. -/
theorem stageP_e_z (V : KV) (Vr : RV)
    (h_y : (V (kr Cert.KernelIdeal.main_v198) : FVec Ideal Cert.KernelIdeal.S20000x256 .f32) = Vr (rr Cert.ReferenceIdeal.main_v219)) :
    (StableHlo.after Cert.KernelIdeal.Gen.hostOps5_4 V (kr Cert.KernelIdeal.main_v199) : FVec Ideal Cert.KernelIdeal.S20000x256 .f32) = StableHlo.after Cert.ReferenceIdeal.Hand.rPe Vr (rr Cert.ReferenceIdeal.main_v220) := by
  simp only [Cert.KernelIdeal.Gen.hostOps5_4, Cert.ReferenceIdeal.Hand.rPe]
  after_results_simp
  simp only [StableHlo.TRef.toBuf, StableHlo.TRef.ofBuf, cast_cast, cast_eq]
  rw [h_y] <;> rfl

set_option maxHeartbeats 2000000 in
/-- The mean over each graph's nodes: the sum by graph id over the count, the count at least one. -/
theorem stageP_f_p (V : KV) (Vr : RV)
    (h_a2 : (V (kr Cert.KernelIdeal.main_arg2) : IVec Cert.KernelIdeal.S20000 32) = Vr (rr Cert.ReferenceIdeal.main_arg2))
    (h_z : (V (kr Cert.KernelIdeal.main_v199) : FVec Ideal Cert.KernelIdeal.S20000x256 .f32) = Vr (rr Cert.ReferenceIdeal.main_v220)) :
    (StableHlo.after Cert.KernelIdeal.Gen.hostOps5_5 V (kr Cert.KernelIdeal.main_v211) : FVec Ideal Cert.KernelIdeal.S128x256 .f32) = StableHlo.after Cert.ReferenceIdeal.Hand.rPf Vr (rr Cert.ReferenceIdeal.main_v232) := by
  simp only [Cert.KernelIdeal.Gen.hostOps5_5, Cert.ReferenceIdeal.Hand.rPf]
  after_results_simp
  rw [h_a2, h_z] <;> rfl

/-! ## Values a run does not write stay as they were -/

set_option maxHeartbeats 2000000 in
theorem stageP_a_en (V : KV) (Vr : RV) (h : (V (kr Cert.KernelIdeal.main_v26) : FVec Ideal Cert.KernelIdeal.S320000x1 .f32) = Vr (rr Cert.ReferenceIdeal.main_v26)) :
    (StableHlo.after Cert.KernelIdeal.Gen.hostOps5 V (kr Cert.KernelIdeal.main_v26) : FVec Ideal Cert.KernelIdeal.S320000x1 .f32) = StableHlo.after Cert.ReferenceIdeal.Hand.rPa Vr (rr Cert.ReferenceIdeal.main_v26) := by
  simp only [Cert.KernelIdeal.Gen.hostOps5, Cert.ReferenceIdeal.Hand.rPa]
  after_results_simp
  exact h

set_option maxHeartbeats 2000000 in
theorem stageP_a_dst (V : KV) (Vr : RV) (h : (V (kr Cert.KernelIdeal.main_v3) : IVec Cert.KernelIdeal.S320000 32) = Vr (rr Cert.ReferenceIdeal.main_v3)) :
    (StableHlo.after Cert.KernelIdeal.Gen.hostOps5 V (kr Cert.KernelIdeal.main_v3) : IVec Cert.KernelIdeal.S320000 32) = StableHlo.after Cert.ReferenceIdeal.Hand.rPa Vr (rr Cert.ReferenceIdeal.main_v3) := by
  simp only [Cert.KernelIdeal.Gen.hostOps5, Cert.ReferenceIdeal.Hand.rPa]
  after_results_simp
  exact h

set_option maxHeartbeats 2000000 in
theorem stageP_a_sn (V : KV) (Vr : RV) (h : (V (kr Cert.KernelIdeal.main_v28) : FVec Ideal Cert.KernelIdeal.S20000x1 .f32) = Vr (rr Cert.ReferenceIdeal.main_v28)) :
    (StableHlo.after Cert.KernelIdeal.Gen.hostOps5 V (kr Cert.KernelIdeal.main_v28) : FVec Ideal Cert.KernelIdeal.S20000x1 .f32) = StableHlo.after Cert.ReferenceIdeal.Hand.rPa Vr (rr Cert.ReferenceIdeal.main_v28) := by
  simp only [Cert.KernelIdeal.Gen.hostOps5, Cert.ReferenceIdeal.Hand.rPa]
  after_results_simp
  exact h

set_option maxHeartbeats 2000000 in
theorem stageP_a_t (V : KV) (Vr : RV) (h : (V (kr Cert.KernelIdeal.main_v161) : FVec Ideal Cert.KernelIdeal.S20000x256 .f32) = Vr (rr Cert.ReferenceIdeal.main_v176)) :
    (StableHlo.after Cert.KernelIdeal.Gen.hostOps5 V (kr Cert.KernelIdeal.main_v161) : FVec Ideal Cert.KernelIdeal.S20000x256 .f32) = StableHlo.after Cert.ReferenceIdeal.Hand.rPa Vr (rr Cert.ReferenceIdeal.main_v176) := by
  simp only [Cert.KernelIdeal.Gen.hostOps5, Cert.ReferenceIdeal.Hand.rPa]
  after_results_simp
  exact h

set_option maxHeartbeats 2000000 in
theorem stageP_a_a6 (V : KV) (Vr : RV) (h : (V (kr Cert.KernelIdeal.main_arg6) : FVec Ideal Cert.KernelIdeal.S4x256 .f32) = Vr (rr Cert.ReferenceIdeal.main_arg6)) :
    (StableHlo.after Cert.KernelIdeal.Gen.hostOps5 V (kr Cert.KernelIdeal.main_arg6) : FVec Ideal Cert.KernelIdeal.S4x256 .f32) = StableHlo.after Cert.ReferenceIdeal.Hand.rPa Vr (rr Cert.ReferenceIdeal.main_arg6) := by
  simp only [Cert.KernelIdeal.Gen.hostOps5, Cert.ReferenceIdeal.Hand.rPa]
  after_results_simp
  exact h

set_option maxHeartbeats 2000000 in
theorem stageP_a_a7 (V : KV) (Vr : RV) (h : (V (kr Cert.KernelIdeal.main_arg7) : FVec Ideal Cert.KernelIdeal.S4x256 .f32) = Vr (rr Cert.ReferenceIdeal.main_arg7)) :
    (StableHlo.after Cert.KernelIdeal.Gen.hostOps5 V (kr Cert.KernelIdeal.main_arg7) : FVec Ideal Cert.KernelIdeal.S4x256 .f32) = StableHlo.after Cert.ReferenceIdeal.Hand.rPa Vr (rr Cert.ReferenceIdeal.main_arg7) := by
  simp only [Cert.KernelIdeal.Gen.hostOps5, Cert.ReferenceIdeal.Hand.rPa]
  after_results_simp
  exact h

set_option maxHeartbeats 2000000 in
theorem stageP_a_a8 (V : KV) (Vr : RV) (h : (V (kr Cert.KernelIdeal.main_arg8) : FVec Ideal Cert.KernelIdeal.S4x256 .f32) = Vr (rr Cert.ReferenceIdeal.main_arg8)) :
    (StableHlo.after Cert.KernelIdeal.Gen.hostOps5 V (kr Cert.KernelIdeal.main_arg8) : FVec Ideal Cert.KernelIdeal.S4x256 .f32) = StableHlo.after Cert.ReferenceIdeal.Hand.rPa Vr (rr Cert.ReferenceIdeal.main_arg8) := by
  simp only [Cert.KernelIdeal.Gen.hostOps5, Cert.ReferenceIdeal.Hand.rPa]
  after_results_simp
  exact h

set_option maxHeartbeats 2000000 in
theorem stageP_a_a2 (V : KV) (Vr : RV) (h : (V (kr Cert.KernelIdeal.main_arg2) : IVec Cert.KernelIdeal.S20000 32) = Vr (rr Cert.ReferenceIdeal.main_arg2)) :
    (StableHlo.after Cert.KernelIdeal.Gen.hostOps5 V (kr Cert.KernelIdeal.main_arg2) : IVec Cert.KernelIdeal.S20000 32) = StableHlo.after Cert.ReferenceIdeal.Hand.rPa Vr (rr Cert.ReferenceIdeal.main_arg2) := by
  simp only [Cert.KernelIdeal.Gen.hostOps5, Cert.ReferenceIdeal.Hand.rPa]
  after_results_simp
  exact h

set_option maxHeartbeats 2000000 in
theorem stageP_b_a2 (V : KV) (Vr : RV) (h : (V (kr Cert.KernelIdeal.main_arg2) : IVec Cert.KernelIdeal.S20000 32) = Vr (rr Cert.ReferenceIdeal.main_arg2)) :
    (StableHlo.after Cert.KernelIdeal.Gen.hostOps5_1 V (kr Cert.KernelIdeal.main_arg2) : IVec Cert.KernelIdeal.S20000 32) = StableHlo.after Cert.ReferenceIdeal.Hand.rPb Vr (rr Cert.ReferenceIdeal.main_arg2) := by
  simp only [Cert.KernelIdeal.Gen.hostOps5_1, Cert.ReferenceIdeal.Hand.rPb]
  after_results_simp
  exact h

set_option maxHeartbeats 2000000 in
theorem stageP_c_x (V : KV) (Vr : RV) (h : (V (kr Cert.KernelIdeal.main_v175) : FVec Ideal Cert.KernelIdeal.S20000x256 .f32) = Vr (rr Cert.ReferenceIdeal.main_v196)) :
    (StableHlo.after Cert.KernelIdeal.Gen.hostOps5_2 V (kr Cert.KernelIdeal.main_v175) : FVec Ideal Cert.KernelIdeal.S20000x256 .f32) = StableHlo.after Cert.ReferenceIdeal.Hand.rPc Vr (rr Cert.ReferenceIdeal.main_v196) := by
  simp only [Cert.KernelIdeal.Gen.hostOps5_2, Cert.ReferenceIdeal.Hand.rPc]
  after_results_simp
  exact h

set_option maxHeartbeats 2000000 in
theorem stageP_c_ga (V : KV) (Vr : RV) (h : (V (kr Cert.KernelIdeal.main_v177) : FVec Ideal Cert.KernelIdeal.S256 .f32) = Vr (rr Cert.ReferenceIdeal.main_v198)) :
    (StableHlo.after Cert.KernelIdeal.Gen.hostOps5_2 V (kr Cert.KernelIdeal.main_v177) : FVec Ideal Cert.KernelIdeal.S256 .f32) = StableHlo.after Cert.ReferenceIdeal.Hand.rPc Vr (rr Cert.ReferenceIdeal.main_v198) := by
  simp only [Cert.KernelIdeal.Gen.hostOps5_2, Cert.ReferenceIdeal.Hand.rPc]
  after_results_simp
  exact h

set_option maxHeartbeats 2000000 in
theorem stageP_c_be (V : KV) (Vr : RV) (h : (V (kr Cert.KernelIdeal.main_v179) : FVec Ideal Cert.KernelIdeal.S256 .f32) = Vr (rr Cert.ReferenceIdeal.main_v200)) :
    (StableHlo.after Cert.KernelIdeal.Gen.hostOps5_2 V (kr Cert.KernelIdeal.main_v179) : FVec Ideal Cert.KernelIdeal.S256 .f32) = StableHlo.after Cert.ReferenceIdeal.Hand.rPc Vr (rr Cert.ReferenceIdeal.main_v200) := by
  simp only [Cert.KernelIdeal.Gen.hostOps5_2, Cert.ReferenceIdeal.Hand.rPc]
  after_results_simp
  exact h

set_option maxHeartbeats 2000000 in
theorem stageP_c_mu (V : KV) (Vr : RV) (h : (V (kr Cert.KernelIdeal.main_v182) : FVec Ideal Cert.KernelIdeal.S256 .f32) = Vr (rr Cert.ReferenceIdeal.main_v203)) :
    (StableHlo.after Cert.KernelIdeal.Gen.hostOps5_2 V (kr Cert.KernelIdeal.main_v182) : FVec Ideal Cert.KernelIdeal.S256 .f32) = StableHlo.after Cert.ReferenceIdeal.Hand.rPc Vr (rr Cert.ReferenceIdeal.main_v203) := by
  simp only [Cert.KernelIdeal.Gen.hostOps5_2, Cert.ReferenceIdeal.Hand.rPc]
  after_results_simp
  exact h

set_option maxHeartbeats 2000000 in
theorem stageP_c_a2 (V : KV) (Vr : RV) (h : (V (kr Cert.KernelIdeal.main_arg2) : IVec Cert.KernelIdeal.S20000 32) = Vr (rr Cert.ReferenceIdeal.main_arg2)) :
    (StableHlo.after Cert.KernelIdeal.Gen.hostOps5_2 V (kr Cert.KernelIdeal.main_arg2) : IVec Cert.KernelIdeal.S20000 32) = StableHlo.after Cert.ReferenceIdeal.Hand.rPc Vr (rr Cert.ReferenceIdeal.main_arg2) := by
  simp only [Cert.KernelIdeal.Gen.hostOps5_2, Cert.ReferenceIdeal.Hand.rPc]
  after_results_simp
  exact h

set_option maxHeartbeats 2000000 in
theorem stageP_d_a2 (V : KV) (Vr : RV) (h : (V (kr Cert.KernelIdeal.main_arg2) : IVec Cert.KernelIdeal.S20000 32) = Vr (rr Cert.ReferenceIdeal.main_arg2)) :
    (StableHlo.after Cert.KernelIdeal.Gen.hostOps5_3 V (kr Cert.KernelIdeal.main_arg2) : IVec Cert.KernelIdeal.S20000 32) = StableHlo.after Cert.ReferenceIdeal.Hand.rPd Vr (rr Cert.ReferenceIdeal.main_arg2) := by
  simp only [Cert.KernelIdeal.Gen.hostOps5_3, Cert.ReferenceIdeal.Hand.rPd]
  after_results_simp
  exact h

set_option maxHeartbeats 2000000 in
theorem stageP_e_a2 (V : KV) (Vr : RV) (h : (V (kr Cert.KernelIdeal.main_arg2) : IVec Cert.KernelIdeal.S20000 32) = Vr (rr Cert.ReferenceIdeal.main_arg2)) :
    (StableHlo.after Cert.KernelIdeal.Gen.hostOps5_4 V (kr Cert.KernelIdeal.main_arg2) : IVec Cert.KernelIdeal.S20000 32) = StableHlo.after Cert.ReferenceIdeal.Hand.rPe Vr (rr Cert.ReferenceIdeal.main_arg2) := by
  simp only [Cert.KernelIdeal.Gen.hostOps5_4, Cert.ReferenceIdeal.Hand.rPe]
  after_results_simp
  exact h

/-! ## The six runs in a row -/

set_option maxHeartbeats 2000000 in
/-- The pooled activations agree. -/
theorem stageP_pooled (m : (ℓ : Loc Cert.KernelIdeal.nD Cert.KernelIdeal.τ Cert.KernelIdeal.sig) → Buf (Elt Ideal) ℓ) (ρ : Dev Cert.KernelIdeal.nD → PrngReg) (c : Dev Cert.KernelIdeal.nD) (Vr : RV) (hb : Base (Cert.KernelIdeal.Gen.W25 (F := Ideal) m ρ c) Vr)
    (ht : (Cert.KernelIdeal.Gen.W25 (F := Ideal) m ρ c (kr Cert.KernelIdeal.main_v161) : FVec Ideal Cert.KernelIdeal.S20000x256 .f32) = Vr (rr Cert.ReferenceIdeal.main_v176)) :
    (StableHlo.after Cert.KernelIdeal.Gen.hostOps5_5 (StableHlo.after Cert.KernelIdeal.Gen.hostOps5_4 (StableHlo.after Cert.KernelIdeal.Gen.hostOps5_3
        (StableHlo.after Cert.KernelIdeal.Gen.hostOps5_2 (StableHlo.after Cert.KernelIdeal.Gen.hostOps5_1 (StableHlo.after Cert.KernelIdeal.Gen.hostOps5 (Cert.KernelIdeal.Gen.W25 (F := Ideal) m ρ c)))))) (kr Cert.KernelIdeal.main_v211) : FVec Ideal Cert.KernelIdeal.S128x256 .f32)
      = StableHlo.after Cert.ReferenceIdeal.Hand.rPf (StableHlo.after Cert.ReferenceIdeal.Hand.rPe (StableHlo.after Cert.ReferenceIdeal.Hand.rPd (StableHlo.after Cert.ReferenceIdeal.Hand.rPc
        (StableHlo.after Cert.ReferenceIdeal.Hand.rPb (StableHlo.after Cert.ReferenceIdeal.Hand.rPa Vr))))) (rr Cert.ReferenceIdeal.main_v232) := by
  have g1 := stageP_a_g _ Vr hb.srcOk hb.src ht
  have en1 := stageP_a_en _ Vr hb.enorm
  have dst1 := stageP_a_dst _ Vr hb.dst
  have sn1 := stageP_a_sn _ Vr hb.snorm
  have t1 := stageP_a_t _ Vr ht
  have a6_1 := stageP_a_a6 _ Vr hb.a6
  have a7_1 := stageP_a_a7 _ Vr hb.a7
  have a8_1 := stageP_a_a8 _ Vr hb.a8
  have a2_1 := stageP_a_a2 _ Vr hb.a2
  have x2 := stageP_b_x _ _ g1 en1 dst1 sn1 t1 a6_1
  have ga2 := stageP_b_ga _ _ a7_1
  have be2 := stageP_b_be _ _ a8_1
  have mu2 := stageP_b_mu _ _ g1 en1 dst1 sn1 t1 a6_1
  have a2_2 := stageP_b_a2 _ _ a2_1
  have va3 := stageP_c_va _ _ x2 (stageP_b_c0 _ _)
  have x3 := stageP_c_x _ _ x2
  have ga3 := stageP_c_ga _ _ ga2
  have be3 := stageP_c_be _ _ be2
  have mu3 := stageP_c_mu _ _ mu2
  have a2_3 := stageP_c_a2 _ _ a2_2
  have y4 := stageP_d_y _ _ mu3 x3 ga3 va3 be3
  have a2_4 := stageP_d_a2 _ _ a2_3
  have z5 := stageP_e_z _ _ y4
  have a2_5 := stageP_e_a2 _ _ a2_4
  exact stageP_f_p _ _ a2_5 z5

/-- The reference's operations as the six runs in a row. -/
theorem stageP_rsplit (Vr : RV) :
    StableHlo.after Cert.ReferenceIdeal.Hand.rP Vr = StableHlo.after Cert.ReferenceIdeal.Hand.rPf (StableHlo.after Cert.ReferenceIdeal.Hand.rPe (StableHlo.after Cert.ReferenceIdeal.Hand.rPd (StableHlo.after Cert.ReferenceIdeal.Hand.rPc
        (StableHlo.after Cert.ReferenceIdeal.Hand.rPb (StableHlo.after Cert.ReferenceIdeal.Hand.rPa Vr))))) := by
  rw [Cert.ReferenceIdeal.Hand.rP_split, StableHlo.after_append, StableHlo.after_append, StableHlo.after_append,
    StableHlo.after_append, StableHlo.after_append]

/-! ## The arguments, the weights and the bias row -/

section

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- Computes the fold of the six host runs before the dense layer at one buffer. -/
local macro "carried_k" : tactic =>
  `(tactic| (simp only [Cert.KernelIdeal.Gen.W31, Cert.KernelIdeal.Gen.W30, Cert.KernelIdeal.Gen.W29, Cert.KernelIdeal.Gen.W28, Cert.KernelIdeal.Gen.W27, Cert.KernelIdeal.Gen.W26, Cert.KernelIdeal.Gen.hostOps5, Cert.KernelIdeal.Gen.hostOps5_1, Cert.KernelIdeal.Gen.hostOps5_2, Cert.KernelIdeal.Gen.hostOps5_3, Cert.KernelIdeal.Gen.hostOps5_4, Cert.KernelIdeal.Gen.hostOps5_5]
             after_results_simp))

/-- The weights the dense layer reads are the head's first matrix. -/
theorem stageP_w :
    Cert.KernelIdeal.Gen.W31 (F := Ideal) m ρ c (kr Cert.KernelIdeal.main_arg9) = Cert.KernelIdeal.Gen.W25 (F := Ideal) m ρ c (kr Cert.KernelIdeal.main_arg9) := by
  carried_k

theorem stageP_k_arg0 :
    Cert.KernelIdeal.Gen.W32 (F := Ideal) m ρ c (kr Cert.KernelIdeal.main_arg0) = Cert.KernelIdeal.Gen.W25 (F := Ideal) m ρ c (kr Cert.KernelIdeal.main_arg0) := by
  rw [Cert.KernelIdeal.Gen.W32_of_ne m ρ c Cert.KernelIdeal.main_arg0 (by decide)]
  carried_k
theorem stageP_r_arg0 (Vr : RV) :
    StableHlo.after Cert.ReferenceIdeal.Hand.rP Vr (rr Cert.ReferenceIdeal.main_arg0) = Vr (rr Cert.ReferenceIdeal.main_arg0) := by
  simp only [Cert.ReferenceIdeal.Hand.rP]
  after_results_simp
theorem stageP_k_arg1 :
    Cert.KernelIdeal.Gen.W32 (F := Ideal) m ρ c (kr Cert.KernelIdeal.main_arg1) = Cert.KernelIdeal.Gen.W25 (F := Ideal) m ρ c (kr Cert.KernelIdeal.main_arg1) := by
  rw [Cert.KernelIdeal.Gen.W32_of_ne m ρ c Cert.KernelIdeal.main_arg1 (by decide)]
  carried_k
theorem stageP_r_arg1 (Vr : RV) :
    StableHlo.after Cert.ReferenceIdeal.Hand.rP Vr (rr Cert.ReferenceIdeal.main_arg1) = Vr (rr Cert.ReferenceIdeal.main_arg1) := by
  simp only [Cert.ReferenceIdeal.Hand.rP]
  after_results_simp
theorem stageP_k_arg2 :
    Cert.KernelIdeal.Gen.W32 (F := Ideal) m ρ c (kr Cert.KernelIdeal.main_arg2) = Cert.KernelIdeal.Gen.W25 (F := Ideal) m ρ c (kr Cert.KernelIdeal.main_arg2) := by
  rw [Cert.KernelIdeal.Gen.W32_of_ne m ρ c Cert.KernelIdeal.main_arg2 (by decide)]
  carried_k
theorem stageP_r_arg2 (Vr : RV) :
    StableHlo.after Cert.ReferenceIdeal.Hand.rP Vr (rr Cert.ReferenceIdeal.main_arg2) = Vr (rr Cert.ReferenceIdeal.main_arg2) := by
  simp only [Cert.ReferenceIdeal.Hand.rP]
  after_results_simp
theorem stageP_k_arg3 :
    Cert.KernelIdeal.Gen.W32 (F := Ideal) m ρ c (kr Cert.KernelIdeal.main_arg3) = Cert.KernelIdeal.Gen.W25 (F := Ideal) m ρ c (kr Cert.KernelIdeal.main_arg3) := by
  rw [Cert.KernelIdeal.Gen.W32_of_ne m ρ c Cert.KernelIdeal.main_arg3 (by decide)]
  carried_k
theorem stageP_r_arg3 (Vr : RV) :
    StableHlo.after Cert.ReferenceIdeal.Hand.rP Vr (rr Cert.ReferenceIdeal.main_arg3) = Vr (rr Cert.ReferenceIdeal.main_arg3) := by
  simp only [Cert.ReferenceIdeal.Hand.rP]
  after_results_simp
theorem stageP_k_arg4 :
    Cert.KernelIdeal.Gen.W32 (F := Ideal) m ρ c (kr Cert.KernelIdeal.main_arg4) = Cert.KernelIdeal.Gen.W25 (F := Ideal) m ρ c (kr Cert.KernelIdeal.main_arg4) := by
  rw [Cert.KernelIdeal.Gen.W32_of_ne m ρ c Cert.KernelIdeal.main_arg4 (by decide)]
  carried_k
theorem stageP_r_arg4 (Vr : RV) :
    StableHlo.after Cert.ReferenceIdeal.Hand.rP Vr (rr Cert.ReferenceIdeal.main_arg4) = Vr (rr Cert.ReferenceIdeal.main_arg4) := by
  simp only [Cert.ReferenceIdeal.Hand.rP]
  after_results_simp
theorem stageP_k_arg5 :
    Cert.KernelIdeal.Gen.W32 (F := Ideal) m ρ c (kr Cert.KernelIdeal.main_arg5) = Cert.KernelIdeal.Gen.W25 (F := Ideal) m ρ c (kr Cert.KernelIdeal.main_arg5) := by
  rw [Cert.KernelIdeal.Gen.W32_of_ne m ρ c Cert.KernelIdeal.main_arg5 (by decide)]
  carried_k
theorem stageP_r_arg5 (Vr : RV) :
    StableHlo.after Cert.ReferenceIdeal.Hand.rP Vr (rr Cert.ReferenceIdeal.main_arg5) = Vr (rr Cert.ReferenceIdeal.main_arg5) := by
  simp only [Cert.ReferenceIdeal.Hand.rP]
  after_results_simp
theorem stageP_k_arg6 :
    Cert.KernelIdeal.Gen.W32 (F := Ideal) m ρ c (kr Cert.KernelIdeal.main_arg6) = Cert.KernelIdeal.Gen.W25 (F := Ideal) m ρ c (kr Cert.KernelIdeal.main_arg6) := by
  rw [Cert.KernelIdeal.Gen.W32_of_ne m ρ c Cert.KernelIdeal.main_arg6 (by decide)]
  carried_k
theorem stageP_r_arg6 (Vr : RV) :
    StableHlo.after Cert.ReferenceIdeal.Hand.rP Vr (rr Cert.ReferenceIdeal.main_arg6) = Vr (rr Cert.ReferenceIdeal.main_arg6) := by
  simp only [Cert.ReferenceIdeal.Hand.rP]
  after_results_simp
theorem stageP_k_arg7 :
    Cert.KernelIdeal.Gen.W32 (F := Ideal) m ρ c (kr Cert.KernelIdeal.main_arg7) = Cert.KernelIdeal.Gen.W25 (F := Ideal) m ρ c (kr Cert.KernelIdeal.main_arg7) := by
  rw [Cert.KernelIdeal.Gen.W32_of_ne m ρ c Cert.KernelIdeal.main_arg7 (by decide)]
  carried_k
theorem stageP_r_arg7 (Vr : RV) :
    StableHlo.after Cert.ReferenceIdeal.Hand.rP Vr (rr Cert.ReferenceIdeal.main_arg7) = Vr (rr Cert.ReferenceIdeal.main_arg7) := by
  simp only [Cert.ReferenceIdeal.Hand.rP]
  after_results_simp
theorem stageP_k_arg8 :
    Cert.KernelIdeal.Gen.W32 (F := Ideal) m ρ c (kr Cert.KernelIdeal.main_arg8) = Cert.KernelIdeal.Gen.W25 (F := Ideal) m ρ c (kr Cert.KernelIdeal.main_arg8) := by
  rw [Cert.KernelIdeal.Gen.W32_of_ne m ρ c Cert.KernelIdeal.main_arg8 (by decide)]
  carried_k
theorem stageP_r_arg8 (Vr : RV) :
    StableHlo.after Cert.ReferenceIdeal.Hand.rP Vr (rr Cert.ReferenceIdeal.main_arg8) = Vr (rr Cert.ReferenceIdeal.main_arg8) := by
  simp only [Cert.ReferenceIdeal.Hand.rP]
  after_results_simp
/-- The head's first matrix is one of the dense layer's own input arrays: the layer leaves an input array as it
    found it. -/
theorem stageP_k_arg9 :
    Cert.KernelIdeal.Gen.W32 (F := Ideal) m ρ c (kr Cert.KernelIdeal.main_arg9) = Cert.KernelIdeal.Gen.W25 (F := Ideal) m ρ c (kr Cert.KernelIdeal.main_arg9) :=
  ((Cert.KernelIdeal.Gen.W32_arr (F := Ideal) m ρ c 1).trans
    (((Cert.KernelIdeal.Gen.dat5 (Cert.KernelIdeal.Gen.V31 (F := Ideal) m ρ) c).arrAt_in 1 rfl _).trans
      (Cert.KernelIdeal.Gen.A_eq5 (Cert.KernelIdeal.Gen.V31 (F := Ideal) m ρ) c 1))).trans (stageP_w m ρ c)
theorem stageP_r_arg9 (Vr : RV) :
    StableHlo.after Cert.ReferenceIdeal.Hand.rP Vr (rr Cert.ReferenceIdeal.main_arg9) = Vr (rr Cert.ReferenceIdeal.main_arg9) := by
  simp only [Cert.ReferenceIdeal.Hand.rP]
  after_results_simp
theorem stageP_k_arg10 :
    Cert.KernelIdeal.Gen.W32 (F := Ideal) m ρ c (kr Cert.KernelIdeal.main_arg10) = Cert.KernelIdeal.Gen.W25 (F := Ideal) m ρ c (kr Cert.KernelIdeal.main_arg10) := by
  rw [Cert.KernelIdeal.Gen.W32_of_ne m ρ c Cert.KernelIdeal.main_arg10 (by decide)]
  carried_k
theorem stageP_r_arg10 (Vr : RV) :
    StableHlo.after Cert.ReferenceIdeal.Hand.rP Vr (rr Cert.ReferenceIdeal.main_arg10) = Vr (rr Cert.ReferenceIdeal.main_arg10) := by
  simp only [Cert.ReferenceIdeal.Hand.rP]
  after_results_simp
theorem stageP_k_arg11 :
    Cert.KernelIdeal.Gen.W32 (F := Ideal) m ρ c (kr Cert.KernelIdeal.main_arg11) = Cert.KernelIdeal.Gen.W25 (F := Ideal) m ρ c (kr Cert.KernelIdeal.main_arg11) := by
  rw [Cert.KernelIdeal.Gen.W32_of_ne m ρ c Cert.KernelIdeal.main_arg11 (by decide)]
  carried_k
theorem stageP_r_arg11 (Vr : RV) :
    StableHlo.after Cert.ReferenceIdeal.Hand.rP Vr (rr Cert.ReferenceIdeal.main_arg11) = Vr (rr Cert.ReferenceIdeal.main_arg11) := by
  simp only [Cert.ReferenceIdeal.Hand.rP]
  after_results_simp
theorem stageP_k_arg12 :
    Cert.KernelIdeal.Gen.W32 (F := Ideal) m ρ c (kr Cert.KernelIdeal.main_arg12) = Cert.KernelIdeal.Gen.W25 (F := Ideal) m ρ c (kr Cert.KernelIdeal.main_arg12) := by
  rw [Cert.KernelIdeal.Gen.W32_of_ne m ρ c Cert.KernelIdeal.main_arg12 (by decide)]
  carried_k
theorem stageP_r_arg12 (Vr : RV) :
    StableHlo.after Cert.ReferenceIdeal.Hand.rP Vr (rr Cert.ReferenceIdeal.main_arg12) = Vr (rr Cert.ReferenceIdeal.main_arg12) := by
  simp only [Cert.ReferenceIdeal.Hand.rP]
  after_results_simp
theorem stageP_k_arg13 :
    Cert.KernelIdeal.Gen.W32 (F := Ideal) m ρ c (kr Cert.KernelIdeal.main_arg13) = Cert.KernelIdeal.Gen.W25 (F := Ideal) m ρ c (kr Cert.KernelIdeal.main_arg13) := by
  rw [Cert.KernelIdeal.Gen.W32_of_ne m ρ c Cert.KernelIdeal.main_arg13 (by decide)]
  carried_k
theorem stageP_r_arg13 (Vr : RV) :
    StableHlo.after Cert.ReferenceIdeal.Hand.rP Vr (rr Cert.ReferenceIdeal.main_arg13) = Vr (rr Cert.ReferenceIdeal.main_arg13) := by
  simp only [Cert.ReferenceIdeal.Hand.rP]
  after_results_simp
theorem stageP_k_arg14 :
    Cert.KernelIdeal.Gen.W32 (F := Ideal) m ρ c (kr Cert.KernelIdeal.main_arg14) = Cert.KernelIdeal.Gen.W25 (F := Ideal) m ρ c (kr Cert.KernelIdeal.main_arg14) := by
  rw [Cert.KernelIdeal.Gen.W32_of_ne m ρ c Cert.KernelIdeal.main_arg14 (by decide)]
  carried_k
theorem stageP_r_arg14 (Vr : RV) :
    StableHlo.after Cert.ReferenceIdeal.Hand.rP Vr (rr Cert.ReferenceIdeal.main_arg14) = Vr (rr Cert.ReferenceIdeal.main_arg14) := by
  simp only [Cert.ReferenceIdeal.Hand.rP]
  after_results_simp
theorem stageP_k_arg15 :
    Cert.KernelIdeal.Gen.W32 (F := Ideal) m ρ c (kr Cert.KernelIdeal.main_arg15) = Cert.KernelIdeal.Gen.W25 (F := Ideal) m ρ c (kr Cert.KernelIdeal.main_arg15) := by
  rw [Cert.KernelIdeal.Gen.W32_of_ne m ρ c Cert.KernelIdeal.main_arg15 (by decide)]
  carried_k
theorem stageP_r_arg15 (Vr : RV) :
    StableHlo.after Cert.ReferenceIdeal.Hand.rP Vr (rr Cert.ReferenceIdeal.main_arg15) = Vr (rr Cert.ReferenceIdeal.main_arg15) := by
  simp only [Cert.ReferenceIdeal.Hand.rP]
  after_results_simp
theorem stageP_k_arg16 :
    Cert.KernelIdeal.Gen.W32 (F := Ideal) m ρ c (kr Cert.KernelIdeal.main_arg16) = Cert.KernelIdeal.Gen.W25 (F := Ideal) m ρ c (kr Cert.KernelIdeal.main_arg16) := by
  rw [Cert.KernelIdeal.Gen.W32_of_ne m ρ c Cert.KernelIdeal.main_arg16 (by decide)]
  carried_k
theorem stageP_r_arg16 (Vr : RV) :
    StableHlo.after Cert.ReferenceIdeal.Hand.rP Vr (rr Cert.ReferenceIdeal.main_arg16) = Vr (rr Cert.ReferenceIdeal.main_arg16) := by
  simp only [Cert.ReferenceIdeal.Hand.rP]
  after_results_simp
theorem stageP_k_arg17 :
    Cert.KernelIdeal.Gen.W32 (F := Ideal) m ρ c (kr Cert.KernelIdeal.main_arg17) = Cert.KernelIdeal.Gen.W25 (F := Ideal) m ρ c (kr Cert.KernelIdeal.main_arg17) := by
  rw [Cert.KernelIdeal.Gen.W32_of_ne m ρ c Cert.KernelIdeal.main_arg17 (by decide)]
  carried_k
theorem stageP_r_arg17 (Vr : RV) :
    StableHlo.after Cert.ReferenceIdeal.Hand.rP Vr (rr Cert.ReferenceIdeal.main_arg17) = Vr (rr Cert.ReferenceIdeal.main_arg17) := by
  simp only [Cert.ReferenceIdeal.Hand.rP]
  after_results_simp
theorem stageP_k_arg18 :
    Cert.KernelIdeal.Gen.W32 (F := Ideal) m ρ c (kr Cert.KernelIdeal.main_arg18) = Cert.KernelIdeal.Gen.W25 (F := Ideal) m ρ c (kr Cert.KernelIdeal.main_arg18) := by
  rw [Cert.KernelIdeal.Gen.W32_of_ne m ρ c Cert.KernelIdeal.main_arg18 (by decide)]
  carried_k
theorem stageP_r_arg18 (Vr : RV) :
    StableHlo.after Cert.ReferenceIdeal.Hand.rP Vr (rr Cert.ReferenceIdeal.main_arg18) = Vr (rr Cert.ReferenceIdeal.main_arg18) := by
  simp only [Cert.ReferenceIdeal.Hand.rP]
  after_results_simp

/-- The arguments agree at the dense layer's exit and after the reference's operations. -/
theorem stageP_args (Vr : RV) (ha : ArgsEq (Cert.KernelIdeal.Gen.W25 (F := Ideal) m ρ c) Vr) :
    ArgsEq (Cert.KernelIdeal.Gen.W32 (F := Ideal) m ρ c) (StableHlo.after Cert.ReferenceIdeal.Hand.rP Vr) where
  a0 := (stageP_k_arg0 m ρ c).trans (ha.a0.trans (stageP_r_arg0 Vr).symm)
  a1 := (stageP_k_arg1 m ρ c).trans (ha.a1.trans (stageP_r_arg1 Vr).symm)
  a2 := (stageP_k_arg2 m ρ c).trans (ha.a2.trans (stageP_r_arg2 Vr).symm)
  a3 := (stageP_k_arg3 m ρ c).trans (ha.a3.trans (stageP_r_arg3 Vr).symm)
  a4 := (stageP_k_arg4 m ρ c).trans (ha.a4.trans (stageP_r_arg4 Vr).symm)
  a5 := (stageP_k_arg5 m ρ c).trans (ha.a5.trans (stageP_r_arg5 Vr).symm)
  a6 := (stageP_k_arg6 m ρ c).trans (ha.a6.trans (stageP_r_arg6 Vr).symm)
  a7 := (stageP_k_arg7 m ρ c).trans (ha.a7.trans (stageP_r_arg7 Vr).symm)
  a8 := (stageP_k_arg8 m ρ c).trans (ha.a8.trans (stageP_r_arg8 Vr).symm)
  a9 := (stageP_k_arg9 m ρ c).trans (ha.a9.trans (stageP_r_arg9 Vr).symm)
  a10 := (stageP_k_arg10 m ρ c).trans (ha.a10.trans (stageP_r_arg10 Vr).symm)
  a11 := (stageP_k_arg11 m ρ c).trans (ha.a11.trans (stageP_r_arg11 Vr).symm)
  a12 := (stageP_k_arg12 m ρ c).trans (ha.a12.trans (stageP_r_arg12 Vr).symm)
  a13 := (stageP_k_arg13 m ρ c).trans (ha.a13.trans (stageP_r_arg13 Vr).symm)
  a14 := (stageP_k_arg14 m ρ c).trans (ha.a14.trans (stageP_r_arg14 Vr).symm)
  a15 := (stageP_k_arg15 m ρ c).trans (ha.a15.trans (stageP_r_arg15 Vr).symm)
  a16 := (stageP_k_arg16 m ρ c).trans (ha.a16.trans (stageP_r_arg16 Vr).symm)
  a17 := (stageP_k_arg17 m ρ c).trans (ha.a17.trans (stageP_r_arg17 Vr).symm)
  a18 := (stageP_k_arg18 m ρ c).trans (ha.a18.trans (stageP_r_arg18 Vr).symm)

/-- The bias row the dense layer reads is the head's first bias vector laid out as one row. -/
theorem stageP_bias :
    (Cert.KernelIdeal.Gen.W31 (F := Ideal) m ρ c (kr Cert.KernelIdeal.main_v212) : FVec Ideal Cert.KernelIdeal.S1x256 .f32)
      = row1 256 (Cert.KernelIdeal.Gen.W25 (F := Ideal) m ρ c (kr Cert.KernelIdeal.main_arg10)) := by
  carried_k
  exact shapeCast_row1 _ _

end

/-- The first five runs of the reference write neither the head's first matrix nor its bias. -/
theorem stageP_r5_arg9 (V : RV) :
    StableHlo.after Cert.ReferenceIdeal.Hand.rPe (StableHlo.after Cert.ReferenceIdeal.Hand.rPd (StableHlo.after Cert.ReferenceIdeal.Hand.rPc
        (StableHlo.after Cert.ReferenceIdeal.Hand.rPb (StableHlo.after Cert.ReferenceIdeal.Hand.rPa V)))) (rr Cert.ReferenceIdeal.main_arg9) = V (rr Cert.ReferenceIdeal.main_arg9) := by
  simp only [Cert.ReferenceIdeal.Hand.rPa, Cert.ReferenceIdeal.Hand.rPb, Cert.ReferenceIdeal.Hand.rPc, Cert.ReferenceIdeal.Hand.rPd, Cert.ReferenceIdeal.Hand.rPe]
  after_results_simp
theorem stageP_r5_arg10 (V : RV) :
    StableHlo.after Cert.ReferenceIdeal.Hand.rPe (StableHlo.after Cert.ReferenceIdeal.Hand.rPd (StableHlo.after Cert.ReferenceIdeal.Hand.rPc
        (StableHlo.after Cert.ReferenceIdeal.Hand.rPb (StableHlo.after Cert.ReferenceIdeal.Hand.rPa V)))) (rr Cert.ReferenceIdeal.main_arg10) = V (rr Cert.ReferenceIdeal.main_arg10) := by
  simp only [Cert.ReferenceIdeal.Hand.rPa, Cert.ReferenceIdeal.Hand.rPb, Cert.ReferenceIdeal.Hand.rPc, Cert.ReferenceIdeal.Hand.rPd, Cert.ReferenceIdeal.Hand.rPe]
  after_results_simp

/-- The reference's dense layer is the product of the pooled activations with the head's first matrix plus its
    bias as a row. -/
theorem stageP_dense (V : RV) :
    (StableHlo.after Cert.ReferenceIdeal.Hand.rPf V (rr Cert.ReferenceIdeal.main_v236) : FVec Ideal Cert.ReferenceIdeal.S128x256 .f32)
      = mmb 128 256 256 (StableHlo.after Cert.ReferenceIdeal.Hand.rPf V (rr Cert.ReferenceIdeal.main_v232)) (V (rr Cert.ReferenceIdeal.main_arg9))
          (row1 256 (V (rr Cert.ReferenceIdeal.main_arg10))) := by
  simp only [Cert.ReferenceIdeal.Hand.rPf]
  after_results_simp
  exact MMR.dotF _ _ _

/-! ## The stage -/

/-- From the fourth graph-convolution layer's linear map to the head's first dense layer: the arguments still agree,
    and the kernel program's dense layer leaves what the reference's computes. -/
theorem stageP (m : (ℓ : Loc Cert.KernelIdeal.nD Cert.KernelIdeal.τ Cert.KernelIdeal.sig) → Buf (Elt Ideal) ℓ) (ρ : Dev Cert.KernelIdeal.nD → PrngReg) (c : Dev Cert.KernelIdeal.nD) (Vr : RV)
    (hb : Base (Cert.KernelIdeal.Gen.W25 (F := Ideal) m ρ c) Vr)
    (ht : (Cert.KernelIdeal.Gen.W25 (F := Ideal) m ρ c (kr Cert.KernelIdeal.main_v161) : FVec Ideal Cert.KernelIdeal.S20000x256 .f32) = Vr (rr Cert.ReferenceIdeal.main_v176)) :
    ArgsEq (Cert.KernelIdeal.Gen.W32 (F := Ideal) m ρ c) (StableHlo.after Cert.ReferenceIdeal.Hand.rP Vr) ∧
    (Cert.KernelIdeal.Gen.W32 (F := Ideal) m ρ c (kr Cert.KernelIdeal.main_v213) : FVec Ideal Cert.KernelIdeal.S128x256 .f32)
      = StableHlo.after Cert.ReferenceIdeal.Hand.rP Vr (rr Cert.ReferenceIdeal.main_v236) := by
  refine ⟨stageP_args m ρ c Vr hb.toArgsEq, ?_⟩
  rw [stageP_rsplit Vr, stageP_dense, stageP_r5_arg9, stageP_r5_arg10, ← stageP_pooled m ρ c Vr hb ht]
  refine ((Cert.KernelIdeal.Gen.W32_arr (F := Ideal) m ρ c 3).trans (MMKb.out5 (Cert.KernelIdeal.Gen.V31 (F := Ideal) m ρ) c)).trans ?_
  show mmb 128 256 256 (Cert.KernelIdeal.Gen.W31 (F := Ideal) m ρ c (kr Cert.KernelIdeal.main_v211)) (Cert.KernelIdeal.Gen.W31 (F := Ideal) m ρ c (kr Cert.KernelIdeal.main_arg9)) (Cert.KernelIdeal.Gen.W31 (F := Ideal) m ρ c (kr Cert.KernelIdeal.main_v212)) = _
  rw [stageP_w m ρ c, hb.a9, stageP_bias m ρ c, hb.a10] <;> rfl

end Cert.Bridge

end
-- ==== Proof.StageF1.lean ====
/-
  From the output of the head's first layer to the output of its second.

  Both programs apply the same chain of array operations to the first layer's output `y` (128 rows of 256 numbers):
  the batch norm over the rows — the column means `μ = (∑ᵢ yᵢ) / 128`, the column variances
  `σ² = (∑ᵢ (yᵢ - μ)²) / 128` (returned as they are because the count `128 - 0` is positive), then
  `γ * (y - μ) * rsqrt (σ² + ε) + β` with the layer's scale `γ` and shift `β` broadcast over the rows — and the
  maximum with zero. Equal inputs give equal outputs, operation by operation. The second layer is then
  `x @ W + b` on both sides: the kernel program's dense-layer region leaves the product of its first two arrays plus
  its third as a row, that row being the bias vector laid out as `1 × 256`; the reference contracts `x`'s columns
  with `W`'s rows and adds the bias broadcast to every row. Both are `mmb 128 256 256 x W (row1 256 b)`.
  No operation of either chain writes an argument array and the region writes only its output array (the weights,
  one of its input arrays, are left as entered), so the arguments still agree afterwards.
-/
import proofs.«404594_j87462714015857_2_alg».proof.Proof.Gen.KernelIdeal.Frame
import proofs.«404594_j87462714015857_2_alg».proof.Proof.Inv
import proofs.«404594_j87462714015857_2_alg».proof.Proof.RefOps
import proofs.«404594_j87462714015857_2_alg».proof.Proof.MMKb
import proofs.«404594_j87462714015857_2_alg».proof.Proof.MMR
import Idealize.ShloMosaic.Lib.ValueLayout

set_option maxRecDepth 16384

noncomputable section

namespace Cert.Bridge

open Idealize.ShloMosaic Idealize.ShloMosaic.TcCoe Idealize.ShloMosaic.Tactic
open Idealize.SL Idealize.SL.Sem
open Idealize.ShloMosaic.ValueIdx

/-- A vector of `N` numbers reshaped to `1 × N` is the vector as one row: position `j` of the row and position
    `(0, j)` of the array are the same place in row-major order. -/
theorem reshape_row1 (N : Nat) (b : FVec Ideal ⟨1, ![N]⟩ .f32) (h : (⟨1, ![N]⟩ : Shape).ShapeCasts ⟨2, ![1, N]⟩) :
    shapeCast ⟨2, ![1, N]⟩ b h = row1 N b := by
  funext j
  exact (congrArg (shapeCast ⟨2, ![1, N]⟩ b h) (eq_ix2 j)).trans (shapeCast_a_1a_apply b h (j 0) (j 1))

section

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD) (Vr : RV)

/-- Both sides' contents after their chains, read at one buffer each, as the chain's operations applied to the
    contents before them. -/
local macro "chainF1" : tactic => `(tactic| (
  simp only [Cert.KernelIdeal.Gen.W37, Cert.KernelIdeal.Gen.W36, Cert.KernelIdeal.Gen.W35, Cert.KernelIdeal.Gen.W34,
    Cert.KernelIdeal.Gen.W33, Cert.KernelIdeal.Gen.hostOps6, Cert.KernelIdeal.Gen.hostOps6_1,
    Cert.KernelIdeal.Gen.hostOps6_2, Cert.KernelIdeal.Gen.hostOps6_3, Cert.KernelIdeal.Gen.hostOps6_4,
    Cert.ReferenceIdeal.Hand.rF1]
  after_results_simp))

/-- An argument array after both chains: what it held before them, where the two sides agree. -/
local macro "keepF1" b:term:max h:term:max : tactic => `(tactic| (
  refine (Cert.KernelIdeal.Gen.W38_of_ne (F := Ideal) _ _ _ $b (by decide)).trans ?_
  chainF1
  exact $h))

/-- The relu'd batch norm of the first layer's output: the same operations on equal operands. -/
theorem f1_x
    (ha : ArgsEq (Cert.KernelIdeal.Gen.W32 (F := Ideal) m ρ c) Vr)
    (ht : (Cert.KernelIdeal.Gen.W32 (F := Ideal) m ρ c (kr Cert.KernelIdeal.main_v213) : FVec Ideal Cert.KernelIdeal.S128x256 .f32)
        = Vr (rr Cert.ReferenceIdeal.main_v236)) :
    (Cert.KernelIdeal.Gen.W37 (F := Ideal) m ρ c (kr Cert.KernelIdeal.main_v233) : FVec Ideal ⟨2, ![128, 256]⟩ .f32)
      = StableHlo.after (Cert.ReferenceIdeal.Hand.rF1 (F := Ideal)) Vr (rr Cert.ReferenceIdeal.main_v256) := by
  chainF1
  rw [ht, ha.a11, ha.a12]

/-- The second layer's weights are an argument: untouched by either chain. -/
theorem f1_w (ha : ArgsEq (Cert.KernelIdeal.Gen.W32 (F := Ideal) m ρ c) Vr) :
    (Cert.KernelIdeal.Gen.W37 (F := Ideal) m ρ c (kr Cert.KernelIdeal.main_arg13) : FVec Ideal ⟨2, ![256, 256]⟩ .f32)
      = Vr (rr Cert.ReferenceIdeal.main_arg13) := by
  chainF1
  exact ha.a13

/-- The kernel program's bias row is the bias vector as one row. -/
theorem f1_b (ha : ArgsEq (Cert.KernelIdeal.Gen.W32 (F := Ideal) m ρ c) Vr) :
    (Cert.KernelIdeal.Gen.W37 (F := Ideal) m ρ c (kr Cert.KernelIdeal.main_v234) : FVec Ideal ⟨2, ![1, 256]⟩ .f32)
      = row1 256 (Vr (rr Cert.ReferenceIdeal.main_arg14)) := by
  chainF1
  rw [ha.a14]
  funext j
  exact congrFun (reshape_row1 256 (Vr (rr Cert.ReferenceIdeal.main_arg14)) _) j

/-- The reference's second layer is the product plus the bias row. -/
theorem f1_ref :
    (StableHlo.after (Cert.ReferenceIdeal.Hand.rF1 (F := Ideal)) Vr (rr Cert.ReferenceIdeal.main_v260) : FVec Ideal ⟨2, ![128, 256]⟩ .f32)
      = mmb 128 256 256 (StableHlo.after (Cert.ReferenceIdeal.Hand.rF1 (F := Ideal)) Vr (rr Cert.ReferenceIdeal.main_v256))
          (Vr (rr Cert.ReferenceIdeal.main_arg13)) (row1 256 (Vr (rr Cert.ReferenceIdeal.main_arg14))) := by
  simp only [Cert.ReferenceIdeal.Hand.rF1]
  after_results_simp
  exact MMR.dotF _ _ _

set_option maxHeartbeats 4000000 in
/-- From region 5's exit to region 6's exit against the reference's batch norm, relu and second head layer: the
    arguments still agree, and the second layer's outputs agree. -/
theorem stageF1
    (ha : ArgsEq (Cert.KernelIdeal.Gen.W32 (F := Ideal) m ρ c) Vr)
    (ht : (Cert.KernelIdeal.Gen.W32 (F := Ideal) m ρ c (kr Cert.KernelIdeal.main_v213) : FVec Ideal Cert.KernelIdeal.S128x256 .f32)
        = Vr (rr Cert.ReferenceIdeal.main_v236)) :
    ArgsEq (Cert.KernelIdeal.Gen.W38 (F := Ideal) m ρ c) (StableHlo.after (Cert.ReferenceIdeal.Hand.rF1 (F := Ideal)) Vr) ∧
    (Cert.KernelIdeal.Gen.W38 (F := Ideal) m ρ c (kr Cert.KernelIdeal.main_v235) : FVec Ideal Cert.KernelIdeal.S128x256 .f32)
      = StableHlo.after (Cert.ReferenceIdeal.Hand.rF1 (F := Ideal)) Vr (rr Cert.ReferenceIdeal.main_v260) := by
  refine ⟨⟨?_, ?_, ?_, ?_, ?_, ?_, ?_, ?_, ?_, ?_, ?_, ?_, ?_, ?_, ?_, ?_, ?_, ?_, ?_⟩, ?_⟩
  · keepF1 Cert.KernelIdeal.main_arg0 ha.a0
  · keepF1 Cert.KernelIdeal.main_arg1 ha.a1
  · keepF1 Cert.KernelIdeal.main_arg2 ha.a2
  · keepF1 Cert.KernelIdeal.main_arg3 ha.a3
  · keepF1 Cert.KernelIdeal.main_arg4 ha.a4
  · keepF1 Cert.KernelIdeal.main_arg5 ha.a5
  · keepF1 Cert.KernelIdeal.main_arg6 ha.a6
  · keepF1 Cert.KernelIdeal.main_arg7 ha.a7
  · keepF1 Cert.KernelIdeal.main_arg8 ha.a8
  · keepF1 Cert.KernelIdeal.main_arg9 ha.a9
  · keepF1 Cert.KernelIdeal.main_arg10 ha.a10
  · keepF1 Cert.KernelIdeal.main_arg11 ha.a11
  · keepF1 Cert.KernelIdeal.main_arg12 ha.a12
  · -- the second layer's weights are one of region 6's input arrays: the region leaves an input array as entered
    refine ((Cert.KernelIdeal.Gen.W38_arr (F := Ideal) m ρ c 1).trans
      (((Cert.KernelIdeal.Gen.dat6 (F := Ideal) (Cert.KernelIdeal.Gen.V37 (F := Ideal) m ρ) c).arrAt_in 1 rfl _).trans
        (Cert.KernelIdeal.Gen.A_eq6 (F := Ideal) (Cert.KernelIdeal.Gen.V37 (F := Ideal) m ρ) c 1))).trans ?_
    chainF1
    exact ha.a13
  · keepF1 Cert.KernelIdeal.main_arg14 ha.a14
  · keepF1 Cert.KernelIdeal.main_arg15 ha.a15
  · keepF1 Cert.KernelIdeal.main_arg16 ha.a16
  · keepF1 Cert.KernelIdeal.main_arg17 ha.a17
  · keepF1 Cert.KernelIdeal.main_arg18 ha.a18
  · -- region 6 leaves the product of its first two arrays plus its third as a row
    have hout := (Cert.KernelIdeal.Gen.W38_arr (F := Ideal) m ρ c 3).trans
      (MMKb.out6 (Cert.KernelIdeal.Gen.V37 (F := Ideal) m ρ) c)
    exact hout.trans ((congr (congr (congrArg (mmb 128 256 256) (f1_x m ρ c Vr ha ht)) (f1_w m ρ c Vr ha))
      (f1_b m ρ c Vr ha)).trans (f1_ref Vr).symm)

end

end Cert.Bridge

end
-- ==== Proof.StageF2.lean ====
/-
  From the output of the head's second layer to the network's result.

  Both programs apply the same chain of array operations to the second layer's output `y` (128 rows of 256 numbers):
  the batch norm over the rows — the column means `μ = (∑ᵢ yᵢ) / 128`, the column variances
  `σ² = (∑ᵢ (yᵢ - μ)²) / 128` (returned as they are because the count `128 - 0` is positive), then
  `γ * (y - μ) * rsqrt (σ² + ε) + β` with the layer's scale `γ` and shift `β` broadcast over the rows; there is no
  maximum with zero before the last layer. Equal inputs give equal outputs, operation by operation. The last layer is
  `x @ W + b` with ten columns on both sides: the kernel program's dense-layer region leaves the product of its first
  two arrays plus its third as a row, that row being the bias vector laid out as `1 × 10`; the reference contracts
  `x`'s columns with `W`'s rows and adds the bias broadcast to every row. Both are `mmb 128 256 10 x W (row1 10 b)`.
-/
import proofs.«404594_j87462714015857_2_alg».proof.Proof.Gen.KernelIdeal.Frame
import proofs.«404594_j87462714015857_2_alg».proof.Proof.Inv
import proofs.«404594_j87462714015857_2_alg».proof.Proof.RefOps
import proofs.«404594_j87462714015857_2_alg».proof.Proof.MMKb
import proofs.«404594_j87462714015857_2_alg».proof.Proof.MMR
import Idealize.ShloMosaic.Lib.ValueLayout

set_option maxRecDepth 16384

noncomputable section

namespace Cert.Bridge

open Idealize.ShloMosaic Idealize.ShloMosaic.TcCoe Idealize.ShloMosaic.Tactic
open Idealize.SL Idealize.SL.Sem
open Idealize.ShloMosaic.ValueIdx

/-- A vector of `N` numbers reshaped to `1 × N` is the vector as one row: position `j` of the row and position
    `(0, j)` of the array are the same place in row-major order. -/
theorem reshape_row1_last (N : Nat) (b : FVec Ideal ⟨1, ![N]⟩ .f32) (h : (⟨1, ![N]⟩ : Shape).ShapeCasts ⟨2, ![1, N]⟩) :
    shapeCast ⟨2, ![1, N]⟩ b h = row1 N b := by
  funext j
  exact (congrArg (shapeCast ⟨2, ![1, N]⟩ b h) (eq_ix2 j)).trans (shapeCast_a_1a_apply b h (j 0) (j 1))

section

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD) (Vr : RV)

/-- Both sides' contents after their chains, read at one buffer each, as the chain's operations applied to the
    contents before them. -/
local macro "chainF2" : tactic => `(tactic| (
  simp only [Cert.KernelIdeal.Gen.W41, Cert.KernelIdeal.Gen.W40, Cert.KernelIdeal.Gen.W39,
    Cert.KernelIdeal.Gen.hostOps7, Cert.KernelIdeal.Gen.hostOps7_1, Cert.KernelIdeal.Gen.hostOps7_2,
    Cert.ReferenceIdeal.Hand.rF2]
  after_results_simp))

/-- The batch norm of the second layer's output: the same operations on equal operands. -/
theorem f2_x
    (ha : ArgsEq (Cert.KernelIdeal.Gen.W38 (F := Ideal) m ρ c) Vr)
    (ht : (Cert.KernelIdeal.Gen.W38 (F := Ideal) m ρ c (kr Cert.KernelIdeal.main_v235) : FVec Ideal Cert.KernelIdeal.S128x256 .f32)
        = Vr (rr Cert.ReferenceIdeal.main_v260)) :
    (Cert.KernelIdeal.Gen.W41 (F := Ideal) m ρ c (kr Cert.KernelIdeal.main_v254) : FVec Ideal ⟨2, ![128, 256]⟩ .f32)
      = StableHlo.after (Cert.ReferenceIdeal.Hand.rF2 (F := Ideal)) Vr (rr Cert.ReferenceIdeal.main_v279) := by
  chainF2
  rw [ht, ha.a15, ha.a16]

/-- The last layer's weights are an argument: untouched by either chain. -/
theorem f2_w (ha : ArgsEq (Cert.KernelIdeal.Gen.W38 (F := Ideal) m ρ c) Vr) :
    (Cert.KernelIdeal.Gen.W41 (F := Ideal) m ρ c (kr Cert.KernelIdeal.main_arg17) : FVec Ideal ⟨2, ![256, 10]⟩ .f32)
      = Vr (rr Cert.ReferenceIdeal.main_arg17) := by
  chainF2
  exact ha.a17

/-- The kernel program's bias row is the bias vector as one row. -/
theorem f2_b (ha : ArgsEq (Cert.KernelIdeal.Gen.W38 (F := Ideal) m ρ c) Vr) :
    (Cert.KernelIdeal.Gen.W41 (F := Ideal) m ρ c (kr Cert.KernelIdeal.main_v255) : FVec Ideal ⟨2, ![1, 10]⟩ .f32)
      = row1 10 (Vr (rr Cert.ReferenceIdeal.main_arg18)) := by
  chainF2
  rw [ha.a18]
  funext j
  exact congrFun (reshape_row1_last 10 (Vr (rr Cert.ReferenceIdeal.main_arg18)) _) j

/-- The reference's last layer is the product plus the bias row. -/
theorem f2_ref :
    (StableHlo.after (Cert.ReferenceIdeal.Hand.rF2 (F := Ideal)) Vr (rr Cert.ReferenceIdeal.main_v283) : FVec Ideal ⟨2, ![128, 10]⟩ .f32)
      = mmb 128 256 10 (StableHlo.after (Cert.ReferenceIdeal.Hand.rF2 (F := Ideal)) Vr (rr Cert.ReferenceIdeal.main_v279))
          (Vr (rr Cert.ReferenceIdeal.main_arg17)) (row1 10 (Vr (rr Cert.ReferenceIdeal.main_arg18))) := by
  simp only [Cert.ReferenceIdeal.Hand.rF2]
  after_results_simp
  exact MMR.dotO _ _ _

/-- From region 6's exit to region 7's exit against the reference's batch norm and last layer: the results agree. -/
theorem stageF2
    (ha : ArgsEq (Cert.KernelIdeal.Gen.W38 (F := Ideal) m ρ c) Vr)
    (ht : (Cert.KernelIdeal.Gen.W38 (F := Ideal) m ρ c (kr Cert.KernelIdeal.main_v235) : FVec Ideal Cert.KernelIdeal.S128x256 .f32)
        = Vr (rr Cert.ReferenceIdeal.main_v260)) :
    (Cert.KernelIdeal.Gen.W42 (F := Ideal) m ρ c (kr Cert.KernelIdeal.main_v256) : FVec Ideal Cert.KernelIdeal.S128x10 .f32)
      = StableHlo.after (Cert.ReferenceIdeal.Hand.rF2 (F := Ideal)) Vr (rr Cert.ReferenceIdeal.main_v283) := by
  -- region 7 leaves the product of its first two arrays plus its third as a row
  have hout := (Cert.KernelIdeal.Gen.W42_arr (F := Ideal) m ρ c 3).trans
    (MMKb.out7 (Cert.KernelIdeal.Gen.V41 (F := Ideal) m ρ) c)
  exact hout.trans ((congr (congr (congrArg (mmb 128 256 10) (f2_x m ρ c Vr ha ht)) (f2_w m ρ c Vr ha))
    (f2_b m ρ c Vr ha)).trans (f2_ref Vr).symm)

end

end Cert.Bridge

end
-- ==== Proof.Assemble.lean ====
/-
  The reference's frame and the equality of the two results, from their parts.

  Kernel program: its run with the result named ends with the result buffer at the last fold's contents. Reference:
  its run ends with every buffer at the fold of its 467 host operations over the launch contents, and no operation
  writes an argument. The bridge: starting from launch memories that agree on the nineteen arguments, the agreement
  of the arguments and of the graph quantities is carried from one dense layer's exit to the next — each dense layer
  is the same product-plus-bias on both sides, each stretch of glue the same operations on equal inputs — except at
  the row gather by source id, where the kernel program masks out-of-range ids and the reference does not: under the
  precondition's range conjunct the mask is all ones. So the two results are one array.
-/
import proofs.«404594_j87462714015857_2_alg».proof.Defs
import proofs.«404594_j87462714015857_2_alg».proof.Proof.Gen.KernelIdeal.Frame
import proofs.«404594_j87462714015857_2_alg».proof.Proof.Gen.ReferenceIdeal
import proofs.«404594_j87462714015857_2_alg».proof.Proof.Gen.Pre_finite_inputs
import proofs.«404594_j87462714015857_2_alg».proof.Proof.KRun
import proofs.«404594_j87462714015857_2_alg».proof.Proof.RefRun
import proofs.«404594_j87462714015857_2_alg».proof.Proof.RefArgs
import proofs.«404594_j87462714015857_2_alg».proof.Proof.PreSrc
import proofs.«404594_j87462714015857_2_alg».proof.Proof.StageA
import proofs.«404594_j87462714015857_2_alg».proof.Proof.StageL1
import proofs.«404594_j87462714015857_2_alg».proof.Proof.StageL2
import proofs.«404594_j87462714015857_2_alg».proof.Proof.StageL3
import proofs.«404594_j87462714015857_2_alg».proof.Proof.StageP
import proofs.«404594_j87462714015857_2_alg».proof.Proof.StageF1
import proofs.«404594_j87462714015857_2_alg».proof.Proof.StageF2

noncomputable section

namespace Cert.Bridge

open Idealize.ShloMosaic Idealize.SL.Sem

/-- From contents agreeing on the arguments, under the precondition: the kernel program's result buffer ends at what
    the reference's fold leaves in its result buffer. The agreement is carried through the seven stages. -/
theorem result_eq (m : (ℓ : Loc Cert.KernelIdeal.nD Cert.KernelIdeal.τ Cert.KernelIdeal.sig) → Buf (Elt Ideal) ℓ) (ρ : Dev Cert.KernelIdeal.nD → PrngReg) (Vr : RV)
    (c : Dev Cert.KernelIdeal.nD) (hpre : Cert.Pre_KernelIdeal m) (hag : ArgsEq (Cert.KernelIdeal.Gen.W0 (F := Ideal) m ρ c) Vr) :
    (Cert.KernelIdeal.Gen.W42 (F := Ideal) m ρ c (kr Cert.KernelIdeal.main_v256) : FVec Ideal Cert.KernelIdeal.S128x10 .f32)
      = StableHlo.after Cert.ReferenceIdeal.Hand.rops Vr (rr Cert.ReferenceIdeal.main_v283) := by
  rw [Cert.ReferenceIdeal.Hand.after_rops]
  obtain ⟨bA, tA⟩ := stageA m ρ c Vr hag (srcOk_W1 m ρ hpre c)
  obtain ⟨b1, t1⟩ := stageL1 m ρ c _ bA tA
  obtain ⟨b2, t2⟩ := stageL2 m ρ c _ b1 t1
  obtain ⟨b3, t3⟩ := stageL3 m ρ c _ b2 t2
  obtain ⟨aP, tP⟩ := stageP m ρ c _ b3 t3
  obtain ⟨aF, tF⟩ := stageF1 m ρ c _ aP tP
  exact stageF2 m ρ c _ aF tF

/-- The reference terminates without a fault and leaves its arguments as launched: its run, and no operation of it
    writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Hand.arg0_kept _),
     (h c Cert.ReferenceIdeal.main_arg1).trans (Cert.ReferenceIdeal.Hand.arg1_kept _),
     (h c Cert.ReferenceIdeal.main_arg2).trans (Cert.ReferenceIdeal.Hand.arg2_kept _),
     (h c Cert.ReferenceIdeal.main_arg3).trans (Cert.ReferenceIdeal.Hand.arg3_kept _),
     (h c Cert.ReferenceIdeal.main_arg4).trans (Cert.ReferenceIdeal.Hand.arg4_kept _),
     (h c Cert.ReferenceIdeal.main_arg5).trans (Cert.ReferenceIdeal.Hand.arg5_kept _),
     (h c Cert.ReferenceIdeal.main_arg6).trans (Cert.ReferenceIdeal.Hand.arg6_kept _),
     (h c Cert.ReferenceIdeal.main_arg7).trans (Cert.ReferenceIdeal.Hand.arg7_kept _),
     (h c Cert.ReferenceIdeal.main_arg8).trans (Cert.ReferenceIdeal.Hand.arg8_kept _),
     (h c Cert.ReferenceIdeal.main_arg9).trans (Cert.ReferenceIdeal.Hand.arg9_kept _),
     (h c Cert.ReferenceIdeal.main_arg10).trans (Cert.ReferenceIdeal.Hand.arg10_kept _),
     (h c Cert.ReferenceIdeal.main_arg11).trans (Cert.ReferenceIdeal.Hand.arg11_kept _),
     (h c Cert.ReferenceIdeal.main_arg12).trans (Cert.ReferenceIdeal.Hand.arg12_kept _),
     (h c Cert.ReferenceIdeal.main_arg13).trans (Cert.ReferenceIdeal.Hand.arg13_kept _),
     (h c Cert.ReferenceIdeal.main_arg14).trans (Cert.ReferenceIdeal.Hand.arg14_kept _),
     (h c Cert.ReferenceIdeal.main_arg15).trans (Cert.ReferenceIdeal.Hand.arg15_kept _),
     (h c Cert.ReferenceIdeal.main_arg16).trans (Cert.ReferenceIdeal.Hand.arg16_kept _),
     (h c Cert.ReferenceIdeal.main_arg17).trans (Cert.ReferenceIdeal.Hand.arg17_kept _),
     (h c Cert.ReferenceIdeal.main_arg18).trans (Cert.ReferenceIdeal.Hand.arg18_kept _)⟩)
    (Cert.ReferenceIdeal.Hand.run_main (F := Ideal) m ρ)

/-- Both idealized programs run, leave their arguments as launched, and end with one and the same result array. -/
theorem algebraic : Cert.algebraic_KernelIdeal_ReferenceIdeal := by
  intro m ρ m' ρ' hpre hag
  refine ⟨fun c => Cert.KernelIdeal.Gen.W42 (F := Ideal) m ρ c (Proc.devRef .tc Cert.KernelIdeal.main_v256), Cert.KernelIdeal.Hand.run_value (F := Ideal) m ρ, ?_⟩
  refine (θ_run Cert.ReferenceIdeal.defs _ _).mono (fun r h c => ?_) (Cert.ReferenceIdeal.Hand.run_main (F := Ideal) m' ρ')
  obtain ⟨e0, e1, e2, e3, e4, e5, e6, e7, e8, e9, e10, e11, e12, e13, e14, e15, e16, e17, e18⟩ := hag c
  refine ⟨(h c Cert.ReferenceIdeal.main_v283).trans (result_eq m ρ (StableHlo.launchContents m' c) c hpre
      ⟨e0.symm, e1.symm, e2.symm, e3.symm, e4.symm, e5.symm, e6.symm, e7.symm, e8.symm, e9.symm, e10.symm, e11.symm, e12.symm, e13.symm, e14.symm, e15.symm, e16.symm, e17.symm, e18.symm⟩).symm,
    (h c Cert.ReferenceIdeal.main_arg0).trans (Cert.ReferenceIdeal.Hand.arg0_kept _),
    (h c Cert.ReferenceIdeal.main_arg1).trans (Cert.ReferenceIdeal.Hand.arg1_kept _),
    (h c Cert.ReferenceIdeal.main_arg2).trans (Cert.ReferenceIdeal.Hand.arg2_kept _),
    (h c Cert.ReferenceIdeal.main_arg3).trans (Cert.ReferenceIdeal.Hand.arg3_kept _),
    (h c Cert.ReferenceIdeal.main_arg4).trans (Cert.ReferenceIdeal.Hand.arg4_kept _),
    (h c Cert.ReferenceIdeal.main_arg5).trans (Cert.ReferenceIdeal.Hand.arg5_kept _),
    (h c Cert.ReferenceIdeal.main_arg6).trans (Cert.ReferenceIdeal.Hand.arg6_kept _),
    (h c Cert.ReferenceIdeal.main_arg7).trans (Cert.ReferenceIdeal.Hand.arg7_kept _),
    (h c Cert.ReferenceIdeal.main_arg8).trans (Cert.ReferenceIdeal.Hand.arg8_kept _),
    (h c Cert.ReferenceIdeal.main_arg9).trans (Cert.ReferenceIdeal.Hand.arg9_kept _),
    (h c Cert.ReferenceIdeal.main_arg10).trans (Cert.ReferenceIdeal.Hand.arg10_kept _),
    (h c Cert.ReferenceIdeal.main_arg11).trans (Cert.ReferenceIdeal.Hand.arg11_kept _),
    (h c Cert.ReferenceIdeal.main_arg12).trans (Cert.ReferenceIdeal.Hand.arg12_kept _),
    (h c Cert.ReferenceIdeal.main_arg13).trans (Cert.ReferenceIdeal.Hand.arg13_kept _),
    (h c Cert.ReferenceIdeal.main_arg14).trans (Cert.ReferenceIdeal.Hand.arg14_kept _),
    (h c Cert.ReferenceIdeal.main_arg15).trans (Cert.ReferenceIdeal.Hand.arg15_kept _),
    (h c Cert.ReferenceIdeal.main_arg16).trans (Cert.ReferenceIdeal.Hand.arg16_kept _),
    (h c Cert.ReferenceIdeal.main_arg17).trans (Cert.ReferenceIdeal.Hand.arg17_kept _),
    (h c Cert.ReferenceIdeal.main_arg18).trans (Cert.ReferenceIdeal.Hand.arg18_kept _)⟩

end Cert.Bridge

end
-- ==== Proof.lean ====
/-
  Equivalence over the extended reals of a graph-convolution network whose eight dense layers are row-tiled matrix
  kernels (operands narrowed to bf16, products accumulated in f32, the bias row added in the kernel) and whose glue —
  degree normalisation, the gather of rows by source id, the scatter-add by destination id, batch normalisation,
  relu, the mean pool over graph ids — is ordinary array code, against the same network written with plain array
  operations.

  At the ideal instance a change of float format is the identity and every sum is exact, so a tiled product with
  the bias added in the kernel is the product plus the bias row (`Cert.Bridge.mmb`), and a zero bias row adds nothing
  (`x + 0 = x` on every extended real). The glue is the same operations on both sides, except that the kernel
  program's row gather masks ids outside `0 … 19999` (after wrapping negatives) with a not-a-number fill, where the
  reference's gather clamps: the precondition carries the evident-domain conjunct `-20000 ≤ edge_index[0] < 20000`,
  under which the mask is all ones and the two gathers agree. Finiteness of the float inputs is never used.

  The three frames: the kernel program's two are generated; the reference's is its run, no operation writing an
  argument. `preserves` is trivial: the idealization rewrote nothing.
-/
import proofs.«404594_j87462714015857_2_alg».proof.Defs
import proofs.«404594_j87462714015857_2_alg».proof.Proof.Gen.Kernel
import proofs.«404594_j87462714015857_2_alg».proof.Proof.Gen.Kernel.Frame
import proofs.«404594_j87462714015857_2_alg».proof.Proof.Gen.KernelIdeal
import proofs.«404594_j87462714015857_2_alg».proof.Proof.Gen.KernelIdeal.Frame
import proofs.«404594_j87462714015857_2_alg».proof.Proof.Gen.ReferenceIdeal
import proofs.«404594_j87462714015857_2_alg».proof.Proof.Gen.Pre_finite_inputs
import proofs.«404594_j87462714015857_2_alg».proof.Proof.Assemble
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

theorem claim : Cert.Claim := ⟨Cert.Kernel.Gen.facts, Cert.KernelIdeal.Gen.facts, Cert.ReferenceIdeal.Gen.facts, Cert.Pre_finite_inputs.Gen.facts,
  frame_k, frame_ki, Cert.Bridge.frame_ri, trivial, Cert.Bridge.algebraic⟩

end Cert.Proof

end
